-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S3x192x64 : Shape := ⟨3, ![3, 192, 64]⟩
abbrev S3x64 : Shape := ⟨2, ![3, 64]⟩
abbrev S3x128x64 : Shape := ⟨3, ![3, 128, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S3x192x64 : S_.BroadcastsInDim S3x192x64 (![] : Fin 0 → Fin S3x192x64.rank)
  reducesTo_S3x192x64_S_d0_1_2 : S3x192x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg2 : IVec S800000 32) (main_arg3 : IVec S800000 32) (main_v63 : IVec S_ 1) (main_v67 : IVec S_ 1) : IVec S_ 1 :=
  let main_v68 : IVec S_ 1 := andi main_v63 main_v67
  let main_c_26 : IVec S_ 32 := constantI S_ 32 0#32
  let main_v69 : IVec S800000 32 := broadcastInDim S800000 ![] bcast_S_S800000 main_c_26
  let main_v70 : IVec S800000 1 := cmpi .sge main_arg2 main_v69
  let main_c_27 : IVec S_ 1 := constantI S_ 1 1#1
  let main_v71 : IVec S_ 1 := (fun x v => Host.reduce IntOp.andi x v reducesTo_S800000_S_d0 h_S_) main_v70 main_c_27
  let main_v72 : IVec S_ 1 := andi main_v68 main_v71
  let main_c_28 : IVec S_ 32 := constantI S_ 32 50000#32
  let main_v73 : IVec S800000 32 := broadcastInDim S800000 ![] bcast_S_S800000 main_c_28
  let main_v74 : IVec S800000 1 := cmpi .slt main_arg2 main_v73
  let main_c_29 : IVec S_ 1 := constantI S_ 1 1#1
  let main_v75 : IVec S_ 1 := (fun x v => Host.reduce IntOp.andi x v reducesTo_S800000_S_d0 h_S_) main_v74 main_c_29
  let main_v76 : IVec S_ 1 := andi main_v72 main_v75
  let main_c_30 : IVec S_ 32 := constantI S_ 32 0#32
  let main_v77 : IVec S800000 32 := broadcastInDim S800000 ![] bcast_S_S800000 main_c_30
  let main_v78 : IVec S800000 1 := cmpi .sge main_arg3 main_v77
  let main_c_31 : IVec S_ 1 := constantI S_ 1 1#1
  let main_v79 : IVec S_ 1 := (fun x v => Host.reduce IntOp.andi x v reducesTo_S800000_S_d0 h_S_) main_v78 main_c_31
  let main_v80 : IVec S_ 1 := andi main_v76 main_v79
  let main_c_32 : IVec S_ 32 := constantI S_ 32 50000#32
  let main_v81 : IVec S800000 32 := broadcastInDim S800000 ![] bcast_S_S800000 main_c_32
  let main_v82 : IVec S800000 1 := cmpi .slt main_arg3 main_v81
  let main_c_33 : IVec S_ 1 := constantI S_ 1 1#1
  let main_v83 : IVec S_ 1 := (fun x v => Host.reduce IntOp.andi x v reducesTo_S800000_S_d0 h_S_) main_v82 main_c_33
  fn_part5 (F := F) main_v80 main_v83

def fn_part3 {F : FTy → Type} [FloatOps F] (main_arg2 : IVec S800000 32) (main_arg3 : IVec S800000 32) (main_arg13 : FVec F S64 .f32) (main_arg14 : FVec F S64x1 .f32) (main_arg15 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_arg3 main_v63 main_v67

def fn_part2 {F : FTy → Type} [FloatOps F] (main_arg2 : IVec S800000 32) (main_arg3 : IVec S800000 32) (main_arg9 : FVec F S64 .f32) (main_arg10 : FVec F S64x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg2 main_arg3 main_arg13 main_arg14 main_arg15 main_v48 main_v49 main_v50

def fn_part1 {F : FTy → Type} [FloatOps F] (main_arg2 : IVec S800000 32) (main_arg3 : IVec S800000 32) (main_arg6 : FVec F S3x128x64 .f32) (main_arg7 : FVec F S3x64 .f32) (main_arg8 : FVec F S64 .f32) (main_arg9 : FVec F S64 .f32) (main_arg10 : FVec F S64x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x128x64 .f32 := Host.absf main_arg6
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S50000x64 .f32) (main_arg1 : FVec F S800000x64 .f32) (main_arg2 : IVec S800000 32) (main_arg3 : IVec S800000 32) (main_arg4 : FVec F S3x192x64 .f32) (main_arg5 : FVec F S3x64 .f32) (main_arg6 : FVec F S3x128x64 .f32) (main_arg7 : FVec F S3x64 .f32) (main_arg8 : FVec F S64 .f32) (main_arg9 : FVec F S64 .f32) (main_arg10 : FVec F S64x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S3x192x64 .f32 := Host.absf main_arg4
  let main_cst_2 : FVec F S_ .f32 := constant S_ .f32 0x7F800000#32
  let main_v10 : FVec F S3x192x64 .f32 := broadcastInDim S3x192x64 ![] bcast_S_S3x192x64 main_cst_2
  let main_v11 : IVec S3x192x64 1 := cmpf .olt main_v9 main_v10
  let main_c_3 : IVec S_ 1 := constantI S_ 1 1#1
  let main_v12 : IVec S_ 1 := (fun x v => Host.reduce IntOp.andi x v reducesTo_S3x192x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S3x192x64 : Shape := ⟨3, ![3, 192, 64]⟩
abbrev S3x64 : Shape := ⟨2, ![3, 64]⟩
abbrev S3x128x64 : Shape := ⟨3, ![3, 128, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S1x128 : Shape := ⟨2, ![1, 128]⟩
abbrev S1x1 : Shape := ⟨2, ![1, 1]⟩
abbrev S1x64x64 : Shape := ⟨3, ![1, 64, 64]⟩
abbrev S64x64 : Shape := ⟨2, ![64, 64]⟩
abbrev S4000x64 : Shape := ⟨2, ![4000, 64]⟩
abbrev S5000x64 : Shape := ⟨2, ![5000, 64]⟩
abbrev S5000x1 : Shape := ⟨2, ![5000, 1]⟩
abbrev S5000 : Shape := ⟨1, ![5000]⟩
abbrev S5000x128 : Shape := ⟨2, ![5000, 128]⟩

abbrev nBuf : Space → Nat
  | .hbm => 242
  | .vmem => 75
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S3x192x64, .f32⟩
  | 5 => ⟨S3x64, .f32⟩
  | 6 => ⟨S3x128x64, .f32⟩
  | 7 => ⟨S3x64, .f32⟩
  | 8 => ⟨S64, .f32⟩
  | 9 => ⟨S64, .f32⟩
  | 10 => ⟨S64x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S1x64, .f32⟩
  | 27 => ⟨S1x64, .f32⟩
  | 28 => ⟨S1x128, .f32⟩
  | 29 => ⟨S1x64, .f32⟩
  | 30 => ⟨S1x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S1, .i32⟩
  | 40 => ⟨S_, .i32⟩
  | 41 => ⟨S800000x1, .i32⟩
  | 42 => ⟨S800000x1, .i1⟩
  | 43 => ⟨S1x1, .i32⟩
  | 44 => ⟨S800000x1, .i32⟩
  | 45 => ⟨S800000x1, .i1⟩
  | 46 => ⟨S800000x1, .i1⟩
  | 47 => ⟨S_, .i1⟩
  | 48 => ⟨S800000, .i1⟩
  | 49 => ⟨S800000x64, .f32⟩
  | 50 => ⟨S800000x64, .i1⟩
  | 51 => ⟨S_, .f32⟩
  | 52 => ⟨S800000x64, .f32⟩
  | 53 => ⟨S800000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x64, .f32⟩
  | 73 => ⟨S800000x64, .i1⟩
  | 74 => ⟨S_, .f32⟩
  | 75 => ⟨S800000x64, .f32⟩
  | 76 => ⟨S800000x64, .f32⟩
  | 77 => ⟨S1x64x64, .f32⟩
  | 78 => ⟨S64x64, .f32⟩
  | 79 => ⟨S1x64x64, .f32⟩
  | 80 => ⟨S64x64, .f32⟩
  | 81 => ⟨S1x64x64, .f32⟩
  | 82 => ⟨S64x64, .f32⟩
  | 83 => ⟨S1x64, .f32⟩
  | 84 => ⟨S64, .f32⟩
  | 85 => ⟨S1x64, .f32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S50000x64, .f32⟩
  | 92 => ⟨S50000x64, .f32⟩
  | 93 => ⟨S1x64x64, .f32⟩
  | 94 => ⟨S64x64, .f32⟩
  | 95 => ⟨S1x64x64, .f32⟩
  | 96 => ⟨S64x64, .f32⟩
  | 97 => ⟨S1x64, .f32⟩
  | 98 => ⟨S64, .f32⟩
  | 99 => ⟨S1x64, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S1, .i32⟩
  | 110 => ⟨S_, .i32⟩
  | 111 => ⟨S800000x1, .i32⟩
  | 112 => ⟨S800000x1, .i1⟩
  | 113 => ⟨S1x1, .i32⟩
  | 114 => ⟨S800000x1, .i32⟩
  | 115 => ⟨S800000x1, .i1⟩
  | 116 => ⟨S800000x1, .i1⟩
  | 117 => ⟨S_, .i1⟩
  | 118 => ⟨S800000, .i1⟩
  | 119 => ⟨S800000x64, .f32⟩
  | 120 => ⟨S800000x64, .i1⟩
  | 121 => ⟨S_, .f32⟩
  | 122 => ⟨S800000x64, .f32⟩
  | 123 => ⟨S800000x64, .f32⟩
  | 124 => ⟨S_, .i32⟩
  | 125 => ⟨S800000, .i32⟩
  | 126 => ⟨S800000, .i1⟩
  | 127 => ⟨S_, .i32⟩
  | _ => ⟨S50000x64, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S1, .i32⟩
  | 5 => ⟨S_, .i32⟩
  | 6 => ⟨S800000x1, .i32⟩
  | 7 => ⟨S800000x1, .i1⟩
  | 8 => ⟨S1x1, .i32⟩
  | 9 => ⟨S800000x1, .i32⟩
  | 10 => ⟨S800000x1, .i1⟩
  | 11 => ⟨S800000x1, .i1⟩
  | 12 => ⟨S_, .i1⟩
  | 13 => ⟨S800000, .i1⟩
  | 14 => ⟨S800000x64, .f32⟩
  | 15 => ⟨S800000x64, .i1⟩
  | 16 => ⟨S_, .f32⟩
  | 17 => ⟨S800000x64, .f32⟩
  | 18 => ⟨S800000x64, .f32⟩
  | 19 => ⟨S1x64x64, .f32⟩
  | 20 => ⟨S64x64, .f32⟩
  | 21 => ⟨S1x64x64, .f32⟩
  | 22 => ⟨S64x64, .f32⟩
  | 23 => ⟨S1x64x64, .f32⟩
  | 24 => ⟨S64x64, .f32⟩
  | 25 => ⟨S1x64, .f32⟩
  | 26 => ⟨S64, .f32⟩
  | 27 => ⟨S1x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000x64, .f32⟩
  | 34 => ⟨S50000x64, .f32⟩
  | 35 => ⟨S1x64x64, .f32⟩
  | 36 => ⟨S64x64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S50000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x64, .f32⟩
  | 62 => ⟨S800000x64, .i1⟩
  | 63 => ⟨S_, .f32⟩
  | 64 => ⟨S800000x64, .f32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x64, .f32⟩
  | 85 => ⟨S800000x64, .i1⟩
  | 86 => ⟨S_, .f32⟩
  | 87 => ⟨S800000x64, .f32⟩
  | 88 => ⟨S800000x64, .f32⟩
  | 89 => ⟨S1x64x64, .f32⟩
  | 90 => ⟨S64x64, .f32⟩
  | 91 => ⟨S1x64x64, .f32⟩
  | 92 => ⟨S64x64, .f32⟩
  | 93 => ⟨S1x64x64, .f32⟩
  | 94 => ⟨S64x64, .f32⟩
  | 95 => ⟨S1x64, .f32⟩
  | 96 => ⟨S64, .f32⟩
  | 97 => ⟨S1x64, .f32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S50000x64, .f32⟩
  | 104 => ⟨S50000x64, .f32⟩
  | 105 => ⟨S1x64x64, .f32⟩
  | 106 => ⟨S64x64, .f32⟩
  | 107 => ⟨S1x64x64, .f32⟩
  | 108 => ⟨S64x64, .f32⟩
  | 109 => ⟨S1x64, .f32⟩
  | 110 => ⟨S64, .f32⟩
  | 111 => ⟨S1x64, .f32⟩
  | 112 => ⟨S50000x64, .f32⟩
  | 113 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S64x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S4000x64, .f32⟩
  | .local _ .vmem, ⟨32, _⟩ => ⟨S4000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x64, .f32⟩
  | .local _ .vmem, ⟨47, _⟩ => ⟨S4000x64, .f32⟩
  | .local _ .vmem, ⟨48, _⟩ => ⟨S64x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S4000x64, .f32⟩
  | .local _ .vmem, ⟨53, _⟩ => ⟨S4000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S64x64, .f32⟩
  | .local _ .vmem, ⟨60, _⟩ => ⟨S1x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S1x64, .f32⟩
  | .local _ .vmem, ⟨66, _⟩ => ⟨S1x64, .f32⟩
  | .local _ .vmem, ⟨67, _⟩ => ⟨S64x128, .f32⟩
  | .local _ .vmem, ⟨68, _⟩ => ⟨S1x128, .f32⟩
  | .local _ .vmem, ⟨69, _⟩ => ⟨S128x64, .f32⟩
  | .local _ .vmem, ⟨70, _⟩ => ⟨S1x64, .f32⟩
  | .local _ .vmem, ⟨71, _⟩ => ⟨S64x1, .f32⟩
  | .local _ .vmem, ⟨72, _⟩ => ⟨S1x1, .f32⟩
  | .local _ .vmem, ⟨73, _⟩ => ⟨S5000x1, .f32⟩
  | .local _ .vmem, ⟨74, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v12 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst_2 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v37 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_cst_3 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_call4_c : Ref sig .tc := ⟨.hbm, 171, rfl⟩
abbrev main_call4_v0 : Ref sig .tc := ⟨.hbm, 172, rfl⟩
abbrev main_call4_v1 : Ref sig .tc := ⟨.hbm, 173, rfl⟩
abbrev main_call4_c_0 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_v5 : Ref sig .tc := ⟨.hbm, 178, rfl⟩
abbrev main_call4_c_1 : Ref sig .tc := ⟨.hbm, 179, rfl⟩
abbrev main_call4_c_2 : Ref sig .tc := ⟨.hbm, 180, rfl⟩
abbrev main_call4_v6 : Ref sig .tc := ⟨.hbm, 181, rfl⟩
abbrev main_call4_v7 : Ref sig .tc := ⟨.hbm, 182, rfl⟩
abbrev main_call4_v8 : Ref sig .tc := ⟨.hbm, 183, rfl⟩
abbrev main_call4_v9 : Ref sig .tc := ⟨.hbm, 184, rfl⟩
abbrev main_call4_v10 : Ref sig .tc := ⟨.hbm, 185, rfl⟩
abbrev main_call4_v11 : Ref sig .tc := ⟨.hbm, 186, rfl⟩
abbrev main_call4_c_3 : Ref sig .tc := ⟨.hbm, 187, rfl⟩
abbrev main_call4_v12 : Ref sig .tc := ⟨.hbm, 188, rfl⟩
abbrev main_call4_v13 : Ref sig .tc := ⟨.hbm, 189, rfl⟩
abbrev main_call4_v14 : Ref sig .tc := ⟨.hbm, 190, rfl⟩
abbrev main_call4_cst : Ref sig .tc := ⟨.hbm, 191, rfl⟩
abbrev main_call4_v15 : Ref sig .tc := ⟨.hbm, 192, rfl⟩
abbrev main_v62 : Ref sig .tc := ⟨.hbm, 193, rfl⟩
abbrev main_call5_c : Ref sig .tc := ⟨.hbm, 194, rfl⟩
abbrev main_call5_v0 : Ref sig .tc := ⟨.hbm, 195, rfl⟩
abbrev main_call5_v1 : Ref sig .tc := ⟨.hbm, 196, rfl⟩
abbrev main_call5_c_0 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_c_1 : Ref sig .tc := ⟨.hbm, 202, rfl⟩
abbrev main_call5_c_2 : Ref sig .tc := ⟨.hbm, 203, rfl⟩
abbrev main_call5_v6 : Ref sig .tc := ⟨.hbm, 204, rfl⟩
abbrev main_call5_v7 : Ref sig .tc := ⟨.hbm, 205, rfl⟩
abbrev main_call5_v8 : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_c_3 : Ref sig .tc := ⟨.hbm, 210, rfl⟩
abbrev main_call5_v12 : Ref sig .tc := ⟨.hbm, 211, rfl⟩
abbrev main_call5_v13 : Ref sig .tc := ⟨.hbm, 212, rfl⟩
abbrev main_call5_v14 : Ref sig .tc := ⟨.hbm, 213, rfl⟩
abbrev main_call5_cst : Ref sig .tc := ⟨.hbm, 214, rfl⟩
abbrev main_call5_v15 : Ref sig .tc := ⟨.hbm, 215, rfl⟩
abbrev main_v63 : Ref sig .tc := ⟨.hbm, 216, rfl⟩
abbrev main_v64 : Ref sig .tc := ⟨.hbm, 217, rfl⟩
abbrev main_v65 : Ref sig .tc := ⟨.hbm, 218, rfl⟩
abbrev main_v66 : Ref sig .tc := ⟨.hbm, 219, rfl⟩
abbrev main_v67 : Ref sig .tc := ⟨.hbm, 220, rfl⟩
abbrev main_v68 : Ref sig .tc := ⟨.hbm, 221, rfl⟩
abbrev main_v69 : Ref sig .tc := ⟨.hbm, 222, rfl⟩
abbrev main_v70 : Ref sig .tc := ⟨.hbm, 223, rfl⟩
abbrev main_v71 : Ref sig .tc := ⟨.hbm, 224, rfl⟩
abbrev main_v72 : Ref sig .tc := ⟨.hbm, 225, rfl⟩
abbrev main_v73 : Ref sig .tc := ⟨.hbm, 226, rfl⟩
abbrev main_cst_4 : Ref sig .tc := ⟨.hbm, 227, rfl⟩
abbrev main_v74 : Ref sig .tc := ⟨.hbm, 228, rfl⟩
abbrev main_v75 : Ref sig .tc := ⟨.hbm, 229, rfl⟩
abbrev main_v76 : Ref sig .tc := ⟨.hbm, 230, rfl⟩
abbrev main_v77 : Ref sig .tc := ⟨.hbm, 231, rfl⟩
abbrev main_v78 : Ref sig .tc := ⟨.hbm, 232, rfl⟩
abbrev main_v79 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩
abbrev main_v83 : Ref sig .tc := ⟨.hbm, 237, rfl⟩
abbrev main_v84 : Ref sig .tc := ⟨.hbm, 238, rfl⟩
abbrev main_v85 : Ref sig .tc := ⟨.hbm, 239, rfl⟩
abbrev main_v86 : Ref sig .tc := ⟨.hbm, 240, rfl⟩
abbrev main_v87 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg7_0 : Ref sig .tc := ⟨.vmem, 71, rfl⟩
abbrev cc6_stg8_0 : Ref sig .tc := ⟨.vmem, 72, rfl⟩
abbrev cc6_stg9_0 : Ref sig .tc := ⟨.vmem, 73, rfl⟩
abbrev cc6_stg9_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc6_sem0_0 : DmaSem sig := 63
abbrev cc6_sem0_1 : DmaSem sig := 64
abbrev cc6_sem1_0 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem7_0 : DmaSem sig := 71
abbrev cc6_sem8_0 : DmaSem sig := 72
abbrev cc6_sem9_0 : DmaSem sig := 73
abbrev cc6_sem9_1 : DmaSem sig := 74

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S5000x1 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  shapeCasts_S128_S1x128 : S128.ShapeCasts S1x128
  shapeCasts_S1_S1x1 : S1.ShapeCasts S1x1
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S3x192x64_S1x64x64_0_0_0 : S3x192x64.Slices ![0, 0, 0] S1x64x64
  shapeCasts_S1x64x64_S64x64 : S1x64x64.ShapeCasts S64x64
  slices_S3x192x64_S1x64x64_0_64_0 : S3x192x64.Slices ![0, 64, 0] S1x64x64
  slices_S3x192x64_S1x64x64_0_128_0 : S3x192x64.Slices ![0, 128, 0] S1x64x64
  slices_S3x64_S1x64_0_0 : S3x64.Slices ![0, 0] S1x64
  shapeCasts_S1x64_S64 : S1x64.ShapeCasts S64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x128x64_S1x64x64_0_0_0 : S3x128x64.Slices ![0, 0, 0] S1x64x64
  slices_S3x128x64_S1x64x64_0_64_0 : S3x128x64.Slices ![0, 64, 0] S1x64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  slices_S3x192x64_S1x64x64_1_0_0 : S3x192x64.Slices ![1, 0, 0] S1x64x64
  slices_S3x192x64_S1x64x64_1_64_0 : S3x192x64.Slices ![1, 64, 0] S1x64x64
  slices_S3x192x64_S1x64x64_1_128_0 : S3x192x64.Slices ![1, 128, 0] S1x64x64
  slices_S3x64_S1x64_1_0 : S3x64.Slices ![1, 0] S1x64
  slices_S3x128x64_S1x64x64_1_0_0 : S3x128x64.Slices ![1, 0, 0] S1x64x64
  slices_S3x128x64_S1x64x64_1_64_0 : S3x128x64.Slices ![1, 64, 0] S1x64x64
  slices_S3x192x64_S1x64x64_2_0_0 : S3x192x64.Slices ![2, 0, 0] S1x64x64
  slices_S3x192x64_S1x64x64_2_64_0 : S3x192x64.Slices ![2, 64, 0] S1x64x64
  slices_S3x192x64_S1x64x64_2_128_0 : S3x192x64.Slices ![2, 128, 0] S1x64x64
  slices_S3x64_S1x64_2_0 : S3x64.Slices ![2, 0] S1x64
  slices_S3x128x64_S1x64x64_2_0_0 : S3x128x64.Slices ![2, 0, 0] S1x64x64
  slices_S3x128x64_S1x64x64_2_64_0 : S3x128x64.Slices ![2, 64, 0] S1x64x64
  reduces_S5000x64_S5000 : S5000x64.Reduces [1] S5000
  shapeCasts_S5000_S5000x1 : S5000.ShapeCasts S5000x1
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S800000x64.size a
  hwx0_7 : ∀ i : grid0.Coords, EltTy.bits .f32 = 32 ∨ (Rect.block (s := S800000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S800000x64.size a
  hwx2_2 : ∀ i : grid2.Coords, EltTy.bits .f32 = 32 ∨ (Rect.block (s := S800000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S800000x64.size a
  hwx2_7 : ∀ i : grid2.Coords, EltTy.bits .f32 = 32 ∨ (Rect.block (s := S800000x64) S4000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S800000x64.size a
  hwx4_0 : ∀ i : grid4.Coords, EltTy.bits .f32 = 32 ∨ (Rect.block (s := S800000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S800000x64.size a
  hwx4_1 : ∀ i : grid4.Coords, EltTy.bits .f32 = 32 ∨ (Rect.block (s := S800000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S800000x64.size a
  hwx4_2 : ∀ i : grid4.Coords, EltTy.bits .f32 = 32 ∨ (Rect.block (s := S800000x64) S4000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x64.size a ≤ S800000x64.size a
  hwx4_7 : ∀ i : grid4.Coords, EltTy.bits .f32 = 32 ∨ (Rect.block (s := S800000x64) S4000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x128.size a ≤ S64x128.size a
  hwx6_3 : ∀ i : grid6.Coords, EltTy.bits .f32 = 32 ∨ (Rect.block (s := S64x128) S64x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x1.size a ≤ S64x1.size a
  hwx6_7 : ∀ i : grid6.Coords, EltTy.bits .f32 = 32 ∨ (Rect.block (s := S64x1) S64x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1.size a ≤ S1x1.size a
  hwx6_8 : ∀ i : grid6.Coords, EltTy.bits .f32 = 32 ∨ (Rect.block (s := S1x1) S1x1.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S5000x1.size a ≤ S50000x1.size a
  hwx6_9 : ∀ i : grid6.Coords, EltTy.bits .f32 = 32 ∨ (Rect.block (s := S50000x1) S5000x1.size (cc6_transform_9 i) (hinb6_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S4000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v36) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v48) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73) S4000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v61) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v86) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v8) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S64x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v9) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg12) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v10) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg14) S64x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v11) S1x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v87) S5000x1.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S3x192x64 : Shape := ⟨3, ![3, 192, 64]⟩
abbrev S3x64 : Shape := ⟨2, ![3, 64]⟩
abbrev S3x128x64 : Shape := ⟨3, ![3, 128, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x192 : Shape := ⟨2, ![800000, 192]⟩
abbrev S1x192x64 : Shape := ⟨3, ![1, 192, 64]⟩
abbrev S192x64 : Shape := ⟨2, ![192, 64]⟩
abbrev S1x64 : Shape := ⟨2, ![1, 64]⟩
abbrev S50000x128 : Shape := ⟨2, ![50000, 128]⟩
abbrev S1x128x64 : Shape := ⟨3, ![1, 128, 64]⟩
abbrev S1x128 : Shape := ⟨2, ![1, 128]⟩
abbrev S1x1 : Shape := ⟨2, ![1, 1]⟩

abbrev nBuf : Space → Nat
  | .hbm => 214
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S3x192x64, .f32⟩
  | 5 => ⟨S3x64, .f32⟩
  | 6 => ⟨S3x128x64, .f32⟩
  | 7 => ⟨S3x64, .f32⟩
  | 8 => ⟨S64, .f32⟩
  | 9 => ⟨S64, .f32⟩
  | 10 => ⟨S64x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S800000x192, .f32⟩
  | 45 => ⟨S1x192x64, .f32⟩
  | 46 => ⟨S192x64, .f32⟩
  | 47 => ⟨S800000x64, .f32⟩
  | 48 => ⟨S1x64, .f32⟩
  | 49 => ⟨S64, .f32⟩
  | 50 => ⟨S1x64, .f32⟩
  | 51 => ⟨S800000x64, .f32⟩
  | 52 => ⟨S800000x64, .f32⟩
  | 53 => ⟨S_, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x64, .f32⟩
  | 61 => ⟨S50000x64, .f32⟩
  | 62 => ⟨S50000x128, .f32⟩
  | 63 => ⟨S1x128x64, .f32⟩
  | 64 => ⟨S128x64, .f32⟩
  | 65 => ⟨S50000x64, .f32⟩
  | 66 => ⟨S1x64, .f32⟩
  | 67 => ⟨S64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x192, .f32⟩
  | 93 => ⟨S1x192x64, .f32⟩
  | 94 => ⟨S192x64, .f32⟩
  | 95 => ⟨S800000x64, .f32⟩
  | 96 => ⟨S1x64, .f32⟩
  | 97 => ⟨S64, .f32⟩
  | 98 => ⟨S1x64, .f32⟩
  | 99 => ⟨S800000x64, .f32⟩
  | 100 => ⟨S800000x64, .f32⟩
  | 101 => ⟨S_, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000x64, .f32⟩
  | 109 => ⟨S50000x64, .f32⟩
  | 110 => ⟨S50000x128, .f32⟩
  | 111 => ⟨S1x128x64, .f32⟩
  | 112 => ⟨S128x64, .f32⟩
  | 113 => ⟨S50000x64, .f32⟩
  | 114 => ⟨S1x64, .f32⟩
  | 115 => ⟨S64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S800000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S800000x192, .f32⟩
  | 13 => ⟨S1x192x64, .f32⟩
  | 14 => ⟨S192x64, .f32⟩
  | 15 => ⟨S800000x64, .f32⟩
  | 16 => ⟨S1x64, .f32⟩
  | 17 => ⟨S64, .f32⟩
  | 18 => ⟨S1x64, .f32⟩
  | 19 => ⟨S800000x64, .f32⟩
  | 20 => ⟨S800000x64, .f32⟩
  | 21 => ⟨S_, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000x64, .f32⟩
  | 29 => ⟨S50000x64, .f32⟩
  | 30 => ⟨S50000x128, .f32⟩
  | 31 => ⟨S1x128x64, .f32⟩
  | 32 => ⟨S128x64, .f32⟩
  | 33 => ⟨S50000x64, .f32⟩
  | 34 => ⟨S1x64, .f32⟩
  | 35 => ⟨S64, .f32⟩
  | 36 => ⟨S1x64, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x64, .f32⟩
  | 49 => ⟨S50000x64, .f32⟩
  | 50 => ⟨S50000x64, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x64, .f32⟩
  | 58 => ⟨S50000x64, .f32⟩
  | 59 => ⟨S_, .f32⟩
  | 60 => ⟨S50000x1, .f32⟩
  | 61 => ⟨S50000x1, .f32⟩
  | 62 => ⟨S50000x1, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x64, .f32⟩
  | 79 => ⟨S1x64, .f32⟩
  | 80 => ⟨S50000x64, .f32⟩
  | 81 => ⟨S50000x64, .f32⟩
  | 82 => ⟨S50000x1, .f32⟩
  | 83 => ⟨S1x1, .f32⟩
  | 84 => ⟨S50000x1, .f32⟩
  | 85 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call0_cst : Ref sig .tc := ⟨.hbm, 53, rfl⟩
abbrev main_call0_v0 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call1_cst : Ref sig .tc := ⟨.hbm, 71, rfl⟩
abbrev main_call1_v0 : Ref sig .tc := ⟨.hbm, 72, rfl⟩
abbrev main_v45 : Ref sig .tc := ⟨.hbm, 73, rfl⟩
abbrev main_c_6 : Ref sig .tc := ⟨.hbm, 74, rfl⟩
abbrev main_v46 : Ref sig .tc := ⟨.hbm, 75, rfl⟩
abbrev main_v47 : Ref sig .tc := ⟨.hbm, 76, rfl⟩
abbrev main_c_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_8 : Ref sig .tc := ⟨.hbm, 83, rfl⟩
abbrev main_v53 : Ref sig .tc := ⟨.hbm, 84, rfl⟩
abbrev main_v54 : Ref sig .tc := ⟨.hbm, 85, rfl⟩
abbrev main_c_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call2_cst : Ref sig .tc := ⟨.hbm, 101, rfl⟩
abbrev main_call2_v0 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call3_cst : Ref sig .tc := ⟨.hbm, 119, rfl⟩
abbrev main_call3_v0 : Ref sig .tc := ⟨.hbm, 120, rfl⟩
abbrev main_v84 : Ref sig .tc := ⟨.hbm, 121, rfl⟩
abbrev main_c_11 : Ref sig .tc := ⟨.hbm, 122, rfl⟩
abbrev main_v85 : Ref sig .tc := ⟨.hbm, 123, rfl⟩
abbrev main_v86 : Ref sig .tc := ⟨.hbm, 124, rfl⟩
abbrev main_c_12 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_13 : Ref sig .tc := ⟨.hbm, 131, rfl⟩
abbrev main_v92 : Ref sig .tc := ⟨.hbm, 132, rfl⟩
abbrev main_v93 : Ref sig .tc := ⟨.hbm, 133, rfl⟩
abbrev main_c_14 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call4_cst : Ref sig .tc := ⟨.hbm, 149, rfl⟩
abbrev main_call4_v0 : Ref sig .tc := ⟨.hbm, 150, rfl⟩
abbrev main_v108 : Ref sig .tc := ⟨.hbm, 151, rfl⟩
abbrev main_cst_15 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_call5_cst : Ref sig .tc := ⟨.hbm, 167, rfl⟩
abbrev main_call5_v0 : Ref sig .tc := ⟨.hbm, 168, rfl⟩
abbrev main_v123 : Ref sig .tc := ⟨.hbm, 169, rfl⟩
abbrev main_cst_16 : Ref sig .tc := ⟨.hbm, 170, rfl⟩
abbrev main_v124 : Ref sig .tc := ⟨.hbm, 171, rfl⟩
abbrev main_v125 : Ref sig .tc := ⟨.hbm, 172, rfl⟩
abbrev main_cst_17 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_18 : Ref sig .tc := ⟨.hbm, 179, rfl⟩
abbrev main_v131 : Ref sig .tc := ⟨.hbm, 180, rfl⟩
abbrev main_v132 : Ref sig .tc := ⟨.hbm, 181, rfl⟩
abbrev main_cst_19 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_20 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_call6_cst : Ref sig .tc := ⟨.hbm, 203, rfl⟩
abbrev main_call6_v0 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S800000x64_S800000x64_S800000x64_S800000x192_d1 : Shape.Concatenates [S800000x64, S800000x64, S800000x64] S800000x192 1
  slices_S3x192x64_S1x192x64_0_0_0 : S3x192x64.Slices ![0, 0, 0] S1x192x64
  shapeCasts_S1x192x64_S192x64 : S1x192x64.ShapeCasts S192x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  slices_S3x128x64_S1x128x64_0_0_0 : S3x128x64.Slices ![0, 0, 0] S1x128x64
  shapeCasts_S1x128x64_S128x64 : S1x128x64.ShapeCasts S128x64
  bcast_S1x64_S50000x64_0_1 : S1x64.BroadcastsInDim S50000x64 (![0, 1] : Fin 2 → Fin S50000x64.rank)
  slices_S3x192x64_S1x192x64_1_0_0 : S3x192x64.Slices ![1, 0, 0] S1x192x64
  slices_S3x64_S1x64_1_0 : S3x64.Slices ![1, 0] S1x64
  slices_S3x128x64_S1x128x64_1_0_0 : S3x128x64.Slices ![1, 0, 0] S1x128x64
  slices_S3x192x64_S1x192x64_2_0_0 : S3x192x64.Slices ![2, 0, 0] S1x192x64
  slices_S3x64_S1x64_2_0 : S3x64.Slices ![2, 0] S1x64
  slices_S3x128x64_S1x128x64_2_0_0 : S3x128x64.Slices ![2, 0, 0] S1x128x64
  reducesTo_S50000x64_S50000_d1 : S50000x64.ReducesTo [1] S50000
  h_S_ : 0 < S_.numel
  bcast_S_S50000x1 : S_.BroadcastsInDim S50000x1 (![] : Fin 0 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x128_S50000x128_1_0_0_1_n_n_wf : DotDims.WF S50000x64 S64x128 S50000x128 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelKeep.lean ====
import proofs.«426185_j11338713661556_1_alg».proof.Proof.Gen.KernelIdeal.Frame

set_option maxRecDepth 16384

noncomputable section

namespace Cert.Hand.Keep

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer none of them writes as it was. -/
macro "host_keep " ops:ident : tactic => `(tactic| exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## `main_arg0` -/
theorem s2_main_arg0 (c : Dev nD) : W2 m ρ c (Proc.devRef .tc main_arg0) = W1 m ρ c (Proc.devRef .tc main_arg0) := by
  host_keep hostOps0_1
theorem k2_main_arg0 (c : Dev nD) : W2 m ρ c (Proc.devRef .tc main_arg0) = W1 m ρ c (Proc.devRef .tc main_arg0) := s2_main_arg0 m ρ c
theorem s3_main_arg0 (c : Dev nD) : W3 m ρ c (Proc.devRef .tc main_arg0) = W2 m ρ c (Proc.devRef .tc main_arg0) := by
  host_keep hostOps0_2
theorem k3_main_arg0 (c : Dev nD) : W3 m ρ c (Proc.devRef .tc main_arg0) = W1 m ρ c (Proc.devRef .tc main_arg0) := (s3_main_arg0 m ρ c).trans (k2_main_arg0 m ρ c)
theorem s4_main_arg0 (c : Dev nD) : W4 m ρ c (Proc.devRef .tc main_arg0) = W3 m ρ c (Proc.devRef .tc main_arg0) := by
  host_keep hostOps0_3
theorem k4_main_arg0 (c : Dev nD) : W4 m ρ c (Proc.devRef .tc main_arg0) = W1 m ρ c (Proc.devRef .tc main_arg0) := (s4_main_arg0 m ρ c).trans (k3_main_arg0 m ρ c)
theorem s5_main_arg0 (c : Dev nD) : W5 m ρ c (Proc.devRef .tc main_arg0) = W4 m ρ c (Proc.devRef .tc main_arg0) := W5_of_ne m ρ c main_arg0 (by decide)
theorem k5_main_arg0 (c : Dev nD) : W5 m ρ c (Proc.devRef .tc main_arg0) = W1 m ρ c (Proc.devRef .tc main_arg0) := (s5_main_arg0 m ρ c).trans (k4_main_arg0 m ρ c)
theorem s6_main_arg0 (c : Dev nD) : W6 m ρ c (Proc.devRef .tc main_arg0) = W5 m ρ c (Proc.devRef .tc main_arg0) := by
  host_keep hostOps1
theorem k6_main_arg0 (c : Dev nD) : W6 m ρ c (Proc.devRef .tc main_arg0) = W1 m ρ c (Proc.devRef .tc main_arg0) := (s6_main_arg0 m ρ c).trans (k5_main_arg0 m ρ c)
theorem s7_main_arg0 (c : Dev nD) : W7 m ρ c (Proc.devRef .tc main_arg0) = W6 m ρ c (Proc.devRef .tc main_arg0) :=
  (W7_arr m ρ c 0).trans (((dat1 (V6 m ρ) c).arrAt_in 0 rfl _).trans (A_eq1 (V6 m ρ) c 0))
theorem k7_main_arg0 (c : Dev nD) : W7 m ρ c (Proc.devRef .tc main_arg0) = W1 m ρ c (Proc.devRef .tc main_arg0) := (s7_main_arg0 m ρ c).trans (k6_main_arg0 m ρ c)
theorem s8_main_arg0 (c : Dev nD) : W8 m ρ c (Proc.devRef .tc main_arg0) = W7 m ρ c (Proc.devRef .tc main_arg0) := by
  host_keep hostOps2
theorem k8_main_arg0 (c : Dev nD) : W8 m ρ c (Proc.devRef .tc main_arg0) = W1 m ρ c (Proc.devRef .tc main_arg0) := (s8_main_arg0 m ρ c).trans (k7_main_arg0 m ρ c)
theorem s9_main_arg0 (c : Dev nD) : W9 m ρ c (Proc.devRef .tc main_arg0) = W8 m ρ c (Proc.devRef .tc main_arg0) := by
  host_keep hostOps2_1
theorem k9_main_arg0 (c : Dev nD) : W9 m ρ c (Proc.devRef .tc main_arg0) = W1 m ρ c (Proc.devRef .tc main_arg0) := (s9_main_arg0 m ρ c).trans (k8_main_arg0 m ρ c)
theorem s10_main_arg0 (c : Dev nD) : W10 m ρ c (Proc.devRef .tc main_arg0) = W9 m ρ c (Proc.devRef .tc main_arg0) := by
  host_keep hostOps2_2
theorem k10_main_arg0 (c : Dev nD) : W10 m ρ c (Proc.devRef .tc main_arg0) = W1 m ρ c (Proc.devRef .tc main_arg0) := (s10_main_arg0 m ρ c).trans (k9_main_arg0 m ρ c)
theorem s11_main_arg0 (c : Dev nD) : W11 m ρ c (Proc.devRef .tc main_arg0) = W10 m ρ c (Proc.devRef .tc main_arg0) := W11_of_ne m ρ c main_arg0 (by decide)
theorem k11_main_arg0 (c : Dev nD) : W11 m ρ c (Proc.devRef .tc main_arg0) = W1 m ρ c (Proc.devRef .tc main_arg0) := (s11_main_arg0 m ρ c).trans (k10_main_arg0 m ρ c)
theorem s12_main_arg0 (c : Dev nD) : W12 m ρ c (Proc.devRef .tc main_arg0) = W11 m ρ c (Proc.devRef .tc main_arg0) := by
  host_keep hostOps3
theorem k12_main_arg0 (c : Dev nD) : W12 m ρ c (Proc.devRef .tc main_arg0) = W1 m ρ c (Proc.devRef .tc main_arg0) := (s12_main_arg0 m ρ c).trans (k11_main_arg0 m ρ c)
theorem s13_main_arg0 (c : Dev nD) : W13 m ρ c (Proc.devRef .tc main_arg0) = W12 m ρ c (Proc.devRef .tc main_arg0) := W13_of_ne m ρ c main_arg0 (by decide)
theorem k13_main_arg0 (c : Dev nD) : W13 m ρ c (Proc.devRef .tc main_arg0) = W1 m ρ c (Proc.devRef .tc main_arg0) := (s13_main_arg0 m ρ c).trans (k12_main_arg0 m ρ c)
theorem s14_main_arg0 (c : Dev nD) : W14 m ρ c (Proc.devRef .tc main_arg0) = W13 m ρ c (Proc.devRef .tc main_arg0) := by
  host_keep hostOps4
theorem k14_main_arg0 (c : Dev nD) : W14 m ρ c (Proc.devRef .tc main_arg0) = W1 m ρ c (Proc.devRef .tc main_arg0) := (s14_main_arg0 m ρ c).trans (k13_main_arg0 m ρ c)
theorem s15_main_arg0 (c : Dev nD) : W15 m ρ c (Proc.devRef .tc main_arg0) = W14 m ρ c (Proc.devRef .tc main_arg0) := by
  host_keep hostOps4_1
theorem k15_main_arg0 (c : Dev nD) : W15 m ρ c (Proc.devRef .tc main_arg0) = W1 m ρ c (Proc.devRef .tc main_arg0) := (s15_main_arg0 m ρ c).trans (k14_main_arg0 m ρ c)
theorem s16_main_arg0 (c : Dev nD) : W16 m ρ c (Proc.devRef .tc main_arg0) = W15 m ρ c (Proc.devRef .tc main_arg0) := by
  host_keep hostOps4_2
theorem k16_main_arg0 (c : Dev nD) : W16 m ρ c (Proc.devRef .tc main_arg0) = W1 m ρ c (Proc.devRef .tc main_arg0) := (s16_main_arg0 m ρ c).trans (k15_main_arg0 m ρ c)
theorem s17_main_arg0 (c : Dev nD) : W17 m ρ c (Proc.devRef .tc main_arg0) = W16 m ρ c (Proc.devRef .tc main_arg0) := W17_of_ne m ρ c main_arg0 (by decide)
theorem k17_main_arg0 (c : Dev nD) : W17 m ρ c (Proc.devRef .tc main_arg0) = W1 m ρ c (Proc.devRef .tc main_arg0) := (s17_main_arg0 m ρ c).trans (k16_main_arg0 m ρ c)
theorem s18_main_arg0 (c : Dev nD) : W18 m ρ c (Proc.devRef .tc main_arg0) = W17 m ρ c (Proc.devRef .tc main_arg0) := by
  host_keep hostOps5
theorem k18_main_arg0 (c : Dev nD) : W18 m ρ c (Proc.devRef .tc main_arg0) = W1 m ρ c (Proc.devRef .tc main_arg0) := (s18_main_arg0 m ρ c).trans (k17_main_arg0 m ρ c)
theorem s19_main_arg0 (c : Dev nD) : W19 m ρ c (Proc.devRef .tc main_arg0) = W18 m ρ c (Proc.devRef .tc main_arg0) := W19_of_ne m ρ c main_arg0 (by decide)
theorem k19_main_arg0 (c : Dev nD) : W19 m ρ c (Proc.devRef .tc main_arg0) = W1 m ρ c (Proc.devRef .tc main_arg0) := (s19_main_arg0 m ρ c).trans (k18_main_arg0 m ρ c)

/-! ## `main_arg1` -/
theorem s2_main_arg1 (c : Dev nD) : W2 m ρ c (Proc.devRef .tc main_arg1) = W1 m ρ c (Proc.devRef .tc main_arg1) := by
  host_keep hostOps0_1
theorem k2_main_arg1 (c : Dev nD) : W2 m ρ c (Proc.devRef .tc main_arg1) = W1 m ρ c (Proc.devRef .tc main_arg1) := s2_main_arg1 m ρ c
theorem s3_main_arg1 (c : Dev nD) : W3 m ρ c (Proc.devRef .tc main_arg1) = W2 m ρ c (Proc.devRef .tc main_arg1) := by
  host_keep hostOps0_2
theorem k3_main_arg1 (c : Dev nD) : W3 m ρ c (Proc.devRef .tc main_arg1) = W1 m ρ c (Proc.devRef .tc main_arg1) := (s3_main_arg1 m ρ c).trans (k2_main_arg1 m ρ c)
theorem s4_main_arg1 (c : Dev nD) : W4 m ρ c (Proc.devRef .tc main_arg1) = W3 m ρ c (Proc.devRef .tc main_arg1) := by
  host_keep hostOps0_3
theorem k4_main_arg1 (c : Dev nD) : W4 m ρ c (Proc.devRef .tc main_arg1) = W1 m ρ c (Proc.devRef .tc main_arg1) := (s4_main_arg1 m ρ c).trans (k3_main_arg1 m ρ c)
theorem s5_main_arg1 (c : Dev nD) : W5 m ρ c (Proc.devRef .tc main_arg1) = W4 m ρ c (Proc.devRef .tc main_arg1) :=
  (W5_arr m ρ c 0).trans (((dat0 (V4 m ρ) c).arrAt_in 0 rfl _).trans (A_eq0 (V4 m ρ) c 0))
theorem k5_main_arg1 (c : Dev nD) : W5 m ρ c (Proc.devRef .tc main_arg1) = W1 m ρ c (Proc.devRef .tc main_arg1) := (s5_main_arg1 m ρ c).trans (k4_main_arg1 m ρ c)
theorem s6_main_arg1 (c : Dev nD) : W6 m ρ c (Proc.devRef .tc main_arg1) = W5 m ρ c (Proc.devRef .tc main_arg1) := by
  host_keep hostOps1
theorem k6_main_arg1 (c : Dev nD) : W6 m ρ c (Proc.devRef .tc main_arg1) = W1 m ρ c (Proc.devRef .tc main_arg1) := (s6_main_arg1 m ρ c).trans (k5_main_arg1 m ρ c)
theorem s7_main_arg1 (c : Dev nD) : W7 m ρ c (Proc.devRef .tc main_arg1) = W6 m ρ c (Proc.devRef .tc main_arg1) := W7_of_ne m ρ c main_arg1 (by decide)
theorem k7_main_arg1 (c : Dev nD) : W7 m ρ c (Proc.devRef .tc main_arg1) = W1 m ρ c (Proc.devRef .tc main_arg1) := (s7_main_arg1 m ρ c).trans (k6_main_arg1 m ρ c)
theorem s8_main_arg1 (c : Dev nD) : W8 m ρ c (Proc.devRef .tc main_arg1) = W7 m ρ c (Proc.devRef .tc main_arg1) := by
  host_keep hostOps2
theorem k8_main_arg1 (c : Dev nD) : W8 m ρ c (Proc.devRef .tc main_arg1) = W1 m ρ c (Proc.devRef .tc main_arg1) := (s8_main_arg1 m ρ c).trans (k7_main_arg1 m ρ c)
theorem s9_main_arg1 (c : Dev nD) : W9 m ρ c (Proc.devRef .tc main_arg1) = W8 m ρ c (Proc.devRef .tc main_arg1) := by
  host_keep hostOps2_1
theorem k9_main_arg1 (c : Dev nD) : W9 m ρ c (Proc.devRef .tc main_arg1) = W1 m ρ c (Proc.devRef .tc main_arg1) := (s9_main_arg1 m ρ c).trans (k8_main_arg1 m ρ c)
theorem s10_main_arg1 (c : Dev nD) : W10 m ρ c (Proc.devRef .tc main_arg1) = W9 m ρ c (Proc.devRef .tc main_arg1) := by
  host_keep hostOps2_2
theorem k10_main_arg1 (c : Dev nD) : W10 m ρ c (Proc.devRef .tc main_arg1) = W1 m ρ c (Proc.devRef .tc main_arg1) := (s10_main_arg1 m ρ c).trans (k9_main_arg1 m ρ c)
theorem s11_main_arg1 (c : Dev nD) : W11 m ρ c (Proc.devRef .tc main_arg1) = W10 m ρ c (Proc.devRef .tc main_arg1) := W11_of_ne m ρ c main_arg1 (by decide)
theorem k11_main_arg1 (c : Dev nD) : W11 m ρ c (Proc.devRef .tc main_arg1) = W1 m ρ c (Proc.devRef .tc main_arg1) := (s11_main_arg1 m ρ c).trans (k10_main_arg1 m ρ c)
theorem s12_main_arg1 (c : Dev nD) : W12 m ρ c (Proc.devRef .tc main_arg1) = W11 m ρ c (Proc.devRef .tc main_arg1) := by
  host_keep hostOps3
theorem k12_main_arg1 (c : Dev nD) : W12 m ρ c (Proc.devRef .tc main_arg1) = W1 m ρ c (Proc.devRef .tc main_arg1) := (s12_main_arg1 m ρ c).trans (k11_main_arg1 m ρ c)
theorem s13_main_arg1 (c : Dev nD) : W13 m ρ c (Proc.devRef .tc main_arg1) = W12 m ρ c (Proc.devRef .tc main_arg1) := W13_of_ne m ρ c main_arg1 (by decide)
theorem k13_main_arg1 (c : Dev nD) : W13 m ρ c (Proc.devRef .tc main_arg1) = W1 m ρ c (Proc.devRef .tc main_arg1) := (s13_main_arg1 m ρ c).trans (k12_main_arg1 m ρ c)
theorem s14_main_arg1 (c : Dev nD) : W14 m ρ c (Proc.devRef .tc main_arg1) = W13 m ρ c (Proc.devRef .tc main_arg1) := by
  host_keep hostOps4
theorem k14_main_arg1 (c : Dev nD) : W14 m ρ c (Proc.devRef .tc main_arg1) = W1 m ρ c (Proc.devRef .tc main_arg1) := (s14_main_arg1 m ρ c).trans (k13_main_arg1 m ρ c)
theorem s15_main_arg1 (c : Dev nD) : W15 m ρ c (Proc.devRef .tc main_arg1) = W14 m ρ c (Proc.devRef .tc main_arg1) := by
  host_keep hostOps4_1
theorem k15_main_arg1 (c : Dev nD) : W15 m ρ c (Proc.devRef .tc main_arg1) = W1 m ρ c (Proc.devRef .tc main_arg1) := (s15_main_arg1 m ρ c).trans (k14_main_arg1 m ρ c)
theorem s16_main_arg1 (c : Dev nD) : W16 m ρ c (Proc.devRef .tc main_arg1) = W15 m ρ c (Proc.devRef .tc main_arg1) := by
  host_keep hostOps4_2
theorem k16_main_arg1 (c : Dev nD) : W16 m ρ c (Proc.devRef .tc main_arg1) = W1 m ρ c (Proc.devRef .tc main_arg1) := (s16_main_arg1 m ρ c).trans (k15_main_arg1 m ρ c)
theorem s17_main_arg1 (c : Dev nD) : W17 m ρ c (Proc.devRef .tc main_arg1) = W16 m ρ c (Proc.devRef .tc main_arg1) := W17_of_ne m ρ c main_arg1 (by decide)
theorem k17_main_arg1 (c : Dev nD) : W17 m ρ c (Proc.devRef .tc main_arg1) = W1 m ρ c (Proc.devRef .tc main_arg1) := (s17_main_arg1 m ρ c).trans (k16_main_arg1 m ρ c)
theorem s18_main_arg1 (c : Dev nD) : W18 m ρ c (Proc.devRef .tc main_arg1) = W17 m ρ c (Proc.devRef .tc main_arg1) := by
  host_keep hostOps5
theorem k18_main_arg1 (c : Dev nD) : W18 m ρ c (Proc.devRef .tc main_arg1) = W1 m ρ c (Proc.devRef .tc main_arg1) := (s18_main_arg1 m ρ c).trans (k17_main_arg1 m ρ c)
theorem s19_main_arg1 (c : Dev nD) : W19 m ρ c (Proc.devRef .tc main_arg1) = W18 m ρ c (Proc.devRef .tc main_arg1) := W19_of_ne m ρ c main_arg1 (by decide)
theorem k19_main_arg1 (c : Dev nD) : W19 m ρ c (Proc.devRef .tc main_arg1) = W1 m ρ c (Proc.devRef .tc main_arg1) := (s19_main_arg1 m ρ c).trans (k18_main_arg1 m ρ c)

/-! ## `main_arg2` -/
theorem s2_main_arg2 (c : Dev nD) : W2 m ρ c (Proc.devRef .tc main_arg2) = W1 m ρ c (Proc.devRef .tc main_arg2) := by
  host_keep hostOps0_1
theorem k2_main_arg2 (c : Dev nD) : W2 m ρ c (Proc.devRef .tc main_arg2) = W1 m ρ c (Proc.devRef .tc main_arg2) := s2_main_arg2 m ρ c
theorem s3_main_arg2 (c : Dev nD) : W3 m ρ c (Proc.devRef .tc main_arg2) = W2 m ρ c (Proc.devRef .tc main_arg2) := by
  host_keep hostOps0_2
theorem k3_main_arg2 (c : Dev nD) : W3 m ρ c (Proc.devRef .tc main_arg2) = W1 m ρ c (Proc.devRef .tc main_arg2) := (s3_main_arg2 m ρ c).trans (k2_main_arg2 m ρ c)
theorem s4_main_arg2 (c : Dev nD) : W4 m ρ c (Proc.devRef .tc main_arg2) = W3 m ρ c (Proc.devRef .tc main_arg2) := by
  host_keep hostOps0_3
theorem k4_main_arg2 (c : Dev nD) : W4 m ρ c (Proc.devRef .tc main_arg2) = W1 m ρ c (Proc.devRef .tc main_arg2) := (s4_main_arg2 m ρ c).trans (k3_main_arg2 m ρ c)
theorem s5_main_arg2 (c : Dev nD) : W5 m ρ c (Proc.devRef .tc main_arg2) = W4 m ρ c (Proc.devRef .tc main_arg2) := W5_of_ne m ρ c main_arg2 (by decide)
theorem k5_main_arg2 (c : Dev nD) : W5 m ρ c (Proc.devRef .tc main_arg2) = W1 m ρ c (Proc.devRef .tc main_arg2) := (s5_main_arg2 m ρ c).trans (k4_main_arg2 m ρ c)
theorem s6_main_arg2 (c : Dev nD) : W6 m ρ c (Proc.devRef .tc main_arg2) = W5 m ρ c (Proc.devRef .tc main_arg2) := by
  host_keep hostOps1
theorem k6_main_arg2 (c : Dev nD) : W6 m ρ c (Proc.devRef .tc main_arg2) = W1 m ρ c (Proc.devRef .tc main_arg2) := (s6_main_arg2 m ρ c).trans (k5_main_arg2 m ρ c)
theorem s7_main_arg2 (c : Dev nD) : W7 m ρ c (Proc.devRef .tc main_arg2) = W6 m ρ c (Proc.devRef .tc main_arg2) := W7_of_ne m ρ c main_arg2 (by decide)
theorem k7_main_arg2 (c : Dev nD) : W7 m ρ c (Proc.devRef .tc main_arg2) = W1 m ρ c (Proc.devRef .tc main_arg2) := (s7_main_arg2 m ρ c).trans (k6_main_arg2 m ρ c)
theorem s8_main_arg2 (c : Dev nD) : W8 m ρ c (Proc.devRef .tc main_arg2) = W7 m ρ c (Proc.devRef .tc main_arg2) := by
  host_keep hostOps2
theorem k8_main_arg2 (c : Dev nD) : W8 m ρ c (Proc.devRef .tc main_arg2) = W1 m ρ c (Proc.devRef .tc main_arg2) := (s8_main_arg2 m ρ c).trans (k7_main_arg2 m ρ c)
theorem s9_main_arg2 (c : Dev nD) : W9 m ρ c (Proc.devRef .tc main_arg2) = W8 m ρ c (Proc.devRef .tc main_arg2) := by
  host_keep hostOps2_1
theorem k9_main_arg2 (c : Dev nD) : W9 m ρ c (Proc.devRef .tc main_arg2) = W1 m ρ c (Proc.devRef .tc main_arg2) := (s9_main_arg2 m ρ c).trans (k8_main_arg2 m ρ c)
theorem s10_main_arg2 (c : Dev nD) : W10 m ρ c (Proc.devRef .tc main_arg2) = W9 m ρ c (Proc.devRef .tc main_arg2) := by
  host_keep hostOps2_2
theorem k10_main_arg2 (c : Dev nD) : W10 m ρ c (Proc.devRef .tc main_arg2) = W1 m ρ c (Proc.devRef .tc main_arg2) := (s10_main_arg2 m ρ c).trans (k9_main_arg2 m ρ c)
theorem s11_main_arg2 (c : Dev nD) : W11 m ρ c (Proc.devRef .tc main_arg2) = W10 m ρ c (Proc.devRef .tc main_arg2) := W11_of_ne m ρ c main_arg2 (by decide)
theorem k11_main_arg2 (c : Dev nD) : W11 m ρ c (Proc.devRef .tc main_arg2) = W1 m ρ c (Proc.devRef .tc main_arg2) := (s11_main_arg2 m ρ c).trans (k10_main_arg2 m ρ c)
theorem s12_main_arg2 (c : Dev nD) : W12 m ρ c (Proc.devRef .tc main_arg2) = W11 m ρ c (Proc.devRef .tc main_arg2) := by
  host_keep hostOps3
theorem k12_main_arg2 (c : Dev nD) : W12 m ρ c (Proc.devRef .tc main_arg2) = W1 m ρ c (Proc.devRef .tc main_arg2) := (s12_main_arg2 m ρ c).trans (k11_main_arg2 m ρ c)
theorem s13_main_arg2 (c : Dev nD) : W13 m ρ c (Proc.devRef .tc main_arg2) = W12 m ρ c (Proc.devRef .tc main_arg2) := W13_of_ne m ρ c main_arg2 (by decide)
theorem k13_main_arg2 (c : Dev nD) : W13 m ρ c (Proc.devRef .tc main_arg2) = W1 m ρ c (Proc.devRef .tc main_arg2) := (s13_main_arg2 m ρ c).trans (k12_main_arg2 m ρ c)
theorem s14_main_arg2 (c : Dev nD) : W14 m ρ c (Proc.devRef .tc main_arg2) = W13 m ρ c (Proc.devRef .tc main_arg2) := by
  host_keep hostOps4
theorem k14_main_arg2 (c : Dev nD) : W14 m ρ c (Proc.devRef .tc main_arg2) = W1 m ρ c (Proc.devRef .tc main_arg2) := (s14_main_arg2 m ρ c).trans (k13_main_arg2 m ρ c)
theorem s15_main_arg2 (c : Dev nD) : W15 m ρ c (Proc.devRef .tc main_arg2) = W14 m ρ c (Proc.devRef .tc main_arg2) := by
  host_keep hostOps4_1
theorem k15_main_arg2 (c : Dev nD) : W15 m ρ c (Proc.devRef .tc main_arg2) = W1 m ρ c (Proc.devRef .tc main_arg2) := (s15_main_arg2 m ρ c).trans (k14_main_arg2 m ρ c)
theorem s16_main_arg2 (c : Dev nD) : W16 m ρ c (Proc.devRef .tc main_arg2) = W15 m ρ c (Proc.devRef .tc main_arg2) := by
  host_keep hostOps4_2
theorem k16_main_arg2 (c : Dev nD) : W16 m ρ c (Proc.devRef .tc main_arg2) = W1 m ρ c (Proc.devRef .tc main_arg2) := (s16_main_arg2 m ρ c).trans (k15_main_arg2 m ρ c)
theorem s17_main_arg2 (c : Dev nD) : W17 m ρ c (Proc.devRef .tc main_arg2) = W16 m ρ c (Proc.devRef .tc main_arg2) := W17_of_ne m ρ c main_arg2 (by decide)
theorem k17_main_arg2 (c : Dev nD) : W17 m ρ c (Proc.devRef .tc main_arg2) = W1 m ρ c (Proc.devRef .tc main_arg2) := (s17_main_arg2 m ρ c).trans (k16_main_arg2 m ρ c)
theorem s18_main_arg2 (c : Dev nD) : W18 m ρ c (Proc.devRef .tc main_arg2) = W17 m ρ c (Proc.devRef .tc main_arg2) := by
  host_keep hostOps5
theorem k18_main_arg2 (c : Dev nD) : W18 m ρ c (Proc.devRef .tc main_arg2) = W1 m ρ c (Proc.devRef .tc main_arg2) := (s18_main_arg2 m ρ c).trans (k17_main_arg2 m ρ c)
theorem s19_main_arg2 (c : Dev nD) : W19 m ρ c (Proc.devRef .tc main_arg2) = W18 m ρ c (Proc.devRef .tc main_arg2) := W19_of_ne m ρ c main_arg2 (by decide)
theorem k19_main_arg2 (c : Dev nD) : W19 m ρ c (Proc.devRef .tc main_arg2) = W1 m ρ c (Proc.devRef .tc main_arg2) := (s19_main_arg2 m ρ c).trans (k18_main_arg2 m ρ c)

/-! ## `main_arg3` -/
theorem s2_main_arg3 (c : Dev nD) : W2 m ρ c (Proc.devRef .tc main_arg3) = W1 m ρ c (Proc.devRef .tc main_arg3) := by
  host_keep hostOps0_1
theorem k2_main_arg3 (c : Dev nD) : W2 m ρ c (Proc.devRef .tc main_arg3) = W1 m ρ c (Proc.devRef .tc main_arg3) := s2_main_arg3 m ρ c
theorem s3_main_arg3 (c : Dev nD) : W3 m ρ c (Proc.devRef .tc main_arg3) = W2 m ρ c (Proc.devRef .tc main_arg3) := by
  host_keep hostOps0_2
theorem k3_main_arg3 (c : Dev nD) : W3 m ρ c (Proc.devRef .tc main_arg3) = W1 m ρ c (Proc.devRef .tc main_arg3) := (s3_main_arg3 m ρ c).trans (k2_main_arg3 m ρ c)
theorem s4_main_arg3 (c : Dev nD) : W4 m ρ c (Proc.devRef .tc main_arg3) = W3 m ρ c (Proc.devRef .tc main_arg3) := by
  host_keep hostOps0_3
theorem k4_main_arg3 (c : Dev nD) : W4 m ρ c (Proc.devRef .tc main_arg3) = W1 m ρ c (Proc.devRef .tc main_arg3) := (s4_main_arg3 m ρ c).trans (k3_main_arg3 m ρ c)
theorem s5_main_arg3 (c : Dev nD) : W5 m ρ c (Proc.devRef .tc main_arg3) = W4 m ρ c (Proc.devRef .tc main_arg3) := W5_of_ne m ρ c main_arg3 (by decide)
theorem k5_main_arg3 (c : Dev nD) : W5 m ρ c (Proc.devRef .tc main_arg3) = W1 m ρ c (Proc.devRef .tc main_arg3) := (s5_main_arg3 m ρ c).trans (k4_main_arg3 m ρ c)
theorem s6_main_arg3 (c : Dev nD) : W6 m ρ c (Proc.devRef .tc main_arg3) = W5 m ρ c (Proc.devRef .tc main_arg3) := by
  host_keep hostOps1
theorem k6_main_arg3 (c : Dev nD) : W6 m ρ c (Proc.devRef .tc main_arg3) = W1 m ρ c (Proc.devRef .tc main_arg3) := (s6_main_arg3 m ρ c).trans (k5_main_arg3 m ρ c)
theorem s7_main_arg3 (c : Dev nD) : W7 m ρ c (Proc.devRef .tc main_arg3) = W6 m ρ c (Proc.devRef .tc main_arg3) := W7_of_ne m ρ c main_arg3 (by decide)
theorem k7_main_arg3 (c : Dev nD) : W7 m ρ c (Proc.devRef .tc main_arg3) = W1 m ρ c (Proc.devRef .tc main_arg3) := (s7_main_arg3 m ρ c).trans (k6_main_arg3 m ρ c)
theorem s8_main_arg3 (c : Dev nD) : W8 m ρ c (Proc.devRef .tc main_arg3) = W7 m ρ c (Proc.devRef .tc main_arg3) := by
  host_keep hostOps2
theorem k8_main_arg3 (c : Dev nD) : W8 m ρ c (Proc.devRef .tc main_arg3) = W1 m ρ c (Proc.devRef .tc main_arg3) := (s8_main_arg3 m ρ c).trans (k7_main_arg3 m ρ c)
theorem s9_main_arg3 (c : Dev nD) : W9 m ρ c (Proc.devRef .tc main_arg3) = W8 m ρ c (Proc.devRef .tc main_arg3) := by
  host_keep hostOps2_1
theorem k9_main_arg3 (c : Dev nD) : W9 m ρ c (Proc.devRef .tc main_arg3) = W1 m ρ c (Proc.devRef .tc main_arg3) := (s9_main_arg3 m ρ c).trans (k8_main_arg3 m ρ c)
theorem s10_main_arg3 (c : Dev nD) : W10 m ρ c (Proc.devRef .tc main_arg3) = W9 m ρ c (Proc.devRef .tc main_arg3) := by
  host_keep hostOps2_2
theorem k10_main_arg3 (c : Dev nD) : W10 m ρ c (Proc.devRef .tc main_arg3) = W1 m ρ c (Proc.devRef .tc main_arg3) := (s10_main_arg3 m ρ c).trans (k9_main_arg3 m ρ c)
theorem s11_main_arg3 (c : Dev nD) : W11 m ρ c (Proc.devRef .tc main_arg3) = W10 m ρ c (Proc.devRef .tc main_arg3) := W11_of_ne m ρ c main_arg3 (by decide)
theorem k11_main_arg3 (c : Dev nD) : W11 m ρ c (Proc.devRef .tc main_arg3) = W1 m ρ c (Proc.devRef .tc main_arg3) := (s11_main_arg3 m ρ c).trans (k10_main_arg3 m ρ c)
theorem s12_main_arg3 (c : Dev nD) : W12 m ρ c (Proc.devRef .tc main_arg3) = W11 m ρ c (Proc.devRef .tc main_arg3) := by
  host_keep hostOps3
theorem k12_main_arg3 (c : Dev nD) : W12 m ρ c (Proc.devRef .tc main_arg3) = W1 m ρ c (Proc.devRef .tc main_arg3) := (s12_main_arg3 m ρ c).trans (k11_main_arg3 m ρ c)
theorem s13_main_arg3 (c : Dev nD) : W13 m ρ c (Proc.devRef .tc main_arg3) = W12 m ρ c (Proc.devRef .tc main_arg3) := W13_of_ne m ρ c main_arg3 (by decide)
theorem k13_main_arg3 (c : Dev nD) : W13 m ρ c (Proc.devRef .tc main_arg3) = W1 m ρ c (Proc.devRef .tc main_arg3) := (s13_main_arg3 m ρ c).trans (k12_main_arg3 m ρ c)
theorem s14_main_arg3 (c : Dev nD) : W14 m ρ c (Proc.devRef .tc main_arg3) = W13 m ρ c (Proc.devRef .tc main_arg3) := by
  host_keep hostOps4
theorem k14_main_arg3 (c : Dev nD) : W14 m ρ c (Proc.devRef .tc main_arg3) = W1 m ρ c (Proc.devRef .tc main_arg3) := (s14_main_arg3 m ρ c).trans (k13_main_arg3 m ρ c)
theorem s15_main_arg3 (c : Dev nD) : W15 m ρ c (Proc.devRef .tc main_arg3) = W14 m ρ c (Proc.devRef .tc main_arg3) := by
  host_keep hostOps4_1
theorem k15_main_arg3 (c : Dev nD) : W15 m ρ c (Proc.devRef .tc main_arg3) = W1 m ρ c (Proc.devRef .tc main_arg3) := (s15_main_arg3 m ρ c).trans (k14_main_arg3 m ρ c)
theorem s16_main_arg3 (c : Dev nD) : W16 m ρ c (Proc.devRef .tc main_arg3) = W15 m ρ c (Proc.devRef .tc main_arg3) := by
  host_keep hostOps4_2
theorem k16_main_arg3 (c : Dev nD) : W16 m ρ c (Proc.devRef .tc main_arg3) = W1 m ρ c (Proc.devRef .tc main_arg3) := (s16_main_arg3 m ρ c).trans (k15_main_arg3 m ρ c)
theorem s17_main_arg3 (c : Dev nD) : W17 m ρ c (Proc.devRef .tc main_arg3) = W16 m ρ c (Proc.devRef .tc main_arg3) := W17_of_ne m ρ c main_arg3 (by decide)
theorem k17_main_arg3 (c : Dev nD) : W17 m ρ c (Proc.devRef .tc main_arg3) = W1 m ρ c (Proc.devRef .tc main_arg3) := (s17_main_arg3 m ρ c).trans (k16_main_arg3 m ρ c)
theorem s18_main_arg3 (c : Dev nD) : W18 m ρ c (Proc.devRef .tc main_arg3) = W17 m ρ c (Proc.devRef .tc main_arg3) := by
  host_keep hostOps5
theorem k18_main_arg3 (c : Dev nD) : W18 m ρ c (Proc.devRef .tc main_arg3) = W1 m ρ c (Proc.devRef .tc main_arg3) := (s18_main_arg3 m ρ c).trans (k17_main_arg3 m ρ c)
theorem s19_main_arg3 (c : Dev nD) : W19 m ρ c (Proc.devRef .tc main_arg3) = W18 m ρ c (Proc.devRef .tc main_arg3) := W19_of_ne m ρ c main_arg3 (by decide)
theorem k19_main_arg3 (c : Dev nD) : W19 m ρ c (Proc.devRef .tc main_arg3) = W1 m ρ c (Proc.devRef .tc main_arg3) := (s19_main_arg3 m ρ c).trans (k18_main_arg3 m ρ c)

/-! ## `main_arg4` -/
theorem s2_main_arg4 (c : Dev nD) : W2 m ρ c (Proc.devRef .tc main_arg4) = W1 m ρ c (Proc.devRef .tc main_arg4) := by
  host_keep hostOps0_1
theorem k2_main_arg4 (c : Dev nD) : W2 m ρ c (Proc.devRef .tc main_arg4) = W1 m ρ c (Proc.devRef .tc main_arg4) := s2_main_arg4 m ρ c
theorem s3_main_arg4 (c : Dev nD) : W3 m ρ c (Proc.devRef .tc main_arg4) = W2 m ρ c (Proc.devRef .tc main_arg4) := by
  host_keep hostOps0_2
theorem k3_main_arg4 (c : Dev nD) : W3 m ρ c (Proc.devRef .tc main_arg4) = W1 m ρ c (Proc.devRef .tc main_arg4) := (s3_main_arg4 m ρ c).trans (k2_main_arg4 m ρ c)
theorem s4_main_arg4 (c : Dev nD) : W4 m ρ c (Proc.devRef .tc main_arg4) = W3 m ρ c (Proc.devRef .tc main_arg4) := by
  host_keep hostOps0_3
theorem k4_main_arg4 (c : Dev nD) : W4 m ρ c (Proc.devRef .tc main_arg4) = W1 m ρ c (Proc.devRef .tc main_arg4) := (s4_main_arg4 m ρ c).trans (k3_main_arg4 m ρ c)
theorem s5_main_arg4 (c : Dev nD) : W5 m ρ c (Proc.devRef .tc main_arg4) = W4 m ρ c (Proc.devRef .tc main_arg4) := W5_of_ne m ρ c main_arg4 (by decide)
theorem k5_main_arg4 (c : Dev nD) : W5 m ρ c (Proc.devRef .tc main_arg4) = W1 m ρ c (Proc.devRef .tc main_arg4) := (s5_main_arg4 m ρ c).trans (k4_main_arg4 m ρ c)
theorem s6_main_arg4 (c : Dev nD) : W6 m ρ c (Proc.devRef .tc main_arg4) = W5 m ρ c (Proc.devRef .tc main_arg4) := by
  host_keep hostOps1
theorem k6_main_arg4 (c : Dev nD) : W6 m ρ c (Proc.devRef .tc main_arg4) = W1 m ρ c (Proc.devRef .tc main_arg4) := (s6_main_arg4 m ρ c).trans (k5_main_arg4 m ρ c)
theorem s7_main_arg4 (c : Dev nD) : W7 m ρ c (Proc.devRef .tc main_arg4) = W6 m ρ c (Proc.devRef .tc main_arg4) := W7_of_ne m ρ c main_arg4 (by decide)
theorem k7_main_arg4 (c : Dev nD) : W7 m ρ c (Proc.devRef .tc main_arg4) = W1 m ρ c (Proc.devRef .tc main_arg4) := (s7_main_arg4 m ρ c).trans (k6_main_arg4 m ρ c)
theorem s8_main_arg4 (c : Dev nD) : W8 m ρ c (Proc.devRef .tc main_arg4) = W7 m ρ c (Proc.devRef .tc main_arg4) := by
  host_keep hostOps2
theorem k8_main_arg4 (c : Dev nD) : W8 m ρ c (Proc.devRef .tc main_arg4) = W1 m ρ c (Proc.devRef .tc main_arg4) := (s8_main_arg4 m ρ c).trans (k7_main_arg4 m ρ c)
theorem s9_main_arg4 (c : Dev nD) : W9 m ρ c (Proc.devRef .tc main_arg4) = W8 m ρ c (Proc.devRef .tc main_arg4) := by
  host_keep hostOps2_1
theorem k9_main_arg4 (c : Dev nD) : W9 m ρ c (Proc.devRef .tc main_arg4) = W1 m ρ c (Proc.devRef .tc main_arg4) := (s9_main_arg4 m ρ c).trans (k8_main_arg4 m ρ c)
theorem s10_main_arg4 (c : Dev nD) : W10 m ρ c (Proc.devRef .tc main_arg4) = W9 m ρ c (Proc.devRef .tc main_arg4) := by
  host_keep hostOps2_2
theorem k10_main_arg4 (c : Dev nD) : W10 m ρ c (Proc.devRef .tc main_arg4) = W1 m ρ c (Proc.devRef .tc main_arg4) := (s10_main_arg4 m ρ c).trans (k9_main_arg4 m ρ c)
theorem s11_main_arg4 (c : Dev nD) : W11 m ρ c (Proc.devRef .tc main_arg4) = W10 m ρ c (Proc.devRef .tc main_arg4) := W11_of_ne m ρ c main_arg4 (by decide)
theorem k11_main_arg4 (c : Dev nD) : W11 m ρ c (Proc.devRef .tc main_arg4) = W1 m ρ c (Proc.devRef .tc main_arg4) := (s11_main_arg4 m ρ c).trans (k10_main_arg4 m ρ c)
theorem s12_main_arg4 (c : Dev nD) : W12 m ρ c (Proc.devRef .tc main_arg4) = W11 m ρ c (Proc.devRef .tc main_arg4) := by
  host_keep hostOps3
theorem k12_main_arg4 (c : Dev nD) : W12 m ρ c (Proc.devRef .tc main_arg4) = W1 m ρ c (Proc.devRef .tc main_arg4) := (s12_main_arg4 m ρ c).trans (k11_main_arg4 m ρ c)
theorem s13_main_arg4 (c : Dev nD) : W13 m ρ c (Proc.devRef .tc main_arg4) = W12 m ρ c (Proc.devRef .tc main_arg4) := W13_of_ne m ρ c main_arg4 (by decide)
theorem k13_main_arg4 (c : Dev nD) : W13 m ρ c (Proc.devRef .tc main_arg4) = W1 m ρ c (Proc.devRef .tc main_arg4) := (s13_main_arg4 m ρ c).trans (k12_main_arg4 m ρ c)
theorem s14_main_arg4 (c : Dev nD) : W14 m ρ c (Proc.devRef .tc main_arg4) = W13 m ρ c (Proc.devRef .tc main_arg4) := by
  host_keep hostOps4
theorem k14_main_arg4 (c : Dev nD) : W14 m ρ c (Proc.devRef .tc main_arg4) = W1 m ρ c (Proc.devRef .tc main_arg4) := (s14_main_arg4 m ρ c).trans (k13_main_arg4 m ρ c)
theorem s15_main_arg4 (c : Dev nD) : W15 m ρ c (Proc.devRef .tc main_arg4) = W14 m ρ c (Proc.devRef .tc main_arg4) := by
  host_keep hostOps4_1
theorem k15_main_arg4 (c : Dev nD) : W15 m ρ c (Proc.devRef .tc main_arg4) = W1 m ρ c (Proc.devRef .tc main_arg4) := (s15_main_arg4 m ρ c).trans (k14_main_arg4 m ρ c)
theorem s16_main_arg4 (c : Dev nD) : W16 m ρ c (Proc.devRef .tc main_arg4) = W15 m ρ c (Proc.devRef .tc main_arg4) := by
  host_keep hostOps4_2
theorem k16_main_arg4 (c : Dev nD) : W16 m ρ c (Proc.devRef .tc main_arg4) = W1 m ρ c (Proc.devRef .tc main_arg4) := (s16_main_arg4 m ρ c).trans (k15_main_arg4 m ρ c)
theorem s17_main_arg4 (c : Dev nD) : W17 m ρ c (Proc.devRef .tc main_arg4) = W16 m ρ c (Proc.devRef .tc main_arg4) := W17_of_ne m ρ c main_arg4 (by decide)
theorem k17_main_arg4 (c : Dev nD) : W17 m ρ c (Proc.devRef .tc main_arg4) = W1 m ρ c (Proc.devRef .tc main_arg4) := (s17_main_arg4 m ρ c).trans (k16_main_arg4 m ρ c)
theorem s18_main_arg4 (c : Dev nD) : W18 m ρ c (Proc.devRef .tc main_arg4) = W17 m ρ c (Proc.devRef .tc main_arg4) := by
  host_keep hostOps5
theorem k18_main_arg4 (c : Dev nD) : W18 m ρ c (Proc.devRef .tc main_arg4) = W1 m ρ c (Proc.devRef .tc main_arg4) := (s18_main_arg4 m ρ c).trans (k17_main_arg4 m ρ c)
theorem s19_main_arg4 (c : Dev nD) : W19 m ρ c (Proc.devRef .tc main_arg4) = W18 m ρ c (Proc.devRef .tc main_arg4) := W19_of_ne m ρ c main_arg4 (by decide)
theorem k19_main_arg4 (c : Dev nD) : W19 m ρ c (Proc.devRef .tc main_arg4) = W1 m ρ c (Proc.devRef .tc main_arg4) := (s19_main_arg4 m ρ c).trans (k18_main_arg4 m ρ c)

/-! ## `main_arg5` -/
theorem s2_main_arg5 (c : Dev nD) : W2 m ρ c (Proc.devRef .tc main_arg5) = W1 m ρ c (Proc.devRef .tc main_arg5) := by
  host_keep hostOps0_1
theorem k2_main_arg5 (c : Dev nD) : W2 m ρ c (Proc.devRef .tc main_arg5) = W1 m ρ c (Proc.devRef .tc main_arg5) := s2_main_arg5 m ρ c
theorem s3_main_arg5 (c : Dev nD) : W3 m ρ c (Proc.devRef .tc main_arg5) = W2 m ρ c (Proc.devRef .tc main_arg5) := by
  host_keep hostOps0_2
theorem k3_main_arg5 (c : Dev nD) : W3 m ρ c (Proc.devRef .tc main_arg5) = W1 m ρ c (Proc.devRef .tc main_arg5) := (s3_main_arg5 m ρ c).trans (k2_main_arg5 m ρ c)
theorem s4_main_arg5 (c : Dev nD) : W4 m ρ c (Proc.devRef .tc main_arg5) = W3 m ρ c (Proc.devRef .tc main_arg5) := by
  host_keep hostOps0_3
theorem k4_main_arg5 (c : Dev nD) : W4 m ρ c (Proc.devRef .tc main_arg5) = W1 m ρ c (Proc.devRef .tc main_arg5) := (s4_main_arg5 m ρ c).trans (k3_main_arg5 m ρ c)
theorem s5_main_arg5 (c : Dev nD) : W5 m ρ c (Proc.devRef .tc main_arg5) = W4 m ρ c (Proc.devRef .tc main_arg5) := W5_of_ne m ρ c main_arg5 (by decide)
theorem k5_main_arg5 (c : Dev nD) : W5 m ρ c (Proc.devRef .tc main_arg5) = W1 m ρ c (Proc.devRef .tc main_arg5) := (s5_main_arg5 m ρ c).trans (k4_main_arg5 m ρ c)
theorem s6_main_arg5 (c : Dev nD) : W6 m ρ c (Proc.devRef .tc main_arg5) = W5 m ρ c (Proc.devRef .tc main_arg5) := by
  host_keep hostOps1
theorem k6_main_arg5 (c : Dev nD) : W6 m ρ c (Proc.devRef .tc main_arg5) = W1 m ρ c (Proc.devRef .tc main_arg5) := (s6_main_arg5 m ρ c).trans (k5_main_arg5 m ρ c)
theorem s7_main_arg5 (c : Dev nD) : W7 m ρ c (Proc.devRef .tc main_arg5) = W6 m ρ c (Proc.devRef .tc main_arg5) := W7_of_ne m ρ c main_arg5 (by decide)
theorem k7_main_arg5 (c : Dev nD) : W7 m ρ c (Proc.devRef .tc main_arg5) = W1 m ρ c (Proc.devRef .tc main_arg5) := (s7_main_arg5 m ρ c).trans (k6_main_arg5 m ρ c)
theorem s8_main_arg5 (c : Dev nD) : W8 m ρ c (Proc.devRef .tc main_arg5) = W7 m ρ c (Proc.devRef .tc main_arg5) := by
  host_keep hostOps2
theorem k8_main_arg5 (c : Dev nD) : W8 m ρ c (Proc.devRef .tc main_arg5) = W1 m ρ c (Proc.devRef .tc main_arg5) := (s8_main_arg5 m ρ c).trans (k7_main_arg5 m ρ c)
theorem s9_main_arg5 (c : Dev nD) : W9 m ρ c (Proc.devRef .tc main_arg5) = W8 m ρ c (Proc.devRef .tc main_arg5) := by
  host_keep hostOps2_1
theorem k9_main_arg5 (c : Dev nD) : W9 m ρ c (Proc.devRef .tc main_arg5) = W1 m ρ c (Proc.devRef .tc main_arg5) := (s9_main_arg5 m ρ c).trans (k8_main_arg5 m ρ c)
theorem s10_main_arg5 (c : Dev nD) : W10 m ρ c (Proc.devRef .tc main_arg5) = W9 m ρ c (Proc.devRef .tc main_arg5) := by
  host_keep hostOps2_2
theorem k10_main_arg5 (c : Dev nD) : W10 m ρ c (Proc.devRef .tc main_arg5) = W1 m ρ c (Proc.devRef .tc main_arg5) := (s10_main_arg5 m ρ c).trans (k9_main_arg5 m ρ c)
theorem s11_main_arg5 (c : Dev nD) : W11 m ρ c (Proc.devRef .tc main_arg5) = W10 m ρ c (Proc.devRef .tc main_arg5) := W11_of_ne m ρ c main_arg5 (by decide)
theorem k11_main_arg5 (c : Dev nD) : W11 m ρ c (Proc.devRef .tc main_arg5) = W1 m ρ c (Proc.devRef .tc main_arg5) := (s11_main_arg5 m ρ c).trans (k10_main_arg5 m ρ c)
theorem s12_main_arg5 (c : Dev nD) : W12 m ρ c (Proc.devRef .tc main_arg5) = W11 m ρ c (Proc.devRef .tc main_arg5) := by
  host_keep hostOps3
theorem k12_main_arg5 (c : Dev nD) : W12 m ρ c (Proc.devRef .tc main_arg5) = W1 m ρ c (Proc.devRef .tc main_arg5) := (s12_main_arg5 m ρ c).trans (k11_main_arg5 m ρ c)
theorem s13_main_arg5 (c : Dev nD) : W13 m ρ c (Proc.devRef .tc main_arg5) = W12 m ρ c (Proc.devRef .tc main_arg5) := W13_of_ne m ρ c main_arg5 (by decide)
theorem k13_main_arg5 (c : Dev nD) : W13 m ρ c (Proc.devRef .tc main_arg5) = W1 m ρ c (Proc.devRef .tc main_arg5) := (s13_main_arg5 m ρ c).trans (k12_main_arg5 m ρ c)
theorem s14_main_arg5 (c : Dev nD) : W14 m ρ c (Proc.devRef .tc main_arg5) = W13 m ρ c (Proc.devRef .tc main_arg5) := by
  host_keep hostOps4
theorem k14_main_arg5 (c : Dev nD) : W14 m ρ c (Proc.devRef .tc main_arg5) = W1 m ρ c (Proc.devRef .tc main_arg5) := (s14_main_arg5 m ρ c).trans (k13_main_arg5 m ρ c)
theorem s15_main_arg5 (c : Dev nD) : W15 m ρ c (Proc.devRef .tc main_arg5) = W14 m ρ c (Proc.devRef .tc main_arg5) := by
  host_keep hostOps4_1
theorem k15_main_arg5 (c : Dev nD) : W15 m ρ c (Proc.devRef .tc main_arg5) = W1 m ρ c (Proc.devRef .tc main_arg5) := (s15_main_arg5 m ρ c).trans (k14_main_arg5 m ρ c)
theorem s16_main_arg5 (c : Dev nD) : W16 m ρ c (Proc.devRef .tc main_arg5) = W15 m ρ c (Proc.devRef .tc main_arg5) := by
  host_keep hostOps4_2
theorem k16_main_arg5 (c : Dev nD) : W16 m ρ c (Proc.devRef .tc main_arg5) = W1 m ρ c (Proc.devRef .tc main_arg5) := (s16_main_arg5 m ρ c).trans (k15_main_arg5 m ρ c)
theorem s17_main_arg5 (c : Dev nD) : W17 m ρ c (Proc.devRef .tc main_arg5) = W16 m ρ c (Proc.devRef .tc main_arg5) := W17_of_ne m ρ c main_arg5 (by decide)
theorem k17_main_arg5 (c : Dev nD) : W17 m ρ c (Proc.devRef .tc main_arg5) = W1 m ρ c (Proc.devRef .tc main_arg5) := (s17_main_arg5 m ρ c).trans (k16_main_arg5 m ρ c)
theorem s18_main_arg5 (c : Dev nD) : W18 m ρ c (Proc.devRef .tc main_arg5) = W17 m ρ c (Proc.devRef .tc main_arg5) := by
  host_keep hostOps5
theorem k18_main_arg5 (c : Dev nD) : W18 m ρ c (Proc.devRef .tc main_arg5) = W1 m ρ c (Proc.devRef .tc main_arg5) := (s18_main_arg5 m ρ c).trans (k17_main_arg5 m ρ c)
theorem s19_main_arg5 (c : Dev nD) : W19 m ρ c (Proc.devRef .tc main_arg5) = W18 m ρ c (Proc.devRef .tc main_arg5) := W19_of_ne m ρ c main_arg5 (by decide)
theorem k19_main_arg5 (c : Dev nD) : W19 m ρ c (Proc.devRef .tc main_arg5) = W1 m ρ c (Proc.devRef .tc main_arg5) := (s19_main_arg5 m ρ c).trans (k18_main_arg5 m ρ c)

/-! ## `main_arg6` -/
theorem s2_main_arg6 (c : Dev nD) : W2 m ρ c (Proc.devRef .tc main_arg6) = W1 m ρ c (Proc.devRef .tc main_arg6) := by
  host_keep hostOps0_1
theorem k2_main_arg6 (c : Dev nD) : W2 m ρ c (Proc.devRef .tc main_arg6) = W1 m ρ c (Proc.devRef .tc main_arg6) := s2_main_arg6 m ρ c
theorem s3_main_arg6 (c : Dev nD) : W3 m ρ c (Proc.devRef .tc main_arg6) = W2 m ρ c (Proc.devRef .tc main_arg6) := by
  host_keep hostOps0_2
theorem k3_main_arg6 (c : Dev nD) : W3 m ρ c (Proc.devRef .tc main_arg6) = W1 m ρ c (Proc.devRef .tc main_arg6) := (s3_main_arg6 m ρ c).trans (k2_main_arg6 m ρ c)
theorem s4_main_arg6 (c : Dev nD) : W4 m ρ c (Proc.devRef .tc main_arg6) = W3 m ρ c (Proc.devRef .tc main_arg6) := by
  host_keep hostOps0_3
theorem k4_main_arg6 (c : Dev nD) : W4 m ρ c (Proc.devRef .tc main_arg6) = W1 m ρ c (Proc.devRef .tc main_arg6) := (s4_main_arg6 m ρ c).trans (k3_main_arg6 m ρ c)
theorem s5_main_arg6 (c : Dev nD) : W5 m ρ c (Proc.devRef .tc main_arg6) = W4 m ρ c (Proc.devRef .tc main_arg6) := W5_of_ne m ρ c main_arg6 (by decide)
theorem k5_main_arg6 (c : Dev nD) : W5 m ρ c (Proc.devRef .tc main_arg6) = W1 m ρ c (Proc.devRef .tc main_arg6) := (s5_main_arg6 m ρ c).trans (k4_main_arg6 m ρ c)
theorem s6_main_arg6 (c : Dev nD) : W6 m ρ c (Proc.devRef .tc main_arg6) = W5 m ρ c (Proc.devRef .tc main_arg6) := by
  host_keep hostOps1
theorem k6_main_arg6 (c : Dev nD) : W6 m ρ c (Proc.devRef .tc main_arg6) = W1 m ρ c (Proc.devRef .tc main_arg6) := (s6_main_arg6 m ρ c).trans (k5_main_arg6 m ρ c)
theorem s7_main_arg6 (c : Dev nD) : W7 m ρ c (Proc.devRef .tc main_arg6) = W6 m ρ c (Proc.devRef .tc main_arg6) := W7_of_ne m ρ c main_arg6 (by decide)
theorem k7_main_arg6 (c : Dev nD) : W7 m ρ c (Proc.devRef .tc main_arg6) = W1 m ρ c (Proc.devRef .tc main_arg6) := (s7_main_arg6 m ρ c).trans (k6_main_arg6 m ρ c)
theorem s8_main_arg6 (c : Dev nD) : W8 m ρ c (Proc.devRef .tc main_arg6) = W7 m ρ c (Proc.devRef .tc main_arg6) := by
  host_keep hostOps2
theorem k8_main_arg6 (c : Dev nD) : W8 m ρ c (Proc.devRef .tc main_arg6) = W1 m ρ c (Proc.devRef .tc main_arg6) := (s8_main_arg6 m ρ c).trans (k7_main_arg6 m ρ c)
theorem s9_main_arg6 (c : Dev nD) : W9 m ρ c (Proc.devRef .tc main_arg6) = W8 m ρ c (Proc.devRef .tc main_arg6) := by
  host_keep hostOps2_1
theorem k9_main_arg6 (c : Dev nD) : W9 m ρ c (Proc.devRef .tc main_arg6) = W1 m ρ c (Proc.devRef .tc main_arg6) := (s9_main_arg6 m ρ c).trans (k8_main_arg6 m ρ c)
theorem s10_main_arg6 (c : Dev nD) : W10 m ρ c (Proc.devRef .tc main_arg6) = W9 m ρ c (Proc.devRef .tc main_arg6) := by
  host_keep hostOps2_2
theorem k10_main_arg6 (c : Dev nD) : W10 m ρ c (Proc.devRef .tc main_arg6) = W1 m ρ c (Proc.devRef .tc main_arg6) := (s10_main_arg6 m ρ c).trans (k9_main_arg6 m ρ c)
theorem s11_main_arg6 (c : Dev nD) : W11 m ρ c (Proc.devRef .tc main_arg6) = W10 m ρ c (Proc.devRef .tc main_arg6) := W11_of_ne m ρ c main_arg6 (by decide)
theorem k11_main_arg6 (c : Dev nD) : W11 m ρ c (Proc.devRef .tc main_arg6) = W1 m ρ c (Proc.devRef .tc main_arg6) := (s11_main_arg6 m ρ c).trans (k10_main_arg6 m ρ c)
theorem s12_main_arg6 (c : Dev nD) : W12 m ρ c (Proc.devRef .tc main_arg6) = W11 m ρ c (Proc.devRef .tc main_arg6) := by
  host_keep hostOps3
theorem k12_main_arg6 (c : Dev nD) : W12 m ρ c (Proc.devRef .tc main_arg6) = W1 m ρ c (Proc.devRef .tc main_arg6) := (s12_main_arg6 m ρ c).trans (k11_main_arg6 m ρ c)
theorem s13_main_arg6 (c : Dev nD) : W13 m ρ c (Proc.devRef .tc main_arg6) = W12 m ρ c (Proc.devRef .tc main_arg6) := W13_of_ne m ρ c main_arg6 (by decide)
theorem k13_main_arg6 (c : Dev nD) : W13 m ρ c (Proc.devRef .tc main_arg6) = W1 m ρ c (Proc.devRef .tc main_arg6) := (s13_main_arg6 m ρ c).trans (k12_main_arg6 m ρ c)
theorem s14_main_arg6 (c : Dev nD) : W14 m ρ c (Proc.devRef .tc main_arg6) = W13 m ρ c (Proc.devRef .tc main_arg6) := by
  host_keep hostOps4
theorem k14_main_arg6 (c : Dev nD) : W14 m ρ c (Proc.devRef .tc main_arg6) = W1 m ρ c (Proc.devRef .tc main_arg6) := (s14_main_arg6 m ρ c).trans (k13_main_arg6 m ρ c)
theorem s15_main_arg6 (c : Dev nD) : W15 m ρ c (Proc.devRef .tc main_arg6) = W14 m ρ c (Proc.devRef .tc main_arg6) := by
  host_keep hostOps4_1
theorem k15_main_arg6 (c : Dev nD) : W15 m ρ c (Proc.devRef .tc main_arg6) = W1 m ρ c (Proc.devRef .tc main_arg6) := (s15_main_arg6 m ρ c).trans (k14_main_arg6 m ρ c)
theorem s16_main_arg6 (c : Dev nD) : W16 m ρ c (Proc.devRef .tc main_arg6) = W15 m ρ c (Proc.devRef .tc main_arg6) := by
  host_keep hostOps4_2
theorem k16_main_arg6 (c : Dev nD) : W16 m ρ c (Proc.devRef .tc main_arg6) = W1 m ρ c (Proc.devRef .tc main_arg6) := (s16_main_arg6 m ρ c).trans (k15_main_arg6 m ρ c)
theorem s17_main_arg6 (c : Dev nD) : W17 m ρ c (Proc.devRef .tc main_arg6) = W16 m ρ c (Proc.devRef .tc main_arg6) := W17_of_ne m ρ c main_arg6 (by decide)
theorem k17_main_arg6 (c : Dev nD) : W17 m ρ c (Proc.devRef .tc main_arg6) = W1 m ρ c (Proc.devRef .tc main_arg6) := (s17_main_arg6 m ρ c).trans (k16_main_arg6 m ρ c)
theorem s18_main_arg6 (c : Dev nD) : W18 m ρ c (Proc.devRef .tc main_arg6) = W17 m ρ c (Proc.devRef .tc main_arg6) := by
  host_keep hostOps5
theorem k18_main_arg6 (c : Dev nD) : W18 m ρ c (Proc.devRef .tc main_arg6) = W1 m ρ c (Proc.devRef .tc main_arg6) := (s18_main_arg6 m ρ c).trans (k17_main_arg6 m ρ c)
theorem s19_main_arg6 (c : Dev nD) : W19 m ρ c (Proc.devRef .tc main_arg6) = W18 m ρ c (Proc.devRef .tc main_arg6) := W19_of_ne m ρ c main_arg6 (by decide)
theorem k19_main_arg6 (c : Dev nD) : W19 m ρ c (Proc.devRef .tc main_arg6) = W1 m ρ c (Proc.devRef .tc main_arg6) := (s19_main_arg6 m ρ c).trans (k18_main_arg6 m ρ c)

/-! ## `main_arg7` -/
theorem s2_main_arg7 (c : Dev nD) : W2 m ρ c (Proc.devRef .tc main_arg7) = W1 m ρ c (Proc.devRef .tc main_arg7) := by
  host_keep hostOps0_1
theorem k2_main_arg7 (c : Dev nD) : W2 m ρ c (Proc.devRef .tc main_arg7) = W1 m ρ c (Proc.devRef .tc main_arg7) := s2_main_arg7 m ρ c
theorem s3_main_arg7 (c : Dev nD) : W3 m ρ c (Proc.devRef .tc main_arg7) = W2 m ρ c (Proc.devRef .tc main_arg7) := by
  host_keep hostOps0_2
theorem k3_main_arg7 (c : Dev nD) : W3 m ρ c (Proc.devRef .tc main_arg7) = W1 m ρ c (Proc.devRef .tc main_arg7) := (s3_main_arg7 m ρ c).trans (k2_main_arg7 m ρ c)
theorem s4_main_arg7 (c : Dev nD) : W4 m ρ c (Proc.devRef .tc main_arg7) = W3 m ρ c (Proc.devRef .tc main_arg7) := by
  host_keep hostOps0_3
theorem k4_main_arg7 (c : Dev nD) : W4 m ρ c (Proc.devRef .tc main_arg7) = W1 m ρ c (Proc.devRef .tc main_arg7) := (s4_main_arg7 m ρ c).trans (k3_main_arg7 m ρ c)
theorem s5_main_arg7 (c : Dev nD) : W5 m ρ c (Proc.devRef .tc main_arg7) = W4 m ρ c (Proc.devRef .tc main_arg7) := W5_of_ne m ρ c main_arg7 (by decide)
theorem k5_main_arg7 (c : Dev nD) : W5 m ρ c (Proc.devRef .tc main_arg7) = W1 m ρ c (Proc.devRef .tc main_arg7) := (s5_main_arg7 m ρ c).trans (k4_main_arg7 m ρ c)
theorem s6_main_arg7 (c : Dev nD) : W6 m ρ c (Proc.devRef .tc main_arg7) = W5 m ρ c (Proc.devRef .tc main_arg7) := by
  host_keep hostOps1
theorem k6_main_arg7 (c : Dev nD) : W6 m ρ c (Proc.devRef .tc main_arg7) = W1 m ρ c (Proc.devRef .tc main_arg7) := (s6_main_arg7 m ρ c).trans (k5_main_arg7 m ρ c)
theorem s7_main_arg7 (c : Dev nD) : W7 m ρ c (Proc.devRef .tc main_arg7) = W6 m ρ c (Proc.devRef .tc main_arg7) := W7_of_ne m ρ c main_arg7 (by decide)
theorem k7_main_arg7 (c : Dev nD) : W7 m ρ c (Proc.devRef .tc main_arg7) = W1 m ρ c (Proc.devRef .tc main_arg7) := (s7_main_arg7 m ρ c).trans (k6_main_arg7 m ρ c)
theorem s8_main_arg7 (c : Dev nD) : W8 m ρ c (Proc.devRef .tc main_arg7) = W7 m ρ c (Proc.devRef .tc main_arg7) := by
  host_keep hostOps2
theorem k8_main_arg7 (c : Dev nD) : W8 m ρ c (Proc.devRef .tc main_arg7) = W1 m ρ c (Proc.devRef .tc main_arg7) := (s8_main_arg7 m ρ c).trans (k7_main_arg7 m ρ c)
theorem s9_main_arg7 (c : Dev nD) : W9 m ρ c (Proc.devRef .tc main_arg7) = W8 m ρ c (Proc.devRef .tc main_arg7) := by
  host_keep hostOps2_1
theorem k9_main_arg7 (c : Dev nD) : W9 m ρ c (Proc.devRef .tc main_arg7) = W1 m ρ c (Proc.devRef .tc main_arg7) := (s9_main_arg7 m ρ c).trans (k8_main_arg7 m ρ c)
theorem s10_main_arg7 (c : Dev nD) : W10 m ρ c (Proc.devRef .tc main_arg7) = W9 m ρ c (Proc.devRef .tc main_arg7) := by
  host_keep hostOps2_2
theorem k10_main_arg7 (c : Dev nD) : W10 m ρ c (Proc.devRef .tc main_arg7) = W1 m ρ c (Proc.devRef .tc main_arg7) := (s10_main_arg7 m ρ c).trans (k9_main_arg7 m ρ c)
theorem s11_main_arg7 (c : Dev nD) : W11 m ρ c (Proc.devRef .tc main_arg7) = W10 m ρ c (Proc.devRef .tc main_arg7) := W11_of_ne m ρ c main_arg7 (by decide)
theorem k11_main_arg7 (c : Dev nD) : W11 m ρ c (Proc.devRef .tc main_arg7) = W1 m ρ c (Proc.devRef .tc main_arg7) := (s11_main_arg7 m ρ c).trans (k10_main_arg7 m ρ c)
theorem s12_main_arg7 (c : Dev nD) : W12 m ρ c (Proc.devRef .tc main_arg7) = W11 m ρ c (Proc.devRef .tc main_arg7) := by
  host_keep hostOps3
theorem k12_main_arg7 (c : Dev nD) : W12 m ρ c (Proc.devRef .tc main_arg7) = W1 m ρ c (Proc.devRef .tc main_arg7) := (s12_main_arg7 m ρ c).trans (k11_main_arg7 m ρ c)
theorem s13_main_arg7 (c : Dev nD) : W13 m ρ c (Proc.devRef .tc main_arg7) = W12 m ρ c (Proc.devRef .tc main_arg7) := W13_of_ne m ρ c main_arg7 (by decide)
theorem k13_main_arg7 (c : Dev nD) : W13 m ρ c (Proc.devRef .tc main_arg7) = W1 m ρ c (Proc.devRef .tc main_arg7) := (s13_main_arg7 m ρ c).trans (k12_main_arg7 m ρ c)
theorem s14_main_arg7 (c : Dev nD) : W14 m ρ c (Proc.devRef .tc main_arg7) = W13 m ρ c (Proc.devRef .tc main_arg7) := by
  host_keep hostOps4
theorem k14_main_arg7 (c : Dev nD) : W14 m ρ c (Proc.devRef .tc main_arg7) = W1 m ρ c (Proc.devRef .tc main_arg7) := (s14_main_arg7 m ρ c).trans (k13_main_arg7 m ρ c)
theorem s15_main_arg7 (c : Dev nD) : W15 m ρ c (Proc.devRef .tc main_arg7) = W14 m ρ c (Proc.devRef .tc main_arg7) := by
  host_keep hostOps4_1
theorem k15_main_arg7 (c : Dev nD) : W15 m ρ c (Proc.devRef .tc main_arg7) = W1 m ρ c (Proc.devRef .tc main_arg7) := (s15_main_arg7 m ρ c).trans (k14_main_arg7 m ρ c)
theorem s16_main_arg7 (c : Dev nD) : W16 m ρ c (Proc.devRef .tc main_arg7) = W15 m ρ c (Proc.devRef .tc main_arg7) := by
  host_keep hostOps4_2
theorem k16_main_arg7 (c : Dev nD) : W16 m ρ c (Proc.devRef .tc main_arg7) = W1 m ρ c (Proc.devRef .tc main_arg7) := (s16_main_arg7 m ρ c).trans (k15_main_arg7 m ρ c)
theorem s17_main_arg7 (c : Dev nD) : W17 m ρ c (Proc.devRef .tc main_arg7) = W16 m ρ c (Proc.devRef .tc main_arg7) := W17_of_ne m ρ c main_arg7 (by decide)
theorem k17_main_arg7 (c : Dev nD) : W17 m ρ c (Proc.devRef .tc main_arg7) = W1 m ρ c (Proc.devRef .tc main_arg7) := (s17_main_arg7 m ρ c).trans (k16_main_arg7 m ρ c)
theorem s18_main_arg7 (c : Dev nD) : W18 m ρ c (Proc.devRef .tc main_arg7) = W17 m ρ c (Proc.devRef .tc main_arg7) := by
  host_keep hostOps5
theorem k18_main_arg7 (c : Dev nD) : W18 m ρ c (Proc.devRef .tc main_arg7) = W1 m ρ c (Proc.devRef .tc main_arg7) := (s18_main_arg7 m ρ c).trans (k17_main_arg7 m ρ c)
theorem s19_main_arg7 (c : Dev nD) : W19 m ρ c (Proc.devRef .tc main_arg7) = W18 m ρ c (Proc.devRef .tc main_arg7) := W19_of_ne m ρ c main_arg7 (by decide)
theorem k19_main_arg7 (c : Dev nD) : W19 m ρ c (Proc.devRef .tc main_arg7) = W1 m ρ c (Proc.devRef .tc main_arg7) := (s19_main_arg7 m ρ c).trans (k18_main_arg7 m ρ c)

/-! ## `main_arg8` -/
theorem s2_main_arg8 (c : Dev nD) : W2 m ρ c (Proc.devRef .tc main_arg8) = W1 m ρ c (Proc.devRef .tc main_arg8) := by
  host_keep hostOps0_1
theorem k2_main_arg8 (c : Dev nD) : W2 m ρ c (Proc.devRef .tc main_arg8) = W1 m ρ c (Proc.devRef .tc main_arg8) := s2_main_arg8 m ρ c
theorem s3_main_arg8 (c : Dev nD) : W3 m ρ c (Proc.devRef .tc main_arg8) = W2 m ρ c (Proc.devRef .tc main_arg8) := by
  host_keep hostOps0_2
theorem k3_main_arg8 (c : Dev nD) : W3 m ρ c (Proc.devRef .tc main_arg8) = W1 m ρ c (Proc.devRef .tc main_arg8) := (s3_main_arg8 m ρ c).trans (k2_main_arg8 m ρ c)
theorem s4_main_arg8 (c : Dev nD) : W4 m ρ c (Proc.devRef .tc main_arg8) = W3 m ρ c (Proc.devRef .tc main_arg8) := by
  host_keep hostOps0_3
theorem k4_main_arg8 (c : Dev nD) : W4 m ρ c (Proc.devRef .tc main_arg8) = W1 m ρ c (Proc.devRef .tc main_arg8) := (s4_main_arg8 m ρ c).trans (k3_main_arg8 m ρ c)
theorem s5_main_arg8 (c : Dev nD) : W5 m ρ c (Proc.devRef .tc main_arg8) = W4 m ρ c (Proc.devRef .tc main_arg8) := W5_of_ne m ρ c main_arg8 (by decide)
theorem k5_main_arg8 (c : Dev nD) : W5 m ρ c (Proc.devRef .tc main_arg8) = W1 m ρ c (Proc.devRef .tc main_arg8) := (s5_main_arg8 m ρ c).trans (k4_main_arg8 m ρ c)
theorem s6_main_arg8 (c : Dev nD) : W6 m ρ c (Proc.devRef .tc main_arg8) = W5 m ρ c (Proc.devRef .tc main_arg8) := by
  host_keep hostOps1
theorem k6_main_arg8 (c : Dev nD) : W6 m ρ c (Proc.devRef .tc main_arg8) = W1 m ρ c (Proc.devRef .tc main_arg8) := (s6_main_arg8 m ρ c).trans (k5_main_arg8 m ρ c)
theorem s7_main_arg8 (c : Dev nD) : W7 m ρ c (Proc.devRef .tc main_arg8) = W6 m ρ c (Proc.devRef .tc main_arg8) := W7_of_ne m ρ c main_arg8 (by decide)
theorem k7_main_arg8 (c : Dev nD) : W7 m ρ c (Proc.devRef .tc main_arg8) = W1 m ρ c (Proc.devRef .tc main_arg8) := (s7_main_arg8 m ρ c).trans (k6_main_arg8 m ρ c)
theorem s8_main_arg8 (c : Dev nD) : W8 m ρ c (Proc.devRef .tc main_arg8) = W7 m ρ c (Proc.devRef .tc main_arg8) := by
  host_keep hostOps2
theorem k8_main_arg8 (c : Dev nD) : W8 m ρ c (Proc.devRef .tc main_arg8) = W1 m ρ c (Proc.devRef .tc main_arg8) := (s8_main_arg8 m ρ c).trans (k7_main_arg8 m ρ c)
theorem s9_main_arg8 (c : Dev nD) : W9 m ρ c (Proc.devRef .tc main_arg8) = W8 m ρ c (Proc.devRef .tc main_arg8) := by
  host_keep hostOps2_1
theorem k9_main_arg8 (c : Dev nD) : W9 m ρ c (Proc.devRef .tc main_arg8) = W1 m ρ c (Proc.devRef .tc main_arg8) := (s9_main_arg8 m ρ c).trans (k8_main_arg8 m ρ c)
theorem s10_main_arg8 (c : Dev nD) : W10 m ρ c (Proc.devRef .tc main_arg8) = W9 m ρ c (Proc.devRef .tc main_arg8) := by
  host_keep hostOps2_2
theorem k10_main_arg8 (c : Dev nD) : W10 m ρ c (Proc.devRef .tc main_arg8) = W1 m ρ c (Proc.devRef .tc main_arg8) := (s10_main_arg8 m ρ c).trans (k9_main_arg8 m ρ c)
theorem s11_main_arg8 (c : Dev nD) : W11 m ρ c (Proc.devRef .tc main_arg8) = W10 m ρ c (Proc.devRef .tc main_arg8) := W11_of_ne m ρ c main_arg8 (by decide)
theorem k11_main_arg8 (c : Dev nD) : W11 m ρ c (Proc.devRef .tc main_arg8) = W1 m ρ c (Proc.devRef .tc main_arg8) := (s11_main_arg8 m ρ c).trans (k10_main_arg8 m ρ c)
theorem s12_main_arg8 (c : Dev nD) : W12 m ρ c (Proc.devRef .tc main_arg8) = W11 m ρ c (Proc.devRef .tc main_arg8) := by
  host_keep hostOps3
theorem k12_main_arg8 (c : Dev nD) : W12 m ρ c (Proc.devRef .tc main_arg8) = W1 m ρ c (Proc.devRef .tc main_arg8) := (s12_main_arg8 m ρ c).trans (k11_main_arg8 m ρ c)
theorem s13_main_arg8 (c : Dev nD) : W13 m ρ c (Proc.devRef .tc main_arg8) = W12 m ρ c (Proc.devRef .tc main_arg8) := W13_of_ne m ρ c main_arg8 (by decide)
theorem k13_main_arg8 (c : Dev nD) : W13 m ρ c (Proc.devRef .tc main_arg8) = W1 m ρ c (Proc.devRef .tc main_arg8) := (s13_main_arg8 m ρ c).trans (k12_main_arg8 m ρ c)
theorem s14_main_arg8 (c : Dev nD) : W14 m ρ c (Proc.devRef .tc main_arg8) = W13 m ρ c (Proc.devRef .tc main_arg8) := by
  host_keep hostOps4
theorem k14_main_arg8 (c : Dev nD) : W14 m ρ c (Proc.devRef .tc main_arg8) = W1 m ρ c (Proc.devRef .tc main_arg8) := (s14_main_arg8 m ρ c).trans (k13_main_arg8 m ρ c)
theorem s15_main_arg8 (c : Dev nD) : W15 m ρ c (Proc.devRef .tc main_arg8) = W14 m ρ c (Proc.devRef .tc main_arg8) := by
  host_keep hostOps4_1
theorem k15_main_arg8 (c : Dev nD) : W15 m ρ c (Proc.devRef .tc main_arg8) = W1 m ρ c (Proc.devRef .tc main_arg8) := (s15_main_arg8 m ρ c).trans (k14_main_arg8 m ρ c)
theorem s16_main_arg8 (c : Dev nD) : W16 m ρ c (Proc.devRef .tc main_arg8) = W15 m ρ c (Proc.devRef .tc main_arg8) := by
  host_keep hostOps4_2
theorem k16_main_arg8 (c : Dev nD) : W16 m ρ c (Proc.devRef .tc main_arg8) = W1 m ρ c (Proc.devRef .tc main_arg8) := (s16_main_arg8 m ρ c).trans (k15_main_arg8 m ρ c)
theorem s17_main_arg8 (c : Dev nD) : W17 m ρ c (Proc.devRef .tc main_arg8) = W16 m ρ c (Proc.devRef .tc main_arg8) := W17_of_ne m ρ c main_arg8 (by decide)
theorem k17_main_arg8 (c : Dev nD) : W17 m ρ c (Proc.devRef .tc main_arg8) = W1 m ρ c (Proc.devRef .tc main_arg8) := (s17_main_arg8 m ρ c).trans (k16_main_arg8 m ρ c)
theorem s18_main_arg8 (c : Dev nD) : W18 m ρ c (Proc.devRef .tc main_arg8) = W17 m ρ c (Proc.devRef .tc main_arg8) := by
  host_keep hostOps5
theorem k18_main_arg8 (c : Dev nD) : W18 m ρ c (Proc.devRef .tc main_arg8) = W1 m ρ c (Proc.devRef .tc main_arg8) := (s18_main_arg8 m ρ c).trans (k17_main_arg8 m ρ c)
theorem s19_main_arg8 (c : Dev nD) : W19 m ρ c (Proc.devRef .tc main_arg8) = W18 m ρ c (Proc.devRef .tc main_arg8) := W19_of_ne m ρ c main_arg8 (by decide)
theorem k19_main_arg8 (c : Dev nD) : W19 m ρ c (Proc.devRef .tc main_arg8) = W1 m ρ c (Proc.devRef .tc main_arg8) := (s19_main_arg8 m ρ c).trans (k18_main_arg8 m ρ c)

/-! ## `main_arg9` -/
theorem s2_main_arg9 (c : Dev nD) : W2 m ρ c (Proc.devRef .tc main_arg9) = W1 m ρ c (Proc.devRef .tc main_arg9) := by
  host_keep hostOps0_1
theorem k2_main_arg9 (c : Dev nD) : W2 m ρ c (Proc.devRef .tc main_arg9) = W1 m ρ c (Proc.devRef .tc main_arg9) := s2_main_arg9 m ρ c
theorem s3_main_arg9 (c : Dev nD) : W3 m ρ c (Proc.devRef .tc main_arg9) = W2 m ρ c (Proc.devRef .tc main_arg9) := by
  host_keep hostOps0_2
theorem k3_main_arg9 (c : Dev nD) : W3 m ρ c (Proc.devRef .tc main_arg9) = W1 m ρ c (Proc.devRef .tc main_arg9) := (s3_main_arg9 m ρ c).trans (k2_main_arg9 m ρ c)
theorem s4_main_arg9 (c : Dev nD) : W4 m ρ c (Proc.devRef .tc main_arg9) = W3 m ρ c (Proc.devRef .tc main_arg9) := by
  host_keep hostOps0_3
theorem k4_main_arg9 (c : Dev nD) : W4 m ρ c (Proc.devRef .tc main_arg9) = W1 m ρ c (Proc.devRef .tc main_arg9) := (s4_main_arg9 m ρ c).trans (k3_main_arg9 m ρ c)
theorem s5_main_arg9 (c : Dev nD) : W5 m ρ c (Proc.devRef .tc main_arg9) = W4 m ρ c (Proc.devRef .tc main_arg9) := W5_of_ne m ρ c main_arg9 (by decide)
theorem k5_main_arg9 (c : Dev nD) : W5 m ρ c (Proc.devRef .tc main_arg9) = W1 m ρ c (Proc.devRef .tc main_arg9) := (s5_main_arg9 m ρ c).trans (k4_main_arg9 m ρ c)
theorem s6_main_arg9 (c : Dev nD) : W6 m ρ c (Proc.devRef .tc main_arg9) = W5 m ρ c (Proc.devRef .tc main_arg9) := by
  host_keep hostOps1
theorem k6_main_arg9 (c : Dev nD) : W6 m ρ c (Proc.devRef .tc main_arg9) = W1 m ρ c (Proc.devRef .tc main_arg9) := (s6_main_arg9 m ρ c).trans (k5_main_arg9 m ρ c)
theorem s7_main_arg9 (c : Dev nD) : W7 m ρ c (Proc.devRef .tc main_arg9) = W6 m ρ c (Proc.devRef .tc main_arg9) := W7_of_ne m ρ c main_arg9 (by decide)
theorem k7_main_arg9 (c : Dev nD) : W7 m ρ c (Proc.devRef .tc main_arg9) = W1 m ρ c (Proc.devRef .tc main_arg9) := (s7_main_arg9 m ρ c).trans (k6_main_arg9 m ρ c)
theorem s8_main_arg9 (c : Dev nD) : W8 m ρ c (Proc.devRef .tc main_arg9) = W7 m ρ c (Proc.devRef .tc main_arg9) := by
  host_keep hostOps2
theorem k8_main_arg9 (c : Dev nD) : W8 m ρ c (Proc.devRef .tc main_arg9) = W1 m ρ c (Proc.devRef .tc main_arg9) := (s8_main_arg9 m ρ c).trans (k7_main_arg9 m ρ c)
theorem s9_main_arg9 (c : Dev nD) : W9 m ρ c (Proc.devRef .tc main_arg9) = W8 m ρ c (Proc.devRef .tc main_arg9) := by
  host_keep hostOps2_1
theorem k9_main_arg9 (c : Dev nD) : W9 m ρ c (Proc.devRef .tc main_arg9) = W1 m ρ c (Proc.devRef .tc main_arg9) := (s9_main_arg9 m ρ c).trans (k8_main_arg9 m ρ c)
theorem s10_main_arg9 (c : Dev nD) : W10 m ρ c (Proc.devRef .tc main_arg9) = W9 m ρ c (Proc.devRef .tc main_arg9) := by
  host_keep hostOps2_2
theorem k10_main_arg9 (c : Dev nD) : W10 m ρ c (Proc.devRef .tc main_arg9) = W1 m ρ c (Proc.devRef .tc main_arg9) := (s10_main_arg9 m ρ c).trans (k9_main_arg9 m ρ c)
theorem s11_main_arg9 (c : Dev nD) : W11 m ρ c (Proc.devRef .tc main_arg9) = W10 m ρ c (Proc.devRef .tc main_arg9) := W11_of_ne m ρ c main_arg9 (by decide)
theorem k11_main_arg9 (c : Dev nD) : W11 m ρ c (Proc.devRef .tc main_arg9) = W1 m ρ c (Proc.devRef .tc main_arg9) := (s11_main_arg9 m ρ c).trans (k10_main_arg9 m ρ c)
theorem s12_main_arg9 (c : Dev nD) : W12 m ρ c (Proc.devRef .tc main_arg9) = W11 m ρ c (Proc.devRef .tc main_arg9) := by
  host_keep hostOps3
theorem k12_main_arg9 (c : Dev nD) : W12 m ρ c (Proc.devRef .tc main_arg9) = W1 m ρ c (Proc.devRef .tc main_arg9) := (s12_main_arg9 m ρ c).trans (k11_main_arg9 m ρ c)
theorem s13_main_arg9 (c : Dev nD) : W13 m ρ c (Proc.devRef .tc main_arg9) = W12 m ρ c (Proc.devRef .tc main_arg9) := W13_of_ne m ρ c main_arg9 (by decide)
theorem k13_main_arg9 (c : Dev nD) : W13 m ρ c (Proc.devRef .tc main_arg9) = W1 m ρ c (Proc.devRef .tc main_arg9) := (s13_main_arg9 m ρ c).trans (k12_main_arg9 m ρ c)
theorem s14_main_arg9 (c : Dev nD) : W14 m ρ c (Proc.devRef .tc main_arg9) = W13 m ρ c (Proc.devRef .tc main_arg9) := by
  host_keep hostOps4
theorem k14_main_arg9 (c : Dev nD) : W14 m ρ c (Proc.devRef .tc main_arg9) = W1 m ρ c (Proc.devRef .tc main_arg9) := (s14_main_arg9 m ρ c).trans (k13_main_arg9 m ρ c)
theorem s15_main_arg9 (c : Dev nD) : W15 m ρ c (Proc.devRef .tc main_arg9) = W14 m ρ c (Proc.devRef .tc main_arg9) := by
  host_keep hostOps4_1
theorem k15_main_arg9 (c : Dev nD) : W15 m ρ c (Proc.devRef .tc main_arg9) = W1 m ρ c (Proc.devRef .tc main_arg9) := (s15_main_arg9 m ρ c).trans (k14_main_arg9 m ρ c)
theorem s16_main_arg9 (c : Dev nD) : W16 m ρ c (Proc.devRef .tc main_arg9) = W15 m ρ c (Proc.devRef .tc main_arg9) := by
  host_keep hostOps4_2
theorem k16_main_arg9 (c : Dev nD) : W16 m ρ c (Proc.devRef .tc main_arg9) = W1 m ρ c (Proc.devRef .tc main_arg9) := (s16_main_arg9 m ρ c).trans (k15_main_arg9 m ρ c)
theorem s17_main_arg9 (c : Dev nD) : W17 m ρ c (Proc.devRef .tc main_arg9) = W16 m ρ c (Proc.devRef .tc main_arg9) := W17_of_ne m ρ c main_arg9 (by decide)
theorem k17_main_arg9 (c : Dev nD) : W17 m ρ c (Proc.devRef .tc main_arg9) = W1 m ρ c (Proc.devRef .tc main_arg9) := (s17_main_arg9 m ρ c).trans (k16_main_arg9 m ρ c)
theorem s18_main_arg9 (c : Dev nD) : W18 m ρ c (Proc.devRef .tc main_arg9) = W17 m ρ c (Proc.devRef .tc main_arg9) := by
  host_keep hostOps5
theorem k18_main_arg9 (c : Dev nD) : W18 m ρ c (Proc.devRef .tc main_arg9) = W1 m ρ c (Proc.devRef .tc main_arg9) := (s18_main_arg9 m ρ c).trans (k17_main_arg9 m ρ c)
theorem s19_main_arg9 (c : Dev nD) : W19 m ρ c (Proc.devRef .tc main_arg9) = W18 m ρ c (Proc.devRef .tc main_arg9) := W19_of_ne m ρ c main_arg9 (by decide)
theorem k19_main_arg9 (c : Dev nD) : W19 m ρ c (Proc.devRef .tc main_arg9) = W1 m ρ c (Proc.devRef .tc main_arg9) := (s19_main_arg9 m ρ c).trans (k18_main_arg9 m ρ c)

/-! ## `main_arg10` -/
theorem s2_main_arg10 (c : Dev nD) : W2 m ρ c (Proc.devRef .tc main_arg10) = W1 m ρ c (Proc.devRef .tc main_arg10) := by
  host_keep hostOps0_1
theorem k2_main_arg10 (c : Dev nD) : W2 m ρ c (Proc.devRef .tc main_arg10) = W1 m ρ c (Proc.devRef .tc main_arg10) := s2_main_arg10 m ρ c
theorem s3_main_arg10 (c : Dev nD) : W3 m ρ c (Proc.devRef .tc main_arg10) = W2 m ρ c (Proc.devRef .tc main_arg10) := by
  host_keep hostOps0_2
theorem k3_main_arg10 (c : Dev nD) : W3 m ρ c (Proc.devRef .tc main_arg10) = W1 m ρ c (Proc.devRef .tc main_arg10) := (s3_main_arg10 m ρ c).trans (k2_main_arg10 m ρ c)
theorem s4_main_arg10 (c : Dev nD) : W4 m ρ c (Proc.devRef .tc main_arg10) = W3 m ρ c (Proc.devRef .tc main_arg10) := by
  host_keep hostOps0_3
theorem k4_main_arg10 (c : Dev nD) : W4 m ρ c (Proc.devRef .tc main_arg10) = W1 m ρ c (Proc.devRef .tc main_arg10) := (s4_main_arg10 m ρ c).trans (k3_main_arg10 m ρ c)
theorem s5_main_arg10 (c : Dev nD) : W5 m ρ c (Proc.devRef .tc main_arg10) = W4 m ρ c (Proc.devRef .tc main_arg10) := W5_of_ne m ρ c main_arg10 (by decide)
theorem k5_main_arg10 (c : Dev nD) : W5 m ρ c (Proc.devRef .tc main_arg10) = W1 m ρ c (Proc.devRef .tc main_arg10) := (s5_main_arg10 m ρ c).trans (k4_main_arg10 m ρ c)
theorem s6_main_arg10 (c : Dev nD) : W6 m ρ c (Proc.devRef .tc main_arg10) = W5 m ρ c (Proc.devRef .tc main_arg10) := by
  host_keep hostOps1
theorem k6_main_arg10 (c : Dev nD) : W6 m ρ c (Proc.devRef .tc main_arg10) = W1 m ρ c (Proc.devRef .tc main_arg10) := (s6_main_arg10 m ρ c).trans (k5_main_arg10 m ρ c)
theorem s7_main_arg10 (c : Dev nD) : W7 m ρ c (Proc.devRef .tc main_arg10) = W6 m ρ c (Proc.devRef .tc main_arg10) := W7_of_ne m ρ c main_arg10 (by decide)
theorem k7_main_arg10 (c : Dev nD) : W7 m ρ c (Proc.devRef .tc main_arg10) = W1 m ρ c (Proc.devRef .tc main_arg10) := (s7_main_arg10 m ρ c).trans (k6_main_arg10 m ρ c)
theorem s8_main_arg10 (c : Dev nD) : W8 m ρ c (Proc.devRef .tc main_arg10) = W7 m ρ c (Proc.devRef .tc main_arg10) := by
  host_keep hostOps2
theorem k8_main_arg10 (c : Dev nD) : W8 m ρ c (Proc.devRef .tc main_arg10) = W1 m ρ c (Proc.devRef .tc main_arg10) := (s8_main_arg10 m ρ c).trans (k7_main_arg10 m ρ c)
theorem s9_main_arg10 (c : Dev nD) : W9 m ρ c (Proc.devRef .tc main_arg10) = W8 m ρ c (Proc.devRef .tc main_arg10) := by
  host_keep hostOps2_1
theorem k9_main_arg10 (c : Dev nD) : W9 m ρ c (Proc.devRef .tc main_arg10) = W1 m ρ c (Proc.devRef .tc main_arg10) := (s9_main_arg10 m ρ c).trans (k8_main_arg10 m ρ c)
theorem s10_main_arg10 (c : Dev nD) : W10 m ρ c (Proc.devRef .tc main_arg10) = W9 m ρ c (Proc.devRef .tc main_arg10) := by
  host_keep hostOps2_2
theorem k10_main_arg10 (c : Dev nD) : W10 m ρ c (Proc.devRef .tc main_arg10) = W1 m ρ c (Proc.devRef .tc main_arg10) := (s10_main_arg10 m ρ c).trans (k9_main_arg10 m ρ c)
theorem s11_main_arg10 (c : Dev nD) : W11 m ρ c (Proc.devRef .tc main_arg10) = W10 m ρ c (Proc.devRef .tc main_arg10) := W11_of_ne m ρ c main_arg10 (by decide)
theorem k11_main_arg10 (c : Dev nD) : W11 m ρ c (Proc.devRef .tc main_arg10) = W1 m ρ c (Proc.devRef .tc main_arg10) := (s11_main_arg10 m ρ c).trans (k10_main_arg10 m ρ c)
theorem s12_main_arg10 (c : Dev nD) : W12 m ρ c (Proc.devRef .tc main_arg10) = W11 m ρ c (Proc.devRef .tc main_arg10) := by
  host_keep hostOps3
theorem k12_main_arg10 (c : Dev nD) : W12 m ρ c (Proc.devRef .tc main_arg10) = W1 m ρ c (Proc.devRef .tc main_arg10) := (s12_main_arg10 m ρ c).trans (k11_main_arg10 m ρ c)
theorem s13_main_arg10 (c : Dev nD) : W13 m ρ c (Proc.devRef .tc main_arg10) = W12 m ρ c (Proc.devRef .tc main_arg10) := W13_of_ne m ρ c main_arg10 (by decide)
theorem k13_main_arg10 (c : Dev nD) : W13 m ρ c (Proc.devRef .tc main_arg10) = W1 m ρ c (Proc.devRef .tc main_arg10) := (s13_main_arg10 m ρ c).trans (k12_main_arg10 m ρ c)
theorem s14_main_arg10 (c : Dev nD) : W14 m ρ c (Proc.devRef .tc main_arg10) = W13 m ρ c (Proc.devRef .tc main_arg10) := by
  host_keep hostOps4
theorem k14_main_arg10 (c : Dev nD) : W14 m ρ c (Proc.devRef .tc main_arg10) = W1 m ρ c (Proc.devRef .tc main_arg10) := (s14_main_arg10 m ρ c).trans (k13_main_arg10 m ρ c)
theorem s15_main_arg10 (c : Dev nD) : W15 m ρ c (Proc.devRef .tc main_arg10) = W14 m ρ c (Proc.devRef .tc main_arg10) := by
  host_keep hostOps4_1
theorem k15_main_arg10 (c : Dev nD) : W15 m ρ c (Proc.devRef .tc main_arg10) = W1 m ρ c (Proc.devRef .tc main_arg10) := (s15_main_arg10 m ρ c).trans (k14_main_arg10 m ρ c)
theorem s16_main_arg10 (c : Dev nD) : W16 m ρ c (Proc.devRef .tc main_arg10) = W15 m ρ c (Proc.devRef .tc main_arg10) := by
  host_keep hostOps4_2
theorem k16_main_arg10 (c : Dev nD) : W16 m ρ c (Proc.devRef .tc main_arg10) = W1 m ρ c (Proc.devRef .tc main_arg10) := (s16_main_arg10 m ρ c).trans (k15_main_arg10 m ρ c)
theorem s17_main_arg10 (c : Dev nD) : W17 m ρ c (Proc.devRef .tc main_arg10) = W16 m ρ c (Proc.devRef .tc main_arg10) := W17_of_ne m ρ c main_arg10 (by decide)
theorem k17_main_arg10 (c : Dev nD) : W17 m ρ c (Proc.devRef .tc main_arg10) = W1 m ρ c (Proc.devRef .tc main_arg10) := (s17_main_arg10 m ρ c).trans (k16_main_arg10 m ρ c)
theorem s18_main_arg10 (c : Dev nD) : W18 m ρ c (Proc.devRef .tc main_arg10) = W17 m ρ c (Proc.devRef .tc main_arg10) := by
  host_keep hostOps5
theorem k18_main_arg10 (c : Dev nD) : W18 m ρ c (Proc.devRef .tc main_arg10) = W1 m ρ c (Proc.devRef .tc main_arg10) := (s18_main_arg10 m ρ c).trans (k17_main_arg10 m ρ c)
theorem s19_main_arg10 (c : Dev nD) : W19 m ρ c (Proc.devRef .tc main_arg10) = W18 m ρ c (Proc.devRef .tc main_arg10) := W19_of_ne m ρ c main_arg10 (by decide)
theorem k19_main_arg10 (c : Dev nD) : W19 m ρ c (Proc.devRef .tc main_arg10) = W1 m ρ c (Proc.devRef .tc main_arg10) := (s19_main_arg10 m ρ c).trans (k18_main_arg10 m ρ c)

/-! ## `main_arg11` -/
theorem s2_main_arg11 (c : Dev nD) : W2 m ρ c (Proc.devRef .tc main_arg11) = W1 m ρ c (Proc.devRef .tc main_arg11) := by
  host_keep hostOps0_1
theorem k2_main_arg11 (c : Dev nD) : W2 m ρ c (Proc.devRef .tc main_arg11) = W1 m ρ c (Proc.devRef .tc main_arg11) := s2_main_arg11 m ρ c
theorem s3_main_arg11 (c : Dev nD) : W3 m ρ c (Proc.devRef .tc main_arg11) = W2 m ρ c (Proc.devRef .tc main_arg11) := by
  host_keep hostOps0_2
theorem k3_main_arg11 (c : Dev nD) : W3 m ρ c (Proc.devRef .tc main_arg11) = W1 m ρ c (Proc.devRef .tc main_arg11) := (s3_main_arg11 m ρ c).trans (k2_main_arg11 m ρ c)
theorem s4_main_arg11 (c : Dev nD) : W4 m ρ c (Proc.devRef .tc main_arg11) = W3 m ρ c (Proc.devRef .tc main_arg11) := by
  host_keep hostOps0_3
theorem k4_main_arg11 (c : Dev nD) : W4 m ρ c (Proc.devRef .tc main_arg11) = W1 m ρ c (Proc.devRef .tc main_arg11) := (s4_main_arg11 m ρ c).trans (k3_main_arg11 m ρ c)
theorem s5_main_arg11 (c : Dev nD) : W5 m ρ c (Proc.devRef .tc main_arg11) = W4 m ρ c (Proc.devRef .tc main_arg11) := W5_of_ne m ρ c main_arg11 (by decide)
theorem k5_main_arg11 (c : Dev nD) : W5 m ρ c (Proc.devRef .tc main_arg11) = W1 m ρ c (Proc.devRef .tc main_arg11) := (s5_main_arg11 m ρ c).trans (k4_main_arg11 m ρ c)
theorem s6_main_arg11 (c : Dev nD) : W6 m ρ c (Proc.devRef .tc main_arg11) = W5 m ρ c (Proc.devRef .tc main_arg11) := by
  host_keep hostOps1
theorem k6_main_arg11 (c : Dev nD) : W6 m ρ c (Proc.devRef .tc main_arg11) = W1 m ρ c (Proc.devRef .tc main_arg11) := (s6_main_arg11 m ρ c).trans (k5_main_arg11 m ρ c)
theorem s7_main_arg11 (c : Dev nD) : W7 m ρ c (Proc.devRef .tc main_arg11) = W6 m ρ c (Proc.devRef .tc main_arg11) := W7_of_ne m ρ c main_arg11 (by decide)
theorem k7_main_arg11 (c : Dev nD) : W7 m ρ c (Proc.devRef .tc main_arg11) = W1 m ρ c (Proc.devRef .tc main_arg11) := (s7_main_arg11 m ρ c).trans (k6_main_arg11 m ρ c)
theorem s8_main_arg11 (c : Dev nD) : W8 m ρ c (Proc.devRef .tc main_arg11) = W7 m ρ c (Proc.devRef .tc main_arg11) := by
  host_keep hostOps2
theorem k8_main_arg11 (c : Dev nD) : W8 m ρ c (Proc.devRef .tc main_arg11) = W1 m ρ c (Proc.devRef .tc main_arg11) := (s8_main_arg11 m ρ c).trans (k7_main_arg11 m ρ c)
theorem s9_main_arg11 (c : Dev nD) : W9 m ρ c (Proc.devRef .tc main_arg11) = W8 m ρ c (Proc.devRef .tc main_arg11) := by
  host_keep hostOps2_1
theorem k9_main_arg11 (c : Dev nD) : W9 m ρ c (Proc.devRef .tc main_arg11) = W1 m ρ c (Proc.devRef .tc main_arg11) := (s9_main_arg11 m ρ c).trans (k8_main_arg11 m ρ c)
theorem s10_main_arg11 (c : Dev nD) : W10 m ρ c (Proc.devRef .tc main_arg11) = W9 m ρ c (Proc.devRef .tc main_arg11) := by
  host_keep hostOps2_2
theorem k10_main_arg11 (c : Dev nD) : W10 m ρ c (Proc.devRef .tc main_arg11) = W1 m ρ c (Proc.devRef .tc main_arg11) := (s10_main_arg11 m ρ c).trans (k9_main_arg11 m ρ c)
theorem s11_main_arg11 (c : Dev nD) : W11 m ρ c (Proc.devRef .tc main_arg11) = W10 m ρ c (Proc.devRef .tc main_arg11) := W11_of_ne m ρ c main_arg11 (by decide)
theorem k11_main_arg11 (c : Dev nD) : W11 m ρ c (Proc.devRef .tc main_arg11) = W1 m ρ c (Proc.devRef .tc main_arg11) := (s11_main_arg11 m ρ c).trans (k10_main_arg11 m ρ c)
theorem s12_main_arg11 (c : Dev nD) : W12 m ρ c (Proc.devRef .tc main_arg11) = W11 m ρ c (Proc.devRef .tc main_arg11) := by
  host_keep hostOps3
theorem k12_main_arg11 (c : Dev nD) : W12 m ρ c (Proc.devRef .tc main_arg11) = W1 m ρ c (Proc.devRef .tc main_arg11) := (s12_main_arg11 m ρ c).trans (k11_main_arg11 m ρ c)
theorem s13_main_arg11 (c : Dev nD) : W13 m ρ c (Proc.devRef .tc main_arg11) = W12 m ρ c (Proc.devRef .tc main_arg11) := W13_of_ne m ρ c main_arg11 (by decide)
theorem k13_main_arg11 (c : Dev nD) : W13 m ρ c (Proc.devRef .tc main_arg11) = W1 m ρ c (Proc.devRef .tc main_arg11) := (s13_main_arg11 m ρ c).trans (k12_main_arg11 m ρ c)
theorem s14_main_arg11 (c : Dev nD) : W14 m ρ c (Proc.devRef .tc main_arg11) = W13 m ρ c (Proc.devRef .tc main_arg11) := by
  host_keep hostOps4
theorem k14_main_arg11 (c : Dev nD) : W14 m ρ c (Proc.devRef .tc main_arg11) = W1 m ρ c (Proc.devRef .tc main_arg11) := (s14_main_arg11 m ρ c).trans (k13_main_arg11 m ρ c)
theorem s15_main_arg11 (c : Dev nD) : W15 m ρ c (Proc.devRef .tc main_arg11) = W14 m ρ c (Proc.devRef .tc main_arg11) := by
  host_keep hostOps4_1
theorem k15_main_arg11 (c : Dev nD) : W15 m ρ c (Proc.devRef .tc main_arg11) = W1 m ρ c (Proc.devRef .tc main_arg11) := (s15_main_arg11 m ρ c).trans (k14_main_arg11 m ρ c)
theorem s16_main_arg11 (c : Dev nD) : W16 m ρ c (Proc.devRef .tc main_arg11) = W15 m ρ c (Proc.devRef .tc main_arg11) := by
  host_keep hostOps4_2
theorem k16_main_arg11 (c : Dev nD) : W16 m ρ c (Proc.devRef .tc main_arg11) = W1 m ρ c (Proc.devRef .tc main_arg11) := (s16_main_arg11 m ρ c).trans (k15_main_arg11 m ρ c)
theorem s17_main_arg11 (c : Dev nD) : W17 m ρ c (Proc.devRef .tc main_arg11) = W16 m ρ c (Proc.devRef .tc main_arg11) := W17_of_ne m ρ c main_arg11 (by decide)
theorem k17_main_arg11 (c : Dev nD) : W17 m ρ c (Proc.devRef .tc main_arg11) = W1 m ρ c (Proc.devRef .tc main_arg11) := (s17_main_arg11 m ρ c).trans (k16_main_arg11 m ρ c)
theorem s18_main_arg11 (c : Dev nD) : W18 m ρ c (Proc.devRef .tc main_arg11) = W17 m ρ c (Proc.devRef .tc main_arg11) := by
  host_keep hostOps5
theorem k18_main_arg11 (c : Dev nD) : W18 m ρ c (Proc.devRef .tc main_arg11) = W1 m ρ c (Proc.devRef .tc main_arg11) := (s18_main_arg11 m ρ c).trans (k17_main_arg11 m ρ c)
theorem s19_main_arg11 (c : Dev nD) : W19 m ρ c (Proc.devRef .tc main_arg11) = W18 m ρ c (Proc.devRef .tc main_arg11) := W19_of_ne m ρ c main_arg11 (by decide)
theorem k19_main_arg11 (c : Dev nD) : W19 m ρ c (Proc.devRef .tc main_arg11) = W1 m ρ c (Proc.devRef .tc main_arg11) := (s19_main_arg11 m ρ c).trans (k18_main_arg11 m ρ c)

/-! ## `main_arg12` -/
theorem s2_main_arg12 (c : Dev nD) : W2 m ρ c (Proc.devRef .tc main_arg12) = W1 m ρ c (Proc.devRef .tc main_arg12) := by
  host_keep hostOps0_1
theorem k2_main_arg12 (c : Dev nD) : W2 m ρ c (Proc.devRef .tc main_arg12) = W1 m ρ c (Proc.devRef .tc main_arg12) := s2_main_arg12 m ρ c
theorem s3_main_arg12 (c : Dev nD) : W3 m ρ c (Proc.devRef .tc main_arg12) = W2 m ρ c (Proc.devRef .tc main_arg12) := by
  host_keep hostOps0_2
theorem k3_main_arg12 (c : Dev nD) : W3 m ρ c (Proc.devRef .tc main_arg12) = W1 m ρ c (Proc.devRef .tc main_arg12) := (s3_main_arg12 m ρ c).trans (k2_main_arg12 m ρ c)
theorem s4_main_arg12 (c : Dev nD) : W4 m ρ c (Proc.devRef .tc main_arg12) = W3 m ρ c (Proc.devRef .tc main_arg12) := by
  host_keep hostOps0_3
theorem k4_main_arg12 (c : Dev nD) : W4 m ρ c (Proc.devRef .tc main_arg12) = W1 m ρ c (Proc.devRef .tc main_arg12) := (s4_main_arg12 m ρ c).trans (k3_main_arg12 m ρ c)
theorem s5_main_arg12 (c : Dev nD) : W5 m ρ c (Proc.devRef .tc main_arg12) = W4 m ρ c (Proc.devRef .tc main_arg12) := W5_of_ne m ρ c main_arg12 (by decide)
theorem k5_main_arg12 (c : Dev nD) : W5 m ρ c (Proc.devRef .tc main_arg12) = W1 m ρ c (Proc.devRef .tc main_arg12) := (s5_main_arg12 m ρ c).trans (k4_main_arg12 m ρ c)
theorem s6_main_arg12 (c : Dev nD) : W6 m ρ c (Proc.devRef .tc main_arg12) = W5 m ρ c (Proc.devRef .tc main_arg12) := by
  host_keep hostOps1
theorem k6_main_arg12 (c : Dev nD) : W6 m ρ c (Proc.devRef .tc main_arg12) = W1 m ρ c (Proc.devRef .tc main_arg12) := (s6_main_arg12 m ρ c).trans (k5_main_arg12 m ρ c)
theorem s7_main_arg12 (c : Dev nD) : W7 m ρ c (Proc.devRef .tc main_arg12) = W6 m ρ c (Proc.devRef .tc main_arg12) := W7_of_ne m ρ c main_arg12 (by decide)
theorem k7_main_arg12 (c : Dev nD) : W7 m ρ c (Proc.devRef .tc main_arg12) = W1 m ρ c (Proc.devRef .tc main_arg12) := (s7_main_arg12 m ρ c).trans (k6_main_arg12 m ρ c)
theorem s8_main_arg12 (c : Dev nD) : W8 m ρ c (Proc.devRef .tc main_arg12) = W7 m ρ c (Proc.devRef .tc main_arg12) := by
  host_keep hostOps2
theorem k8_main_arg12 (c : Dev nD) : W8 m ρ c (Proc.devRef .tc main_arg12) = W1 m ρ c (Proc.devRef .tc main_arg12) := (s8_main_arg12 m ρ c).trans (k7_main_arg12 m ρ c)
theorem s9_main_arg12 (c : Dev nD) : W9 m ρ c (Proc.devRef .tc main_arg12) = W8 m ρ c (Proc.devRef .tc main_arg12) := by
  host_keep hostOps2_1
theorem k9_main_arg12 (c : Dev nD) : W9 m ρ c (Proc.devRef .tc main_arg12) = W1 m ρ c (Proc.devRef .tc main_arg12) := (s9_main_arg12 m ρ c).trans (k8_main_arg12 m ρ c)
theorem s10_main_arg12 (c : Dev nD) : W10 m ρ c (Proc.devRef .tc main_arg12) = W9 m ρ c (Proc.devRef .tc main_arg12) := by
  host_keep hostOps2_2
theorem k10_main_arg12 (c : Dev nD) : W10 m ρ c (Proc.devRef .tc main_arg12) = W1 m ρ c (Proc.devRef .tc main_arg12) := (s10_main_arg12 m ρ c).trans (k9_main_arg12 m ρ c)
theorem s11_main_arg12 (c : Dev nD) : W11 m ρ c (Proc.devRef .tc main_arg12) = W10 m ρ c (Proc.devRef .tc main_arg12) := W11_of_ne m ρ c main_arg12 (by decide)
theorem k11_main_arg12 (c : Dev nD) : W11 m ρ c (Proc.devRef .tc main_arg12) = W1 m ρ c (Proc.devRef .tc main_arg12) := (s11_main_arg12 m ρ c).trans (k10_main_arg12 m ρ c)
theorem s12_main_arg12 (c : Dev nD) : W12 m ρ c (Proc.devRef .tc main_arg12) = W11 m ρ c (Proc.devRef .tc main_arg12) := by
  host_keep hostOps3
theorem k12_main_arg12 (c : Dev nD) : W12 m ρ c (Proc.devRef .tc main_arg12) = W1 m ρ c (Proc.devRef .tc main_arg12) := (s12_main_arg12 m ρ c).trans (k11_main_arg12 m ρ c)
theorem s13_main_arg12 (c : Dev nD) : W13 m ρ c (Proc.devRef .tc main_arg12) = W12 m ρ c (Proc.devRef .tc main_arg12) := W13_of_ne m ρ c main_arg12 (by decide)
theorem k13_main_arg12 (c : Dev nD) : W13 m ρ c (Proc.devRef .tc main_arg12) = W1 m ρ c (Proc.devRef .tc main_arg12) := (s13_main_arg12 m ρ c).trans (k12_main_arg12 m ρ c)
theorem s14_main_arg12 (c : Dev nD) : W14 m ρ c (Proc.devRef .tc main_arg12) = W13 m ρ c (Proc.devRef .tc main_arg12) := by
  host_keep hostOps4
theorem k14_main_arg12 (c : Dev nD) : W14 m ρ c (Proc.devRef .tc main_arg12) = W1 m ρ c (Proc.devRef .tc main_arg12) := (s14_main_arg12 m ρ c).trans (k13_main_arg12 m ρ c)
theorem s15_main_arg12 (c : Dev nD) : W15 m ρ c (Proc.devRef .tc main_arg12) = W14 m ρ c (Proc.devRef .tc main_arg12) := by
  host_keep hostOps4_1
theorem k15_main_arg12 (c : Dev nD) : W15 m ρ c (Proc.devRef .tc main_arg12) = W1 m ρ c (Proc.devRef .tc main_arg12) := (s15_main_arg12 m ρ c).trans (k14_main_arg12 m ρ c)
theorem s16_main_arg12 (c : Dev nD) : W16 m ρ c (Proc.devRef .tc main_arg12) = W15 m ρ c (Proc.devRef .tc main_arg12) := by
  host_keep hostOps4_2
theorem k16_main_arg12 (c : Dev nD) : W16 m ρ c (Proc.devRef .tc main_arg12) = W1 m ρ c (Proc.devRef .tc main_arg12) := (s16_main_arg12 m ρ c).trans (k15_main_arg12 m ρ c)
theorem s17_main_arg12 (c : Dev nD) : W17 m ρ c (Proc.devRef .tc main_arg12) = W16 m ρ c (Proc.devRef .tc main_arg12) := W17_of_ne m ρ c main_arg12 (by decide)
theorem k17_main_arg12 (c : Dev nD) : W17 m ρ c (Proc.devRef .tc main_arg12) = W1 m ρ c (Proc.devRef .tc main_arg12) := (s17_main_arg12 m ρ c).trans (k16_main_arg12 m ρ c)
theorem s18_main_arg12 (c : Dev nD) : W18 m ρ c (Proc.devRef .tc main_arg12) = W17 m ρ c (Proc.devRef .tc main_arg12) := by
  host_keep hostOps5
theorem k18_main_arg12 (c : Dev nD) : W18 m ρ c (Proc.devRef .tc main_arg12) = W1 m ρ c (Proc.devRef .tc main_arg12) := (s18_main_arg12 m ρ c).trans (k17_main_arg12 m ρ c)
theorem s19_main_arg12 (c : Dev nD) : W19 m ρ c (Proc.devRef .tc main_arg12) = W18 m ρ c (Proc.devRef .tc main_arg12) := W19_of_ne m ρ c main_arg12 (by decide)
theorem k19_main_arg12 (c : Dev nD) : W19 m ρ c (Proc.devRef .tc main_arg12) = W1 m ρ c (Proc.devRef .tc main_arg12) := (s19_main_arg12 m ρ c).trans (k18_main_arg12 m ρ c)

/-! ## `main_arg13` -/
theorem s2_main_arg13 (c : Dev nD) : W2 m ρ c (Proc.devRef .tc main_arg13) = W1 m ρ c (Proc.devRef .tc main_arg13) := by
  host_keep hostOps0_1
theorem k2_main_arg13 (c : Dev nD) : W2 m ρ c (Proc.devRef .tc main_arg13) = W1 m ρ c (Proc.devRef .tc main_arg13) := s2_main_arg13 m ρ c
theorem s3_main_arg13 (c : Dev nD) : W3 m ρ c (Proc.devRef .tc main_arg13) = W2 m ρ c (Proc.devRef .tc main_arg13) := by
  host_keep hostOps0_2
theorem k3_main_arg13 (c : Dev nD) : W3 m ρ c (Proc.devRef .tc main_arg13) = W1 m ρ c (Proc.devRef .tc main_arg13) := (s3_main_arg13 m ρ c).trans (k2_main_arg13 m ρ c)
theorem s4_main_arg13 (c : Dev nD) : W4 m ρ c (Proc.devRef .tc main_arg13) = W3 m ρ c (Proc.devRef .tc main_arg13) := by
  host_keep hostOps0_3
theorem k4_main_arg13 (c : Dev nD) : W4 m ρ c (Proc.devRef .tc main_arg13) = W1 m ρ c (Proc.devRef .tc main_arg13) := (s4_main_arg13 m ρ c).trans (k3_main_arg13 m ρ c)
theorem s5_main_arg13 (c : Dev nD) : W5 m ρ c (Proc.devRef .tc main_arg13) = W4 m ρ c (Proc.devRef .tc main_arg13) := W5_of_ne m ρ c main_arg13 (by decide)
theorem k5_main_arg13 (c : Dev nD) : W5 m ρ c (Proc.devRef .tc main_arg13) = W1 m ρ c (Proc.devRef .tc main_arg13) := (s5_main_arg13 m ρ c).trans (k4_main_arg13 m ρ c)
theorem s6_main_arg13 (c : Dev nD) : W6 m ρ c (Proc.devRef .tc main_arg13) = W5 m ρ c (Proc.devRef .tc main_arg13) := by
  host_keep hostOps1
theorem k6_main_arg13 (c : Dev nD) : W6 m ρ c (Proc.devRef .tc main_arg13) = W1 m ρ c (Proc.devRef .tc main_arg13) := (s6_main_arg13 m ρ c).trans (k5_main_arg13 m ρ c)
theorem s7_main_arg13 (c : Dev nD) : W7 m ρ c (Proc.devRef .tc main_arg13) = W6 m ρ c (Proc.devRef .tc main_arg13) := W7_of_ne m ρ c main_arg13 (by decide)
theorem k7_main_arg13 (c : Dev nD) : W7 m ρ c (Proc.devRef .tc main_arg13) = W1 m ρ c (Proc.devRef .tc main_arg13) := (s7_main_arg13 m ρ c).trans (k6_main_arg13 m ρ c)
theorem s8_main_arg13 (c : Dev nD) : W8 m ρ c (Proc.devRef .tc main_arg13) = W7 m ρ c (Proc.devRef .tc main_arg13) := by
  host_keep hostOps2
theorem k8_main_arg13 (c : Dev nD) : W8 m ρ c (Proc.devRef .tc main_arg13) = W1 m ρ c (Proc.devRef .tc main_arg13) := (s8_main_arg13 m ρ c).trans (k7_main_arg13 m ρ c)
theorem s9_main_arg13 (c : Dev nD) : W9 m ρ c (Proc.devRef .tc main_arg13) = W8 m ρ c (Proc.devRef .tc main_arg13) := by
  host_keep hostOps2_1
theorem k9_main_arg13 (c : Dev nD) : W9 m ρ c (Proc.devRef .tc main_arg13) = W1 m ρ c (Proc.devRef .tc main_arg13) := (s9_main_arg13 m ρ c).trans (k8_main_arg13 m ρ c)
theorem s10_main_arg13 (c : Dev nD) : W10 m ρ c (Proc.devRef .tc main_arg13) = W9 m ρ c (Proc.devRef .tc main_arg13) := by
  host_keep hostOps2_2
theorem k10_main_arg13 (c : Dev nD) : W10 m ρ c (Proc.devRef .tc main_arg13) = W1 m ρ c (Proc.devRef .tc main_arg13) := (s10_main_arg13 m ρ c).trans (k9_main_arg13 m ρ c)
theorem s11_main_arg13 (c : Dev nD) : W11 m ρ c (Proc.devRef .tc main_arg13) = W10 m ρ c (Proc.devRef .tc main_arg13) := W11_of_ne m ρ c main_arg13 (by decide)
theorem k11_main_arg13 (c : Dev nD) : W11 m ρ c (Proc.devRef .tc main_arg13) = W1 m ρ c (Proc.devRef .tc main_arg13) := (s11_main_arg13 m ρ c).trans (k10_main_arg13 m ρ c)
theorem s12_main_arg13 (c : Dev nD) : W12 m ρ c (Proc.devRef .tc main_arg13) = W11 m ρ c (Proc.devRef .tc main_arg13) := by
  host_keep hostOps3
theorem k12_main_arg13 (c : Dev nD) : W12 m ρ c (Proc.devRef .tc main_arg13) = W1 m ρ c (Proc.devRef .tc main_arg13) := (s12_main_arg13 m ρ c).trans (k11_main_arg13 m ρ c)
theorem s13_main_arg13 (c : Dev nD) : W13 m ρ c (Proc.devRef .tc main_arg13) = W12 m ρ c (Proc.devRef .tc main_arg13) := W13_of_ne m ρ c main_arg13 (by decide)
theorem k13_main_arg13 (c : Dev nD) : W13 m ρ c (Proc.devRef .tc main_arg13) = W1 m ρ c (Proc.devRef .tc main_arg13) := (s13_main_arg13 m ρ c).trans (k12_main_arg13 m ρ c)
theorem s14_main_arg13 (c : Dev nD) : W14 m ρ c (Proc.devRef .tc main_arg13) = W13 m ρ c (Proc.devRef .tc main_arg13) := by
  host_keep hostOps4
theorem k14_main_arg13 (c : Dev nD) : W14 m ρ c (Proc.devRef .tc main_arg13) = W1 m ρ c (Proc.devRef .tc main_arg13) := (s14_main_arg13 m ρ c).trans (k13_main_arg13 m ρ c)
theorem s15_main_arg13 (c : Dev nD) : W15 m ρ c (Proc.devRef .tc main_arg13) = W14 m ρ c (Proc.devRef .tc main_arg13) := by
  host_keep hostOps4_1
theorem k15_main_arg13 (c : Dev nD) : W15 m ρ c (Proc.devRef .tc main_arg13) = W1 m ρ c (Proc.devRef .tc main_arg13) := (s15_main_arg13 m ρ c).trans (k14_main_arg13 m ρ c)
theorem s16_main_arg13 (c : Dev nD) : W16 m ρ c (Proc.devRef .tc main_arg13) = W15 m ρ c (Proc.devRef .tc main_arg13) := by
  host_keep hostOps4_2
theorem k16_main_arg13 (c : Dev nD) : W16 m ρ c (Proc.devRef .tc main_arg13) = W1 m ρ c (Proc.devRef .tc main_arg13) := (s16_main_arg13 m ρ c).trans (k15_main_arg13 m ρ c)
theorem s17_main_arg13 (c : Dev nD) : W17 m ρ c (Proc.devRef .tc main_arg13) = W16 m ρ c (Proc.devRef .tc main_arg13) := W17_of_ne m ρ c main_arg13 (by decide)
theorem k17_main_arg13 (c : Dev nD) : W17 m ρ c (Proc.devRef .tc main_arg13) = W1 m ρ c (Proc.devRef .tc main_arg13) := (s17_main_arg13 m ρ c).trans (k16_main_arg13 m ρ c)
theorem s18_main_arg13 (c : Dev nD) : W18 m ρ c (Proc.devRef .tc main_arg13) = W17 m ρ c (Proc.devRef .tc main_arg13) := by
  host_keep hostOps5
theorem k18_main_arg13 (c : Dev nD) : W18 m ρ c (Proc.devRef .tc main_arg13) = W1 m ρ c (Proc.devRef .tc main_arg13) := (s18_main_arg13 m ρ c).trans (k17_main_arg13 m ρ c)
theorem s19_main_arg13 (c : Dev nD) : W19 m ρ c (Proc.devRef .tc main_arg13) = W18 m ρ c (Proc.devRef .tc main_arg13) := W19_of_ne m ρ c main_arg13 (by decide)
theorem k19_main_arg13 (c : Dev nD) : W19 m ρ c (Proc.devRef .tc main_arg13) = W1 m ρ c (Proc.devRef .tc main_arg13) := (s19_main_arg13 m ρ c).trans (k18_main_arg13 m ρ c)

/-! ## `main_arg14` -/
theorem s2_main_arg14 (c : Dev nD) : W2 m ρ c (Proc.devRef .tc main_arg14) = W1 m ρ c (Proc.devRef .tc main_arg14) := by
  host_keep hostOps0_1
theorem k2_main_arg14 (c : Dev nD) : W2 m ρ c (Proc.devRef .tc main_arg14) = W1 m ρ c (Proc.devRef .tc main_arg14) := s2_main_arg14 m ρ c
theorem s3_main_arg14 (c : Dev nD) : W3 m ρ c (Proc.devRef .tc main_arg14) = W2 m ρ c (Proc.devRef .tc main_arg14) := by
  host_keep hostOps0_2
theorem k3_main_arg14 (c : Dev nD) : W3 m ρ c (Proc.devRef .tc main_arg14) = W1 m ρ c (Proc.devRef .tc main_arg14) := (s3_main_arg14 m ρ c).trans (k2_main_arg14 m ρ c)
theorem s4_main_arg14 (c : Dev nD) : W4 m ρ c (Proc.devRef .tc main_arg14) = W3 m ρ c (Proc.devRef .tc main_arg14) := by
  host_keep hostOps0_3
theorem k4_main_arg14 (c : Dev nD) : W4 m ρ c (Proc.devRef .tc main_arg14) = W1 m ρ c (Proc.devRef .tc main_arg14) := (s4_main_arg14 m ρ c).trans (k3_main_arg14 m ρ c)
theorem s5_main_arg14 (c : Dev nD) : W5 m ρ c (Proc.devRef .tc main_arg14) = W4 m ρ c (Proc.devRef .tc main_arg14) := W5_of_ne m ρ c main_arg14 (by decide)
theorem k5_main_arg14 (c : Dev nD) : W5 m ρ c (Proc.devRef .tc main_arg14) = W1 m ρ c (Proc.devRef .tc main_arg14) := (s5_main_arg14 m ρ c).trans (k4_main_arg14 m ρ c)
theorem s6_main_arg14 (c : Dev nD) : W6 m ρ c (Proc.devRef .tc main_arg14) = W5 m ρ c (Proc.devRef .tc main_arg14) := by
  host_keep hostOps1
theorem k6_main_arg14 (c : Dev nD) : W6 m ρ c (Proc.devRef .tc main_arg14) = W1 m ρ c (Proc.devRef .tc main_arg14) := (s6_main_arg14 m ρ c).trans (k5_main_arg14 m ρ c)
theorem s7_main_arg14 (c : Dev nD) : W7 m ρ c (Proc.devRef .tc main_arg14) = W6 m ρ c (Proc.devRef .tc main_arg14) := W7_of_ne m ρ c main_arg14 (by decide)
theorem k7_main_arg14 (c : Dev nD) : W7 m ρ c (Proc.devRef .tc main_arg14) = W1 m ρ c (Proc.devRef .tc main_arg14) := (s7_main_arg14 m ρ c).trans (k6_main_arg14 m ρ c)
theorem s8_main_arg14 (c : Dev nD) : W8 m ρ c (Proc.devRef .tc main_arg14) = W7 m ρ c (Proc.devRef .tc main_arg14) := by
  host_keep hostOps2
theorem k8_main_arg14 (c : Dev nD) : W8 m ρ c (Proc.devRef .tc main_arg14) = W1 m ρ c (Proc.devRef .tc main_arg14) := (s8_main_arg14 m ρ c).trans (k7_main_arg14 m ρ c)
theorem s9_main_arg14 (c : Dev nD) : W9 m ρ c (Proc.devRef .tc main_arg14) = W8 m ρ c (Proc.devRef .tc main_arg14) := by
  host_keep hostOps2_1
theorem k9_main_arg14 (c : Dev nD) : W9 m ρ c (Proc.devRef .tc main_arg14) = W1 m ρ c (Proc.devRef .tc main_arg14) := (s9_main_arg14 m ρ c).trans (k8_main_arg14 m ρ c)
theorem s10_main_arg14 (c : Dev nD) : W10 m ρ c (Proc.devRef .tc main_arg14) = W9 m ρ c (Proc.devRef .tc main_arg14) := by
  host_keep hostOps2_2
theorem k10_main_arg14 (c : Dev nD) : W10 m ρ c (Proc.devRef .tc main_arg14) = W1 m ρ c (Proc.devRef .tc main_arg14) := (s10_main_arg14 m ρ c).trans (k9_main_arg14 m ρ c)
theorem s11_main_arg14 (c : Dev nD) : W11 m ρ c (Proc.devRef .tc main_arg14) = W10 m ρ c (Proc.devRef .tc main_arg14) := W11_of_ne m ρ c main_arg14 (by decide)
theorem k11_main_arg14 (c : Dev nD) : W11 m ρ c (Proc.devRef .tc main_arg14) = W1 m ρ c (Proc.devRef .tc main_arg14) := (s11_main_arg14 m ρ c).trans (k10_main_arg14 m ρ c)
theorem s12_main_arg14 (c : Dev nD) : W12 m ρ c (Proc.devRef .tc main_arg14) = W11 m ρ c (Proc.devRef .tc main_arg14) := by
  host_keep hostOps3
theorem k12_main_arg14 (c : Dev nD) : W12 m ρ c (Proc.devRef .tc main_arg14) = W1 m ρ c (Proc.devRef .tc main_arg14) := (s12_main_arg14 m ρ c).trans (k11_main_arg14 m ρ c)
theorem s13_main_arg14 (c : Dev nD) : W13 m ρ c (Proc.devRef .tc main_arg14) = W12 m ρ c (Proc.devRef .tc main_arg14) := W13_of_ne m ρ c main_arg14 (by decide)
theorem k13_main_arg14 (c : Dev nD) : W13 m ρ c (Proc.devRef .tc main_arg14) = W1 m ρ c (Proc.devRef .tc main_arg14) := (s13_main_arg14 m ρ c).trans (k12_main_arg14 m ρ c)
theorem s14_main_arg14 (c : Dev nD) : W14 m ρ c (Proc.devRef .tc main_arg14) = W13 m ρ c (Proc.devRef .tc main_arg14) := by
  host_keep hostOps4
theorem k14_main_arg14 (c : Dev nD) : W14 m ρ c (Proc.devRef .tc main_arg14) = W1 m ρ c (Proc.devRef .tc main_arg14) := (s14_main_arg14 m ρ c).trans (k13_main_arg14 m ρ c)
theorem s15_main_arg14 (c : Dev nD) : W15 m ρ c (Proc.devRef .tc main_arg14) = W14 m ρ c (Proc.devRef .tc main_arg14) := by
  host_keep hostOps4_1
theorem k15_main_arg14 (c : Dev nD) : W15 m ρ c (Proc.devRef .tc main_arg14) = W1 m ρ c (Proc.devRef .tc main_arg14) := (s15_main_arg14 m ρ c).trans (k14_main_arg14 m ρ c)
theorem s16_main_arg14 (c : Dev nD) : W16 m ρ c (Proc.devRef .tc main_arg14) = W15 m ρ c (Proc.devRef .tc main_arg14) := by
  host_keep hostOps4_2
theorem k16_main_arg14 (c : Dev nD) : W16 m ρ c (Proc.devRef .tc main_arg14) = W1 m ρ c (Proc.devRef .tc main_arg14) := (s16_main_arg14 m ρ c).trans (k15_main_arg14 m ρ c)
theorem s17_main_arg14 (c : Dev nD) : W17 m ρ c (Proc.devRef .tc main_arg14) = W16 m ρ c (Proc.devRef .tc main_arg14) := W17_of_ne m ρ c main_arg14 (by decide)
theorem k17_main_arg14 (c : Dev nD) : W17 m ρ c (Proc.devRef .tc main_arg14) = W1 m ρ c (Proc.devRef .tc main_arg14) := (s17_main_arg14 m ρ c).trans (k16_main_arg14 m ρ c)
theorem s18_main_arg14 (c : Dev nD) : W18 m ρ c (Proc.devRef .tc main_arg14) = W17 m ρ c (Proc.devRef .tc main_arg14) := by
  host_keep hostOps5
theorem k18_main_arg14 (c : Dev nD) : W18 m ρ c (Proc.devRef .tc main_arg14) = W1 m ρ c (Proc.devRef .tc main_arg14) := (s18_main_arg14 m ρ c).trans (k17_main_arg14 m ρ c)
theorem s19_main_arg14 (c : Dev nD) : W19 m ρ c (Proc.devRef .tc main_arg14) = W18 m ρ c (Proc.devRef .tc main_arg14) := W19_of_ne m ρ c main_arg14 (by decide)
theorem k19_main_arg14 (c : Dev nD) : W19 m ρ c (Proc.devRef .tc main_arg14) = W1 m ρ c (Proc.devRef .tc main_arg14) := (s19_main_arg14 m ρ c).trans (k18_main_arg14 m ρ c)

/-! ## `main_arg15` -/
theorem s2_main_arg15 (c : Dev nD) : W2 m ρ c (Proc.devRef .tc main_arg15) = W1 m ρ c (Proc.devRef .tc main_arg15) := by
  host_keep hostOps0_1
theorem k2_main_arg15 (c : Dev nD) : W2 m ρ c (Proc.devRef .tc main_arg15) = W1 m ρ c (Proc.devRef .tc main_arg15) := s2_main_arg15 m ρ c
theorem s3_main_arg15 (c : Dev nD) : W3 m ρ c (Proc.devRef .tc main_arg15) = W2 m ρ c (Proc.devRef .tc main_arg15) := by
  host_keep hostOps0_2
theorem k3_main_arg15 (c : Dev nD) : W3 m ρ c (Proc.devRef .tc main_arg15) = W1 m ρ c (Proc.devRef .tc main_arg15) := (s3_main_arg15 m ρ c).trans (k2_main_arg15 m ρ c)
theorem s4_main_arg15 (c : Dev nD) : W4 m ρ c (Proc.devRef .tc main_arg15) = W3 m ρ c (Proc.devRef .tc main_arg15) := by
  host_keep hostOps0_3
theorem k4_main_arg15 (c : Dev nD) : W4 m ρ c (Proc.devRef .tc main_arg15) = W1 m ρ c (Proc.devRef .tc main_arg15) := (s4_main_arg15 m ρ c).trans (k3_main_arg15 m ρ c)
theorem s5_main_arg15 (c : Dev nD) : W5 m ρ c (Proc.devRef .tc main_arg15) = W4 m ρ c (Proc.devRef .tc main_arg15) := W5_of_ne m ρ c main_arg15 (by decide)
theorem k5_main_arg15 (c : Dev nD) : W5 m ρ c (Proc.devRef .tc main_arg15) = W1 m ρ c (Proc.devRef .tc main_arg15) := (s5_main_arg15 m ρ c).trans (k4_main_arg15 m ρ c)
theorem s6_main_arg15 (c : Dev nD) : W6 m ρ c (Proc.devRef .tc main_arg15) = W5 m ρ c (Proc.devRef .tc main_arg15) := by
  host_keep hostOps1
theorem k6_main_arg15 (c : Dev nD) : W6 m ρ c (Proc.devRef .tc main_arg15) = W1 m ρ c (Proc.devRef .tc main_arg15) := (s6_main_arg15 m ρ c).trans (k5_main_arg15 m ρ c)
theorem s7_main_arg15 (c : Dev nD) : W7 m ρ c (Proc.devRef .tc main_arg15) = W6 m ρ c (Proc.devRef .tc main_arg15) := W7_of_ne m ρ c main_arg15 (by decide)
theorem k7_main_arg15 (c : Dev nD) : W7 m ρ c (Proc.devRef .tc main_arg15) = W1 m ρ c (Proc.devRef .tc main_arg15) := (s7_main_arg15 m ρ c).trans (k6_main_arg15 m ρ c)
theorem s8_main_arg15 (c : Dev nD) : W8 m ρ c (Proc.devRef .tc main_arg15) = W7 m ρ c (Proc.devRef .tc main_arg15) := by
  host_keep hostOps2
theorem k8_main_arg15 (c : Dev nD) : W8 m ρ c (Proc.devRef .tc main_arg15) = W1 m ρ c (Proc.devRef .tc main_arg15) := (s8_main_arg15 m ρ c).trans (k7_main_arg15 m ρ c)
theorem s9_main_arg15 (c : Dev nD) : W9 m ρ c (Proc.devRef .tc main_arg15) = W8 m ρ c (Proc.devRef .tc main_arg15) := by
  host_keep hostOps2_1
theorem k9_main_arg15 (c : Dev nD) : W9 m ρ c (Proc.devRef .tc main_arg15) = W1 m ρ c (Proc.devRef .tc main_arg15) := (s9_main_arg15 m ρ c).trans (k8_main_arg15 m ρ c)
theorem s10_main_arg15 (c : Dev nD) : W10 m ρ c (Proc.devRef .tc main_arg15) = W9 m ρ c (Proc.devRef .tc main_arg15) := by
  host_keep hostOps2_2
theorem k10_main_arg15 (c : Dev nD) : W10 m ρ c (Proc.devRef .tc main_arg15) = W1 m ρ c (Proc.devRef .tc main_arg15) := (s10_main_arg15 m ρ c).trans (k9_main_arg15 m ρ c)
theorem s11_main_arg15 (c : Dev nD) : W11 m ρ c (Proc.devRef .tc main_arg15) = W10 m ρ c (Proc.devRef .tc main_arg15) := W11_of_ne m ρ c main_arg15 (by decide)
theorem k11_main_arg15 (c : Dev nD) : W11 m ρ c (Proc.devRef .tc main_arg15) = W1 m ρ c (Proc.devRef .tc main_arg15) := (s11_main_arg15 m ρ c).trans (k10_main_arg15 m ρ c)
theorem s12_main_arg15 (c : Dev nD) : W12 m ρ c (Proc.devRef .tc main_arg15) = W11 m ρ c (Proc.devRef .tc main_arg15) := by
  host_keep hostOps3
theorem k12_main_arg15 (c : Dev nD) : W12 m ρ c (Proc.devRef .tc main_arg15) = W1 m ρ c (Proc.devRef .tc main_arg15) := (s12_main_arg15 m ρ c).trans (k11_main_arg15 m ρ c)
theorem s13_main_arg15 (c : Dev nD) : W13 m ρ c (Proc.devRef .tc main_arg15) = W12 m ρ c (Proc.devRef .tc main_arg15) := W13_of_ne m ρ c main_arg15 (by decide)
theorem k13_main_arg15 (c : Dev nD) : W13 m ρ c (Proc.devRef .tc main_arg15) = W1 m ρ c (Proc.devRef .tc main_arg15) := (s13_main_arg15 m ρ c).trans (k12_main_arg15 m ρ c)
theorem s14_main_arg15 (c : Dev nD) : W14 m ρ c (Proc.devRef .tc main_arg15) = W13 m ρ c (Proc.devRef .tc main_arg15) := by
  host_keep hostOps4
theorem k14_main_arg15 (c : Dev nD) : W14 m ρ c (Proc.devRef .tc main_arg15) = W1 m ρ c (Proc.devRef .tc main_arg15) := (s14_main_arg15 m ρ c).trans (k13_main_arg15 m ρ c)
theorem s15_main_arg15 (c : Dev nD) : W15 m ρ c (Proc.devRef .tc main_arg15) = W14 m ρ c (Proc.devRef .tc main_arg15) := by
  host_keep hostOps4_1
theorem k15_main_arg15 (c : Dev nD) : W15 m ρ c (Proc.devRef .tc main_arg15) = W1 m ρ c (Proc.devRef .tc main_arg15) := (s15_main_arg15 m ρ c).trans (k14_main_arg15 m ρ c)
theorem s16_main_arg15 (c : Dev nD) : W16 m ρ c (Proc.devRef .tc main_arg15) = W15 m ρ c (Proc.devRef .tc main_arg15) := by
  host_keep hostOps4_2
theorem k16_main_arg15 (c : Dev nD) : W16 m ρ c (Proc.devRef .tc main_arg15) = W1 m ρ c (Proc.devRef .tc main_arg15) := (s16_main_arg15 m ρ c).trans (k15_main_arg15 m ρ c)
theorem s17_main_arg15 (c : Dev nD) : W17 m ρ c (Proc.devRef .tc main_arg15) = W16 m ρ c (Proc.devRef .tc main_arg15) := W17_of_ne m ρ c main_arg15 (by decide)
theorem k17_main_arg15 (c : Dev nD) : W17 m ρ c (Proc.devRef .tc main_arg15) = W1 m ρ c (Proc.devRef .tc main_arg15) := (s17_main_arg15 m ρ c).trans (k16_main_arg15 m ρ c)
theorem s18_main_arg15 (c : Dev nD) : W18 m ρ c (Proc.devRef .tc main_arg15) = W17 m ρ c (Proc.devRef .tc main_arg15) := by
  host_keep hostOps5
theorem k18_main_arg15 (c : Dev nD) : W18 m ρ c (Proc.devRef .tc main_arg15) = W1 m ρ c (Proc.devRef .tc main_arg15) := (s18_main_arg15 m ρ c).trans (k17_main_arg15 m ρ c)
theorem s19_main_arg15 (c : Dev nD) : W19 m ρ c (Proc.devRef .tc main_arg15) = W18 m ρ c (Proc.devRef .tc main_arg15) := W19_of_ne m ρ c main_arg15 (by decide)
theorem k19_main_arg15 (c : Dev nD) : W19 m ρ c (Proc.devRef .tc main_arg15) = W1 m ρ c (Proc.devRef .tc main_arg15) := (s19_main_arg15 m ρ c).trans (k18_main_arg15 m ρ c)

/-! ## `main_v6` -/
theorem s2_main_v6 (c : Dev nD) : W2 m ρ c (Proc.devRef .tc main_v6) = W1 m ρ c (Proc.devRef .tc main_v6) := by
  host_keep hostOps0_1
theorem k2_main_v6 (c : Dev nD) : W2 m ρ c (Proc.devRef .tc main_v6) = W1 m ρ c (Proc.devRef .tc main_v6) := s2_main_v6 m ρ c
theorem s3_main_v6 (c : Dev nD) : W3 m ρ c (Proc.devRef .tc main_v6) = W2 m ρ c (Proc.devRef .tc main_v6) := by
  host_keep hostOps0_2
theorem k3_main_v6 (c : Dev nD) : W3 m ρ c (Proc.devRef .tc main_v6) = W1 m ρ c (Proc.devRef .tc main_v6) := (s3_main_v6 m ρ c).trans (k2_main_v6 m ρ c)
theorem s4_main_v6 (c : Dev nD) : W4 m ρ c (Proc.devRef .tc main_v6) = W3 m ρ c (Proc.devRef .tc main_v6) := by
  host_keep hostOps0_3
theorem k4_main_v6 (c : Dev nD) : W4 m ρ c (Proc.devRef .tc main_v6) = W1 m ρ c (Proc.devRef .tc main_v6) := (s4_main_v6 m ρ c).trans (k3_main_v6 m ρ c)
theorem s5_main_v6 (c : Dev nD) : W5 m ρ c (Proc.devRef .tc main_v6) = W4 m ρ c (Proc.devRef .tc main_v6) := W5_of_ne m ρ c main_v6 (by decide)
theorem k5_main_v6 (c : Dev nD) : W5 m ρ c (Proc.devRef .tc main_v6) = W1 m ρ c (Proc.devRef .tc main_v6) := (s5_main_v6 m ρ c).trans (k4_main_v6 m ρ c)
theorem s6_main_v6 (c : Dev nD) : W6 m ρ c (Proc.devRef .tc main_v6) = W5 m ρ c (Proc.devRef .tc main_v6) := by
  host_keep hostOps1
theorem k6_main_v6 (c : Dev nD) : W6 m ρ c (Proc.devRef .tc main_v6) = W1 m ρ c (Proc.devRef .tc main_v6) := (s6_main_v6 m ρ c).trans (k5_main_v6 m ρ c)
theorem s7_main_v6 (c : Dev nD) : W7 m ρ c (Proc.devRef .tc main_v6) = W6 m ρ c (Proc.devRef .tc main_v6) := W7_of_ne m ρ c main_v6 (by decide)
theorem k7_main_v6 (c : Dev nD) : W7 m ρ c (Proc.devRef .tc main_v6) = W1 m ρ c (Proc.devRef .tc main_v6) := (s7_main_v6 m ρ c).trans (k6_main_v6 m ρ c)
theorem s8_main_v6 (c : Dev nD) : W8 m ρ c (Proc.devRef .tc main_v6) = W7 m ρ c (Proc.devRef .tc main_v6) := by
  host_keep hostOps2
theorem k8_main_v6 (c : Dev nD) : W8 m ρ c (Proc.devRef .tc main_v6) = W1 m ρ c (Proc.devRef .tc main_v6) := (s8_main_v6 m ρ c).trans (k7_main_v6 m ρ c)
theorem s9_main_v6 (c : Dev nD) : W9 m ρ c (Proc.devRef .tc main_v6) = W8 m ρ c (Proc.devRef .tc main_v6) := by
  host_keep hostOps2_1
theorem k9_main_v6 (c : Dev nD) : W9 m ρ c (Proc.devRef .tc main_v6) = W1 m ρ c (Proc.devRef .tc main_v6) := (s9_main_v6 m ρ c).trans (k8_main_v6 m ρ c)
theorem s10_main_v6 (c : Dev nD) : W10 m ρ c (Proc.devRef .tc main_v6) = W9 m ρ c (Proc.devRef .tc main_v6) := by
  host_keep hostOps2_2
theorem k10_main_v6 (c : Dev nD) : W10 m ρ c (Proc.devRef .tc main_v6) = W1 m ρ c (Proc.devRef .tc main_v6) := (s10_main_v6 m ρ c).trans (k9_main_v6 m ρ c)
theorem s11_main_v6 (c : Dev nD) : W11 m ρ c (Proc.devRef .tc main_v6) = W10 m ρ c (Proc.devRef .tc main_v6) := W11_of_ne m ρ c main_v6 (by decide)
theorem k11_main_v6 (c : Dev nD) : W11 m ρ c (Proc.devRef .tc main_v6) = W1 m ρ c (Proc.devRef .tc main_v6) := (s11_main_v6 m ρ c).trans (k10_main_v6 m ρ c)
theorem s12_main_v6 (c : Dev nD) : W12 m ρ c (Proc.devRef .tc main_v6) = W11 m ρ c (Proc.devRef .tc main_v6) := by
  host_keep hostOps3
theorem k12_main_v6 (c : Dev nD) : W12 m ρ c (Proc.devRef .tc main_v6) = W1 m ρ c (Proc.devRef .tc main_v6) := (s12_main_v6 m ρ c).trans (k11_main_v6 m ρ c)
theorem s13_main_v6 (c : Dev nD) : W13 m ρ c (Proc.devRef .tc main_v6) = W12 m ρ c (Proc.devRef .tc main_v6) := W13_of_ne m ρ c main_v6 (by decide)
theorem k13_main_v6 (c : Dev nD) : W13 m ρ c (Proc.devRef .tc main_v6) = W1 m ρ c (Proc.devRef .tc main_v6) := (s13_main_v6 m ρ c).trans (k12_main_v6 m ρ c)
theorem s14_main_v6 (c : Dev nD) : W14 m ρ c (Proc.devRef .tc main_v6) = W13 m ρ c (Proc.devRef .tc main_v6) := by
  host_keep hostOps4
theorem k14_main_v6 (c : Dev nD) : W14 m ρ c (Proc.devRef .tc main_v6) = W1 m ρ c (Proc.devRef .tc main_v6) := (s14_main_v6 m ρ c).trans (k13_main_v6 m ρ c)
theorem s15_main_v6 (c : Dev nD) : W15 m ρ c (Proc.devRef .tc main_v6) = W14 m ρ c (Proc.devRef .tc main_v6) := by
  host_keep hostOps4_1
theorem k15_main_v6 (c : Dev nD) : W15 m ρ c (Proc.devRef .tc main_v6) = W1 m ρ c (Proc.devRef .tc main_v6) := (s15_main_v6 m ρ c).trans (k14_main_v6 m ρ c)
theorem s16_main_v6 (c : Dev nD) : W16 m ρ c (Proc.devRef .tc main_v6) = W15 m ρ c (Proc.devRef .tc main_v6) := by
  host_keep hostOps4_2
theorem k16_main_v6 (c : Dev nD) : W16 m ρ c (Proc.devRef .tc main_v6) = W1 m ρ c (Proc.devRef .tc main_v6) := (s16_main_v6 m ρ c).trans (k15_main_v6 m ρ c)
theorem s17_main_v6 (c : Dev nD) : W17 m ρ c (Proc.devRef .tc main_v6) = W16 m ρ c (Proc.devRef .tc main_v6) := W17_of_ne m ρ c main_v6 (by decide)
theorem k17_main_v6 (c : Dev nD) : W17 m ρ c (Proc.devRef .tc main_v6) = W1 m ρ c (Proc.devRef .tc main_v6) := (s17_main_v6 m ρ c).trans (k16_main_v6 m ρ c)
theorem s18_main_v6 (c : Dev nD) : W18 m ρ c (Proc.devRef .tc main_v6) = W17 m ρ c (Proc.devRef .tc main_v6) := by
  host_keep hostOps5
theorem k18_main_v6 (c : Dev nD) : W18 m ρ c (Proc.devRef .tc main_v6) = W1 m ρ c (Proc.devRef .tc main_v6) := (s18_main_v6 m ρ c).trans (k17_main_v6 m ρ c)
theorem s19_main_v6 (c : Dev nD) : W19 m ρ c (Proc.devRef .tc main_v6) = W18 m ρ c (Proc.devRef .tc main_v6) := W19_of_ne m ρ c main_v6 (by decide)
theorem k19_main_v6 (c : Dev nD) : W19 m ρ c (Proc.devRef .tc main_v6) = W1 m ρ c (Proc.devRef .tc main_v6) := (s19_main_v6 m ρ c).trans (k18_main_v6 m ρ c)

/-! ## `main_v7` -/
theorem s2_main_v7 (c : Dev nD) : W2 m ρ c (Proc.devRef .tc main_v7) = W1 m ρ c (Proc.devRef .tc main_v7) := by
  host_keep hostOps0_1
theorem k2_main_v7 (c : Dev nD) : W2 m ρ c (Proc.devRef .tc main_v7) = W1 m ρ c (Proc.devRef .tc main_v7) := s2_main_v7 m ρ c
theorem s3_main_v7 (c : Dev nD) : W3 m ρ c (Proc.devRef .tc main_v7) = W2 m ρ c (Proc.devRef .tc main_v7) := by
  host_keep hostOps0_2
theorem k3_main_v7 (c : Dev nD) : W3 m ρ c (Proc.devRef .tc main_v7) = W1 m ρ c (Proc.devRef .tc main_v7) := (s3_main_v7 m ρ c).trans (k2_main_v7 m ρ c)
theorem s4_main_v7 (c : Dev nD) : W4 m ρ c (Proc.devRef .tc main_v7) = W3 m ρ c (Proc.devRef .tc main_v7) := by
  host_keep hostOps0_3
theorem k4_main_v7 (c : Dev nD) : W4 m ρ c (Proc.devRef .tc main_v7) = W1 m ρ c (Proc.devRef .tc main_v7) := (s4_main_v7 m ρ c).trans (k3_main_v7 m ρ c)
theorem s5_main_v7 (c : Dev nD) : W5 m ρ c (Proc.devRef .tc main_v7) = W4 m ρ c (Proc.devRef .tc main_v7) := W5_of_ne m ρ c main_v7 (by decide)
theorem k5_main_v7 (c : Dev nD) : W5 m ρ c (Proc.devRef .tc main_v7) = W1 m ρ c (Proc.devRef .tc main_v7) := (s5_main_v7 m ρ c).trans (k4_main_v7 m ρ c)
theorem s6_main_v7 (c : Dev nD) : W6 m ρ c (Proc.devRef .tc main_v7) = W5 m ρ c (Proc.devRef .tc main_v7) := by
  host_keep hostOps1
theorem k6_main_v7 (c : Dev nD) : W6 m ρ c (Proc.devRef .tc main_v7) = W1 m ρ c (Proc.devRef .tc main_v7) := (s6_main_v7 m ρ c).trans (k5_main_v7 m ρ c)
theorem s7_main_v7 (c : Dev nD) : W7 m ρ c (Proc.devRef .tc main_v7) = W6 m ρ c (Proc.devRef .tc main_v7) := W7_of_ne m ρ c main_v7 (by decide)
theorem k7_main_v7 (c : Dev nD) : W7 m ρ c (Proc.devRef .tc main_v7) = W1 m ρ c (Proc.devRef .tc main_v7) := (s7_main_v7 m ρ c).trans (k6_main_v7 m ρ c)
theorem s8_main_v7 (c : Dev nD) : W8 m ρ c (Proc.devRef .tc main_v7) = W7 m ρ c (Proc.devRef .tc main_v7) := by
  host_keep hostOps2
theorem k8_main_v7 (c : Dev nD) : W8 m ρ c (Proc.devRef .tc main_v7) = W1 m ρ c (Proc.devRef .tc main_v7) := (s8_main_v7 m ρ c).trans (k7_main_v7 m ρ c)
theorem s9_main_v7 (c : Dev nD) : W9 m ρ c (Proc.devRef .tc main_v7) = W8 m ρ c (Proc.devRef .tc main_v7) := by
  host_keep hostOps2_1
theorem k9_main_v7 (c : Dev nD) : W9 m ρ c (Proc.devRef .tc main_v7) = W1 m ρ c (Proc.devRef .tc main_v7) := (s9_main_v7 m ρ c).trans (k8_main_v7 m ρ c)
theorem s10_main_v7 (c : Dev nD) : W10 m ρ c (Proc.devRef .tc main_v7) = W9 m ρ c (Proc.devRef .tc main_v7) := by
  host_keep hostOps2_2
theorem k10_main_v7 (c : Dev nD) : W10 m ρ c (Proc.devRef .tc main_v7) = W1 m ρ c (Proc.devRef .tc main_v7) := (s10_main_v7 m ρ c).trans (k9_main_v7 m ρ c)
theorem s11_main_v7 (c : Dev nD) : W11 m ρ c (Proc.devRef .tc main_v7) = W10 m ρ c (Proc.devRef .tc main_v7) := W11_of_ne m ρ c main_v7 (by decide)
theorem k11_main_v7 (c : Dev nD) : W11 m ρ c (Proc.devRef .tc main_v7) = W1 m ρ c (Proc.devRef .tc main_v7) := (s11_main_v7 m ρ c).trans (k10_main_v7 m ρ c)
theorem s12_main_v7 (c : Dev nD) : W12 m ρ c (Proc.devRef .tc main_v7) = W11 m ρ c (Proc.devRef .tc main_v7) := by
  host_keep hostOps3
theorem k12_main_v7 (c : Dev nD) : W12 m ρ c (Proc.devRef .tc main_v7) = W1 m ρ c (Proc.devRef .tc main_v7) := (s12_main_v7 m ρ c).trans (k11_main_v7 m ρ c)
theorem s13_main_v7 (c : Dev nD) : W13 m ρ c (Proc.devRef .tc main_v7) = W12 m ρ c (Proc.devRef .tc main_v7) := W13_of_ne m ρ c main_v7 (by decide)
theorem k13_main_v7 (c : Dev nD) : W13 m ρ c (Proc.devRef .tc main_v7) = W1 m ρ c (Proc.devRef .tc main_v7) := (s13_main_v7 m ρ c).trans (k12_main_v7 m ρ c)
theorem s14_main_v7 (c : Dev nD) : W14 m ρ c (Proc.devRef .tc main_v7) = W13 m ρ c (Proc.devRef .tc main_v7) := by
  host_keep hostOps4
theorem k14_main_v7 (c : Dev nD) : W14 m ρ c (Proc.devRef .tc main_v7) = W1 m ρ c (Proc.devRef .tc main_v7) := (s14_main_v7 m ρ c).trans (k13_main_v7 m ρ c)
theorem s15_main_v7 (c : Dev nD) : W15 m ρ c (Proc.devRef .tc main_v7) = W14 m ρ c (Proc.devRef .tc main_v7) := by
  host_keep hostOps4_1
theorem k15_main_v7 (c : Dev nD) : W15 m ρ c (Proc.devRef .tc main_v7) = W1 m ρ c (Proc.devRef .tc main_v7) := (s15_main_v7 m ρ c).trans (k14_main_v7 m ρ c)
theorem s16_main_v7 (c : Dev nD) : W16 m ρ c (Proc.devRef .tc main_v7) = W15 m ρ c (Proc.devRef .tc main_v7) := by
  host_keep hostOps4_2
theorem k16_main_v7 (c : Dev nD) : W16 m ρ c (Proc.devRef .tc main_v7) = W1 m ρ c (Proc.devRef .tc main_v7) := (s16_main_v7 m ρ c).trans (k15_main_v7 m ρ c)
theorem s17_main_v7 (c : Dev nD) : W17 m ρ c (Proc.devRef .tc main_v7) = W16 m ρ c (Proc.devRef .tc main_v7) := W17_of_ne m ρ c main_v7 (by decide)
theorem k17_main_v7 (c : Dev nD) : W17 m ρ c (Proc.devRef .tc main_v7) = W1 m ρ c (Proc.devRef .tc main_v7) := (s17_main_v7 m ρ c).trans (k16_main_v7 m ρ c)
theorem s18_main_v7 (c : Dev nD) : W18 m ρ c (Proc.devRef .tc main_v7) = W17 m ρ c (Proc.devRef .tc main_v7) := by
  host_keep hostOps5
theorem k18_main_v7 (c : Dev nD) : W18 m ρ c (Proc.devRef .tc main_v7) = W1 m ρ c (Proc.devRef .tc main_v7) := (s18_main_v7 m ρ c).trans (k17_main_v7 m ρ c)
theorem s19_main_v7 (c : Dev nD) : W19 m ρ c (Proc.devRef .tc main_v7) = W18 m ρ c (Proc.devRef .tc main_v7) := W19_of_ne m ρ c main_v7 (by decide)
theorem k19_main_v7 (c : Dev nD) : W19 m ρ c (Proc.devRef .tc main_v7) = W1 m ρ c (Proc.devRef .tc main_v7) := (s19_main_v7 m ρ c).trans (k18_main_v7 m ρ c)

/-! ## `main_v8` -/
theorem s2_main_v8 (c : Dev nD) : W2 m ρ c (Proc.devRef .tc main_v8) = W1 m ρ c (Proc.devRef .tc main_v8) := by
  host_keep hostOps0_1
theorem k2_main_v8 (c : Dev nD) : W2 m ρ c (Proc.devRef .tc main_v8) = W1 m ρ c (Proc.devRef .tc main_v8) := s2_main_v8 m ρ c
theorem s3_main_v8 (c : Dev nD) : W3 m ρ c (Proc.devRef .tc main_v8) = W2 m ρ c (Proc.devRef .tc main_v8) := by
  host_keep hostOps0_2
theorem k3_main_v8 (c : Dev nD) : W3 m ρ c (Proc.devRef .tc main_v8) = W1 m ρ c (Proc.devRef .tc main_v8) := (s3_main_v8 m ρ c).trans (k2_main_v8 m ρ c)
theorem s4_main_v8 (c : Dev nD) : W4 m ρ c (Proc.devRef .tc main_v8) = W3 m ρ c (Proc.devRef .tc main_v8) := by
  host_keep hostOps0_3
theorem k4_main_v8 (c : Dev nD) : W4 m ρ c (Proc.devRef .tc main_v8) = W1 m ρ c (Proc.devRef .tc main_v8) := (s4_main_v8 m ρ c).trans (k3_main_v8 m ρ c)
theorem s5_main_v8 (c : Dev nD) : W5 m ρ c (Proc.devRef .tc main_v8) = W4 m ρ c (Proc.devRef .tc main_v8) := W5_of_ne m ρ c main_v8 (by decide)
theorem k5_main_v8 (c : Dev nD) : W5 m ρ c (Proc.devRef .tc main_v8) = W1 m ρ c (Proc.devRef .tc main_v8) := (s5_main_v8 m ρ c).trans (k4_main_v8 m ρ c)
theorem s6_main_v8 (c : Dev nD) : W6 m ρ c (Proc.devRef .tc main_v8) = W5 m ρ c (Proc.devRef .tc main_v8) := by
  host_keep hostOps1
theorem k6_main_v8 (c : Dev nD) : W6 m ρ c (Proc.devRef .tc main_v8) = W1 m ρ c (Proc.devRef .tc main_v8) := (s6_main_v8 m ρ c).trans (k5_main_v8 m ρ c)
theorem s7_main_v8 (c : Dev nD) : W7 m ρ c (Proc.devRef .tc main_v8) = W6 m ρ c (Proc.devRef .tc main_v8) := W7_of_ne m ρ c main_v8 (by decide)
theorem k7_main_v8 (c : Dev nD) : W7 m ρ c (Proc.devRef .tc main_v8) = W1 m ρ c (Proc.devRef .tc main_v8) := (s7_main_v8 m ρ c).trans (k6_main_v8 m ρ c)
theorem s8_main_v8 (c : Dev nD) : W8 m ρ c (Proc.devRef .tc main_v8) = W7 m ρ c (Proc.devRef .tc main_v8) := by
  host_keep hostOps2
theorem k8_main_v8 (c : Dev nD) : W8 m ρ c (Proc.devRef .tc main_v8) = W1 m ρ c (Proc.devRef .tc main_v8) := (s8_main_v8 m ρ c).trans (k7_main_v8 m ρ c)
theorem s9_main_v8 (c : Dev nD) : W9 m ρ c (Proc.devRef .tc main_v8) = W8 m ρ c (Proc.devRef .tc main_v8) := by
  host_keep hostOps2_1
theorem k9_main_v8 (c : Dev nD) : W9 m ρ c (Proc.devRef .tc main_v8) = W1 m ρ c (Proc.devRef .tc main_v8) := (s9_main_v8 m ρ c).trans (k8_main_v8 m ρ c)
theorem s10_main_v8 (c : Dev nD) : W10 m ρ c (Proc.devRef .tc main_v8) = W9 m ρ c (Proc.devRef .tc main_v8) := by
  host_keep hostOps2_2
theorem k10_main_v8 (c : Dev nD) : W10 m ρ c (Proc.devRef .tc main_v8) = W1 m ρ c (Proc.devRef .tc main_v8) := (s10_main_v8 m ρ c).trans (k9_main_v8 m ρ c)
theorem s11_main_v8 (c : Dev nD) : W11 m ρ c (Proc.devRef .tc main_v8) = W10 m ρ c (Proc.devRef .tc main_v8) := W11_of_ne m ρ c main_v8 (by decide)
theorem k11_main_v8 (c : Dev nD) : W11 m ρ c (Proc.devRef .tc main_v8) = W1 m ρ c (Proc.devRef .tc main_v8) := (s11_main_v8 m ρ c).trans (k10_main_v8 m ρ c)
theorem s12_main_v8 (c : Dev nD) : W12 m ρ c (Proc.devRef .tc main_v8) = W11 m ρ c (Proc.devRef .tc main_v8) := by
  host_keep hostOps3
theorem k12_main_v8 (c : Dev nD) : W12 m ρ c (Proc.devRef .tc main_v8) = W1 m ρ c (Proc.devRef .tc main_v8) := (s12_main_v8 m ρ c).trans (k11_main_v8 m ρ c)
theorem s13_main_v8 (c : Dev nD) : W13 m ρ c (Proc.devRef .tc main_v8) = W12 m ρ c (Proc.devRef .tc main_v8) := W13_of_ne m ρ c main_v8 (by decide)
theorem k13_main_v8 (c : Dev nD) : W13 m ρ c (Proc.devRef .tc main_v8) = W1 m ρ c (Proc.devRef .tc main_v8) := (s13_main_v8 m ρ c).trans (k12_main_v8 m ρ c)
theorem s14_main_v8 (c : Dev nD) : W14 m ρ c (Proc.devRef .tc main_v8) = W13 m ρ c (Proc.devRef .tc main_v8) := by
  host_keep hostOps4
theorem k14_main_v8 (c : Dev nD) : W14 m ρ c (Proc.devRef .tc main_v8) = W1 m ρ c (Proc.devRef .tc main_v8) := (s14_main_v8 m ρ c).trans (k13_main_v8 m ρ c)
theorem s15_main_v8 (c : Dev nD) : W15 m ρ c (Proc.devRef .tc main_v8) = W14 m ρ c (Proc.devRef .tc main_v8) := by
  host_keep hostOps4_1
theorem k15_main_v8 (c : Dev nD) : W15 m ρ c (Proc.devRef .tc main_v8) = W1 m ρ c (Proc.devRef .tc main_v8) := (s15_main_v8 m ρ c).trans (k14_main_v8 m ρ c)
theorem s16_main_v8 (c : Dev nD) : W16 m ρ c (Proc.devRef .tc main_v8) = W15 m ρ c (Proc.devRef .tc main_v8) := by
  host_keep hostOps4_2
theorem k16_main_v8 (c : Dev nD) : W16 m ρ c (Proc.devRef .tc main_v8) = W1 m ρ c (Proc.devRef .tc main_v8) := (s16_main_v8 m ρ c).trans (k15_main_v8 m ρ c)
theorem s17_main_v8 (c : Dev nD) : W17 m ρ c (Proc.devRef .tc main_v8) = W16 m ρ c (Proc.devRef .tc main_v8) := W17_of_ne m ρ c main_v8 (by decide)
theorem k17_main_v8 (c : Dev nD) : W17 m ρ c (Proc.devRef .tc main_v8) = W1 m ρ c (Proc.devRef .tc main_v8) := (s17_main_v8 m ρ c).trans (k16_main_v8 m ρ c)
theorem s18_main_v8 (c : Dev nD) : W18 m ρ c (Proc.devRef .tc main_v8) = W17 m ρ c (Proc.devRef .tc main_v8) := by
  host_keep hostOps5
theorem k18_main_v8 (c : Dev nD) : W18 m ρ c (Proc.devRef .tc main_v8) = W1 m ρ c (Proc.devRef .tc main_v8) := (s18_main_v8 m ρ c).trans (k17_main_v8 m ρ c)
theorem s19_main_v8 (c : Dev nD) : W19 m ρ c (Proc.devRef .tc main_v8) = W18 m ρ c (Proc.devRef .tc main_v8) := W19_of_ne m ρ c main_v8 (by decide)
theorem k19_main_v8 (c : Dev nD) : W19 m ρ c (Proc.devRef .tc main_v8) = W1 m ρ c (Proc.devRef .tc main_v8) := (s19_main_v8 m ρ c).trans (k18_main_v8 m ρ c)

/-! ## `main_v9` -/
theorem s2_main_v9 (c : Dev nD) : W2 m ρ c (Proc.devRef .tc main_v9) = W1 m ρ c (Proc.devRef .tc main_v9) := by
  host_keep hostOps0_1
theorem k2_main_v9 (c : Dev nD) : W2 m ρ c (Proc.devRef .tc main_v9) = W1 m ρ c (Proc.devRef .tc main_v9) := s2_main_v9 m ρ c
theorem s3_main_v9 (c : Dev nD) : W3 m ρ c (Proc.devRef .tc main_v9) = W2 m ρ c (Proc.devRef .tc main_v9) := by
  host_keep hostOps0_2
theorem k3_main_v9 (c : Dev nD) : W3 m ρ c (Proc.devRef .tc main_v9) = W1 m ρ c (Proc.devRef .tc main_v9) := (s3_main_v9 m ρ c).trans (k2_main_v9 m ρ c)
theorem s4_main_v9 (c : Dev nD) : W4 m ρ c (Proc.devRef .tc main_v9) = W3 m ρ c (Proc.devRef .tc main_v9) := by
  host_keep hostOps0_3
theorem k4_main_v9 (c : Dev nD) : W4 m ρ c (Proc.devRef .tc main_v9) = W1 m ρ c (Proc.devRef .tc main_v9) := (s4_main_v9 m ρ c).trans (k3_main_v9 m ρ c)
theorem s5_main_v9 (c : Dev nD) : W5 m ρ c (Proc.devRef .tc main_v9) = W4 m ρ c (Proc.devRef .tc main_v9) := W5_of_ne m ρ c main_v9 (by decide)
theorem k5_main_v9 (c : Dev nD) : W5 m ρ c (Proc.devRef .tc main_v9) = W1 m ρ c (Proc.devRef .tc main_v9) := (s5_main_v9 m ρ c).trans (k4_main_v9 m ρ c)
theorem s6_main_v9 (c : Dev nD) : W6 m ρ c (Proc.devRef .tc main_v9) = W5 m ρ c (Proc.devRef .tc main_v9) := by
  host_keep hostOps1
theorem k6_main_v9 (c : Dev nD) : W6 m ρ c (Proc.devRef .tc main_v9) = W1 m ρ c (Proc.devRef .tc main_v9) := (s6_main_v9 m ρ c).trans (k5_main_v9 m ρ c)
theorem s7_main_v9 (c : Dev nD) : W7 m ρ c (Proc.devRef .tc main_v9) = W6 m ρ c (Proc.devRef .tc main_v9) := W7_of_ne m ρ c main_v9 (by decide)
theorem k7_main_v9 (c : Dev nD) : W7 m ρ c (Proc.devRef .tc main_v9) = W1 m ρ c (Proc.devRef .tc main_v9) := (s7_main_v9 m ρ c).trans (k6_main_v9 m ρ c)
theorem s8_main_v9 (c : Dev nD) : W8 m ρ c (Proc.devRef .tc main_v9) = W7 m ρ c (Proc.devRef .tc main_v9) := by
  host_keep hostOps2
theorem k8_main_v9 (c : Dev nD) : W8 m ρ c (Proc.devRef .tc main_v9) = W1 m ρ c (Proc.devRef .tc main_v9) := (s8_main_v9 m ρ c).trans (k7_main_v9 m ρ c)
theorem s9_main_v9 (c : Dev nD) : W9 m ρ c (Proc.devRef .tc main_v9) = W8 m ρ c (Proc.devRef .tc main_v9) := by
  host_keep hostOps2_1
theorem k9_main_v9 (c : Dev nD) : W9 m ρ c (Proc.devRef .tc main_v9) = W1 m ρ c (Proc.devRef .tc main_v9) := (s9_main_v9 m ρ c).trans (k8_main_v9 m ρ c)
theorem s10_main_v9 (c : Dev nD) : W10 m ρ c (Proc.devRef .tc main_v9) = W9 m ρ c (Proc.devRef .tc main_v9) := by
  host_keep hostOps2_2
theorem k10_main_v9 (c : Dev nD) : W10 m ρ c (Proc.devRef .tc main_v9) = W1 m ρ c (Proc.devRef .tc main_v9) := (s10_main_v9 m ρ c).trans (k9_main_v9 m ρ c)
theorem s11_main_v9 (c : Dev nD) : W11 m ρ c (Proc.devRef .tc main_v9) = W10 m ρ c (Proc.devRef .tc main_v9) := W11_of_ne m ρ c main_v9 (by decide)
theorem k11_main_v9 (c : Dev nD) : W11 m ρ c (Proc.devRef .tc main_v9) = W1 m ρ c (Proc.devRef .tc main_v9) := (s11_main_v9 m ρ c).trans (k10_main_v9 m ρ c)
theorem s12_main_v9 (c : Dev nD) : W12 m ρ c (Proc.devRef .tc main_v9) = W11 m ρ c (Proc.devRef .tc main_v9) := by
  host_keep hostOps3
theorem k12_main_v9 (c : Dev nD) : W12 m ρ c (Proc.devRef .tc main_v9) = W1 m ρ c (Proc.devRef .tc main_v9) := (s12_main_v9 m ρ c).trans (k11_main_v9 m ρ c)
theorem s13_main_v9 (c : Dev nD) : W13 m ρ c (Proc.devRef .tc main_v9) = W12 m ρ c (Proc.devRef .tc main_v9) := W13_of_ne m ρ c main_v9 (by decide)
theorem k13_main_v9 (c : Dev nD) : W13 m ρ c (Proc.devRef .tc main_v9) = W1 m ρ c (Proc.devRef .tc main_v9) := (s13_main_v9 m ρ c).trans (k12_main_v9 m ρ c)
theorem s14_main_v9 (c : Dev nD) : W14 m ρ c (Proc.devRef .tc main_v9) = W13 m ρ c (Proc.devRef .tc main_v9) := by
  host_keep hostOps4
theorem k14_main_v9 (c : Dev nD) : W14 m ρ c (Proc.devRef .tc main_v9) = W1 m ρ c (Proc.devRef .tc main_v9) := (s14_main_v9 m ρ c).trans (k13_main_v9 m ρ c)
theorem s15_main_v9 (c : Dev nD) : W15 m ρ c (Proc.devRef .tc main_v9) = W14 m ρ c (Proc.devRef .tc main_v9) := by
  host_keep hostOps4_1
theorem k15_main_v9 (c : Dev nD) : W15 m ρ c (Proc.devRef .tc main_v9) = W1 m ρ c (Proc.devRef .tc main_v9) := (s15_main_v9 m ρ c).trans (k14_main_v9 m ρ c)
theorem s16_main_v9 (c : Dev nD) : W16 m ρ c (Proc.devRef .tc main_v9) = W15 m ρ c (Proc.devRef .tc main_v9) := by
  host_keep hostOps4_2
theorem k16_main_v9 (c : Dev nD) : W16 m ρ c (Proc.devRef .tc main_v9) = W1 m ρ c (Proc.devRef .tc main_v9) := (s16_main_v9 m ρ c).trans (k15_main_v9 m ρ c)
theorem s17_main_v9 (c : Dev nD) : W17 m ρ c (Proc.devRef .tc main_v9) = W16 m ρ c (Proc.devRef .tc main_v9) := W17_of_ne m ρ c main_v9 (by decide)
theorem k17_main_v9 (c : Dev nD) : W17 m ρ c (Proc.devRef .tc main_v9) = W1 m ρ c (Proc.devRef .tc main_v9) := (s17_main_v9 m ρ c).trans (k16_main_v9 m ρ c)
theorem s18_main_v9 (c : Dev nD) : W18 m ρ c (Proc.devRef .tc main_v9) = W17 m ρ c (Proc.devRef .tc main_v9) := by
  host_keep hostOps5
theorem k18_main_v9 (c : Dev nD) : W18 m ρ c (Proc.devRef .tc main_v9) = W1 m ρ c (Proc.devRef .tc main_v9) := (s18_main_v9 m ρ c).trans (k17_main_v9 m ρ c)
theorem s19_main_v9 (c : Dev nD) : W19 m ρ c (Proc.devRef .tc main_v9) = W18 m ρ c (Proc.devRef .tc main_v9) := W19_of_ne m ρ c main_v9 (by decide)
theorem k19_main_v9 (c : Dev nD) : W19 m ρ c (Proc.devRef .tc main_v9) = W1 m ρ c (Proc.devRef .tc main_v9) := (s19_main_v9 m ρ c).trans (k18_main_v9 m ρ c)

/-! ## `main_v10` -/
theorem s2_main_v10 (c : Dev nD) : W2 m ρ c (Proc.devRef .tc main_v10) = W1 m ρ c (Proc.devRef .tc main_v10) := by
  host_keep hostOps0_1
theorem k2_main_v10 (c : Dev nD) : W2 m ρ c (Proc.devRef .tc main_v10) = W1 m ρ c (Proc.devRef .tc main_v10) := s2_main_v10 m ρ c
theorem s3_main_v10 (c : Dev nD) : W3 m ρ c (Proc.devRef .tc main_v10) = W2 m ρ c (Proc.devRef .tc main_v10) := by
  host_keep hostOps0_2
theorem k3_main_v10 (c : Dev nD) : W3 m ρ c (Proc.devRef .tc main_v10) = W1 m ρ c (Proc.devRef .tc main_v10) := (s3_main_v10 m ρ c).trans (k2_main_v10 m ρ c)
theorem s4_main_v10 (c : Dev nD) : W4 m ρ c (Proc.devRef .tc main_v10) = W3 m ρ c (Proc.devRef .tc main_v10) := by
  host_keep hostOps0_3
theorem k4_main_v10 (c : Dev nD) : W4 m ρ c (Proc.devRef .tc main_v10) = W1 m ρ c (Proc.devRef .tc main_v10) := (s4_main_v10 m ρ c).trans (k3_main_v10 m ρ c)
theorem s5_main_v10 (c : Dev nD) : W5 m ρ c (Proc.devRef .tc main_v10) = W4 m ρ c (Proc.devRef .tc main_v10) := W5_of_ne m ρ c main_v10 (by decide)
theorem k5_main_v10 (c : Dev nD) : W5 m ρ c (Proc.devRef .tc main_v10) = W1 m ρ c (Proc.devRef .tc main_v10) := (s5_main_v10 m ρ c).trans (k4_main_v10 m ρ c)
theorem s6_main_v10 (c : Dev nD) : W6 m ρ c (Proc.devRef .tc main_v10) = W5 m ρ c (Proc.devRef .tc main_v10) := by
  host_keep hostOps1
theorem k6_main_v10 (c : Dev nD) : W6 m ρ c (Proc.devRef .tc main_v10) = W1 m ρ c (Proc.devRef .tc main_v10) := (s6_main_v10 m ρ c).trans (k5_main_v10 m ρ c)
theorem s7_main_v10 (c : Dev nD) : W7 m ρ c (Proc.devRef .tc main_v10) = W6 m ρ c (Proc.devRef .tc main_v10) := W7_of_ne m ρ c main_v10 (by decide)
theorem k7_main_v10 (c : Dev nD) : W7 m ρ c (Proc.devRef .tc main_v10) = W1 m ρ c (Proc.devRef .tc main_v10) := (s7_main_v10 m ρ c).trans (k6_main_v10 m ρ c)
theorem s8_main_v10 (c : Dev nD) : W8 m ρ c (Proc.devRef .tc main_v10) = W7 m ρ c (Proc.devRef .tc main_v10) := by
  host_keep hostOps2
theorem k8_main_v10 (c : Dev nD) : W8 m ρ c (Proc.devRef .tc main_v10) = W1 m ρ c (Proc.devRef .tc main_v10) := (s8_main_v10 m ρ c).trans (k7_main_v10 m ρ c)
theorem s9_main_v10 (c : Dev nD) : W9 m ρ c (Proc.devRef .tc main_v10) = W8 m ρ c (Proc.devRef .tc main_v10) := by
  host_keep hostOps2_1
theorem k9_main_v10 (c : Dev nD) : W9 m ρ c (Proc.devRef .tc main_v10) = W1 m ρ c (Proc.devRef .tc main_v10) := (s9_main_v10 m ρ c).trans (k8_main_v10 m ρ c)
theorem s10_main_v10 (c : Dev nD) : W10 m ρ c (Proc.devRef .tc main_v10) = W9 m ρ c (Proc.devRef .tc main_v10) := by
  host_keep hostOps2_2
theorem k10_main_v10 (c : Dev nD) : W10 m ρ c (Proc.devRef .tc main_v10) = W1 m ρ c (Proc.devRef .tc main_v10) := (s10_main_v10 m ρ c).trans (k9_main_v10 m ρ c)
theorem s11_main_v10 (c : Dev nD) : W11 m ρ c (Proc.devRef .tc main_v10) = W10 m ρ c (Proc.devRef .tc main_v10) := W11_of_ne m ρ c main_v10 (by decide)
theorem k11_main_v10 (c : Dev nD) : W11 m ρ c (Proc.devRef .tc main_v10) = W1 m ρ c (Proc.devRef .tc main_v10) := (s11_main_v10 m ρ c).trans (k10_main_v10 m ρ c)
theorem s12_main_v10 (c : Dev nD) : W12 m ρ c (Proc.devRef .tc main_v10) = W11 m ρ c (Proc.devRef .tc main_v10) := by
  host_keep hostOps3
theorem k12_main_v10 (c : Dev nD) : W12 m ρ c (Proc.devRef .tc main_v10) = W1 m ρ c (Proc.devRef .tc main_v10) := (s12_main_v10 m ρ c).trans (k11_main_v10 m ρ c)
theorem s13_main_v10 (c : Dev nD) : W13 m ρ c (Proc.devRef .tc main_v10) = W12 m ρ c (Proc.devRef .tc main_v10) := W13_of_ne m ρ c main_v10 (by decide)
theorem k13_main_v10 (c : Dev nD) : W13 m ρ c (Proc.devRef .tc main_v10) = W1 m ρ c (Proc.devRef .tc main_v10) := (s13_main_v10 m ρ c).trans (k12_main_v10 m ρ c)
theorem s14_main_v10 (c : Dev nD) : W14 m ρ c (Proc.devRef .tc main_v10) = W13 m ρ c (Proc.devRef .tc main_v10) := by
  host_keep hostOps4
theorem k14_main_v10 (c : Dev nD) : W14 m ρ c (Proc.devRef .tc main_v10) = W1 m ρ c (Proc.devRef .tc main_v10) := (s14_main_v10 m ρ c).trans (k13_main_v10 m ρ c)
theorem s15_main_v10 (c : Dev nD) : W15 m ρ c (Proc.devRef .tc main_v10) = W14 m ρ c (Proc.devRef .tc main_v10) := by
  host_keep hostOps4_1
theorem k15_main_v10 (c : Dev nD) : W15 m ρ c (Proc.devRef .tc main_v10) = W1 m ρ c (Proc.devRef .tc main_v10) := (s15_main_v10 m ρ c).trans (k14_main_v10 m ρ c)
theorem s16_main_v10 (c : Dev nD) : W16 m ρ c (Proc.devRef .tc main_v10) = W15 m ρ c (Proc.devRef .tc main_v10) := by
  host_keep hostOps4_2
theorem k16_main_v10 (c : Dev nD) : W16 m ρ c (Proc.devRef .tc main_v10) = W1 m ρ c (Proc.devRef .tc main_v10) := (s16_main_v10 m ρ c).trans (k15_main_v10 m ρ c)
theorem s17_main_v10 (c : Dev nD) : W17 m ρ c (Proc.devRef .tc main_v10) = W16 m ρ c (Proc.devRef .tc main_v10) := W17_of_ne m ρ c main_v10 (by decide)
theorem k17_main_v10 (c : Dev nD) : W17 m ρ c (Proc.devRef .tc main_v10) = W1 m ρ c (Proc.devRef .tc main_v10) := (s17_main_v10 m ρ c).trans (k16_main_v10 m ρ c)
theorem s18_main_v10 (c : Dev nD) : W18 m ρ c (Proc.devRef .tc main_v10) = W17 m ρ c (Proc.devRef .tc main_v10) := by
  host_keep hostOps5
theorem k18_main_v10 (c : Dev nD) : W18 m ρ c (Proc.devRef .tc main_v10) = W1 m ρ c (Proc.devRef .tc main_v10) := (s18_main_v10 m ρ c).trans (k17_main_v10 m ρ c)
theorem s19_main_v10 (c : Dev nD) : W19 m ρ c (Proc.devRef .tc main_v10) = W18 m ρ c (Proc.devRef .tc main_v10) := W19_of_ne m ρ c main_v10 (by decide)
theorem k19_main_v10 (c : Dev nD) : W19 m ρ c (Proc.devRef .tc main_v10) = W1 m ρ c (Proc.devRef .tc main_v10) := (s19_main_v10 m ρ c).trans (k18_main_v10 m ρ c)

/-! ## `main_v11` -/
theorem s2_main_v11 (c : Dev nD) : W2 m ρ c (Proc.devRef .tc main_v11) = W1 m ρ c (Proc.devRef .tc main_v11) := by
  host_keep hostOps0_1
theorem k2_main_v11 (c : Dev nD) : W2 m ρ c (Proc.devRef .tc main_v11) = W1 m ρ c (Proc.devRef .tc main_v11) := s2_main_v11 m ρ c
theorem s3_main_v11 (c : Dev nD) : W3 m ρ c (Proc.devRef .tc main_v11) = W2 m ρ c (Proc.devRef .tc main_v11) := by
  host_keep hostOps0_2
theorem k3_main_v11 (c : Dev nD) : W3 m ρ c (Proc.devRef .tc main_v11) = W1 m ρ c (Proc.devRef .tc main_v11) := (s3_main_v11 m ρ c).trans (k2_main_v11 m ρ c)
theorem s4_main_v11 (c : Dev nD) : W4 m ρ c (Proc.devRef .tc main_v11) = W3 m ρ c (Proc.devRef .tc main_v11) := by
  host_keep hostOps0_3
theorem k4_main_v11 (c : Dev nD) : W4 m ρ c (Proc.devRef .tc main_v11) = W1 m ρ c (Proc.devRef .tc main_v11) := (s4_main_v11 m ρ c).trans (k3_main_v11 m ρ c)
theorem s5_main_v11 (c : Dev nD) : W5 m ρ c (Proc.devRef .tc main_v11) = W4 m ρ c (Proc.devRef .tc main_v11) := W5_of_ne m ρ c main_v11 (by decide)
theorem k5_main_v11 (c : Dev nD) : W5 m ρ c (Proc.devRef .tc main_v11) = W1 m ρ c (Proc.devRef .tc main_v11) := (s5_main_v11 m ρ c).trans (k4_main_v11 m ρ c)
theorem s6_main_v11 (c : Dev nD) : W6 m ρ c (Proc.devRef .tc main_v11) = W5 m ρ c (Proc.devRef .tc main_v11) := by
  host_keep hostOps1
theorem k6_main_v11 (c : Dev nD) : W6 m ρ c (Proc.devRef .tc main_v11) = W1 m ρ c (Proc.devRef .tc main_v11) := (s6_main_v11 m ρ c).trans (k5_main_v11 m ρ c)
theorem s7_main_v11 (c : Dev nD) : W7 m ρ c (Proc.devRef .tc main_v11) = W6 m ρ c (Proc.devRef .tc main_v11) := W7_of_ne m ρ c main_v11 (by decide)
theorem k7_main_v11 (c : Dev nD) : W7 m ρ c (Proc.devRef .tc main_v11) = W1 m ρ c (Proc.devRef .tc main_v11) := (s7_main_v11 m ρ c).trans (k6_main_v11 m ρ c)
theorem s8_main_v11 (c : Dev nD) : W8 m ρ c (Proc.devRef .tc main_v11) = W7 m ρ c (Proc.devRef .tc main_v11) := by
  host_keep hostOps2
theorem k8_main_v11 (c : Dev nD) : W8 m ρ c (Proc.devRef .tc main_v11) = W1 m ρ c (Proc.devRef .tc main_v11) := (s8_main_v11 m ρ c).trans (k7_main_v11 m ρ c)
theorem s9_main_v11 (c : Dev nD) : W9 m ρ c (Proc.devRef .tc main_v11) = W8 m ρ c (Proc.devRef .tc main_v11) := by
  host_keep hostOps2_1
theorem k9_main_v11 (c : Dev nD) : W9 m ρ c (Proc.devRef .tc main_v11) = W1 m ρ c (Proc.devRef .tc main_v11) := (s9_main_v11 m ρ c).trans (k8_main_v11 m ρ c)
theorem s10_main_v11 (c : Dev nD) : W10 m ρ c (Proc.devRef .tc main_v11) = W9 m ρ c (Proc.devRef .tc main_v11) := by
  host_keep hostOps2_2
theorem k10_main_v11 (c : Dev nD) : W10 m ρ c (Proc.devRef .tc main_v11) = W1 m ρ c (Proc.devRef .tc main_v11) := (s10_main_v11 m ρ c).trans (k9_main_v11 m ρ c)
theorem s11_main_v11 (c : Dev nD) : W11 m ρ c (Proc.devRef .tc main_v11) = W10 m ρ c (Proc.devRef .tc main_v11) := W11_of_ne m ρ c main_v11 (by decide)
theorem k11_main_v11 (c : Dev nD) : W11 m ρ c (Proc.devRef .tc main_v11) = W1 m ρ c (Proc.devRef .tc main_v11) := (s11_main_v11 m ρ c).trans (k10_main_v11 m ρ c)
theorem s12_main_v11 (c : Dev nD) : W12 m ρ c (Proc.devRef .tc main_v11) = W11 m ρ c (Proc.devRef .tc main_v11) := by
  host_keep hostOps3
theorem k12_main_v11 (c : Dev nD) : W12 m ρ c (Proc.devRef .tc main_v11) = W1 m ρ c (Proc.devRef .tc main_v11) := (s12_main_v11 m ρ c).trans (k11_main_v11 m ρ c)
theorem s13_main_v11 (c : Dev nD) : W13 m ρ c (Proc.devRef .tc main_v11) = W12 m ρ c (Proc.devRef .tc main_v11) := W13_of_ne m ρ c main_v11 (by decide)
theorem k13_main_v11 (c : Dev nD) : W13 m ρ c (Proc.devRef .tc main_v11) = W1 m ρ c (Proc.devRef .tc main_v11) := (s13_main_v11 m ρ c).trans (k12_main_v11 m ρ c)
theorem s14_main_v11 (c : Dev nD) : W14 m ρ c (Proc.devRef .tc main_v11) = W13 m ρ c (Proc.devRef .tc main_v11) := by
  host_keep hostOps4
theorem k14_main_v11 (c : Dev nD) : W14 m ρ c (Proc.devRef .tc main_v11) = W1 m ρ c (Proc.devRef .tc main_v11) := (s14_main_v11 m ρ c).trans (k13_main_v11 m ρ c)
theorem s15_main_v11 (c : Dev nD) : W15 m ρ c (Proc.devRef .tc main_v11) = W14 m ρ c (Proc.devRef .tc main_v11) := by
  host_keep hostOps4_1
theorem k15_main_v11 (c : Dev nD) : W15 m ρ c (Proc.devRef .tc main_v11) = W1 m ρ c (Proc.devRef .tc main_v11) := (s15_main_v11 m ρ c).trans (k14_main_v11 m ρ c)
theorem s16_main_v11 (c : Dev nD) : W16 m ρ c (Proc.devRef .tc main_v11) = W15 m ρ c (Proc.devRef .tc main_v11) := by
  host_keep hostOps4_2
theorem k16_main_v11 (c : Dev nD) : W16 m ρ c (Proc.devRef .tc main_v11) = W1 m ρ c (Proc.devRef .tc main_v11) := (s16_main_v11 m ρ c).trans (k15_main_v11 m ρ c)
theorem s17_main_v11 (c : Dev nD) : W17 m ρ c (Proc.devRef .tc main_v11) = W16 m ρ c (Proc.devRef .tc main_v11) := W17_of_ne m ρ c main_v11 (by decide)
theorem k17_main_v11 (c : Dev nD) : W17 m ρ c (Proc.devRef .tc main_v11) = W1 m ρ c (Proc.devRef .tc main_v11) := (s17_main_v11 m ρ c).trans (k16_main_v11 m ρ c)
theorem s18_main_v11 (c : Dev nD) : W18 m ρ c (Proc.devRef .tc main_v11) = W17 m ρ c (Proc.devRef .tc main_v11) := by
  host_keep hostOps5
theorem k18_main_v11 (c : Dev nD) : W18 m ρ c (Proc.devRef .tc main_v11) = W1 m ρ c (Proc.devRef .tc main_v11) := (s18_main_v11 m ρ c).trans (k17_main_v11 m ρ c)
theorem s19_main_v11 (c : Dev nD) : W19 m ρ c (Proc.devRef .tc main_v11) = W18 m ρ c (Proc.devRef .tc main_v11) := W19_of_ne m ρ c main_v11 (by decide)
theorem k19_main_v11 (c : Dev nD) : W19 m ρ c (Proc.devRef .tc main_v11) = W1 m ρ c (Proc.devRef .tc main_v11) := (s19_main_v11 m ρ c).trans (k18_main_v11 m ρ c)

end Cert.Hand.Keep

end
-- ==== Proof.Spec.lean ====
/-
  The mathematics both programs compute, over the extended reals, one row of a table at a time.

  A graph network of three layers over 50000 nodes and 800000 edges, feature width 64.  In layer `l`
  every edge row becomes  relu (e·We[l][0:64] + s·We[l][64:128] + r·We[l][128:192] + be[l])  where `s`
  and `r` are the node rows its sender and receiver name; every node row becomes
  relu (n·Wn[l][0:64] + a·Wn[l][64:128] + bn[l])  where `a` is the mean of the edge rows the node
  receives.  After the last layer each node row is normalised (mean and variance over its 64
  entries, an epsilon under the inverse square root, scale and shift), sent through a 64→128→64
  perceptron with a relu between, and projected to one number.

  Each of these three row functions is stated here once, as a function of the row's entries and of
  the weight columns it meets; the whole-table functions read a table row by row through them.  A
  row's value depends on no other row: that is what lets a table be computed block of rows by block
  of rows.
-/
import Idealize.ShloMosaic.PureOps.Ideal
import Idealize.ShloMosaic.Lib.ValueIdx

noncomputable section

namespace Cert.Spec

open Idealize.ShloMosaic Idealize.ShloMosaic.ValueIdx

/-- A table of extended reals with `n0` rows and `n1` columns. -/
abbrev T2 (n0 n1 : Nat) : Type := (⟨2, ![n0, n1]⟩ : Shape).Idx → EReal
/-- A stack of `n0` such tables. -/
abbrev T3 (n0 n1 n2 : Nat) : Type := (⟨3, ![n0, n1, n2]⟩ : Shape).Idx → EReal
abbrev T1 (n0 : Nat) : Type := (⟨1, ![n0]⟩ : Shape).Idx → EReal

/-! ## One row -/

/-- One entry of an updated edge row: the edge row `e`, its sender's node row `s` and its receiver's
    `r` against one column of each of the three weight blocks, the bias entry, and the relu. -/
def edgeRow (e s r w0 w1 w2 : Fin 64 → EReal) (b : EReal) : EReal :=
  max ((∑ k : Fin 64, e k * w0 k) + (∑ k : Fin 64, s k * w1 k) + (∑ k : Fin 64, r k * w2 k) + b) 0

/-- One entry of an updated node row: the node row `n` and the mean `a` of its received edge rows
    against one column of each of the two weight blocks, the bias entry, and the relu. -/
def nodeRow (n a w0 w1 : Fin 64 → EReal) (b : EReal) : EReal :=
  max ((∑ k : Fin 64, n k * w0 k) + (∑ k : Fin 64, a k * w1 k) + b) 0

/-- The row's mean: its sum over 64. -/
def rowMean (x : Fin 64 → EReal) : EReal := Ideal.div (∑ j : Fin 64, x j) (Ideal.ofBits .f32 0x42800000#32)

/-- The normalised row: centred, times the inverse root of (variance + epsilon), scaled and shifted. -/
def normRow (x g bt : Fin 64 → EReal) (j : Fin 64) : EReal :=
  (x j - rowMean x)
    * Ideal.rsqrt (Ideal.div (∑ i : Fin 64, (x i - rowMean x) * (x i - rowMean x)) (Ideal.ofBits .f32 0x42800000#32)
        + Ideal.ofBits .f32 0x3727C5AC#32)
    * g j + bt j

/-- The hidden layer of the perceptron on a normalised row. -/
def hidRow (x g bt : Fin 64 → EReal) (W1 : Fin 64 → Fin 128 → EReal) (b1 : Fin 128 → EReal) (u : Fin 128) : EReal :=
  max ((∑ j : Fin 64, normRow x g bt j * W1 j u) + b1 u) 0

/-- The perceptron's output row. -/
def mlpRow (x g bt : Fin 64 → EReal) (W1 : Fin 64 → Fin 128 → EReal) (b1 : Fin 128 → EReal)
    (W2 : Fin 128 → Fin 64 → EReal) (b2 : Fin 64 → EReal) (v : Fin 64) : EReal :=
  (∑ u : Fin 128, hidRow x g bt W1 b1 u * W2 u v) + b2 v

/-- The projected number of a node row. -/
def finalRow (x g bt : Fin 64 → EReal) (W1 : Fin 64 → Fin 128 → EReal) (b1 : Fin 128 → EReal)
    (W2 : Fin 128 → Fin 64 → EReal) (b2 : Fin 64 → EReal) (Wp : Fin 64 → EReal) (bp : EReal) : EReal :=
  (∑ v : Fin 64, mlpRow x g bt W1 b1 W2 b2 v * Wp v) + bp

/-! ## Whole tables, row by row, against the weight blocks a kernel is handed -/

/-- The edge update of a table of `n` edge rows against three 64×64 weight blocks and a bias row. -/
def edgeTab {n : Nat} (e s r : T2 n 64) (w0 w1 w2 : T2 64 64) (b : T2 1 64) : T2 n 64 := fun i =>
  edgeRow (fun k => e (ix2 (i 0) k)) (fun k => s (ix2 (i 0) k)) (fun k => r (ix2 (i 0) k))
    (fun k => w0 (ix2 k (i 1))) (fun k => w1 (ix2 k (i 1))) (fun k => w2 (ix2 k (i 1))) (b (ix2 0 (i 1)))

/-- The node update of a table of `n` node rows against two 64×64 weight blocks and a bias row. -/
def nodeTab {n : Nat} (x a : T2 n 64) (w0 w1 : T2 64 64) (b : T2 1 64) : T2 n 64 := fun i =>
  nodeRow (fun k => x (ix2 (i 0) k)) (fun k => a (ix2 (i 0) k))
    (fun k => w0 (ix2 k (i 1))) (fun k => w1 (ix2 k (i 1))) (b (ix2 0 (i 1)))

/-- Normalisation, perceptron and projection of a table of `n` node rows. -/
def finalTab {n : Nat} (x : T2 n 64) (g bt : T2 1 64) (W1 : T2 64 128) (b1 : T2 1 128) (W2 : T2 128 64)
    (b2 : T2 1 64) (Wp : T2 64 1) (bp : T2 1 1) : T2 n 1 := fun i =>
  finalRow (fun k => x (ix2 (i 0) k)) (fun k => g (ix2 0 k)) (fun k => bt (ix2 0 k))
    (fun j u => W1 (ix2 j u)) (fun u => b1 (ix2 0 u)) (fun u v => W2 (ix2 u v)) (fun v => b2 (ix2 0 v))
    (fun v => Wp (ix2 v 0)) (bp (ix2 0 0))

/-! ## The weight blocks of layer `l`, cut from the stacked weights -/

/-- Rows `o .. o+63` of layer `l`'s matrix in a stack of matrices with `K` rows. -/
def wBlock {K : Nat} (W : T3 3 K 64) (l : Fin 3) (o : Nat) (ho : o + 64 ≤ K) : T2 64 64 := fun i =>
  W (ix3 l ⟨o + (i 0).val, by have h : (i 0).val < 64 := (i 0).isLt; omega⟩ (i 1))

/-- Layer `l`'s bias row. -/
def bRow (B : T2 3 64) (l : Fin 3) : T2 1 64 := fun i => B (ix2 l (i 1))

/-- A vector as a one-row table. -/
def asRow {n : Nat} (v : T1 n) : T2 1 n := fun i => v (ix1 (i 1))

end Cert.Spec

end
-- ==== Proof.Pipe.lean ====
/-
  The whole computation as one function of the sixteen input arrays, in the operations both programs share.

  Both programs count, per node, the edges it receives (at least one), gather the sender's and the receiver's node
  row of every edge, update the edge rows, average the updated rows of the edges each node receives, update the
  node rows — three times —, and end with normalisation, perceptron and projection.  The gathers, the counting and
  the averaging are the same host operations in both programs, so they are named here once, over the idealized
  kernel program's dimension records, and never opened; the three row functions are those of the specification.
-/
import proofs.«426185_j11338713661556_1_alg».proof.KernelIdeal
import proofs.«426185_j11338713661556_1_alg».proof.Proof.Spec
import Idealize.ShloMosaic.PureOps.Ideal

noncomputable section

namespace Cert.Hand.Pipe

open Cert.KernelIdeal Idealize.ShloMosaic
open Cert.KernelIdeal.Facts₀ Cert.KernelIdeal.Facts

variable [Cert.KernelIdeal.Facts]

/-- The index words, each negative one moved up by the number of nodes, as a column of start indices. -/
def wrapCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The node rows the index words name, one per edge. -/
def rows (x : FVec Ideal S50000x64 .f32) (a : IVec S800000 32) : FVec Ideal S800000x64 .f32 :=
  Host.gather gather_S50000x64_S800000x1_S800000x64_1_0_n_n_0_1_164 x (wrapCol a)

/-- Per node, the number of edges it receives, at least one, as a column. -/
def cnt (rcv : IVec S800000 32) : FVec Ideal S50000x1 .f32 :=
  broadcastInDim S50000x1 ![0] bcast_S50000_S50000x1_0
    (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 rcv)
        (broadcastInDim S800000 ![] bcast_S_S800000 (constant (F := Ideal) S_ .f32 0x3F800000#32)))
      (broadcastInDim S50000 ![] bcast_S_S50000 (constant (F := Ideal) S_ .f32 0x3F800000#32)))

/-- Per node, the mean of the edge rows it receives. -/
def agg (rcv : IVec S800000 32) (E : FVec Ideal S800000x64 .f32) : FVec Ideal S50000x64 .f32 :=
  Host.divf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 rcv) E)
    (broadcastInDim S50000x64 ![0, 1] bcast_S50000x1_S50000x64_0_1 (cnt rcv))

/-- The edge table after layer `l`, from the node and edge tables before it. -/
def edgeNext (l : Fin 3) (We : FVec Ideal S3x192x64 .f32) (be : FVec Ideal S3x64 .f32)
    (snd rcv : IVec S800000 32) (N : FVec Ideal S50000x64 .f32) (E : FVec Ideal S800000x64 .f32) :
    FVec Ideal S800000x64 .f32 :=
  Cert.Spec.edgeTab (n := 800000) E (rows N snd) (rows N rcv)
    (Cert.Spec.wBlock We l 0 (by decide)) (Cert.Spec.wBlock We l 64 (by decide)) (Cert.Spec.wBlock We l 128 (by decide))
    (Cert.Spec.bRow be l)

/-- The node table after layer `l`, from the node table before it and the layer's updated edge table. -/
def nodeNext (l : Fin 3) (Wn : FVec Ideal S3x128x64 .f32) (bn : FVec Ideal S3x64 .f32)
    (rcv : IVec S800000 32) (N : FVec Ideal S50000x64 .f32) (E' : FVec Ideal S800000x64 .f32) :
    FVec Ideal S50000x64 .f32 :=
  Cert.Spec.nodeTab (n := 50000) N (agg rcv E')
    (Cert.Spec.wBlock Wn l 0 (by decide)) (Cert.Spec.wBlock Wn l 64 (by decide)) (Cert.Spec.bRow bn l)

/-- The result column from the last node table. -/
def out (N : FVec Ideal S50000x64 .f32) (gamma beta : FVec Ideal S64 .f32) (W1 : FVec Ideal S64x128 .f32)
    (b1 : FVec Ideal S128 .f32) (W2 : FVec Ideal S128x64 .f32) (b2 : FVec Ideal S64 .f32)
    (Wp : FVec Ideal S64x1 .f32) (bp : FVec Ideal S1 .f32) : FVec Ideal S50000x1 .f32 :=
  Cert.Spec.finalTab (n := 50000) N (Cert.Spec.asRow gamma) (Cert.Spec.asRow beta) W1 (Cert.Spec.asRow b1) W2
    (Cert.Spec.asRow b2) Wp (Cert.Spec.asRow bp)

/-- The sixteen input arrays. -/
structure Inputs where
  nodes : FVec Ideal S50000x64 .f32
  edges : FVec Ideal S800000x64 .f32
  snd : IVec S800000 32
  rcv : IVec S800000 32
  We : FVec Ideal S3x192x64 .f32
  be : FVec Ideal S3x64 .f32
  Wn : FVec Ideal S3x128x64 .f32
  bn : FVec Ideal S3x64 .f32
  gamma : FVec Ideal S64 .f32
  beta : FVec Ideal S64 .f32
  W1 : FVec Ideal S64x128 .f32
  b1 : FVec Ideal S128 .f32
  W2 : FVec Ideal S128x64 .f32
  b2 : FVec Ideal S64 .f32
  Wp : FVec Ideal S64x1 .f32
  bp : FVec Ideal S1 .f32

variable (I : Inputs)

/-- The edge and node tables after each layer. -/
def E1 : FVec Ideal S800000x64 .f32 := edgeNext 0 I.We I.be I.snd I.rcv I.nodes I.edges
def N1 : FVec Ideal S50000x64 .f32 := nodeNext 0 I.Wn I.bn I.rcv I.nodes (E1 I)
def E2 : FVec Ideal S800000x64 .f32 := edgeNext 1 I.We I.be I.snd I.rcv (N1 I) (E1 I)
def N2 : FVec Ideal S50000x64 .f32 := nodeNext 1 I.Wn I.bn I.rcv (N1 I) (E2 I)
def E3 : FVec Ideal S800000x64 .f32 := edgeNext 2 I.We I.be I.snd I.rcv (N2 I) (E2 I)
def N3 : FVec Ideal S50000x64 .f32 := nodeNext 2 I.Wn I.bn I.rcv (N2 I) (E3 I)

/-- The result column. -/
def result : FVec Ideal S50000x1 .f32 := out (N3 I) I.gamma I.beta I.W1 I.b1 I.W2 I.b2 I.Wp I.bp

end Cert.Hand.Pipe

end
-- ==== Proof.HostLayout.lean ====
/-
  The host's layout operations around the kernels, read at an index: a 64-row band of one layer's weight matrix cut
  from the stack of matrices and flattened to a 64×64 table is the specification's weight block; one layer's bias
  vector cut from the stack, flattened and relaid as a one-row table is the specification's bias row; a vector
  relaid as a one-row table is the specification's row.
-/
import proofs.«426185_j11338713661556_1_alg».proof.Proof.Spec
import Idealize.ShloMosaic.Lib.ValueIdx
import Idealize.ShloMosaic.Lib.Pipeline.Value
import Idealize.ShloMosaic.Lib.ValueLayout

noncomputable section

namespace Cert.Hand.HostLayout

open Idealize.ShloMosaic Idealize.ShloMosaic.ValueIdx

/-- Rows `o .. o+63` of matrix `l` of a stack of three `K`-row matrices, cut out and flattened. -/
theorem wBlock_eq {K : Nat} (W : Cert.Spec.T3 3 K 64) (lv : Nat) (hl : lv < 3) (o : Nat) (ho : o + 64 ≤ K)
    (h1 : (⟨3, ![3, K, 64]⟩ : Shape).Slices ![lv, o, 0] ⟨3, ![1, 64, 64]⟩)
    (h2 : (⟨3, ![1, 64, 64]⟩ : Shape).ShapeCasts ⟨2, ![64, 64]⟩) :
    shapeCast ⟨2, ![64, 64]⟩ (extractStridedSlice ⟨3, ![1, 64, 64]⟩ ![lv, o, 0] W h1) h2
      = Cert.Spec.wBlock W ⟨lv, hl⟩ o ho := by
  funext i
  obtain ⟨a, b, rfl⟩ : ∃ (a : Fin 64) (b : Fin 64), i = ix2 a b := ⟨i 0, i 1, eq_ix2 i⟩
  refine (shapeCast_1ab_ab_apply _ h2 a b).trans ?_
  unfold Cert.Spec.wBlock
  show extractStridedSlice ⟨3, ![1, 64, 64]⟩ ![lv, o, 0] W h1 (ix3 (0 : Fin 1) a b)
      = W (ix3 ⟨lv, hl⟩ ⟨o + a.val, by have h : a.val < 64 := a.isLt; omega⟩ b)
  exact extractStridedSlice_apply ![lv, o, 0] W h1 (ix3 (0 : Fin 1) a b) _ (fun ax => match ax with
    | ⟨0, _⟩ => rfl
    | ⟨1, _⟩ => rfl
    | ⟨2, _⟩ => (Nat.zero_add _).symm)

/-- Bias vector `l` of a stack of three, cut out, flattened and relaid as one row. -/
theorem bRow_eq (B : Cert.Spec.T2 3 64) (lv : Nat) (hl : lv < 3)
    (h1 : (⟨2, ![3, 64]⟩ : Shape).Slices ![lv, 0] ⟨2, ![1, 64]⟩)
    (h2 : (⟨2, ![1, 64]⟩ : Shape).ShapeCasts ⟨1, ![64]⟩) (h3 : (⟨1, ![64]⟩ : Shape).ShapeCasts ⟨2, ![1, 64]⟩) :
    shapeCast ⟨2, ![1, 64]⟩ (shapeCast ⟨1, ![64]⟩ (extractStridedSlice ⟨2, ![1, 64]⟩ ![lv, 0] B h1) h2) h3
      = Cert.Spec.bRow B ⟨lv, hl⟩ := by
  funext i
  obtain ⟨u, c, rfl⟩ : ∃ (u : Fin 1) (c : Fin 64), i = ix2 u c := ⟨i 0, i 1, eq_ix2 i⟩
  refine (shapeCast_a_1a_apply _ h3 u c).trans ?_
  refine (shapeCast_1a_a_apply _ h2 c).trans ?_
  unfold Cert.Spec.bRow
  show extractStridedSlice ⟨2, ![1, 64]⟩ ![lv, 0] B h1 (ix2 (0 : Fin 1) c) = B (ix2 ⟨lv, hl⟩ c)
  exact extractStridedSlice_apply ![lv, 0] B h1 (ix2 (0 : Fin 1) c) _ (fun ax => match ax with
    | ⟨0, _⟩ => rfl
    | ⟨1, _⟩ => (Nat.zero_add _).symm)

/-- A vector relaid as a one-row table. -/
theorem asRow_eq {n : Nat} (v : Cert.Spec.T1 n) (h : (⟨1, ![n]⟩ : Shape).ShapeCasts ⟨2, ![1, n]⟩) :
    shapeCast ⟨2, ![1, n]⟩ v h = Cert.Spec.asRow v := by
  funext i
  obtain ⟨u, c, rfl⟩ : ∃ (u : Fin 1) (c : Fin n), i = ix2 u c := ⟨i 0, i 1, eq_ix2 i⟩
  exact shapeCast_a_1a_apply v h u c

end Cert.Hand.HostLayout

end
-- ==== Proof.KernelBase.lean ====
/-
  The kernel program's buffers after its first stretch of host operations, and at every later boundary: the sixteen
  argument arrays are never written, the received-edge count column is the pipeline's, and the five small vectors
  are relaid as one-row tables; none of these is written again, so they hold the same at every later boundary.
-/
import proofs.«426185_j11338713661556_1_alg».proof.Proof.Gen.KernelIdeal.Frame
import proofs.«426185_j11338713661556_1_alg».proof.Proof.KernelKeep
import proofs.«426185_j11338713661556_1_alg».proof.Proof.Pipe
import proofs.«426185_j11338713661556_1_alg».proof.Proof.HostLayout
import Idealize.ShloMosaic.Lib.StableHlo.Run
import Idealize.ShloMosaic.PureOps.Ideal

set_option maxRecDepth 16384

noncomputable section

namespace Cert.Hand.Chain

open Cert.KernelIdeal Cert.KernelIdeal.Gen Idealize.ShloMosaic Idealize.ShloMosaic.TcCoe Idealize.SL.Sem Idealize.ShloMosaic.StableHlo
open Cert.KernelIdeal.Facts₀ Cert.KernelIdeal.Facts
open Cert.Hand.Keep

variable (m : (ℓ : Loc nD τ sig) → Buf (Elt Ideal) ℓ) (ρ : Dev nD → PrngReg)

/-- The sixteen argument arrays of core `c` at launch. -/
def inputsOf (c : Dev nD) : Cert.Hand.Pipe.Inputs where
  nodes := m ((c : Thread nD τ).loc main_arg0)
  edges := m ((c : Thread nD τ).loc main_arg1)
  snd := m ((c : Thread nD τ).loc main_arg2)
  rcv := m ((c : Thread nD τ).loc main_arg3)
  We := m ((c : Thread nD τ).loc main_arg4)
  be := m ((c : Thread nD τ).loc main_arg5)
  Wn := m ((c : Thread nD τ).loc main_arg6)
  bn := m ((c : Thread nD τ).loc main_arg7)
  gamma := m ((c : Thread nD τ).loc main_arg8)
  beta := m ((c : Thread nD τ).loc main_arg9)
  W1 := m ((c : Thread nD τ).loc main_arg10)
  b1 := m ((c : Thread nD τ).loc main_arg11)
  W2 := m ((c : Thread nD τ).loc main_arg12)
  b2 := m ((c : Thread nD τ).loc main_arg13)
  Wp := m ((c : Thread nD τ).loc main_arg14)
  bp := m ((c : Thread nD τ).loc main_arg15)

/-! ## After the first host stretch -/

theorem W1_main_arg0 (c : Dev nD) : W1 m ρ c (Proc.devRef .tc main_arg0) = m ((c : Thread nD τ).loc main_arg0) := by
  show StableHlo.after hostOps0 (W0 m ρ c) (Proc.devRef .tc main_arg0) = _
  host_keep hostOps0
theorem W1_main_arg1 (c : Dev nD) : W1 m ρ c (Proc.devRef .tc main_arg1) = m ((c : Thread nD τ).loc main_arg1) := by
  show StableHlo.after hostOps0 (W0 m ρ c) (Proc.devRef .tc main_arg1) = _
  host_keep hostOps0
theorem W1_main_arg2 (c : Dev nD) : W1 m ρ c (Proc.devRef .tc main_arg2) = m ((c : Thread nD τ).loc main_arg2) := by
  show StableHlo.after hostOps0 (W0 m ρ c) (Proc.devRef .tc main_arg2) = _
  host_keep hostOps0
theorem W1_main_arg3 (c : Dev nD) : W1 m ρ c (Proc.devRef .tc main_arg3) = m ((c : Thread nD τ).loc main_arg3) := by
  show StableHlo.after hostOps0 (W0 m ρ c) (Proc.devRef .tc main_arg3) = _
  host_keep hostOps0
theorem W1_main_arg4 (c : Dev nD) : W1 m ρ c (Proc.devRef .tc main_arg4) = m ((c : Thread nD τ).loc main_arg4) := by
  show StableHlo.after hostOps0 (W0 m ρ c) (Proc.devRef .tc main_arg4) = _
  host_keep hostOps0
theorem W1_main_arg5 (c : Dev nD) : W1 m ρ c (Proc.devRef .tc main_arg5) = m ((c : Thread nD τ).loc main_arg5) := by
  show StableHlo.after hostOps0 (W0 m ρ c) (Proc.devRef .tc main_arg5) = _
  host_keep hostOps0
theorem W1_main_arg6 (c : Dev nD) : W1 m ρ c (Proc.devRef .tc main_arg6) = m ((c : Thread nD τ).loc main_arg6) := by
  show StableHlo.after hostOps0 (W0 m ρ c) (Proc.devRef .tc main_arg6) = _
  host_keep hostOps0
theorem W1_main_arg7 (c : Dev nD) : W1 m ρ c (Proc.devRef .tc main_arg7) = m ((c : Thread nD τ).loc main_arg7) := by
  show StableHlo.after hostOps0 (W0 m ρ c) (Proc.devRef .tc main_arg7) = _
  host_keep hostOps0
theorem W1_main_arg8 (c : Dev nD) : W1 m ρ c (Proc.devRef .tc main_arg8) = m ((c : Thread nD τ).loc main_arg8) := by
  show StableHlo.after hostOps0 (W0 m ρ c) (Proc.devRef .tc main_arg8) = _
  host_keep hostOps0
theorem W1_main_arg9 (c : Dev nD) : W1 m ρ c (Proc.devRef .tc main_arg9) = m ((c : Thread nD τ).loc main_arg9) := by
  show StableHlo.after hostOps0 (W0 m ρ c) (Proc.devRef .tc main_arg9) = _
  host_keep hostOps0
theorem W1_main_arg10 (c : Dev nD) : W1 m ρ c (Proc.devRef .tc main_arg10) = m ((c : Thread nD τ).loc main_arg10) := by
  show StableHlo.after hostOps0 (W0 m ρ c) (Proc.devRef .tc main_arg10) = _
  host_keep hostOps0
theorem W1_main_arg11 (c : Dev nD) : W1 m ρ c (Proc.devRef .tc main_arg11) = m ((c : Thread nD τ).loc main_arg11) := by
  show StableHlo.after hostOps0 (W0 m ρ c) (Proc.devRef .tc main_arg11) = _
  host_keep hostOps0
theorem W1_main_arg12 (c : Dev nD) : W1 m ρ c (Proc.devRef .tc main_arg12) = m ((c : Thread nD τ).loc main_arg12) := by
  show StableHlo.after hostOps0 (W0 m ρ c) (Proc.devRef .tc main_arg12) = _
  host_keep hostOps0
theorem W1_main_arg13 (c : Dev nD) : W1 m ρ c (Proc.devRef .tc main_arg13) = m ((c : Thread nD τ).loc main_arg13) := by
  show StableHlo.after hostOps0 (W0 m ρ c) (Proc.devRef .tc main_arg13) = _
  host_keep hostOps0
theorem W1_main_arg14 (c : Dev nD) : W1 m ρ c (Proc.devRef .tc main_arg14) = m ((c : Thread nD τ).loc main_arg14) := by
  show StableHlo.after hostOps0 (W0 m ρ c) (Proc.devRef .tc main_arg14) = _
  host_keep hostOps0
theorem W1_main_arg15 (c : Dev nD) : W1 m ρ c (Proc.devRef .tc main_arg15) = m ((c : Thread nD τ).loc main_arg15) := by
  show StableHlo.after hostOps0 (W0 m ρ c) (Proc.devRef .tc main_arg15) = _
  host_keep hostOps0

/-- The received-edge count column. -/
theorem W1_main_v6 (c : Dev nD) : W1 m ρ c (Proc.devRef .tc main_v6) = Cert.Hand.Pipe.cnt (m ((c : Thread nD τ).loc main_arg3)) := by
  show StableHlo.after hostOps0 (W0 m ρ c) (Proc.devRef .tc main_v6) = _
  simp only [hostOps0]
  after_results
  rfl

/-- `main_v7` is `main_arg8` relaid as one row. -/
theorem W1_main_v7 (c : Dev nD) : W1 m ρ c (Proc.devRef .tc main_v7) = Cert.Spec.asRow (m ((c : Thread nD τ).loc main_arg8)) := by
  show StableHlo.after hostOps0 (W0 m ρ c) (Proc.devRef .tc main_v7) = _
  simp only [hostOps0]
  after_results
  exact Cert.Hand.HostLayout.asRow_eq _ _
/-- `main_v8` is `main_arg9` relaid as one row. -/
theorem W1_main_v8 (c : Dev nD) : W1 m ρ c (Proc.devRef .tc main_v8) = Cert.Spec.asRow (m ((c : Thread nD τ).loc main_arg9)) := by
  show StableHlo.after hostOps0 (W0 m ρ c) (Proc.devRef .tc main_v8) = _
  simp only [hostOps0]
  after_results
  exact Cert.Hand.HostLayout.asRow_eq _ _
/-- `main_v9` is `main_arg11` relaid as one row. -/
theorem W1_main_v9 (c : Dev nD) : W1 m ρ c (Proc.devRef .tc main_v9) = Cert.Spec.asRow (m ((c : Thread nD τ).loc main_arg11)) := by
  show StableHlo.after hostOps0 (W0 m ρ c) (Proc.devRef .tc main_v9) = _
  simp only [hostOps0]
  after_results
  exact Cert.Hand.HostLayout.asRow_eq _ _
/-- `main_v10` is `main_arg13` relaid as one row. -/
theorem W1_main_v10 (c : Dev nD) : W1 m ρ c (Proc.devRef .tc main_v10) = Cert.Spec.asRow (m ((c : Thread nD τ).loc main_arg13)) := by
  show StableHlo.after hostOps0 (W0 m ρ c) (Proc.devRef .tc main_v10) = _
  simp only [hostOps0]
  after_results
  exact Cert.Hand.HostLayout.asRow_eq _ _
/-- `main_v11` is `main_arg15` relaid as one row. -/
theorem W1_main_v11 (c : Dev nD) : W1 m ρ c (Proc.devRef .tc main_v11) = Cert.Spec.asRow (m ((c : Thread nD τ).loc main_arg15)) := by
  show StableHlo.after hostOps0 (W0 m ρ c) (Proc.devRef .tc main_v11) = _
  simp only [hostOps0]
  after_results
  exact Cert.Hand.HostLayout.asRow_eq _ _

end Cert.Hand.Chain

end
-- ==== Proof.Take.lean ====
/-
  The node gather of the host code, under the index range of the precondition.

  The host code gathers node rows by index, negative indices counting from the end: an index word
  `w` is first wrapped (`w + 50000` where `w < 0`, read signed), a row is gathered at the wrapped word, and the
  gathered row is kept only where `0 ≤ wrapped ≤ 49999` (read signed), a quiet-NaN word standing
  elsewhere.  Where every index word lies in `[0, 50000)` the wrap changes nothing, the range test
  holds at every position, and the select returns the gathered rows.  The precondition says exactly
  that of both index arrays: four of its conjuncts are the two signed comparisons of each array
  against the constants `0` and `50000`, each reduced by `and` over all positions.
-/
import proofs.«426185_j11338713661556_1_alg».proof.KernelIdeal
import proofs.«426185_j11338713661556_1_alg».proof.Pre_finite_inputs
import Idealize.ShloMosaic.Lib.ValueIdx
import Idealize.ShloMosaic.Lib.ReduceAll
import Idealize.ShloMosaic.PureOps.Ideal

noncomputable section

namespace Cert.Hand.Take

open Cert.KernelIdeal Idealize.ShloMosaic
open Cert.KernelIdeal.Facts₀ Cert.KernelIdeal.Facts

/-- every index word is in [0, 50000), as the two signed compares say -/
def InRange (a : (⟨1, ![800000]⟩ : Shape).Idx → BitVec 32) : Prop :=
  ∀ e, IntOp.cmpi .sge (a e) 0#32 = 1#1 ∧ IntOp.cmpi .slt (a e) 50000#32 = 1#1

/-! ## One index word -/

/-- A word that is not negative is left alone by the wrap. -/
theorem wrap_eq (w : BitVec 32) (h0 : IntOp.cmpi .sge w 0#32 = 1#1) :
    Scalar.select (IntOp.cmpi .slt w 0#32) (IntOp.addi w 50000#32) w = w := by
  have hlt : ¬ IntOp.cmpi .slt w 0#32 = 1#1 := by
    rw [IntOp.cmpi_slt]
    rw [IntOp.cmpi_sge] at h0
    omega
  rw [ValueIdx.eq_zero_of_ne_one hlt, ValueIdx.select_zero]

/-- Below 50000 is at most 49999. -/
theorem sle_of_slt (w : BitVec 32) (h1 : IntOp.cmpi .slt w 50000#32 = 1#1) :
    IntOp.cmpi .sle w 49999#32 = 1#1 := by
  rw [IntOp.cmpi_slt] at h1
  rw [IntOp.cmpi_sle]
  have e1 : (50000#32 : BitVec 32).toInt = 50000 := by decide
  have e2 : (49999#32 : BitVec 32).toInt = 49999 := by decide
  omega

/-! ## A reduction by `and` of ones -/

/-- A left fold by `and` from 1 over ones is 1. -/
theorem foldl_andi_one {ι : Type} (f : ι → BitVec 1) (hf : ∀ n, f n = 1#1) :
    ∀ l : List ι, l.foldl (fun r n => IntOp.andi r (f n)) 1#1 = 1#1
  | [] => rfl
  | n :: l => by
    show l.foldl (fun r n => IntOp.andi r (f n)) (IntOp.andi 1#1 (f n)) = 1#1
    rw [hf n, show IntOp.andi 1#1 1#1 = 1#1 from by decide]
    exact foldl_andi_one f hf l

/-- A reduce by `and` from 1 of an array of ones is 1 at every index of the result. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

section Gather

variable [Cert.KernelIdeal.Facts]

/-- the wrapped index words as a column -/
def wrapCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- An entry of the column is the wrap of one index word. -/
theorem wrapCol_apply (a : IVec S800000 32) (j : S800000x1.Idx) :
    ∃ e, wrapCol a j = Scalar.select (IntOp.cmpi .slt (a e) 0#32) (IntOp.addi (a e) 50000#32) (a e) :=
  ⟨_, rfl⟩

/-- Under the range every entry of the column passes both tests of the mask. -/
theorem wrapCol_inRange (a : IVec S800000 32) (h : InRange a) (j : S800000x1.Idx) :
    IntOp.cmpi .sge (wrapCol a j) 0#32 = 1#1 ∧ IntOp.cmpi .sle (wrapCol a j) 49999#32 = 1#1 := by
  obtain ⟨e, he⟩ := wrapCol_apply a j
  rw [he, wrap_eq _ (h e).1]
  exact ⟨(h e).1, sle_of_slt _ (h e).2⟩

theorem take_eq (x : FVec Ideal S50000x64 .f32) (a : IVec S800000 32) (h : InRange a) :
    select (broadcastInDim S800000x64 ![0] bcast_S800000_S800000x64_0
        (Host.reduce IntOp.andi
          (andi (cmpi .sge (wrapCol a) (broadcastInDim S800000x1 ![] bcast_S_S800000x1 (constantI S_ 32 0#32)))
            (cmpi .sle (wrapCol a) (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x64_S800000x1_S800000x64_1_0_n_n_0_1_164 x (wrapCol a))
      (broadcastInDim S800000x64 ![] bcast_S_S800000x64 (constant (F := Ideal) S_ .f32 0x7FC00000#32))
    = Host.gather gather_S50000x64_S800000x1_S800000x64_1_0_n_n_0_1_164 x (wrapCol a) := by
  funext i
  have hm : (broadcastInDim S800000x64 ![0] bcast_S800000_S800000x64_0
        (Host.reduce IntOp.andi
          (andi (cmpi .sge (wrapCol a) (broadcastInDim S800000x1 ![] bcast_S_S800000x1 (constantI S_ 32 0#32)))
            (cmpi .sle (wrapCol a) (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_)) i = 1#1 :=
    reduce_andi_one _ _ _ _ (fun j => IntOp.andi_eq_one.2 (wrapCol_inRange a h j)) (fun _ => rfl) _
  rw [ValueIdx.select_apply, hm, ValueIdx.select_one]

end Gather

/-! ## The range, read out of the precondition -/

theorem inRange_of_pre [Cert.Pre_finite_inputs.Facts]
    (a0 : FVec Ideal Cert.Pre_finite_inputs.S50000x64 .f32) (a1 : FVec Ideal Cert.Pre_finite_inputs.S800000x64 .f32)
    (a2 : IVec Cert.Pre_finite_inputs.S800000 32) (a3 : IVec Cert.Pre_finite_inputs.S800000 32)
    (a4 : FVec Ideal Cert.Pre_finite_inputs.S3x192x64 .f32) (a5 : FVec Ideal Cert.Pre_finite_inputs.S3x64 .f32)
    (a6 : FVec Ideal Cert.Pre_finite_inputs.S3x128x64 .f32) (a7 : FVec Ideal Cert.Pre_finite_inputs.S3x64 .f32)
    (a8 : FVec Ideal Cert.Pre_finite_inputs.S64 .f32) (a9 : FVec Ideal Cert.Pre_finite_inputs.S64 .f32)
    (a10 : FVec Ideal Cert.Pre_finite_inputs.S64x128 .f32) (a11 : FVec Ideal Cert.Pre_finite_inputs.S128 .f32)
    (a12 : FVec Ideal Cert.Pre_finite_inputs.S128x64 .f32) (a13 : FVec Ideal Cert.Pre_finite_inputs.S64 .f32)
    (a14 : FVec Ideal Cert.Pre_finite_inputs.S64x1 .f32) (a15 : FVec Ideal Cert.Pre_finite_inputs.S1 .f32)
    (h : Cert.Pre_finite_inputs.fn (F := Ideal) a0 a1 a2 a3 a4 a5 a6 a7 a8 a9 a10 a11 a12 a13 a14 a15 = fun _ => 1#1) :
    InRange a2 ∧ InRange a3 := by
  -- the result of a reduction over all axes has one index
  haveI : Subsingleton (Cert.Pre_finite_inputs.S_).Idx := ⟨fun _ _ => funext fun d => d.elim0⟩
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h80, h83⟩ := IntOp.andi_eq_one.1 h0
  obtain ⟨h76, h79⟩ := IntOp.andi_eq_one.1 h80
  obtain ⟨h72, h75⟩ := IntOp.andi_eq_one.1 h76
  obtain ⟨h68, h71⟩ := IntOp.andi_eq_one.1 h72
  exact ⟨fun e => ⟨Host.reduce_andi_all _ _ _ _ _ h71 e, Host.reduce_andi_all _ _ _ _ _ h75 e⟩,
    fun e => ⟨Host.reduce_andi_all _ _ _ _ _ h79 e, Host.reduce_andi_all _ _ _ _ _ h83 e⟩⟩

end Cert.Hand.Take

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.EdgePay.lean ====
/-
  The edge kernel's block arithmetic, read at an entry.  The body rounds its three row blocks and three weight
  blocks to a narrower format (the identity on extended reals), multiplies each row block by its weight block
  into a zero accumulator, adds the three products and the broadcast bias row, and takes the maximum with zero:
  entry (p, q) of the result is the edge-row function of row p of the three row blocks against column q of the
  three weight blocks.
-/
import proofs.«426185_j11338713661556_1_alg».proof.Proof.Gen.KernelIdeal.Skeleton
import proofs.«426185_j11338713661556_1_alg».proof.Proof.Spec
import proofs.«426185_j11338713661556_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.Hand.EdgePay

open Cert.KernelIdeal Cert.KernelIdeal.Gen Idealize.ShloMosaic Idealize.ShloMosaic.ValueIdx

/-- The printed 4000×64 by 64×64 product into the zero splat, at entry (p, q), is the sum over the 64 contraction
    positions of the operands' products. -/
theorem mm_apply (l : FVec Ideal S4000x64 .bf16) (r : FVec Ideal S64x64 .bf16) (p : Fin 4000) (q : Fin 64) :
    FloatOps.matmul dot_S4000x64_S64x64_S4000x64_1_0_0_1_n_n none l r (constant (F := Ideal) S4000x64 .f32 0x00000000#32) (ix2 p q)
      = ∑ k : Fin 64, l (ix2 p k) * r (ix2 k q) :=
  Cert.Lib.PlainDot.matmul_zero_apply _ rfl rfl rfl rfl rfl rfl none l r p q

/-- The bias row broadcast down the 4000 rows reads, at entry (p, q), the bias row's entry q. -/
theorem bias_apply (b : FVec Ideal S1x64 .f32) (p : Fin 4000) (q : Fin 64) :
    broadcastTo S4000x64 b broadcasts_S1x64_S4000x64 (ix2 p q) = b (ix2 0 q) :=
  broadcastTo_apply b broadcasts_S1x64_S4000x64 (ix2 p q) (ix2 0 q) (fun a => by
    match a with
    | ⟨0, _⟩ => rfl
    | ⟨1, _⟩ => rfl)

/-- Layer 0's edge body is the edge update of its 4000-row block. -/
theorem k0_pay1_eq (x0 x1 x2 : Vec Ideal S4000x64 .f32) (x3 x4 x5 : Vec Ideal S64x64 .f32) (x6 : Vec Ideal S1x64 .f32) :
    k0_pay1 (F := Ideal) x0 x1 x2 x3 x4 x5 x6 = Cert.Spec.edgeTab (n := 4000) x0 x1 x2 x3 x4 x5 x6 := by
  funext j
  obtain ⟨p, q, rfl⟩ : ∃ (p : Fin 4000) (q : Fin 64), j = ix2 p q := ⟨j 0, j 1, eq_ix2 j⟩
  unfold k0_pay1 Cert.Spec.edgeTab Cert.Spec.edgeRow
  simp only [shapeCast_self, matmul]
  simp only [maximumf_apply, addf_apply, broadcast_apply, mm_apply, bias_apply, truncf_apply]
  exact congrArg (max _) Ideal.ofBits_zero_f32

/-- Layer 1's edge body is the same function. -/
theorem k2_pay1_eq (x0 x1 x2 : Vec Ideal S4000x64 .f32) (x3 x4 x5 : Vec Ideal S64x64 .f32) (x6 : Vec Ideal S1x64 .f32) :
    k2_pay1 (F := Ideal) x0 x1 x2 x3 x4 x5 x6 = Cert.Spec.edgeTab (n := 4000) x0 x1 x2 x3 x4 x5 x6 := by
  have h : k2_pay1 (F := Ideal) x0 x1 x2 x3 x4 x5 x6 = k0_pay1 (F := Ideal) x0 x1 x2 x3 x4 x5 x6 := by
    unfold k2_pay1 k0_pay1
    simp only [shapeCast_self]
  exact h.trans (k0_pay1_eq x0 x1 x2 x3 x4 x5 x6)

/-- Layer 2's edge body is the same function. -/
theorem k4_pay1_eq (x0 x1 x2 : Vec Ideal S4000x64 .f32) (x3 x4 x5 : Vec Ideal S64x64 .f32) (x6 : Vec Ideal S1x64 .f32) :
    k4_pay1 (F := Ideal) x0 x1 x2 x3 x4 x5 x6 = Cert.Spec.edgeTab (n := 4000) x0 x1 x2 x3 x4 x5 x6 := by
  have h : k4_pay1 (F := Ideal) x0 x1 x2 x3 x4 x5 x6 = k0_pay1 (F := Ideal) x0 x1 x2 x3 x4 x5 x6 := by
    unfold k4_pay1 k0_pay1
    simp only [shapeCast_self]
  exact h.trans (k0_pay1_eq x0 x1 x2 x3 x4 x5 x6)

end Cert.Hand.EdgePay

end
-- ==== Proof.EdgeRegion0.lean ====
/-
  The edge update as one table.  The call walks the 800000 edge rows in 200 blocks of 4000 rows; at block t the
  three row windows hold rows 4000 t .. 4000 t + 3999 of their tables, the weight and bias windows hold their whole
  arrays, and the body writes the edge update of that block back to the same rows of the output.  A row's update
  reads no other row, so the blocks are the restrictions of one table — the edge update of the whole tables — and
  the 200 blocks cover every row: after the call the output table is that function of the tables the call entered
  with.
-/
import proofs.«426185_j11338713661556_1_alg».proof.Proof.Gen.KernelIdeal.Frame
import proofs.«426185_j11338713661556_1_alg».proof.Proof.EdgePay
import proofs.«426185_j11338713661556_1_alg».proof.Proof.Spec
import Idealize.ShloMosaic.Lib.Pipeline.Value
import Idealize.ShloMosaic.Lib.ValueIdx

set_option maxRecDepth 16384

noncomputable section

namespace Cert.Hand.Edge0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- Two edge-row entries agree when their rows, weight columns and bias entries agree. -/
theorem edgeRow_congr {e s r w0 w1 w2 e' s' r' w0' w1' w2' : Fin 64 → EReal} {b b' : EReal}
    (he : e = e') (hs : s = s') (hr : r = r') (h0 : w0 = w0') (h1 : w1 = w1') (h2 : w2 = w2') (hb : b = b') :
    Cert.Spec.edgeRow e s r w0 w1 w2 b = Cert.Spec.edgeRow e' s' r' w0' w1' w2' b' := by
  subst he hs hr h0 h1 h2 hb; rfl

/-- The index maps, decided once over the 200 grid points: at point `t` each row window and the output sit on block
    row `t`, column block 0; each weight window and the bias window sit on block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Entry `x` of the first row window's block at point `t` is entry (4000 t + x₀, x₁) of its table. -/
theorem row0_apply (c : Dev nD) (t : Fin cfg0.N) (x : S4000x64.Idx) (k : S800000x64.Idx)
    (hk0 : (k 0).val = 4000 * t.val + (x 0).val) (hk1 : (k 1).val = (x 1).val) :
    (iblk0 V c 0 t : Vec Ideal S4000x64 .f32) x = (V c main_arg1 : S800000x64.Idx → Elt Ideal .f32) k := by
  obtain ⟨e00, e01, e10, e11, e20, e21, e30, e31, e40, e41, e50, e51, e60, e61, e70, e71⟩ := idx_facts t
  unfold iblk0
  rw [View.read_apply]
  show V c main_arg1 _ = V c main_arg1 _
  congr 1
  funext a
  apply Fin.ext
  match a with
  | ⟨0, _⟩ => show win0_0.index t (0 : Fin 2) * 4000 + 1 * (x 0).val = (k 0).val; omega
  | ⟨1, _⟩ => show win0_0.index t (1 : Fin 2) * 64 + 1 * (x 1).val = (k 1).val; omega

/-- The same for the second row window. -/
theorem row1_apply (c : Dev nD) (t : Fin cfg0.N) (x : S4000x64.Idx) (k : S800000x64.Idx)
    (hk0 : (k 0).val = 4000 * t.val + (x 0).val) (hk1 : (k 1).val = (x 1).val) :
    (iblk0 V c 1 t : Vec Ideal S4000x64 .f32) x = (V c main_v12 : S800000x64.Idx → Elt Ideal .f32) k := by
  obtain ⟨e00, e01, e10, e11, e20, e21, e30, e31, e40, e41, e50, e51, e60, e61, e70, e71⟩ := idx_facts t
  unfold iblk0
  rw [View.read_apply]
  show V c main_v12 _ = V c main_v12 _
  congr 1
  funext a
  apply Fin.ext
  match a with
  | ⟨0, _⟩ => show win0_1.index t (0 : Fin 2) * 4000 + 1 * (x 0).val = (k 0).val; omega
  | ⟨1, _⟩ => show win0_1.index t (1 : Fin 2) * 64 + 1 * (x 1).val = (k 1).val; omega

/-- The same for the third row window. -/
theorem row2_apply (c : Dev nD) (t : Fin cfg0.N) (x : S4000x64.Idx) (k : S800000x64.Idx)
    (hk0 : (k 0).val = 4000 * t.val + (x 0).val) (hk1 : (k 1).val = (x 1).val) :
    (iblk0 V c 2 t : Vec Ideal S4000x64 .f32) x = (V c main_v13 : S800000x64.Idx → Elt Ideal .f32) k := by
  obtain ⟨e00, e01, e10, e11, e20, e21, e30, e31, e40, e41, e50, e51, e60, e61, e70, e71⟩ := idx_facts t
  unfold iblk0
  rw [View.read_apply]
  show V c main_v13 _ = V c main_v13 _
  congr 1
  funext a
  apply Fin.ext
  match a with
  | ⟨0, _⟩ => show win0_2.index t (0 : Fin 2) * 4000 + 1 * (x 0).val = (k 0).val; omega
  | ⟨1, _⟩ => show win0_2.index t (1 : Fin 2) * 64 + 1 * (x 1).val = (k 1).val; omega

/-- The first weight window's block at any point is its whole array: entry `x` of the block is the array's entry with
    the same coordinates. -/
theorem w3_apply (c : Dev nD) (t : Fin cfg0.N) (x k : S64x64.Idx)
    (hk0 : (k 0).val = (x 0).val) (hk1 : (k 1).val = (x 1).val) :
    (iblk0 V c 3 t : Vec Ideal S64x64 .f32) x = (V c main_v15 : S64x64.Idx → Elt Ideal .f32) k := by
  obtain ⟨e00, e01, e10, e11, e20, e21, e30, e31, e40, e41, e50, e51, e60, e61, e70, e71⟩ := idx_facts t
  unfold iblk0
  rw [View.read_apply]
  show V c main_v15 _ = V c main_v15 _
  congr 1
  funext a
  apply Fin.ext
  match a with
  | ⟨0, _⟩ => show win0_3.index t (0 : Fin 2) * 64 + 1 * (x 0).val = (k 0).val; omega
  | ⟨1, _⟩ => show win0_3.index t (1 : Fin 2) * 64 + 1 * (x 1).val = (k 1).val; omega

/-- The same for the second weight window. -/
theorem w4_apply (c : Dev nD) (t : Fin cfg0.N) (x k : S64x64.Idx)
    (hk0 : (k 0).val = (x 0).val) (hk1 : (k 1).val = (x 1).val) :
    (iblk0 V c 4 t : Vec Ideal S64x64 .f32) x = (V c main_v17 : S64x64.Idx → Elt Ideal .f32) k := by
  obtain ⟨e00, e01, e10, e11, e20, e21, e30, e31, e40, e41, e50, e51, e60, e61, e70, e71⟩ := idx_facts t
  unfold iblk0
  rw [View.read_apply]
  show V c main_v17 _ = V c main_v17 _
  congr 1
  funext a
  apply Fin.ext
  match a with
  | ⟨0, _⟩ => show win0_4.index t (0 : Fin 2) * 64 + 1 * (x 0).val = (k 0).val; omega
  | ⟨1, _⟩ => show win0_4.index t (1 : Fin 2) * 64 + 1 * (x 1).val = (k 1).val; omega

/-- The same for the third weight window. -/
theorem w5_apply (c : Dev nD) (t : Fin cfg0.N) (x k : S64x64.Idx)
    (hk0 : (k 0).val = (x 0).val) (hk1 : (k 1).val = (x 1).val) :
    (iblk0 V c 5 t : Vec Ideal S64x64 .f32) x = (V c main_v19 : S64x64.Idx → Elt Ideal .f32) k := by
  obtain ⟨e00, e01, e10, e11, e20, e21, e30, e31, e40, e41, e50, e51, e60, e61, e70, e71⟩ := idx_facts t
  unfold iblk0
  rw [View.read_apply]
  show V c main_v19 _ = V c main_v19 _
  congr 1
  funext a
  apply Fin.ext
  match a with
  | ⟨0, _⟩ => show win0_5.index t (0 : Fin 2) * 64 + 1 * (x 0).val = (k 0).val; omega
  | ⟨1, _⟩ => show win0_5.index t (1 : Fin 2) * 64 + 1 * (x 1).val = (k 1).val; omega

/-- The bias window's block at any point is its whole one-row array. -/
theorem b6_apply (c : Dev nD) (t : Fin cfg0.N) (x k : S1x64.Idx)
    (hk0 : (k 0).val = (x 0).val) (hk1 : (k 1).val = (x 1).val) :
    (iblk0 V c 6 t : Vec Ideal S1x64 .f32) x = (V c main_v22 : S1x64.Idx → Elt Ideal .f32) k := by
  obtain ⟨e00, e01, e10, e11, e20, e21, e30, e31, e40, e41, e50, e51, e60, e61, e70, e71⟩ := idx_facts t
  unfold iblk0
  rw [View.read_apply]
  show V c main_v22 _ = V c main_v22 _
  congr 1
  funext a
  apply Fin.ext
  match a with
  | ⟨0, _⟩ => show win0_6.index t (0 : Fin 2) * 1 + 1 * (x 0).val = (k 0).val; omega
  | ⟨1, _⟩ => show win0_6.index t (1 : Fin 2) * 64 + 1 * (x 1).val = (k 1).val; omega

/-- What point `t` writes back is block `t` of the edge update of the whole tables: the body's block is the edge update
    of the row blocks, whose rows are rows 4000 t .. 4000 t + 3999 of the tables, against the whole weight and bias
    arrays. -/
theorem flushed_eq (c : Dev nD) (t : Fin cfg0.N) :
    (dat0 (F := Ideal) V c).flushed 7 t = ((cfg0.win 7).blk t).view.read (Elt Ideal)
      (Cert.Spec.edgeTab (n := 800000) (V c main_arg1) (V c main_v12) (V c main_v13) (V c main_v15) (V c main_v17) (V c main_v19) (V c main_v22)) := by
  show (cfg0.win 7).cut (grid0.coords t) ((dat0 V c).after 7 t) = _
  rw [after0_7]
  unfold out0_7
  rw [View.canon_unit_zero hz]
  simp only [View.ld_unit_zero (S := S4000x64) hz, View.ld_unit_zero (S := S64x64) hz, View.ld_unit_zero (S := S1x64) hz]
  rw [Cert.Hand.EdgePay.k0_pay1_eq]
  obtain ⟨e00, e01, e10, e11, e20, e21, e30, e31, e40, e41, e50, e51, e60, e61, e70, e71⟩ := idx_facts t
  funext j
  have hj0 : (j 0).val < 4000 := (j 0).isLt
  have hj1 : (j 1).val < 64 := (j 1).isLt
  have q0 : ((((cfg0.win 7).blk t).view.emb j) 0).val = 4000 * t.val + (j 0).val := by
    show win0_7.index t (0 : Fin 2) * 4000 + 1 * (j 0).val = _; omega
  have q1 : ((((cfg0.win 7).blk t).view.emb j) 1).val = (j 1).val := by
    show win0_7.index t (1 : Fin 2) * 64 + 1 * (j 1).val = _; omega
  show Cert.Spec.edgeTab (n := 4000) _ _ _ _ _ _ _ j
    = Cert.Spec.edgeTab (n := 800000) _ _ _ _ _ _ _ (((cfg0.win 7).blk t).view.emb j)
  unfold Cert.Spec.edgeTab
  refine edgeRow_congr (funext fun k => ?_) (funext fun k => ?_) (funext fun k => ?_)
    (funext fun k => ?_) (funext fun k => ?_) (funext fun k => ?_) ?_
  · exact row0_apply V c t _ _ q0 rfl
  · exact row1_apply V c t _ _ q0 rfl
  · exact row2_apply V c t _ _ q0 rfl
  · exact w3_apply V c t _ _ rfl q1
  · exact w4_apply V c t _ _ rfl q1
  · exact w5_apply V c t _ _ rfl q1
  · exact b6_apply V c t _ _ rfl q1

/-- An index of the output table is in point `t`'s block iff each coordinate is in the block's range on its axis. -/
theorem mem_blk (t : Fin cfg0.N) (i : S800000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v23).slice (win0_7.rect t)).set ↔ _
  rw [View.set_slice_whole, Rect.mem_set_unit]
  exact Iff.rfl

/-- Every entry of the output table is in some point's block: row `r` is in block `r / 4000`, one of the 200, and the
    column axis is whole. -/
theorem cover (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  obtain ⟨t, ht⟩ : ∃ t : Fin cfg0.N, t.val = (i 0).val / 4000 :=
    ⟨⟨(i 0).val / 4000, by rw [show cfg0.N = 200 from N_0]; omega⟩, rfl⟩
  obtain ⟨e00, e01, e10, e11, e20, e21, e30, e31, e40, e41, e50, e51, e60, e61, e70, e71⟩ := idx_facts t
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 64 ≤ (i 1).val ∧ (i 1).val < win0_7.index t (1 : Fin 2) * 64 + 64; omega

/-- After the call, its output table is the edge update of the tables it entered with. -/
theorem arr (c : Dev nD) :
    (dat0 (F := Ideal) V c).arrAt 7 cfg0.N
      = Cert.Spec.edgeTab (n := 800000) (V c main_arg1) (V c main_v12) (V c main_v13) (V c main_v15) (V c main_v17) (V c main_v19) (V c main_v22) := by
  exact (dat0 (F := Ideal) V c).arrAt_eq_of_cover 7 _ (fun t _ => flushed_eq V c t) cover

end Cert.Hand.Edge0

end
-- ==== Proof.EdgeRegion2.lean ====
/-
  The edge update as one table.  The call walks the 800000 edge rows in 200 blocks of 4000 rows; at block t the
  three row windows hold rows 4000 t .. 4000 t + 3999 of their tables, the weight and bias windows hold their whole
  arrays, and the body writes the edge update of that block back to the same rows of the output.  A row's update
  reads no other row, so the blocks are the restrictions of one table — the edge update of the whole tables — and
  the 200 blocks cover every row: after the call the output table is that function of the tables the call entered
  with.
-/
import proofs.«426185_j11338713661556_1_alg».proof.Proof.Gen.KernelIdeal.Frame
import proofs.«426185_j11338713661556_1_alg».proof.Proof.EdgePay
import proofs.«426185_j11338713661556_1_alg».proof.Proof.Spec
import Idealize.ShloMosaic.Lib.Pipeline.Value
import Idealize.ShloMosaic.Lib.ValueIdx

set_option maxRecDepth 16384

noncomputable section

namespace Cert.Hand.Edge2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- Two edge-row entries agree when their rows, weight columns and bias entries agree. -/
theorem edgeRow_congr {e s r w0 w1 w2 e' s' r' w0' w1' w2' : Fin 64 → EReal} {b b' : EReal}
    (he : e = e') (hs : s = s') (hr : r = r') (h0 : w0 = w0') (h1 : w1 = w1') (h2 : w2 = w2') (hb : b = b') :
    Cert.Spec.edgeRow e s r w0 w1 w2 b = Cert.Spec.edgeRow e' s' r' w0' w1' w2' b' := by
  subst he hs hr h0 h1 h2 hb; rfl

/-- The index maps, decided once over the 200 grid points: at point `t` each row window and the output sit on block
    row `t`, column block 0; each weight window and the bias window sit on block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Entry `x` of the first row window's block at point `t` is entry (4000 t + x₀, x₁) of its table. -/
theorem row0_apply (c : Dev nD) (t : Fin cfg2.N) (x : S4000x64.Idx) (k : S800000x64.Idx)
    (hk0 : (k 0).val = 4000 * t.val + (x 0).val) (hk1 : (k 1).val = (x 1).val) :
    (iblk2 V c 0 t : Vec Ideal S4000x64 .f32) x = (V c main_v23 : S800000x64.Idx → Elt Ideal .f32) k := by
  obtain ⟨e00, e01, e10, e11, e20, e21, e30, e31, e40, e41, e50, e51, e60, e61, e70, e71⟩ := idx_facts t
  unfold iblk2
  rw [View.read_apply]
  show V c main_v23 _ = V c main_v23 _
  congr 1
  funext a
  apply Fin.ext
  match a with
  | ⟨0, _⟩ => show win2_0.index t (0 : Fin 2) * 4000 + 1 * (x 0).val = (k 0).val; omega
  | ⟨1, _⟩ => show win2_0.index t (1 : Fin 2) * 64 + 1 * (x 1).val = (k 1).val; omega

/-- The same for the second row window. -/
theorem row1_apply (c : Dev nD) (t : Fin cfg2.N) (x : S4000x64.Idx) (k : S800000x64.Idx)
    (hk0 : (k 0).val = 4000 * t.val + (x 0).val) (hk1 : (k 1).val = (x 1).val) :
    (iblk2 V c 1 t : Vec Ideal S4000x64 .f32) x = (V c main_v37 : S800000x64.Idx → Elt Ideal .f32) k := by
  obtain ⟨e00, e01, e10, e11, e20, e21, e30, e31, e40, e41, e50, e51, e60, e61, e70, e71⟩ := idx_facts t
  unfold iblk2
  rw [View.read_apply]
  show V c main_v37 _ = V c main_v37 _
  congr 1
  funext a
  apply Fin.ext
  match a with
  | ⟨0, _⟩ => show win2_1.index t (0 : Fin 2) * 4000 + 1 * (x 0).val = (k 0).val; omega
  | ⟨1, _⟩ => show win2_1.index t (1 : Fin 2) * 64 + 1 * (x 1).val = (k 1).val; omega

/-- The same for the third row window. -/
theorem row2_apply (c : Dev nD) (t : Fin cfg2.N) (x : S4000x64.Idx) (k : S800000x64.Idx)
    (hk0 : (k 0).val = 4000 * t.val + (x 0).val) (hk1 : (k 1).val = (x 1).val) :
    (iblk2 V c 2 t : Vec Ideal S4000x64 .f32) x = (V c main_v38 : S800000x64.Idx → Elt Ideal .f32) k := by
  obtain ⟨e00, e01, e10, e11, e20, e21, e30, e31, e40, e41, e50, e51, e60, e61, e70, e71⟩ := idx_facts t
  unfold iblk2
  rw [View.read_apply]
  show V c main_v38 _ = V c main_v38 _
  congr 1
  funext a
  apply Fin.ext
  match a with
  | ⟨0, _⟩ => show win2_2.index t (0 : Fin 2) * 4000 + 1 * (x 0).val = (k 0).val; omega
  | ⟨1, _⟩ => show win2_2.index t (1 : Fin 2) * 64 + 1 * (x 1).val = (k 1).val; omega

/-- The first weight window's block at any point is its whole array: entry `x` of the block is the array's entry with
    the same coordinates. -/
theorem w3_apply (c : Dev nD) (t : Fin cfg2.N) (x k : S64x64.Idx)
    (hk0 : (k 0).val = (x 0).val) (hk1 : (k 1).val = (x 1).val) :
    (iblk2 V c 3 t : Vec Ideal S64x64 .f32) x = (V c main_v40 : S64x64.Idx → Elt Ideal .f32) k := by
  obtain ⟨e00, e01, e10, e11, e20, e21, e30, e31, e40, e41, e50, e51, e60, e61, e70, e71⟩ := idx_facts t
  unfold iblk2
  rw [View.read_apply]
  show V c main_v40 _ = V c main_v40 _
  congr 1
  funext a
  apply Fin.ext
  match a with
  | ⟨0, _⟩ => show win2_3.index t (0 : Fin 2) * 64 + 1 * (x 0).val = (k 0).val; omega
  | ⟨1, _⟩ => show win2_3.index t (1 : Fin 2) * 64 + 1 * (x 1).val = (k 1).val; omega

/-- The same for the second weight window. -/
theorem w4_apply (c : Dev nD) (t : Fin cfg2.N) (x k : S64x64.Idx)
    (hk0 : (k 0).val = (x 0).val) (hk1 : (k 1).val = (x 1).val) :
    (iblk2 V c 4 t : Vec Ideal S64x64 .f32) x = (V c main_v42 : S64x64.Idx → Elt Ideal .f32) k := by
  obtain ⟨e00, e01, e10, e11, e20, e21, e30, e31, e40, e41, e50, e51, e60, e61, e70, e71⟩ := idx_facts t
  unfold iblk2
  rw [View.read_apply]
  show V c main_v42 _ = V c main_v42 _
  congr 1
  funext a
  apply Fin.ext
  match a with
  | ⟨0, _⟩ => show win2_4.index t (0 : Fin 2) * 64 + 1 * (x 0).val = (k 0).val; omega
  | ⟨1, _⟩ => show win2_4.index t (1 : Fin 2) * 64 + 1 * (x 1).val = (k 1).val; omega

/-- The same for the third weight window. -/
theorem w5_apply (c : Dev nD) (t : Fin cfg2.N) (x k : S64x64.Idx)
    (hk0 : (k 0).val = (x 0).val) (hk1 : (k 1).val = (x 1).val) :
    (iblk2 V c 5 t : Vec Ideal S64x64 .f32) x = (V c main_v44 : S64x64.Idx → Elt Ideal .f32) k := by
  obtain ⟨e00, e01, e10, e11, e20, e21, e30, e31, e40, e41, e50, e51, e60, e61, e70, e71⟩ := idx_facts t
  unfold iblk2
  rw [View.read_apply]
  show V c main_v44 _ = V c main_v44 _
  congr 1
  funext a
  apply Fin.ext
  match a with
  | ⟨0, _⟩ => show win2_5.index t (0 : Fin 2) * 64 + 1 * (x 0).val = (k 0).val; omega
  | ⟨1, _⟩ => show win2_5.index t (1 : Fin 2) * 64 + 1 * (x 1).val = (k 1).val; omega

/-- The bias window's block at any point is its whole one-row array. -/
theorem b6_apply (c : Dev nD) (t : Fin cfg2.N) (x k : S1x64.Idx)
    (hk0 : (k 0).val = (x 0).val) (hk1 : (k 1).val = (x 1).val) :
    (iblk2 V c 6 t : Vec Ideal S1x64 .f32) x = (V c main_v47 : S1x64.Idx → Elt Ideal .f32) k := by
  obtain ⟨e00, e01, e10, e11, e20, e21, e30, e31, e40, e41, e50, e51, e60, e61, e70, e71⟩ := idx_facts t
  unfold iblk2
  rw [View.read_apply]
  show V c main_v47 _ = V c main_v47 _
  congr 1
  funext a
  apply Fin.ext
  match a with
  | ⟨0, _⟩ => show win2_6.index t (0 : Fin 2) * 1 + 1 * (x 0).val = (k 0).val; omega
  | ⟨1, _⟩ => show win2_6.index t (1 : Fin 2) * 64 + 1 * (x 1).val = (k 1).val; omega

/-- What point `t` writes back is block `t` of the edge update of the whole tables: the body's block is the edge update
    of the row blocks, whose rows are rows 4000 t .. 4000 t + 3999 of the tables, against the whole weight and bias
    arrays. -/
theorem flushed_eq (c : Dev nD) (t : Fin cfg2.N) :
    (dat2 (F := Ideal) V c).flushed 7 t = ((cfg2.win 7).blk t).view.read (Elt Ideal)
      (Cert.Spec.edgeTab (n := 800000) (V c main_v23) (V c main_v37) (V c main_v38) (V c main_v40) (V c main_v42) (V c main_v44) (V c main_v47)) := by
  show (cfg2.win 7).cut (grid2.coords t) ((dat2 V c).after 7 t) = _
  rw [after2_7]
  unfold out2_7
  rw [View.canon_unit_zero hz]
  simp only [View.ld_unit_zero (S := S4000x64) hz, View.ld_unit_zero (S := S64x64) hz, View.ld_unit_zero (S := S1x64) hz]
  rw [Cert.Hand.EdgePay.k2_pay1_eq]
  obtain ⟨e00, e01, e10, e11, e20, e21, e30, e31, e40, e41, e50, e51, e60, e61, e70, e71⟩ := idx_facts t
  funext j
  have hj0 : (j 0).val < 4000 := (j 0).isLt
  have hj1 : (j 1).val < 64 := (j 1).isLt
  have q0 : ((((cfg2.win 7).blk t).view.emb j) 0).val = 4000 * t.val + (j 0).val := by
    show win2_7.index t (0 : Fin 2) * 4000 + 1 * (j 0).val = _; omega
  have q1 : ((((cfg2.win 7).blk t).view.emb j) 1).val = (j 1).val := by
    show win2_7.index t (1 : Fin 2) * 64 + 1 * (j 1).val = _; omega
  show Cert.Spec.edgeTab (n := 4000) _ _ _ _ _ _ _ j
    = Cert.Spec.edgeTab (n := 800000) _ _ _ _ _ _ _ (((cfg2.win 7).blk t).view.emb j)
  unfold Cert.Spec.edgeTab
  refine edgeRow_congr (funext fun k => ?_) (funext fun k => ?_) (funext fun k => ?_)
    (funext fun k => ?_) (funext fun k => ?_) (funext fun k => ?_) ?_
  · exact row0_apply V c t _ _ q0 rfl
  · exact row1_apply V c t _ _ q0 rfl
  · exact row2_apply V c t _ _ q0 rfl
  · exact w3_apply V c t _ _ rfl q1
  · exact w4_apply V c t _ _ rfl q1
  · exact w5_apply V c t _ _ rfl q1
  · exact b6_apply V c t _ _ rfl q1

/-- An index of the output table is in point `t`'s block iff each coordinate is in the block's range on its axis. -/
theorem mem_blk (t : Fin cfg2.N) (i : S800000x64.Idx) :
    i ∈ ((cfg2.win 7).blk t).view.set ↔ ∀ a : Fin 2, win2_7.index t a * S4000x64.size a ≤ (i a).val ∧ (i a).val < win2_7.index t a * S4000x64.size a + S4000x64.size a := by
  show i ∈ ((View.whole main_v48).slice (win2_7.rect t)).set ↔ _
  rw [View.set_slice_whole, Rect.mem_set_unit]
  exact Iff.rfl

/-- Every entry of the output table is in some point's block: row `r` is in block `r / 4000`, one of the 200, and the
    column axis is whole. -/
theorem cover (i : S800000x64.Idx) :
    ∃ t : Fin cfg2.N, (cfg2.win 7).flush t = true ∧ i ∈ ((cfg2.win 7).blk t).view.set := by
  have hi0 : (i 0).val < 800000 := (i 0).isLt
  have hi1 : (i 1).val < 64 := (i 1).isLt
  obtain ⟨t, ht⟩ : ∃ t : Fin cfg2.N, t.val = (i 0).val / 4000 :=
    ⟨⟨(i 0).val / 4000, by rw [show cfg2.N = 200 from N_2]; omega⟩, rfl⟩
  obtain ⟨e00, e01, e10, e11, e20, e21, e30, e31, e40, e41, e50, e51, e60, e61, e70, e71⟩ := idx_facts t
  refine ⟨t, flush2_7 t, ?_⟩
  rw [mem_blk]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 64 ≤ (i 1).val ∧ (i 1).val < win2_7.index t (1 : Fin 2) * 64 + 64; omega

/-- After the call, its output table is the edge update of the tables it entered with. -/
theorem arr (c : Dev nD) :
    (dat2 (F := Ideal) V c).arrAt 7 cfg2.N
      = Cert.Spec.edgeTab (n := 800000) (V c main_v23) (V c main_v37) (V c main_v38) (V c main_v40) (V c main_v42) (V c main_v44) (V c main_v47) := by
  exact (dat2 (F := Ideal) V c).arrAt_eq_of_cover 7 _ (fun t _ => flushed_eq V c t) cover

end Cert.Hand.Edge2

end
-- ==== Proof.EdgeRegion4.lean ====
/-
  The edge update as one table.  The call walks the 800000 edge rows in 200 blocks of 4000 rows; at block t the
  three row windows hold rows 4000 t .. 4000 t + 3999 of their tables, the weight and bias windows hold their whole
  arrays, and the body writes the edge update of that block back to the same rows of the output.  A row's update
  reads no other row, so the blocks are the restrictions of one table — the edge update of the whole tables — and
  the 200 blocks cover every row: after the call the output table is that function of the tables the call entered
  with.
-/
import proofs.«426185_j11338713661556_1_alg».proof.Proof.Gen.KernelIdeal.Frame
import proofs.«426185_j11338713661556_1_alg».proof.Proof.EdgePay
import proofs.«426185_j11338713661556_1_alg».proof.Proof.Spec
import Idealize.ShloMosaic.Lib.Pipeline.Value
import Idealize.ShloMosaic.Lib.ValueIdx

set_option maxRecDepth 16384

noncomputable section

namespace Cert.Hand.Edge4

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- Two edge-row entries agree when their rows, weight columns and bias entries agree. -/
theorem edgeRow_congr {e s r w0 w1 w2 e' s' r' w0' w1' w2' : Fin 64 → EReal} {b b' : EReal}
    (he : e = e') (hs : s = s') (hr : r = r') (h0 : w0 = w0') (h1 : w1 = w1') (h2 : w2 = w2') (hb : b = b') :
    Cert.Spec.edgeRow e s r w0 w1 w2 b = Cert.Spec.edgeRow e' s' r' w0' w1' w2' b' := by
  subst he hs hr h0 h1 h2 hb; rfl

/-- The index maps, decided once over the 200 grid points: at point `t` each row window and the output sit on block
    row `t`, column block 0; each weight window and the bias window sit on block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Entry `x` of the first row window's block at point `t` is entry (4000 t + x₀, x₁) of its table. -/
theorem row0_apply (c : Dev nD) (t : Fin cfg4.N) (x : S4000x64.Idx) (k : S800000x64.Idx)
    (hk0 : (k 0).val = 4000 * t.val + (x 0).val) (hk1 : (k 1).val = (x 1).val) :
    (iblk4 V c 0 t : Vec Ideal S4000x64 .f32) x = (V c main_v48 : S800000x64.Idx → Elt Ideal .f32) k := by
  obtain ⟨e00, e01, e10, e11, e20, e21, e30, e31, e40, e41, e50, e51, e60, e61, e70, e71⟩ := idx_facts t
  unfold iblk4
  rw [View.read_apply]
  show V c main_v48 _ = V c main_v48 _
  congr 1
  funext a
  apply Fin.ext
  match a with
  | ⟨0, _⟩ => show win4_0.index t (0 : Fin 2) * 4000 + 1 * (x 0).val = (k 0).val; omega
  | ⟨1, _⟩ => show win4_0.index t (1 : Fin 2) * 64 + 1 * (x 1).val = (k 1).val; omega

/-- The same for the second row window. -/
theorem row1_apply (c : Dev nD) (t : Fin cfg4.N) (x : S4000x64.Idx) (k : S800000x64.Idx)
    (hk0 : (k 0).val = 4000 * t.val + (x 0).val) (hk1 : (k 1).val = (x 1).val) :
    (iblk4 V c 1 t : Vec Ideal S4000x64 .f32) x = (V c main_v62 : S800000x64.Idx → Elt Ideal .f32) k := by
  obtain ⟨e00, e01, e10, e11, e20, e21, e30, e31, e40, e41, e50, e51, e60, e61, e70, e71⟩ := idx_facts t
  unfold iblk4
  rw [View.read_apply]
  show V c main_v62 _ = V c main_v62 _
  congr 1
  funext a
  apply Fin.ext
  match a with
  | ⟨0, _⟩ => show win4_1.index t (0 : Fin 2) * 4000 + 1 * (x 0).val = (k 0).val; omega
  | ⟨1, _⟩ => show win4_1.index t (1 : Fin 2) * 64 + 1 * (x 1).val = (k 1).val; omega

/-- The same for the third row window. -/
theorem row2_apply (c : Dev nD) (t : Fin cfg4.N) (x : S4000x64.Idx) (k : S800000x64.Idx)
    (hk0 : (k 0).val = 4000 * t.val + (x 0).val) (hk1 : (k 1).val = (x 1).val) :
    (iblk4 V c 2 t : Vec Ideal S4000x64 .f32) x = (V c main_v63 : S800000x64.Idx → Elt Ideal .f32) k := by
  obtain ⟨e00, e01, e10, e11, e20, e21, e30, e31, e40, e41, e50, e51, e60, e61, e70, e71⟩ := idx_facts t
  unfold iblk4
  rw [View.read_apply]
  show V c main_v63 _ = V c main_v63 _
  congr 1
  funext a
  apply Fin.ext
  match a with
  | ⟨0, _⟩ => show win4_2.index t (0 : Fin 2) * 4000 + 1 * (x 0).val = (k 0).val; omega
  | ⟨1, _⟩ => show win4_2.index t (1 : Fin 2) * 64 + 1 * (x 1).val = (k 1).val; omega

/-- The first weight window's block at any point is its whole array: entry `x` of the block is the array's entry with
    the same coordinates. -/
theorem w3_apply (c : Dev nD) (t : Fin cfg4.N) (x k : S64x64.Idx)
    (hk0 : (k 0).val = (x 0).val) (hk1 : (k 1).val = (x 1).val) :
    (iblk4 V c 3 t : Vec Ideal S64x64 .f32) x = (V c main_v65 : S64x64.Idx → Elt Ideal .f32) k := by
  obtain ⟨e00, e01, e10, e11, e20, e21, e30, e31, e40, e41, e50, e51, e60, e61, e70, e71⟩ := idx_facts t
  unfold iblk4
  rw [View.read_apply]
  show V c main_v65 _ = V c main_v65 _
  congr 1
  funext a
  apply Fin.ext
  match a with
  | ⟨0, _⟩ => show win4_3.index t (0 : Fin 2) * 64 + 1 * (x 0).val = (k 0).val; omega
  | ⟨1, _⟩ => show win4_3.index t (1 : Fin 2) * 64 + 1 * (x 1).val = (k 1).val; omega

/-- The same for the second weight window. -/
theorem w4_apply (c : Dev nD) (t : Fin cfg4.N) (x k : S64x64.Idx)
    (hk0 : (k 0).val = (x 0).val) (hk1 : (k 1).val = (x 1).val) :
    (iblk4 V c 4 t : Vec Ideal S64x64 .f32) x = (V c main_v67 : S64x64.Idx → Elt Ideal .f32) k := by
  obtain ⟨e00, e01, e10, e11, e20, e21, e30, e31, e40, e41, e50, e51, e60, e61, e70, e71⟩ := idx_facts t
  unfold iblk4
  rw [View.read_apply]
  show V c main_v67 _ = V c main_v67 _
  congr 1
  funext a
  apply Fin.ext
  match a with
  | ⟨0, _⟩ => show win4_4.index t (0 : Fin 2) * 64 + 1 * (x 0).val = (k 0).val; omega
  | ⟨1, _⟩ => show win4_4.index t (1 : Fin 2) * 64 + 1 * (x 1).val = (k 1).val; omega

/-- The same for the third weight window. -/
theorem w5_apply (c : Dev nD) (t : Fin cfg4.N) (x k : S64x64.Idx)
    (hk0 : (k 0).val = (x 0).val) (hk1 : (k 1).val = (x 1).val) :
    (iblk4 V c 5 t : Vec Ideal S64x64 .f32) x = (V c main_v69 : S64x64.Idx → Elt Ideal .f32) k := by
  obtain ⟨e00, e01, e10, e11, e20, e21, e30, e31, e40, e41, e50, e51, e60, e61, e70, e71⟩ := idx_facts t
  unfold iblk4
  rw [View.read_apply]
  show V c main_v69 _ = V c main_v69 _
  congr 1
  funext a
  apply Fin.ext
  match a with
  | ⟨0, _⟩ => show win4_5.index t (0 : Fin 2) * 64 + 1 * (x 0).val = (k 0).val; omega
  | ⟨1, _⟩ => show win4_5.index t (1 : Fin 2) * 64 + 1 * (x 1).val = (k 1).val; omega

/-- The bias window's block at any point is its whole one-row array. -/
theorem b6_apply (c : Dev nD) (t : Fin cfg4.N) (x k : S1x64.Idx)
    (hk0 : (k 0).val = (x 0).val) (hk1 : (k 1).val = (x 1).val) :
    (iblk4 V c 6 t : Vec Ideal S1x64 .f32) x = (V c main_v72 : S1x64.Idx → Elt Ideal .f32) k := by
  obtain ⟨e00, e01, e10, e11, e20, e21, e30, e31, e40, e41, e50, e51, e60, e61, e70, e71⟩ := idx_facts t
  unfold iblk4
  rw [View.read_apply]
  show V c main_v72 _ = V c main_v72 _
  congr 1
  funext a
  apply Fin.ext
  match a with
  | ⟨0, _⟩ => show win4_6.index t (0 : Fin 2) * 1 + 1 * (x 0).val = (k 0).val; omega
  | ⟨1, _⟩ => show win4_6.index t (1 : Fin 2) * 64 + 1 * (x 1).val = (k 1).val; omega

/-- What point `t` writes back is block `t` of the edge update of the whole tables: the body's block is the edge update
    of the row blocks, whose rows are rows 4000 t .. 4000 t + 3999 of the tables, against the whole weight and bias
    arrays. -/
theorem flushed_eq (c : Dev nD) (t : Fin cfg4.N) :
    (dat4 (F := Ideal) V c).flushed 7 t = ((cfg4.win 7).blk t).view.read (Elt Ideal)
      (Cert.Spec.edgeTab (n := 800000) (V c main_v48) (V c main_v62) (V c main_v63) (V c main_v65) (V c main_v67) (V c main_v69) (V c main_v72)) := by
  show (cfg4.win 7).cut (grid4.coords t) ((dat4 V c).after 7 t) = _
  rw [after4_7]
  unfold out4_7
  rw [View.canon_unit_zero hz]
  simp only [View.ld_unit_zero (S := S4000x64) hz, View.ld_unit_zero (S := S64x64) hz, View.ld_unit_zero (S := S1x64) hz]
  rw [Cert.Hand.EdgePay.k4_pay1_eq]
  obtain ⟨e00, e01, e10, e11, e20, e21, e30, e31, e40, e41, e50, e51, e60, e61, e70, e71⟩ := idx_facts t
  funext j
  have hj0 : (j 0).val < 4000 := (j 0).isLt
  have hj1 : (j 1).val < 64 := (j 1).isLt
  have q0 : ((((cfg4.win 7).blk t).view.emb j) 0).val = 4000 * t.val + (j 0).val := by
    show win4_7.index t (0 : Fin 2) * 4000 + 1 * (j 0).val = _; omega
  have q1 : ((((cfg4.win 7).blk t).view.emb j) 1).val = (j 1).val := by
    show win4_7.index t (1 : Fin 2) * 64 + 1 * (j 1).val = _; omega
  show Cert.Spec.edgeTab (n := 4000) _ _ _ _ _ _ _ j
    = Cert.Spec.edgeTab (n := 800000) _ _ _ _ _ _ _ (((cfg4.win 7).blk t).view.emb j)
  unfold Cert.Spec.edgeTab
  refine edgeRow_congr (funext fun k => ?_) (funext fun k => ?_) (funext fun k => ?_)
    (funext fun k => ?_) (funext fun k => ?_) (funext fun k => ?_) ?_
  · exact row0_apply V c t _ _ q0 rfl
  · exact row1_apply V c t _ _ q0 rfl
  · exact row2_apply V c t _ _ q0 rfl
  · exact w3_apply V c t _ _ rfl q1
  · exact w4_apply V c t _ _ rfl q1
  · exact w5_apply V c t _ _ rfl q1
  · exact b6_apply V c t _ _ rfl q1

/-- An index of the output table is in point `t`'s block iff each coordinate is in the block's range on its axis. -/
theorem mem_blk (t : Fin cfg4.N) (i : S800000x64.Idx) :
    i ∈ ((cfg4.win 7).blk t).view.set ↔ ∀ a : Fin 2, win4_7.index t a * S4000x64.size a ≤ (i a).val ∧ (i a).val < win4_7.index t a * S4000x64.size a + S4000x64.size a := by
  show i ∈ ((View.whole main_v73).slice (win4_7.rect t)).set ↔ _
  rw [View.set_slice_whole, Rect.mem_set_unit]
  exact Iff.rfl

/-- Every entry of the output table is in some point's block: row `r` is in block `r / 4000`, one of the 200, and the
    column axis is whole. -/
theorem cover (i : S800000x64.Idx) :
    ∃ t : Fin cfg4.N, (cfg4.win 7).flush t = true ∧ i ∈ ((cfg4.win 7).blk t).view.set := by
  have hi0 : (i 0).val < 800000 := (i 0).isLt
  have hi1 : (i 1).val < 64 := (i 1).isLt
  obtain ⟨t, ht⟩ : ∃ t : Fin cfg4.N, t.val = (i 0).val / 4000 :=
    ⟨⟨(i 0).val / 4000, by rw [show cfg4.N = 200 from N_4]; omega⟩, rfl⟩
  obtain ⟨e00, e01, e10, e11, e20, e21, e30, e31, e40, e41, e50, e51, e60, e61, e70, e71⟩ := idx_facts t
  refine ⟨t, flush4_7 t, ?_⟩
  rw [mem_blk]
  intro a
  match a with
  | ⟨0, _⟩ => show win4_7.index t (0 : Fin 2) * 4000 ≤ (i 0).val ∧ (i 0).val < win4_7.index t (0 : Fin 2) * 4000 + 4000; omega
  | ⟨1, _⟩ => show win4_7.index t (1 : Fin 2) * 64 ≤ (i 1).val ∧ (i 1).val < win4_7.index t (1 : Fin 2) * 64 + 64; omega

/-- After the call, its output table is the edge update of the tables it entered with. -/
theorem arr (c : Dev nD) :
    (dat4 (F := Ideal) V c).arrAt 7 cfg4.N
      = Cert.Spec.edgeTab (n := 800000) (V c main_v48) (V c main_v62) (V c main_v63) (V c main_v65) (V c main_v67) (V c main_v69) (V c main_v72) := by
  exact (dat4 (F := Ideal) V c).arrAt_eq_of_cover 7 _ (fun t _ => flushed_eq V c t) cover

end Cert.Hand.Edge4

end
-- ==== Proof.NodePay.lean ====
/-
  The node kernel's block arithmetic, read at an entry: the node rows and the aggregated rows, each times its
  weight block into a zero accumulator, the two products and the broadcast bias row added, the maximum with
  zero taken.  Entry (p, q) is the node-row function of row p of the two row blocks against column q of the two
  weight blocks.
-/
import proofs.«426185_j11338713661556_1_alg».proof.Proof.Gen.KernelIdeal.Skeleton
import proofs.«426185_j11338713661556_1_alg».proof.Proof.Spec
import proofs.«426185_j11338713661556_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.Hand.NodePay

open Cert.KernelIdeal Cert.KernelIdeal.Gen Idealize.ShloMosaic Idealize.ShloMosaic.ValueIdx

/-- Layer 0's node body is the node update of its 5000-row block. -/
theorem k1_pay1_eq (x0 x1 : Vec Ideal S5000x64 .f32) (x2 x3 : Vec Ideal S64x64 .f32) (x4 : Vec Ideal S1x64 .f32) :
    k1_pay1 (F := Ideal) x0 x1 x2 x3 x4 = Cert.Spec.nodeTab (n := 5000) x0 x1 x2 x3 x4 := by
  funext j
  obtain ⟨p, q, rfl⟩ : ∃ (p : Fin 5000) (q : Fin 64), j = ix2 p q := ⟨j 0, j 1, eq_ix2 j⟩
  unfold k1_pay1 Cert.Spec.nodeTab Cert.Spec.nodeRow
  simp only [shapeCast_self]
  have h1 := Cert.Lib.PlainDot.matmul_zero_apply dot_S5000x64_S64x64_S5000x64_1_0_0_1_n_n rfl rfl rfl rfl rfl rfl none
    (truncf (F := Ideal) .bf16 x0 bitsLt_bf16_f32) (truncf (F := Ideal) .bf16 x2 bitsLt_bf16_f32) p q
  have h2 := Cert.Lib.PlainDot.matmul_zero_apply dot_S5000x64_S64x64_S5000x64_1_0_0_1_n_n rfl rfl rfl rfl rfl rfl none
    (truncf (F := Ideal) .bf16 x1 bitsLt_bf16_f32) (truncf (F := Ideal) .bf16 x3 bitsLt_bf16_f32) p q
  have h3 := broadcastTo_1b_ab_apply x4 broadcasts_S1x64_S5000x64 p q
  rw [maximumf_apply, addf_apply, addf_apply, broadcast_apply]
  refine congrArg₂ max (congrArg₂ (· + ·) (congrArg₂ (· + ·) ?_ ?_) ?_) ?_
  · exact h1
  · exact h2
  · exact h3
  · exact Ideal.ofBits_zero_f32

/-- Layer 1's node body is the same function. -/
theorem k3_pay1_eq (x0 x1 : Vec Ideal S5000x64 .f32) (x2 x3 : Vec Ideal S64x64 .f32) (x4 : Vec Ideal S1x64 .f32) :
    k3_pay1 (F := Ideal) x0 x1 x2 x3 x4 = Cert.Spec.nodeTab (n := 5000) x0 x1 x2 x3 x4 := by
  funext j
  obtain ⟨p, q, rfl⟩ : ∃ (p : Fin 5000) (q : Fin 64), j = ix2 p q := ⟨j 0, j 1, eq_ix2 j⟩
  unfold k3_pay1 Cert.Spec.nodeTab Cert.Spec.nodeRow
  simp only [shapeCast_self]
  have h1 := Cert.Lib.PlainDot.matmul_zero_apply dot_S5000x64_S64x64_S5000x64_1_0_0_1_n_n rfl rfl rfl rfl rfl rfl none
    (truncf (F := Ideal) .bf16 x0 bitsLt_bf16_f32) (truncf (F := Ideal) .bf16 x2 bitsLt_bf16_f32) p q
  have h2 := Cert.Lib.PlainDot.matmul_zero_apply dot_S5000x64_S64x64_S5000x64_1_0_0_1_n_n rfl rfl rfl rfl rfl rfl none
    (truncf (F := Ideal) .bf16 x1 bitsLt_bf16_f32) (truncf (F := Ideal) .bf16 x3 bitsLt_bf16_f32) p q
  have h3 := broadcastTo_1b_ab_apply x4 broadcasts_S1x64_S5000x64 p q
  rw [maximumf_apply, addf_apply, addf_apply, broadcast_apply]
  refine congrArg₂ max (congrArg₂ (· + ·) (congrArg₂ (· + ·) ?_ ?_) ?_) ?_
  · exact h1
  · exact h2
  · exact h3
  · exact Ideal.ofBits_zero_f32

/-- Layer 2's node body is the same function. -/
theorem k5_pay1_eq (x0 x1 : Vec Ideal S5000x64 .f32) (x2 x3 : Vec Ideal S64x64 .f32) (x4 : Vec Ideal S1x64 .f32) :
    k5_pay1 (F := Ideal) x0 x1 x2 x3 x4 = Cert.Spec.nodeTab (n := 5000) x0 x1 x2 x3 x4 := by
  funext j
  obtain ⟨p, q, rfl⟩ : ∃ (p : Fin 5000) (q : Fin 64), j = ix2 p q := ⟨j 0, j 1, eq_ix2 j⟩
  unfold k5_pay1 Cert.Spec.nodeTab Cert.Spec.nodeRow
  simp only [shapeCast_self]
  have h1 := Cert.Lib.PlainDot.matmul_zero_apply dot_S5000x64_S64x64_S5000x64_1_0_0_1_n_n rfl rfl rfl rfl rfl rfl none
    (truncf (F := Ideal) .bf16 x0 bitsLt_bf16_f32) (truncf (F := Ideal) .bf16 x2 bitsLt_bf16_f32) p q
  have h2 := Cert.Lib.PlainDot.matmul_zero_apply dot_S5000x64_S64x64_S5000x64_1_0_0_1_n_n rfl rfl rfl rfl rfl rfl none
    (truncf (F := Ideal) .bf16 x1 bitsLt_bf16_f32) (truncf (F := Ideal) .bf16 x3 bitsLt_bf16_f32) p q
  have h3 := broadcastTo_1b_ab_apply x4 broadcasts_S1x64_S5000x64 p q
  rw [maximumf_apply, addf_apply, addf_apply, broadcast_apply]
  refine congrArg₂ max (congrArg₂ (· + ·) (congrArg₂ (· + ·) ?_ ?_) ?_) ?_
  · exact h1
  · exact h2
  · exact h3
  · exact Ideal.ofBits_zero_f32

end Cert.Hand.NodePay

end
-- ==== Proof.NodeRegion1.lean ====
/-
  The node update as one table.  The call walks the 50000 node rows in 10 blocks of 5000 rows; at block t the two
  row windows hold rows 5000 t .. 5000 t + 4999 of their tables, the weight and bias windows hold their whole arrays,
  and the body writes the node update of that block back to the same rows of the output.  A row's update reads no
  other row, so the blocks are the restrictions of one table, and the 10 blocks cover every row.
-/
import proofs.«426185_j11338713661556_1_alg».proof.Proof.Gen.KernelIdeal.Frame
import proofs.«426185_j11338713661556_1_alg».proof.Proof.NodePay
import proofs.«426185_j11338713661556_1_alg».proof.Proof.Spec
import Idealize.ShloMosaic.Lib.Pipeline.Value
import Idealize.ShloMosaic.Lib.ValueIdx

set_option maxRecDepth 16384

noncomputable section

namespace Cert.Hand.Node1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle of rank 2. -/
theorem hz : (![0, 0] : Fin 2 → Nat) = fun _ => 0 := funext fun a => by fin_cases a <;> rfl

/-- The block index maps, decided once over the 10 grid points: the two row windows sit on the output's block
    row and on column block 0; the weight and bias windows sit on block (0, 0); the output's block row is one of
    0 .. 9 and its column block is 0. -/
theorem idx_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the 10 block rows is some grid point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- Two node updates agree at a pair of entries whose rows of the row tables and whose columns of the weight
    and bias tables hold the same numbers: an entry reads nothing else. -/
theorem nodeTab_eq_of_rows {m n : Nat} (xb ab : Cert.Spec.T2 m 64) (x a : Cert.Spec.T2 n 64)
    (ub vb u v : Cert.Spec.T2 64 64) (bb b : Cert.Spec.T2 1 64)
    (y : (⟨2, ![m, 64]⟩ : Shape).Idx) (i : (⟨2, ![n, 64]⟩ : Shape).Idx)
    (hx : ∀ k : Fin 64, xb (ix2 (y 0) k) = x (ix2 (i 0) k)) (ha : ∀ k : Fin 64, ab (ix2 (y 0) k) = a (ix2 (i 0) k))
    (hu : ∀ k : Fin 64, ub (ix2 k (y 1)) = u (ix2 k (i 1))) (hv : ∀ k : Fin 64, vb (ix2 k (y 1)) = v (ix2 k (i 1)))
    (hb : bb (ix2 0 (y 1)) = b (ix2 0 (i 1))) :
    Cert.Spec.nodeTab xb ab ub vb bb y = Cert.Spec.nodeTab x a u v b i := by
  show Cert.Spec.nodeRow (fun k => xb (ix2 (y 0) k)) (fun k => ab (ix2 (y 0) k))
      (fun k => ub (ix2 k (y 1))) (fun k => vb (ix2 k (y 1))) (bb (ix2 0 (y 1)))
    = Cert.Spec.nodeRow (fun k => x (ix2 (i 0) k)) (fun k => a (ix2 (i 0) k))
      (fun k => u (ix2 k (i 1))) (fun k => v (ix2 k (i 1))) (b (ix2 0 (i 1)))
  rw [funext hx, funext ha, funext hu, funext hv, hb]

/-- The index of the output table that entry `y` of grid point `t`'s output block is written to. -/
abbrev outIdx (t : Fin cfg1.N) (y : S5000x64.Idx) : S50000x64.Idx := ((cfg1.win 5).blk t).view.emb y

/-- Row `p` of the first row window's block at `t` is the table's row on the output block's row `p`. -/
theorem row0 (c : Dev nD) (t : Fin cfg1.N) (e0 : win1_0.index t (0 : Fin 2) = win1_5.index t (0 : Fin 2))
    (e1 : win1_0.index t (1 : Fin 2) = 0) (y : S5000x64.Idx) (k : Fin 64) :
    iblk1 V c 0 t (ix2 (y 0) k) = V c main_arg0 (ix2 (outIdx t y 0) k) := by
  show V c main_arg0 (((cfg1.win 0).blk t).view.emb (ix2 (y 0) k)) = V c main_arg0 (ix2 (outIdx t y 0) k)
  refine congrArg _ ?_
  funext a; apply Fin.ext
  have hy : (y 0).val < 5000 := (y 0).isLt
  match a with
  | ⟨0, _⟩ => show win1_0.index t (0 : Fin 2) * 5000 + 1 * (y 0).val = win1_5.index t (0 : Fin 2) * 5000 + 1 * (y 0).val; omega
  | ⟨1, _⟩ => show win1_0.index t (1 : Fin 2) * 64 + 1 * k.val = k.val; omega

/-- Row `p` of the second row window's block at `t` is the table's row on the output block's row `p`. -/
theorem row1 (c : Dev nD) (t : Fin cfg1.N) (e0 : win1_1.index t (0 : Fin 2) = win1_5.index t (0 : Fin 2))
    (e1 : win1_1.index t (1 : Fin 2) = 0) (y : S5000x64.Idx) (k : Fin 64) :
    iblk1 V c 1 t (ix2 (y 0) k) = V c main_v28 (ix2 (outIdx t y 0) k) := by
  show V c main_v28 (((cfg1.win 1).blk t).view.emb (ix2 (y 0) k)) = V c main_v28 (ix2 (outIdx t y 0) k)
  refine congrArg _ ?_
  funext a; apply Fin.ext
  have hy : (y 0).val < 5000 := (y 0).isLt
  match a with
  | ⟨0, _⟩ => show win1_1.index t (0 : Fin 2) * 5000 + 1 * (y 0).val = win1_5.index t (0 : Fin 2) * 5000 + 1 * (y 0).val; omega
  | ⟨1, _⟩ => show win1_1.index t (1 : Fin 2) * 64 + 1 * k.val = k.val; omega

/-- Column `q` of the first weight window's block is the weight array's column on the output block's column `q`:
    the block is the whole array, and the output's column block is 0. -/
theorem col2 (c : Dev nD) (t : Fin cfg1.N) (e0 : win1_2.index t (0 : Fin 2) = 0) (e1 : win1_2.index t (1 : Fin 2) = 0)
    (e5 : win1_5.index t (1 : Fin 2) = 0) (y : S5000x64.Idx) (k : Fin 64) :
    iblk1 V c 2 t (ix2 k (y 1)) = V c main_v30 (ix2 k (outIdx t y 1)) := by
  show V c main_v30 (((cfg1.win 2).blk t).view.emb (ix2 k (y 1))) = V c main_v30 (ix2 k (outIdx t y 1))
  refine congrArg _ ?_
  funext a; apply Fin.ext
  have hy : (y 1).val < 64 := (y 1).isLt
  match a with
  | ⟨0, _⟩ => show win1_2.index t (0 : Fin 2) * 64 + 1 * k.val = k.val; omega
  | ⟨1, _⟩ => show win1_2.index t (1 : Fin 2) * 64 + 1 * (y 1).val = win1_5.index t (1 : Fin 2) * 64 + 1 * (y 1).val; omega

/-- The same for the second weight window. -/
theorem col3 (c : Dev nD) (t : Fin cfg1.N) (e0 : win1_3.index t (0 : Fin 2) = 0) (e1 : win1_3.index t (1 : Fin 2) = 0)
    (e5 : win1_5.index t (1 : Fin 2) = 0) (y : S5000x64.Idx) (k : Fin 64) :
    iblk1 V c 3 t (ix2 k (y 1)) = V c main_v32 (ix2 k (outIdx t y 1)) := by
  show V c main_v32 (((cfg1.win 3).blk t).view.emb (ix2 k (y 1))) = V c main_v32 (ix2 k (outIdx t y 1))
  refine congrArg _ ?_
  funext a; apply Fin.ext
  have hy : (y 1).val < 64 := (y 1).isLt
  match a with
  | ⟨0, _⟩ => show win1_3.index t (0 : Fin 2) * 64 + 1 * k.val = k.val; omega
  | ⟨1, _⟩ => show win1_3.index t (1 : Fin 2) * 64 + 1 * (y 1).val = win1_5.index t (1 : Fin 2) * 64 + 1 * (y 1).val; omega

/-- Entry `q` of the bias window's block is the bias row's entry on the output block's column `q`. -/
theorem bias4 (c : Dev nD) (t : Fin cfg1.N) (e0 : win1_4.index t (0 : Fin 2) = 0) (e1 : win1_4.index t (1 : Fin 2) = 0)
    (e5 : win1_5.index t (1 : Fin 2) = 0) (y : S5000x64.Idx) :
    iblk1 V c 4 t (ix2 0 (y 1)) = V c main_v35 (ix2 0 (outIdx t y 1)) := by
  show V c main_v35 (((cfg1.win 4).blk t).view.emb (ix2 0 (y 1))) = V c main_v35 (ix2 0 (outIdx t y 1))
  refine congrArg _ ?_
  funext a; apply Fin.ext
  have hy : (y 1).val < 64 := (y 1).isLt
  match a with
  | ⟨0, _⟩ => show win1_4.index t (0 : Fin 2) * 1 + 1 * 0 = 0; omega
  | ⟨1, _⟩ => show win1_4.index t (1 : Fin 2) * 64 + 1 * (y 1).val = win1_5.index t (1 : Fin 2) * 64 + 1 * (y 1).val; omega

/-- What grid point `t` writes back is block `t` of the node update of the whole tables: the body's block is the
    node update of the input blocks, entry (p, q) of which reads row p of the two row blocks — row
    5000 · (block row) + p of the tables — and column q of the weight and bias blocks, which are the whole arrays. -/
theorem flushed_eq (c : Dev nD) (t : Fin cfg1.N) :
    (dat1 (F := Ideal) V c).flushed 5 t = ((cfg1.win 5).blk t).view.read (Elt Ideal)
      (Cert.Spec.nodeTab (n := 50000) (V c main_arg0) (V c main_v28) (V c main_v30) (V c main_v32) (V c main_v35)) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S64x64) hz, View.ld_unit_zero (S := S1x64) hz]
  rw [Cert.Hand.NodePay.k1_pay1_eq]
  obtain ⟨e00, e01, e10, e11, e20, e21, e30, e31, e40, e41, e50, e51⟩ := idx_facts t
  funext j
  show Cert.Spec.nodeTab (n := 5000) (iblk1 V c 0 t) (iblk1 V c 1 t) (iblk1 V c 2 t) (iblk1 V c 3 t) (iblk1 V c 4 t)
      ((win1 5).xinj (grid1.coords t) j)
    = Cert.Spec.nodeTab (n := 50000) (V c main_arg0) (V c main_v28) (V c main_v30) (V c main_v32) (V c main_v35)
      (outIdx t ((win1 5).xinj (grid1.coords t) j))
  exact nodeTab_eq_of_rows _ _ _ _ _ _ _ _ _ _ _ _
    (row0 V c t e00 e01 _) (row1 V c t e10 e11 _) (col2 V c t e20 e21 e51 _) (col3 V c t e30 e31 e51 _)
    (bias4 V c t e40 e41 e51 _)

/-- An index of the output table is in grid point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v36).slice (win1_5.rect t)).set ↔ _
  rw [View.set_slice_whole, Rect.mem_set_unit]
  exact Iff.rfl

/-- Every index of the output table is in some grid point's block: row r is in block row r / 5000, one of the 10,
    and a block holds all 64 columns. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the call, its output table is the node update of the tables it entered with. -/
theorem arr (c : Dev nD) :
    (dat1 (F := Ideal) V c).arrAt 5 cfg1.N
      = Cert.Spec.nodeTab (n := 50000) (V c main_arg0) (V c main_v28) (V c main_v30) (V c main_v32) (V c main_v35) :=
  (dat1 (F := Ideal) V c).arrAt_eq_of_cover 5
    (Cert.Spec.nodeTab (n := 50000) (V c main_arg0) (V c main_v28) (V c main_v30) (V c main_v32) (V c main_v35))
    (fun t _ => flushed_eq V c t) cover

end Cert.Hand.Node1

end
-- ==== Proof.NodeRegion3.lean ====
/-
  The node update as one table.  The call walks the 50000 node rows in 10 blocks of 5000 rows; at block t the two
  row windows hold rows 5000 t .. 5000 t + 4999 of their tables, the weight and bias windows hold their whole arrays,
  and the body writes the node update of that block back to the same rows of the output.  A row's update reads no
  other row, so the blocks are the restrictions of one table, and the 10 blocks cover every row.
-/
import proofs.«426185_j11338713661556_1_alg».proof.Proof.Gen.KernelIdeal.Frame
import proofs.«426185_j11338713661556_1_alg».proof.Proof.NodePay
import proofs.«426185_j11338713661556_1_alg».proof.Proof.Spec
import Idealize.ShloMosaic.Lib.Pipeline.Value
import Idealize.ShloMosaic.Lib.ValueIdx

set_option maxRecDepth 16384

noncomputable section

namespace Cert.Hand.Node3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle of rank 2. -/
theorem hz : (![0, 0] : Fin 2 → Nat) = fun _ => 0 := funext fun a => by fin_cases a <;> rfl

/-- The block index maps, decided once over the 10 grid points: the two row windows sit on the output's block
    row and on column block 0; the weight and bias windows sit on block (0, 0); the output's block row is one of
    0 .. 9 and its column block is 0. -/
theorem idx_facts : ∀ t : Fin cfg3.N,
      win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every one of the 10 block rows is some grid point's. -/
theorem idx_onto : ∀ q0 : Fin 10, ∃ t : Fin cfg3.N, win3_5.index t = ![q0.val, 0] :=
  (by decide +kernel : ∀ q0 : Fin 10, ∃ t : Fin grid3.N, win3_5.index t = ![q0.val, 0])

/-- Two node updates agree at a pair of entries whose rows of the row tables and whose columns of the weight
    and bias tables hold the same numbers: an entry reads nothing else. -/
theorem nodeTab_eq_of_rows {m n : Nat} (xb ab : Cert.Spec.T2 m 64) (x a : Cert.Spec.T2 n 64)
    (ub vb u v : Cert.Spec.T2 64 64) (bb b : Cert.Spec.T2 1 64)
    (y : (⟨2, ![m, 64]⟩ : Shape).Idx) (i : (⟨2, ![n, 64]⟩ : Shape).Idx)
    (hx : ∀ k : Fin 64, xb (ix2 (y 0) k) = x (ix2 (i 0) k)) (ha : ∀ k : Fin 64, ab (ix2 (y 0) k) = a (ix2 (i 0) k))
    (hu : ∀ k : Fin 64, ub (ix2 k (y 1)) = u (ix2 k (i 1))) (hv : ∀ k : Fin 64, vb (ix2 k (y 1)) = v (ix2 k (i 1)))
    (hb : bb (ix2 0 (y 1)) = b (ix2 0 (i 1))) :
    Cert.Spec.nodeTab xb ab ub vb bb y = Cert.Spec.nodeTab x a u v b i := by
  show Cert.Spec.nodeRow (fun k => xb (ix2 (y 0) k)) (fun k => ab (ix2 (y 0) k))
      (fun k => ub (ix2 k (y 1))) (fun k => vb (ix2 k (y 1))) (bb (ix2 0 (y 1)))
    = Cert.Spec.nodeRow (fun k => x (ix2 (i 0) k)) (fun k => a (ix2 (i 0) k))
      (fun k => u (ix2 k (i 1))) (fun k => v (ix2 k (i 1))) (b (ix2 0 (i 1)))
  rw [funext hx, funext ha, funext hu, funext hv, hb]

/-- The index of the output table that entry `y` of grid point `t`'s output block is written to. -/
abbrev outIdx (t : Fin cfg3.N) (y : S5000x64.Idx) : S50000x64.Idx := ((cfg3.win 5).blk t).view.emb y

/-- Row `p` of the first row window's block at `t` is the table's row on the output block's row `p`. -/
theorem row0 (c : Dev nD) (t : Fin cfg3.N) (e0 : win3_0.index t (0 : Fin 2) = win3_5.index t (0 : Fin 2))
    (e1 : win3_0.index t (1 : Fin 2) = 0) (y : S5000x64.Idx) (k : Fin 64) :
    iblk3 V c 0 t (ix2 (y 0) k) = V c main_v36 (ix2 (outIdx t y 0) k) := by
  show V c main_v36 (((cfg3.win 0).blk t).view.emb (ix2 (y 0) k)) = V c main_v36 (ix2 (outIdx t y 0) k)
  refine congrArg _ ?_
  funext a; apply Fin.ext
  have hy : (y 0).val < 5000 := (y 0).isLt
  match a with
  | ⟨0, _⟩ => show win3_0.index t (0 : Fin 2) * 5000 + 1 * (y 0).val = win3_5.index t (0 : Fin 2) * 5000 + 1 * (y 0).val; omega
  | ⟨1, _⟩ => show win3_0.index t (1 : Fin 2) * 64 + 1 * k.val = k.val; omega

/-- Row `p` of the second row window's block at `t` is the table's row on the output block's row `p`. -/
theorem row1 (c : Dev nD) (t : Fin cfg3.N) (e0 : win3_1.index t (0 : Fin 2) = win3_5.index t (0 : Fin 2))
    (e1 : win3_1.index t (1 : Fin 2) = 0) (y : S5000x64.Idx) (k : Fin 64) :
    iblk3 V c 1 t (ix2 (y 0) k) = V c main_v53 (ix2 (outIdx t y 0) k) := by
  show V c main_v53 (((cfg3.win 1).blk t).view.emb (ix2 (y 0) k)) = V c main_v53 (ix2 (outIdx t y 0) k)
  refine congrArg _ ?_
  funext a; apply Fin.ext
  have hy : (y 0).val < 5000 := (y 0).isLt
  match a with
  | ⟨0, _⟩ => show win3_1.index t (0 : Fin 2) * 5000 + 1 * (y 0).val = win3_5.index t (0 : Fin 2) * 5000 + 1 * (y 0).val; omega
  | ⟨1, _⟩ => show win3_1.index t (1 : Fin 2) * 64 + 1 * k.val = k.val; omega

/-- Column `q` of the first weight window's block is the weight array's column on the output block's column `q`:
    the block is the whole array, and the output's column block is 0. -/
theorem col2 (c : Dev nD) (t : Fin cfg3.N) (e0 : win3_2.index t (0 : Fin 2) = 0) (e1 : win3_2.index t (1 : Fin 2) = 0)
    (e5 : win3_5.index t (1 : Fin 2) = 0) (y : S5000x64.Idx) (k : Fin 64) :
    iblk3 V c 2 t (ix2 k (y 1)) = V c main_v55 (ix2 k (outIdx t y 1)) := by
  show V c main_v55 (((cfg3.win 2).blk t).view.emb (ix2 k (y 1))) = V c main_v55 (ix2 k (outIdx t y 1))
  refine congrArg _ ?_
  funext a; apply Fin.ext
  have hy : (y 1).val < 64 := (y 1).isLt
  match a with
  | ⟨0, _⟩ => show win3_2.index t (0 : Fin 2) * 64 + 1 * k.val = k.val; omega
  | ⟨1, _⟩ => show win3_2.index t (1 : Fin 2) * 64 + 1 * (y 1).val = win3_5.index t (1 : Fin 2) * 64 + 1 * (y 1).val; omega

/-- The same for the second weight window. -/
theorem col3 (c : Dev nD) (t : Fin cfg3.N) (e0 : win3_3.index t (0 : Fin 2) = 0) (e1 : win3_3.index t (1 : Fin 2) = 0)
    (e5 : win3_5.index t (1 : Fin 2) = 0) (y : S5000x64.Idx) (k : Fin 64) :
    iblk3 V c 3 t (ix2 k (y 1)) = V c main_v57 (ix2 k (outIdx t y 1)) := by
  show V c main_v57 (((cfg3.win 3).blk t).view.emb (ix2 k (y 1))) = V c main_v57 (ix2 k (outIdx t y 1))
  refine congrArg _ ?_
  funext a; apply Fin.ext
  have hy : (y 1).val < 64 := (y 1).isLt
  match a with
  | ⟨0, _⟩ => show win3_3.index t (0 : Fin 2) * 64 + 1 * k.val = k.val; omega
  | ⟨1, _⟩ => show win3_3.index t (1 : Fin 2) * 64 + 1 * (y 1).val = win3_5.index t (1 : Fin 2) * 64 + 1 * (y 1).val; omega

/-- Entry `q` of the bias window's block is the bias row's entry on the output block's column `q`. -/
theorem bias4 (c : Dev nD) (t : Fin cfg3.N) (e0 : win3_4.index t (0 : Fin 2) = 0) (e1 : win3_4.index t (1 : Fin 2) = 0)
    (e5 : win3_5.index t (1 : Fin 2) = 0) (y : S5000x64.Idx) :
    iblk3 V c 4 t (ix2 0 (y 1)) = V c main_v60 (ix2 0 (outIdx t y 1)) := by
  show V c main_v60 (((cfg3.win 4).blk t).view.emb (ix2 0 (y 1))) = V c main_v60 (ix2 0 (outIdx t y 1))
  refine congrArg _ ?_
  funext a; apply Fin.ext
  have hy : (y 1).val < 64 := (y 1).isLt
  match a with
  | ⟨0, _⟩ => show win3_4.index t (0 : Fin 2) * 1 + 1 * 0 = 0; omega
  | ⟨1, _⟩ => show win3_4.index t (1 : Fin 2) * 64 + 1 * (y 1).val = win3_5.index t (1 : Fin 2) * 64 + 1 * (y 1).val; omega

/-- What grid point `t` writes back is block `t` of the node update of the whole tables: the body's block is the
    node update of the input blocks, entry (p, q) of which reads row p of the two row blocks — row
    5000 · (block row) + p of the tables — and column q of the weight and bias blocks, which are the whole arrays. -/
theorem flushed_eq (c : Dev nD) (t : Fin cfg3.N) :
    (dat3 (F := Ideal) V c).flushed 5 t = ((cfg3.win 5).blk t).view.read (Elt Ideal)
      (Cert.Spec.nodeTab (n := 50000) (V c main_v36) (V c main_v53) (V c main_v55) (V c main_v57) (V c main_v60)) := by
  show (cfg3.win 5).cut (grid3.coords t) ((dat3 (F := Ideal) V c).after 5 t) = _
  rw [after3_5]
  unfold out3_5
  rw [View.canon_unit_zero hz]
  simp only [View.ld_unit_zero (S := S5000x64) hz, View.ld_unit_zero (S := S64x64) hz, View.ld_unit_zero (S := S1x64) hz]
  rw [Cert.Hand.NodePay.k3_pay1_eq]
  obtain ⟨e00, e01, e10, e11, e20, e21, e30, e31, e40, e41, e50, e51⟩ := idx_facts t
  funext j
  show Cert.Spec.nodeTab (n := 5000) (iblk3 V c 0 t) (iblk3 V c 1 t) (iblk3 V c 2 t) (iblk3 V c 3 t) (iblk3 V c 4 t)
      ((win3 5).xinj (grid3.coords t) j)
    = Cert.Spec.nodeTab (n := 50000) (V c main_v36) (V c main_v53) (V c main_v55) (V c main_v57) (V c main_v60)
      (outIdx t ((win3 5).xinj (grid3.coords t) j))
  exact nodeTab_eq_of_rows _ _ _ _ _ _ _ _ _ _ _ _
    (row0 V c t e00 e01 _) (row1 V c t e10 e11 _) (col2 V c t e20 e21 e51 _) (col3 V c t e30 e31 e51 _)
    (bias4 V c t e40 e41 e51 _)

/-- An index of the output table is in grid point `t`'s block iff each coordinate is in the block's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v61).slice (win3_5.rect t)).set ↔ _
  rw [View.set_slice_whole, Rect.mem_set_unit]
  exact Iff.rfl

/-- Every index of the output table is in some grid point's block: row r is in block row r / 5000, one of the 10,
    and a block holds all 64 columns. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- After the call, its output table is the node update of the tables it entered with. -/
theorem arr (c : Dev nD) :
    (dat3 (F := Ideal) V c).arrAt 5 cfg3.N
      = Cert.Spec.nodeTab (n := 50000) (V c main_v36) (V c main_v53) (V c main_v55) (V c main_v57) (V c main_v60) :=
  (dat3 (F := Ideal) V c).arrAt_eq_of_cover 5
    (Cert.Spec.nodeTab (n := 50000) (V c main_v36) (V c main_v53) (V c main_v55) (V c main_v57) (V c main_v60))
    (fun t _ => flushed_eq V c t) cover

end Cert.Hand.Node3

end
-- ==== Proof.NodeRegion5.lean ====
/-
  The node update as one table.  The call walks the 50000 node rows in 10 blocks of 5000 rows; at block t the two
  row windows hold rows 5000 t .. 5000 t + 4999 of their tables, the weight and bias windows hold their whole arrays,
  and the body writes the node update of that block back to the same rows of the output.  A row's update reads no
  other row, so the blocks are the restrictions of one table, and the 10 blocks cover every row.
-/
import proofs.«426185_j11338713661556_1_alg».proof.Proof.Gen.KernelIdeal.Frame
import proofs.«426185_j11338713661556_1_alg».proof.Proof.NodePay
import proofs.«426185_j11338713661556_1_alg».proof.Proof.Spec
import Idealize.ShloMosaic.Lib.Pipeline.Value
import Idealize.ShloMosaic.Lib.ValueIdx

set_option maxRecDepth 16384

noncomputable section

namespace Cert.Hand.Node5

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle of rank 2. -/
theorem hz : (![0, 0] : Fin 2 → Nat) = fun _ => 0 := funext fun a => by fin_cases a <;> rfl

/-- The block index maps, decided once over the 10 grid points: the two row windows sit on the output's block
    row and on column block 0; the weight and bias windows sit on block (0, 0); the output's block row is one of
    0 .. 9 and its column block is 0. -/
theorem idx_facts : ∀ t : Fin cfg5.N,
      win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- Every one of the 10 block rows is some grid point's. -/
theorem idx_onto : ∀ q0 : Fin 10, ∃ t : Fin cfg5.N, win5_5.index t = ![q0.val, 0] :=
  (by decide +kernel : ∀ q0 : Fin 10, ∃ t : Fin grid5.N, win5_5.index t = ![q0.val, 0])

/-- Two node updates agree at a pair of entries whose rows of the row tables and whose columns of the weight
    and bias tables hold the same numbers: an entry reads nothing else. -/
theorem nodeTab_eq_of_rows {m n : Nat} (xb ab : Cert.Spec.T2 m 64) (x a : Cert.Spec.T2 n 64)
    (ub vb u v : Cert.Spec.T2 64 64) (bb b : Cert.Spec.T2 1 64)
    (y : (⟨2, ![m, 64]⟩ : Shape).Idx) (i : (⟨2, ![n, 64]⟩ : Shape).Idx)
    (hx : ∀ k : Fin 64, xb (ix2 (y 0) k) = x (ix2 (i 0) k)) (ha : ∀ k : Fin 64, ab (ix2 (y 0) k) = a (ix2 (i 0) k))
    (hu : ∀ k : Fin 64, ub (ix2 k (y 1)) = u (ix2 k (i 1))) (hv : ∀ k : Fin 64, vb (ix2 k (y 1)) = v (ix2 k (i 1)))
    (hb : bb (ix2 0 (y 1)) = b (ix2 0 (i 1))) :
    Cert.Spec.nodeTab xb ab ub vb bb y = Cert.Spec.nodeTab x a u v b i := by
  show Cert.Spec.nodeRow (fun k => xb (ix2 (y 0) k)) (fun k => ab (ix2 (y 0) k))
      (fun k => ub (ix2 k (y 1))) (fun k => vb (ix2 k (y 1))) (bb (ix2 0 (y 1)))
    = Cert.Spec.nodeRow (fun k => x (ix2 (i 0) k)) (fun k => a (ix2 (i 0) k))
      (fun k => u (ix2 k (i 1))) (fun k => v (ix2 k (i 1))) (b (ix2 0 (i 1)))
  rw [funext hx, funext ha, funext hu, funext hv, hb]

/-- The index of the output table that entry `y` of grid point `t`'s output block is written to. -/
abbrev outIdx (t : Fin cfg5.N) (y : S5000x64.Idx) : S50000x64.Idx := ((cfg5.win 5).blk t).view.emb y

/-- Row `p` of the first row window's block at `t` is the table's row on the output block's row `p`. -/
theorem row0 (c : Dev nD) (t : Fin cfg5.N) (e0 : win5_0.index t (0 : Fin 2) = win5_5.index t (0 : Fin 2))
    (e1 : win5_0.index t (1 : Fin 2) = 0) (y : S5000x64.Idx) (k : Fin 64) :
    iblk5 V c 0 t (ix2 (y 0) k) = V c main_v61 (ix2 (outIdx t y 0) k) := by
  show V c main_v61 (((cfg5.win 0).blk t).view.emb (ix2 (y 0) k)) = V c main_v61 (ix2 (outIdx t y 0) k)
  refine congrArg _ ?_
  funext a; apply Fin.ext
  have hy : (y 0).val < 5000 := (y 0).isLt
  match a with
  | ⟨0, _⟩ => show win5_0.index t (0 : Fin 2) * 5000 + 1 * (y 0).val = win5_5.index t (0 : Fin 2) * 5000 + 1 * (y 0).val; omega
  | ⟨1, _⟩ => show win5_0.index t (1 : Fin 2) * 64 + 1 * k.val = k.val; omega

/-- Row `p` of the second row window's block at `t` is the table's row on the output block's row `p`. -/
theorem row1 (c : Dev nD) (t : Fin cfg5.N) (e0 : win5_1.index t (0 : Fin 2) = win5_5.index t (0 : Fin 2))
    (e1 : win5_1.index t (1 : Fin 2) = 0) (y : S5000x64.Idx) (k : Fin 64) :
    iblk5 V c 1 t (ix2 (y 0) k) = V c main_v78 (ix2 (outIdx t y 0) k) := by
  show V c main_v78 (((cfg5.win 1).blk t).view.emb (ix2 (y 0) k)) = V c main_v78 (ix2 (outIdx t y 0) k)
  refine congrArg _ ?_
  funext a; apply Fin.ext
  have hy : (y 0).val < 5000 := (y 0).isLt
  match a with
  | ⟨0, _⟩ => show win5_1.index t (0 : Fin 2) * 5000 + 1 * (y 0).val = win5_5.index t (0 : Fin 2) * 5000 + 1 * (y 0).val; omega
  | ⟨1, _⟩ => show win5_1.index t (1 : Fin 2) * 64 + 1 * k.val = k.val; omega

/-- Column `q` of the first weight window's block is the weight array's column on the output block's column `q`:
    the block is the whole array, and the output's column block is 0. -/
theorem col2 (c : Dev nD) (t : Fin cfg5.N) (e0 : win5_2.index t (0 : Fin 2) = 0) (e1 : win5_2.index t (1 : Fin 2) = 0)
    (e5 : win5_5.index t (1 : Fin 2) = 0) (y : S5000x64.Idx) (k : Fin 64) :
    iblk5 V c 2 t (ix2 k (y 1)) = V c main_v80 (ix2 k (outIdx t y 1)) := by
  show V c main_v80 (((cfg5.win 2).blk t).view.emb (ix2 k (y 1))) = V c main_v80 (ix2 k (outIdx t y 1))
  refine congrArg _ ?_
  funext a; apply Fin.ext
  have hy : (y 1).val < 64 := (y 1).isLt
  match a with
  | ⟨0, _⟩ => show win5_2.index t (0 : Fin 2) * 64 + 1 * k.val = k.val; omega
  | ⟨1, _⟩ => show win5_2.index t (1 : Fin 2) * 64 + 1 * (y 1).val = win5_5.index t (1 : Fin 2) * 64 + 1 * (y 1).val; omega

/-- The same for the second weight window. -/
theorem col3 (c : Dev nD) (t : Fin cfg5.N) (e0 : win5_3.index t (0 : Fin 2) = 0) (e1 : win5_3.index t (1 : Fin 2) = 0)
    (e5 : win5_5.index t (1 : Fin 2) = 0) (y : S5000x64.Idx) (k : Fin 64) :
    iblk5 V c 3 t (ix2 k (y 1)) = V c main_v82 (ix2 k (outIdx t y 1)) := by
  show V c main_v82 (((cfg5.win 3).blk t).view.emb (ix2 k (y 1))) = V c main_v82 (ix2 k (outIdx t y 1))
  refine congrArg _ ?_
  funext a; apply Fin.ext
  have hy : (y 1).val < 64 := (y 1).isLt
  match a with
  | ⟨0, _⟩ => show win5_3.index t (0 : Fin 2) * 64 + 1 * k.val = k.val; omega
  | ⟨1, _⟩ => show win5_3.index t (1 : Fin 2) * 64 + 1 * (y 1).val = win5_5.index t (1 : Fin 2) * 64 + 1 * (y 1).val; omega

/-- Entry `q` of the bias window's block is the bias row's entry on the output block's column `q`. -/
theorem bias4 (c : Dev nD) (t : Fin cfg5.N) (e0 : win5_4.index t (0 : Fin 2) = 0) (e1 : win5_4.index t (1 : Fin 2) = 0)
    (e5 : win5_5.index t (1 : Fin 2) = 0) (y : S5000x64.Idx) :
    iblk5 V c 4 t (ix2 0 (y 1)) = V c main_v85 (ix2 0 (outIdx t y 1)) := by
  show V c main_v85 (((cfg5.win 4).blk t).view.emb (ix2 0 (y 1))) = V c main_v85 (ix2 0 (outIdx t y 1))
  refine congrArg _ ?_
  funext a; apply Fin.ext
  have hy : (y 1).val < 64 := (y 1).isLt
  match a with
  | ⟨0, _⟩ => show win5_4.index t (0 : Fin 2) * 1 + 1 * 0 = 0; omega
  | ⟨1, _⟩ => show win5_4.index t (1 : Fin 2) * 64 + 1 * (y 1).val = win5_5.index t (1 : Fin 2) * 64 + 1 * (y 1).val; omega

/-- What grid point `t` writes back is block `t` of the node update of the whole tables: the body's block is the
    node update of the input blocks, entry (p, q) of which reads row p of the two row blocks — row
    5000 · (block row) + p of the tables — and column q of the weight and bias blocks, which are the whole arrays. -/
theorem flushed_eq (c : Dev nD) (t : Fin cfg5.N) :
    (dat5 (F := Ideal) V c).flushed 5 t = ((cfg5.win 5).blk t).view.read (Elt Ideal)
      (Cert.Spec.nodeTab (n := 50000) (V c main_v61) (V c main_v78) (V c main_v80) (V c main_v82) (V c main_v85)) := by
  show (cfg5.win 5).cut (grid5.coords t) ((dat5 (F := Ideal) V c).after 5 t) = _
  rw [after5_5]
  unfold out5_5
  rw [View.canon_unit_zero hz]
  simp only [View.ld_unit_zero (S := S5000x64) hz, View.ld_unit_zero (S := S64x64) hz, View.ld_unit_zero (S := S1x64) hz]
  rw [Cert.Hand.NodePay.k5_pay1_eq]
  obtain ⟨e00, e01, e10, e11, e20, e21, e30, e31, e40, e41, e50, e51⟩ := idx_facts t
  funext j
  show Cert.Spec.nodeTab (n := 5000) (iblk5 V c 0 t) (iblk5 V c 1 t) (iblk5 V c 2 t) (iblk5 V c 3 t) (iblk5 V c 4 t)
      ((win5 5).xinj (grid5.coords t) j)
    = Cert.Spec.nodeTab (n := 50000) (V c main_v61) (V c main_v78) (V c main_v80) (V c main_v82) (V c main_v85)
      (outIdx t ((win5 5).xinj (grid5.coords t) j))
  exact nodeTab_eq_of_rows _ _ _ _ _ _ _ _ _ _ _ _
    (row0 V c t e00 e01 _) (row1 V c t e10 e11 _) (col2 V c t e20 e21 e51 _) (col3 V c t e30 e31 e51 _)
    (bias4 V c t e40 e41 e51 _)

/-- An index of the output table is in grid point `t`'s block iff each coordinate is in the block's range on its axis. -/
theorem mem_blk (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v86).slice (win5_5.rect t)).set ↔ _
  rw [View.set_slice_whole, Rect.mem_set_unit]
  exact Iff.rfl

/-- Every index of the output table is in some grid point's block: row r is in block row r / 5000, one of the 10,
    and a block holds all 64 columns. -/
theorem cover (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, ht⟩ := idx_onto ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-- After the call, its output table is the node update of the tables it entered with. -/
theorem arr (c : Dev nD) :
    (dat5 (F := Ideal) V c).arrAt 5 cfg5.N
      = Cert.Spec.nodeTab (n := 50000) (V c main_v61) (V c main_v78) (V c main_v80) (V c main_v82) (V c main_v85) :=
  (dat5 (F := Ideal) V c).arrAt_eq_of_cover 5
    (Cert.Spec.nodeTab (n := 50000) (V c main_v61) (V c main_v78) (V c main_v80) (V c main_v82) (V c main_v85))
    (fun t _ => flushed_eq V c t) cover

end Cert.Hand.Node5

end
-- ==== Proof.FinalPay.lean ====
/-
  The last kernel's block arithmetic, read at an entry: each row of the block is centred by its mean, scaled by
  the inverse root of its variance plus epsilon, by gamma and shifted by beta; the normalised rows go through a
  64→128 product with bias and relu, a 128→64 product with bias, and a 64→1 product with bias.  Entry (p, 0) of
  the result is the final-row function of row p of the block.
-/
import proofs.«426185_j11338713661556_1_alg».proof.Proof.Gen.KernelIdeal.Skeleton
import proofs.«426185_j11338713661556_1_alg».proof.Proof.Spec
import proofs.«426185_j11338713661556_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.Hand.FinalPay

open Cert.KernelIdeal Cert.KernelIdeal.Gen Idealize.ShloMosaic Idealize.ShloMosaic.ValueIdx

/-- A column of 5000 entries spread over 64 lanes reads, at (p, q), the column's entry p. -/
theorem bcastCol_apply (v : FVec Ideal S5000x1 .f32) (p : Fin 5000) (q : Fin 64) :
    broadcastTo S5000x64 v broadcasts_S5000x1_S5000x64 (ix2 p q) = v (ix2 p 0) :=
  broadcastTo_apply v _ (ix2 p q) (ix2 p 0) fun a => match a with
    | ⟨0, _⟩ => rfl
    | ⟨1, _⟩ => rfl

/-- The lane sum of a 5000×64 block, as a column: entry (p, 0) is the sum of row p. -/
theorem sumCol_apply (x : FVec Ideal S5000x64 .f32) (p : Fin 5000) :
    shapeCast S5000x1 (multiReduction .add [1] S5000 x 0x00000000#32 reduces_S5000x64_S5000 (.inl rfl) rfl)
        shapeCasts_S5000_S5000x1 (ix2 p 0)
      = ∑ k : Fin 64, x (ix2 p k) := by
  refine (shapeCast_apply _ _ (ix2 p 0) (ix1 p) ?_).trans ?_
  · rw [Shape.rowMajor_val_one, Shape.rowMajor_val_two]
    show p.val = p.val * 1 + 0
    omega
  · refine (Ideal.multiReduction_add_single x _ reduces_S5000x64_S5000 (.inl rfl) rfl (ix1 p)).trans ?_
    refine Finset.sum_congr rfl fun k _ => congrArg x ?_
    funext a
    match a with
    | ⟨0, _⟩ => rfl
    | ⟨1, _⟩ => rfl

/-- The column of row means of a block: each row's lane sum over 64. -/
def colMean (x : FVec Ideal S5000x64 .f32) : FVec Ideal S5000x1 .f32 :=
  divf (shapeCast S5000x1 (multiReduction .add [1] S5000 x 0x00000000#32 reduces_S5000x64_S5000 (.inl rfl) rfl)
      shapeCasts_S5000_S5000x1) (broadcast S5000x1 (Scalar.ofBits .f32 0x42800000#32))

theorem colMean_apply (x : FVec Ideal S5000x64 .f32) (p : Fin 5000) :
    colMean x (ix2 p 0) = Cert.Spec.rowMean (fun k => x (ix2 p k)) := by
  unfold colMean Cert.Spec.rowMean
  exact congrArg (fun t => Ideal.div t (Ideal.ofBits .f32 0x42800000#32)) (sumCol_apply x p)

/-- The centred block: each row less its mean. -/
def cenBlk (x : FVec Ideal S5000x64 .f32) : FVec Ideal S5000x64 .f32 :=
  subf x (broadcastTo S5000x64 (colMean x) broadcasts_S5000x1_S5000x64)

theorem cenBlk_apply (x : FVec Ideal S5000x64 .f32) (p : Fin 5000) (q : Fin 64) :
    cenBlk x (ix2 p q) = x (ix2 p q) - Cert.Spec.rowMean (fun k => x (ix2 p k)) := by
  unfold cenBlk
  show x (ix2 p q) - broadcastTo S5000x64 (colMean x) broadcasts_S5000x1_S5000x64 (ix2 p q) = _
  rw [bcastCol_apply, colMean_apply]

/-- The column of inverse roots of (row variance + epsilon). -/
def scaleCol (x : FVec Ideal S5000x64 .f32) : FVec Ideal S5000x1 .f32 :=
  rsqrt (addf (colMean (mulf (cenBlk x) (cenBlk x))) (broadcast S5000x1 (Scalar.ofBits .f32 0x3727C5AC#32)))

theorem scaleCol_apply (x : FVec Ideal S5000x64 .f32) (p : Fin 5000) :
    scaleCol x (ix2 p 0)
      = Ideal.rsqrt (Ideal.div (∑ i : Fin 64, (x (ix2 p i) - Cert.Spec.rowMean (fun k => x (ix2 p k)))
            * (x (ix2 p i) - Cert.Spec.rowMean (fun k => x (ix2 p k)))) (Ideal.ofBits .f32 0x42800000#32)
          + Ideal.ofBits .f32 0x3727C5AC#32) := by
  unfold scaleCol
  show Ideal.rsqrt (colMean (mulf (cenBlk x) (cenBlk x)) (ix2 p 0) + Ideal.ofBits .f32 0x3727C5AC#32) = _
  rw [colMean_apply]
  unfold Cert.Spec.rowMean
  refine congrArg (fun t => Ideal.rsqrt (Ideal.div t (Ideal.ofBits .f32 0x42800000#32) + Ideal.ofBits .f32 0x3727C5AC#32)) ?_
  refine Finset.sum_congr rfl fun i _ => ?_
  show cenBlk x (ix2 p i) * cenBlk x (ix2 p i) = _
  rw [cenBlk_apply]
  rfl

/-- The normalised block: centred rows times their scale, times gamma, plus beta. -/
def normBlk (x : FVec Ideal S5000x64 .f32) (g b : FVec Ideal S1x64 .f32) : FVec Ideal S5000x64 .f32 :=
  addf (mulf (mulf (cenBlk x) (broadcastTo S5000x64 (scaleCol x) broadcasts_S5000x1_S5000x64))
      (broadcastTo S5000x64 g broadcasts_S1x64_S5000x64)) (broadcastTo S5000x64 b broadcasts_S1x64_S5000x64)

theorem normBlk_apply (x : FVec Ideal S5000x64 .f32) (g b : FVec Ideal S1x64 .f32) (p : Fin 5000) (q : Fin 64) :
    normBlk x g b (ix2 p q)
      = Cert.Spec.normRow (fun k => x (ix2 p k)) (fun k => g (ix2 0 k)) (fun k => b (ix2 0 k)) q := by
  unfold normBlk
  show cenBlk x (ix2 p q) * broadcastTo S5000x64 (scaleCol x) broadcasts_S5000x1_S5000x64 (ix2 p q)
      * broadcastTo S5000x64 g broadcasts_S1x64_S5000x64 (ix2 p q)
      + broadcastTo S5000x64 b broadcasts_S1x64_S5000x64 (ix2 p q) = _
  rw [bcastCol_apply, broadcastTo_1b_ab_apply, broadcastTo_1b_ab_apply, cenBlk_apply, scaleCol_apply]
  rfl

/-- The hidden payload spelt over the normalised block: first product into a zero accumulator, bias row, relu, rounding. -/
theorem pay2_eq (x0 : Vec Ideal S5000x64 .f32) (x1 x2 : Vec Ideal S1x64 .f32) (x3 : Vec Ideal S64x128 .f32)
    (x4 : Vec Ideal S1x128 .f32) :
    k6_pay2 (F := Ideal) x0 x1 x2 x3 x4
      = truncf .bf16 (maximumf (addf (matmul dot_S5000x64_S64x128_S5000x128_1_0_0_1_n_n none
              (truncf .bf16 (normBlk x0 x1 x2) bitsLt_bf16_f32) (truncf .bf16 x3 bitsLt_bf16_f32)
              (constant S5000x128 .f32 0x00000000#32))
            (broadcastTo S5000x128 x4 broadcasts_S1x128_S5000x128))
          (broadcast S5000x128 (Scalar.ofBits .f32 0x00000000#32))) bitsLt_bf16_f32 := by
  unfold k6_pay2
  simp only [shapeCast_self]
  rfl

/-- Entry (p, u) of the hidden payload is the hidden-layer function of row p at u. -/
theorem pay2_apply (x0 : Vec Ideal S5000x64 .f32) (x1 x2 : Vec Ideal S1x64 .f32) (x3 : Vec Ideal S64x128 .f32)
    (x4 : Vec Ideal S1x128 .f32) (p : Fin 5000) (u : Fin 128) :
    k6_pay2 (F := Ideal) x0 x1 x2 x3 x4 (ix2 p u)
      = Cert.Spec.hidRow (fun k => x0 (ix2 p k)) (fun k => x1 (ix2 0 k)) (fun k => x2 (ix2 0 k))
          (fun j u => x3 (ix2 j u)) (fun u => x4 (ix2 0 u)) u := by
  rw [pay2_eq]
  show max (FloatOps.matmul dot_S5000x64_S64x128_S5000x128_1_0_0_1_n_n none
            (truncf .bf16 (normBlk x0 x1 x2) bitsLt_bf16_f32) (truncf .bf16 x3 bitsLt_bf16_f32)
            (constant (F := Ideal) S5000x128 .f32 0x00000000#32) (ix2 p u)
          + broadcastTo S5000x128 x4 broadcasts_S1x128_S5000x128 (ix2 p u)) (Ideal.ofBits .f32 0x00000000#32) = _
  rw [Cert.Lib.PlainDot.matmul_zero_apply dot_S5000x64_S64x128_S5000x128_1_0_0_1_n_n rfl rfl rfl rfl rfl rfl,
    broadcastTo_1b_ab_apply, Ideal.ofBits_zero_f32]
  unfold Cert.Spec.hidRow
  refine congrArg (fun t => max (t + x4 (ix2 0 u)) 0) ?_
  refine Finset.sum_congr rfl fun j _ => ?_
  show normBlk x0 x1 x2 (ix2 p j) * x3 (ix2 j u) = _
  rw [normBlk_apply]

/-- The output payload spelt without its same-shape casts: second product into a zero accumulator, bias row, rounding,
    third product into a zero accumulator, bias. -/
theorem pay1_eq (h : FVec Ideal S5000x128 .bf16) (w : FVec Ideal S128x64 .bf16) (x6 : Vec Ideal S1x64 .f32)
    (x7 : Vec Ideal S64x1 .f32) (x8 : Vec Ideal S1x1 .f32) :
    k6_pay1 (F := Ideal) h w (constant S5000x64 .f32 0x00000000#32) x6 x7 x8
      = addf (matmul dot_S5000x64_S64x1_S5000x1_1_0_0_1_n_n none
            (truncf .bf16 (addf (matmul dot_S5000x128_S128x64_S5000x64_1_0_0_1_n_n none h w
                (constant S5000x64 .f32 0x00000000#32)) (broadcastTo S5000x64 x6 broadcasts_S1x64_S5000x64))
              bitsLt_bf16_f32)
            (truncf .bf16 x7 bitsLt_bf16_f32) (constant S5000x1 .f32 0x00000000#32))
          (broadcastTo S5000x1 x8 broadcasts_S1x1_S5000x1) := by
  unfold k6_pay1
  simp only [shapeCast_self]

/-- Entry (p, 0) of the output payload: the hidden row against the second weight block plus its bias, that row against
    the projection column plus its bias. -/
theorem pay1_apply (h : FVec Ideal S5000x128 .bf16) (w : FVec Ideal S128x64 .bf16) (x6 : Vec Ideal S1x64 .f32)
    (x7 : Vec Ideal S64x1 .f32) (x8 : Vec Ideal S1x1 .f32) (p : Fin 5000) :
    k6_pay1 (F := Ideal) h w (constant S5000x64 .f32 0x00000000#32) x6 x7 x8 (ix2 p 0)
      = (∑ v : Fin 64, ((∑ u : Fin 128, h (ix2 p u) * w (ix2 u v)) + x6 (ix2 0 v)) * x7 (ix2 v 0)) + x8 (ix2 0 0) := by
  rw [pay1_eq]
  show FloatOps.matmul dot_S5000x64_S64x1_S5000x1_1_0_0_1_n_n none
        (truncf .bf16 (addf (matmul dot_S5000x128_S128x64_S5000x64_1_0_0_1_n_n none h w
            (constant S5000x64 .f32 0x00000000#32)) (broadcastTo S5000x64 x6 broadcasts_S1x64_S5000x64))
          bitsLt_bf16_f32)
        (truncf .bf16 x7 bitsLt_bf16_f32) (constant (F := Ideal) S5000x1 .f32 0x00000000#32) (ix2 p 0)
      + broadcastTo S5000x1 x8 broadcasts_S1x1_S5000x1 (ix2 p 0) = _
  rw [Cert.Lib.PlainDot.matmul_zero_apply dot_S5000x64_S64x1_S5000x1_1_0_0_1_n_n rfl rfl rfl rfl rfl rfl,
    broadcastTo_1b_ab_apply]
  refine congrArg (fun t => t + x8 (ix2 0 0)) ?_
  refine Finset.sum_congr rfl fun v _ => ?_
  show (FloatOps.matmul dot_S5000x128_S128x64_S5000x64_1_0_0_1_n_n none h w
          (constant (F := Ideal) S5000x64 .f32 0x00000000#32) (ix2 p v)
        + broadcastTo S5000x64 x6 broadcasts_S1x64_S5000x64 (ix2 p v)) * x7 (ix2 v 0) = _
  rw [Cert.Lib.PlainDot.matmul_zero_apply dot_S5000x128_S128x64_S5000x64_1_0_0_1_n_n rfl rfl rfl rfl rfl rfl,
    broadcastTo_1b_ab_apply]

/-- The last kernel's body is normalisation, perceptron and projection of its 5000-row block. -/
theorem k6_eq (x0 : Vec Ideal S5000x64 .f32) (x1 x2 : Vec Ideal S1x64 .f32) (x3 : Vec Ideal S64x128 .f32)
    (x4 : Vec Ideal S1x128 .f32) (x5 : Vec Ideal S128x64 .f32) (x6 : Vec Ideal S1x64 .f32) (x7 : Vec Ideal S64x1 .f32)
    (x8 : Vec Ideal S1x1 .f32) :
    k6_pay1 (F := Ideal) (k6_pay2 x0 x1 x2 x3 x4) (k6_pay3 x5) (constant S5000x64 .f32 0x00000000#32) x6 x7 x8
      = Cert.Spec.finalTab (n := 5000) x0 x1 x2 x3 x4 x5 x6 x7 x8 := by
  funext j
  obtain ⟨p, q, rfl⟩ : ∃ (p : Fin 5000) (q : Fin 1), j = ix2 p q := ⟨j 0, j 1, eq_ix2 j⟩
  obtain rfl : q = 0 := Subsingleton.elim _ _
  rw [pay1_apply]
  unfold Cert.Spec.finalTab Cert.Spec.finalRow Cert.Spec.mlpRow
  refine congrArg (fun t => t + x8 (ix2 0 0)) ?_
  refine Finset.sum_congr rfl fun v _ => ?_
  refine congrArg (fun t => (t + x6 (ix2 0 v)) * x7 (ix2 v 0)) ?_
  refine Finset.sum_congr rfl fun u _ => ?_
  rw [pay2_apply]
  rfl

end Cert.Hand.FinalPay

end
-- ==== Proof.FinalRegion6.lean ====
/-
  Normalisation, perceptron and projection as one table.  The call walks the 50000 node rows in 10 blocks of 5000
  rows; at block t the row window holds rows 5000 t .. 5000 t + 4999, every other window its whole array, and the
  body writes one number per row back to the same rows of the one-column output.  A row's number reads no other row,
  so the blocks are the restrictions of one table, and the 10 blocks cover every row.
-/
import proofs.«426185_j11338713661556_1_alg».proof.Proof.Gen.KernelIdeal.Frame
import proofs.«426185_j11338713661556_1_alg».proof.Proof.FinalPay
import proofs.«426185_j11338713661556_1_alg».proof.Proof.Spec
import Idealize.ShloMosaic.Lib.Pipeline.Value
import Idealize.ShloMosaic.Lib.ValueIdx

set_option maxRecDepth 16384

noncomputable section

namespace Cert.Hand.Final6

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

open Cert.Spec (T2)

/-- The zero offsets, as a constant function. -/
theorem hz : (![0, 0] : Fin 2 → Nat) = fun _ => 0 :=
  funext fun a => match a with | ⟨0, _⟩ => rfl | ⟨1, _⟩ => rfl

/-- The final table at an index reads of its node table only the row the index's first coordinate names: two node
    tables that agree on those rows, against the same weights, give the same number. -/
theorem finalTab_row {n m : Nat} (x : T2 n 64) (x' : T2 m 64) (g g' bt bt' : T2 1 64) (W1 W1' : T2 64 128)
    (b1 b1' : T2 1 128) (W2 W2' : T2 128 64) (b2 b2' : T2 1 64) (Wp Wp' : T2 64 1) (bp bp' : T2 1 1)
    (j : (⟨2, ![n, 1]⟩ : Shape).Idx) (i : (⟨2, ![m, 1]⟩ : Shape).Idx)
    (h : ∀ k : Fin 64, x (ix2 (j 0) k) = x' (ix2 (i 0) k))
    (h1 : g = g') (h2 : bt = bt') (h3 : W1 = W1') (h4 : b1 = b1') (h5 : W2 = W2') (h6 : b2 = b2') (h7 : Wp = Wp')
    (h8 : bp = bp') :
    Cert.Spec.finalTab x g bt W1 b1 W2 b2 Wp bp j = Cert.Spec.finalTab x' g' bt' W1' b1' W2' b2' Wp' bp' i := by
  subst h1 h2 h3 h4 h5 h6 h7 h8
  unfold Cert.Spec.finalTab
  simp only [h]

/-- The printed index maps, decided over the grid: the node table's block moves with the output's on the row axis
    and stays at 0 on the column axis; -/
theorem idx_row : ∀ t : Fin cfg6.N, win6_0.index t (0 : Fin 2) = win6_9.index t (0 : Fin 2)
    ∧ win6_0.index t (1 : Fin 2) = 0 :=
  (by decide +kernel : ∀ t : Fin grid6.N, _)

/-- every weight and bias window stays at block (0, 0); -/
theorem idx_whole : ∀ t : Fin cfg6.N,
    (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0) :=
  (by decide +kernel : ∀ t : Fin grid6.N, _)

/-- the output's block row is one of the 10, its block column 0; -/
theorem idx_out : ∀ t : Fin cfg6.N, win6_9.index t (0 : Fin 2) ≤ 9 ∧ win6_9.index t (1 : Fin 2) = 0 :=
  (by decide +kernel : ∀ t : Fin grid6.N, _)

/-- and every one of the 10 block rows is some point's. -/
theorem idx_onto : ∀ q0 : Fin 10, ∃ t : Fin cfg6.N, win6_9.index t (0 : Fin 2) = q0.val :=
  (by decide +kernel : ∀ q0 : Fin 10, ∃ t : Fin grid6.N, win6_9.index t (0 : Fin 2) = q0.val)

/-- Row p of the node table's block at point t is the row of the whole table that row p of the output's block at t
    lands on: block row × 5000 + p. -/
theorem blk0 (c : Dev nD) (t : Fin cfg6.N) (j : S5000x1.Idx) (k : Fin 64) :
    (iblk6 (F := Ideal) V c 0 t : Vec Ideal S5000x64 .f32) (ix2 (j 0) k)
      = (V c main_v86 : Vec Ideal S50000x64 .f32) (ix2 ((((cfg6.win 9).blk t).view.emb j) 0) k) := by
  obtain ⟨e0, e1⟩ := idx_row t
  show V c main_v86 (((cfg6.win 0).blk t).view.emb (ix2 (j 0) k)) = V c main_v86 _
  refine congrArg (V c main_v86) ?_
  funext a; apply Fin.ext
  match a with
  | ⟨0, _⟩ => show win6_0.index t (0 : Fin 2) * 5000 + 1 * (j 0).val = win6_9.index t (0 : Fin 2) * 5000 + 1 * (j 0).val; omega
  | ⟨1, _⟩ => show win6_0.index t (1 : Fin 2) * 64 + 1 * k.val = k.val; omega

/-- Window 1 holds its whole array at every point: block index (0, 0), the block the array's size. -/
theorem blk1 (c : Dev nD) (t : Fin cfg6.N) :
    (iblk6 (F := Ideal) V c 1 t : Vec Ideal S1x64 .f32) = V c main_v7 := by
  have e0 : win6_1.index t (0 : Fin 2) = 0 := (idx_whole t).1.1
  have e1 : win6_1.index t (1 : Fin 2) = 0 := (idx_whole t).1.2
  funext y
  show V c main_v7 (((cfg6.win 1).blk t).view.emb y) = V c main_v7 y
  refine congrArg (V c main_v7) ?_
  funext a; apply Fin.ext
  match a with
  | ⟨0, _⟩ => show win6_1.index t (0 : Fin 2) * 1 + 1 * (y 0).val = (y 0).val; omega
  | ⟨1, _⟩ => show win6_1.index t (1 : Fin 2) * 64 + 1 * (y 1).val = (y 1).val; omega

/-- Window 2 holds its whole array at every point: block index (0, 0), the block the array's size. -/
theorem blk2 (c : Dev nD) (t : Fin cfg6.N) :
    (iblk6 (F := Ideal) V c 2 t : Vec Ideal S1x64 .f32) = V c main_v8 := by
  have e0 : win6_2.index t (0 : Fin 2) = 0 := (idx_whole t).2.1.1
  have e1 : win6_2.index t (1 : Fin 2) = 0 := (idx_whole t).2.1.2
  funext y
  show V c main_v8 (((cfg6.win 2).blk t).view.emb y) = V c main_v8 y
  refine congrArg (V c main_v8) ?_
  funext a; apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Window 3 holds its whole array at every point: block index (0, 0), the block the array's size. -/
theorem blk3 (c : Dev nD) (t : Fin cfg6.N) :
    (iblk6 (F := Ideal) V c 3 t : Vec Ideal S64x128 .f32) = V c main_arg10 := by
  have e0 : win6_3.index t (0 : Fin 2) = 0 := (idx_whole t).2.2.1.1
  have e1 : win6_3.index t (1 : Fin 2) = 0 := (idx_whole t).2.2.1.2
  funext y
  show V c main_arg10 (((cfg6.win 3).blk t).view.emb y) = V c main_arg10 y
  refine congrArg (V c main_arg10) ?_
  funext a; apply Fin.ext
  match a with
  | ⟨0, _⟩ => show win6_3.index t (0 : Fin 2) * 64 + 1 * (y 0).val = (y 0).val; omega
  | ⟨1, _⟩ => show win6_3.index t (1 : Fin 2) * 128 + 1 * (y 1).val = (y 1).val; omega

/-- Window 4 holds its whole array at every point: block index (0, 0), the block the array's size. -/
theorem blk4 (c : Dev nD) (t : Fin cfg6.N) :
    (iblk6 (F := Ideal) V c 4 t : Vec Ideal S1x128 .f32) = V c main_v9 := by
  have e0 : win6_4.index t (0 : Fin 2) = 0 := (idx_whole t).2.2.2.1.1
  have e1 : win6_4.index t (1 : Fin 2) = 0 := (idx_whole t).2.2.2.1.2
  funext y
  show V c main_v9 (((cfg6.win 4).blk t).view.emb y) = V c main_v9 y
  refine congrArg (V c main_v9) ?_
  funext a; apply Fin.ext
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- Window 5 holds its whole array at every point: block index (0, 0), the block the array's size. -/
theorem blk5 (c : Dev nD) (t : Fin cfg6.N) :
    (iblk6 (F := Ideal) V c 5 t : Vec Ideal S128x64 .f32) = V c main_arg12 := by
  have e0 : win6_5.index t (0 : Fin 2) = 0 := (idx_whole t).2.2.2.2.1.1
  have e1 : win6_5.index t (1 : Fin 2) = 0 := (idx_whole t).2.2.2.2.1.2
  funext y
  show V c main_arg12 (((cfg6.win 5).blk t).view.emb y) = V c main_arg12 y
  refine congrArg (V c main_arg12) ?_
  funext a; apply Fin.ext
  match a with
  | ⟨0, _⟩ => show win6_5.index t (0 : Fin 2) * 128 + 1 * (y 0).val = (y 0).val; omega
  | ⟨1, _⟩ => show win6_5.index t (1 : Fin 2) * 64 + 1 * (y 1).val = (y 1).val; omega

/-- Window 6 holds its whole array at every point: block index (0, 0), the block the array's size. -/
theorem blk6 (c : Dev nD) (t : Fin cfg6.N) :
    (iblk6 (F := Ideal) V c 6 t : Vec Ideal S1x64 .f32) = V c main_v10 := by
  have e0 : win6_6.index t (0 : Fin 2) = 0 := (idx_whole t).2.2.2.2.2.1.1
  have e1 : win6_6.index t (1 : Fin 2) = 0 := (idx_whole t).2.2.2.2.2.1.2
  funext y
  show V c main_v10 (((cfg6.win 6).blk t).view.emb y) = V c main_v10 y
  refine congrArg (V c main_v10) ?_
  funext a; apply Fin.ext
  match a with
  | ⟨0, _⟩ => show win6_6.index t (0 : Fin 2) * 1 + 1 * (y 0).val = (y 0).val; omega
  | ⟨1, _⟩ => show win6_6.index t (1 : Fin 2) * 64 + 1 * (y 1).val = (y 1).val; omega

/-- Window 7 holds its whole array at every point: block index (0, 0), the block the array's size. -/
theorem blk7 (c : Dev nD) (t : Fin cfg6.N) :
    (iblk6 (F := Ideal) V c 7 t : Vec Ideal S64x1 .f32) = V c main_arg14 := by
  have e0 : win6_7.index t (0 : Fin 2) = 0 := (idx_whole t).2.2.2.2.2.2.1.1
  have e1 : win6_7.index t (1 : Fin 2) = 0 := (idx_whole t).2.2.2.2.2.2.1.2
  funext y
  show V c main_arg14 (((cfg6.win 7).blk t).view.emb y) = V c main_arg14 y
  refine congrArg (V c main_arg14) ?_
  funext a; apply Fin.ext
  match a with
  | ⟨0, _⟩ => show win6_7.index t (0 : Fin 2) * 64 + 1 * (y 0).val = (y 0).val; omega
  | ⟨1, _⟩ => show win6_7.index t (1 : Fin 2) * 1 + 1 * (y 1).val = (y 1).val; omega

/-- Window 8 holds its whole array at every point: block index (0, 0), the block the array's size. -/
theorem blk8 (c : Dev nD) (t : Fin cfg6.N) :
    (iblk6 (F := Ideal) V c 8 t : Vec Ideal S1x1 .f32) = V c main_v11 := by
  have e0 : win6_8.index t (0 : Fin 2) = 0 := (idx_whole t).2.2.2.2.2.2.2.1
  have e1 : win6_8.index t (1 : Fin 2) = 0 := (idx_whole t).2.2.2.2.2.2.2.2
  funext y
  show V c main_v11 (((cfg6.win 8).blk t).view.emb y) = V c main_v11 y
  refine congrArg (V c main_v11) ?_
  funext a; apply Fin.ext
  match a with
  | ⟨0, _⟩ => show win6_8.index t (0 : Fin 2) * 1 + 1 * (y 0).val = (y 0).val; omega
  | ⟨1, _⟩ => show win6_8.index t (1 : Fin 2) * 1 + 1 * (y 1).val = (y 1).val; omega

/-- WHAT POINT t WRITES BACK is block t of the final table of the arrays the call entered with. -/
theorem flushed_eq (c : Dev nD) (t : Fin cfg6.N) :
    (dat6 (F := Ideal) V c).flushed 9 t = ((cfg6.win 9).blk t).view.read (Elt Ideal)
      (Cert.Spec.finalTab (n := 50000) (V c main_v86) (V c main_v7) (V c main_v8) (V c main_arg10) (V c main_v9) (V c main_arg12) (V c main_v10) (V c main_arg14) (V c main_v11)) := by
  show (cfg6.win 9).cut (grid6.coords t) ((dat6 (F := Ideal) V c).after 9 t) = _
  rw [after6_9]
  unfold out6_9
  rw [View.canon_unit_zero hz]
  simp only [View.ld_unit_zero (S := S5000x64) hz, View.ld_unit_zero (S := S1x64) hz, View.ld_unit_zero (S := S64x128) hz,
    View.ld_unit_zero (S := S1x128) hz, View.ld_unit_zero (S := S128x64) hz, View.ld_unit_zero (S := S64x1) hz,
    View.ld_unit_zero (S := S1x1) hz]
  rw [Cert.Hand.FinalPay.k6_eq]
  funext j
  exact finalTab_row _ _ _ _ _ _ _ _ _ _ _ _ _ _ _ _ _ _ j _ (fun k => blk0 V c t j k)
    (blk1 V c t) (blk2 V c t) (blk3 V c t) (blk4 V c t) (blk5 V c t) (blk6 V c t) (blk7 V c t) (blk8 V c t)

/-- An index of the output column is in point t's block iff each coordinate is in the block's range on its axis. -/
theorem mem_blk (t : Fin cfg6.N) (i : S50000x1.Idx) :
    i ∈ ((cfg6.win 9).blk t).view.set ↔ ∀ a : Fin 2, win6_9.index t a * S5000x1.size a ≤ (i a).val ∧ (i a).val < win6_9.index t a * S5000x1.size a + S5000x1.size a := by
  show i ∈ ((View.whole main_v87).slice (win6_9.rect t)).set ↔ _
  rw [View.set_slice_whole, Rect.mem_set_unit]
  exact Iff.rfl

/-- Every row of the output column is in the block of the point whose block row is the row's number over 5000. -/
theorem cover (i : S50000x1.Idx) :
    ∃ t : Fin cfg6.N, (cfg6.win 9).flush t = true ∧ i ∈ ((cfg6.win 9).blk t).view.set := by
  have hi0 : (i 0).val < 50000 := (i 0).isLt
  have hi1 : (i 1).val < 1 := (i 1).isLt
  obtain ⟨t, ht⟩ := idx_onto ⟨(i 0).val / 5000, by omega⟩
  have q0 : win6_9.index t (0 : Fin 2) = (i 0).val / 5000 := ht
  have q1 : win6_9.index t (1 : Fin 2) = 0 := (idx_out t).2
  refine ⟨t, flush6_9 t, ?_⟩
  rw [mem_blk]
  intro a
  match a with
  | ⟨0, _⟩ => show win6_9.index t (0 : Fin 2) * 5000 ≤ (i 0).val ∧ (i 0).val < win6_9.index t (0 : Fin 2) * 5000 + 5000; omega
  | ⟨1, _⟩ => show win6_9.index t (1 : Fin 2) * 1 ≤ (i 1).val ∧ (i 1).val < win6_9.index t (1 : Fin 2) * 1 + 1; omega

/-- After the call, its output column is the final function of the tables it entered with. -/
theorem arr (c : Dev nD) :
    (dat6 (F := Ideal) V c).arrAt 9 cfg6.N
      = Cert.Spec.finalTab (n := 50000) (V c main_v86) (V c main_v7) (V c main_v8) (V c main_arg10) (V c main_v9) (V c main_arg12) (V c main_v10) (V c main_arg14) (V c main_v11) :=
  (dat6 (F := Ideal) V c).arrAt_eq_of_cover 9 _ (fun t _ => flushed_eq V c t) (fun i => cover i)

end Cert.Hand.Final6

end
-- ==== Proof.KernelStage0.lean ====
/-
  The kernel program's first layer.  Before the first edge call the host gathers the sender's and the receiver's node
  row of every edge (the gathers keep every row, the index words being in range), cuts layer 0's three weight blocks
  and bias row; the call leaves the edge update of the launch tables.  Then the host averages the updated edge rows
  per receiving node and cuts layer 0's two node weight blocks and bias row; the node call leaves the node update.
-/
import proofs.«426185_j11338713661556_1_alg».proof.Proof.Gen.KernelIdeal.Frame
import proofs.«426185_j11338713661556_1_alg».proof.Proof.KernelBase
import proofs.«426185_j11338713661556_1_alg».proof.Proof.KernelKeep
import proofs.«426185_j11338713661556_1_alg».proof.Proof.Pipe
import proofs.«426185_j11338713661556_1_alg».proof.Proof.Take
import proofs.«426185_j11338713661556_1_alg».proof.Proof.HostLayout
import proofs.«426185_j11338713661556_1_alg».proof.Proof.EdgeRegion0
import proofs.«426185_j11338713661556_1_alg».proof.Proof.EdgeRegion2
import proofs.«426185_j11338713661556_1_alg».proof.Proof.EdgeRegion4
import proofs.«426185_j11338713661556_1_alg».proof.Proof.NodeRegion1
import proofs.«426185_j11338713661556_1_alg».proof.Proof.NodeRegion3
import proofs.«426185_j11338713661556_1_alg».proof.Proof.NodeRegion5
import proofs.«426185_j11338713661556_1_alg».proof.Proof.FinalRegion6
import Idealize.ShloMosaic.Lib.StableHlo.Run
import Idealize.ShloMosaic.PureOps.Ideal

set_option maxRecDepth 16384

noncomputable section

namespace Cert.Hand.Stage0

open Cert.KernelIdeal Cert.KernelIdeal.Gen Idealize.ShloMosaic Idealize.ShloMosaic.TcCoe Idealize.SL.Sem Idealize.ShloMosaic.StableHlo
open Cert.KernelIdeal.Facts₀ Cert.KernelIdeal.Facts
open Cert.Hand.Keep Cert.Hand.Chain

variable (m : (ℓ : Loc nD τ sig) → Buf (Elt Ideal) ℓ) (ρ : Dev nD → PrngReg) (c : Dev nD)
/-! ## The host stretches of the first layer, from any contents -/

/-- A transport there and back is the identity. -/
theorem cast_cast_self {α β : Sort _} (h1 : α = β) (h2 : β = α) (v : α) : cast h2 (cast h1 v) = v := by
  subst h1; rfl

/-- The typed reading of a buffer whose type is the value's is the buffer's contents, and the typed writing of a value
    into such a buffer is the value. -/
theorem of_arg0 (U : Valuation τ sig (Elt Ideal)) :
    (TRef.of main_arg0 : TRef sig ⟨S50000x64, .f32⟩).ofBuf (U (Proc.devRef .tc main_arg0)) = U (Proc.devRef .tc main_arg0) := rfl
theorem of_arg2 (U : Valuation τ sig (Elt Ideal)) :
    (TRef.of main_arg2 : TRef sig ⟨S800000, .i32⟩).ofBuf (U (Proc.devRef .tc main_arg2)) = U (Proc.devRef .tc main_arg2) := rfl
theorem of_arg3 (U : Valuation τ sig (Elt Ideal)) :
    (TRef.of main_arg3 : TRef sig ⟨S800000, .i32⟩).ofBuf (U (Proc.devRef .tc main_arg3)) = U (Proc.devRef .tc main_arg3) := rfl
theorem to_v12 (x : (⟨S800000x64, .f32⟩ : BufTy).Contents (Elt Ideal)) :
    (TRef.of main_v12 : TRef sig ⟨S800000x64, .f32⟩).toBuf x = x := rfl
theorem to_v13 (x : (⟨S800000x64, .f32⟩ : BufTy).Contents (Elt Ideal)) :
    (TRef.of main_v13 : TRef sig ⟨S800000x64, .f32⟩).toBuf x = x := rfl

set_option maxHeartbeats 4000000 in
/-- The sender gather: the first stretch of gather operations leaves, where every sender word is in range, the node
    rows the sender words name. -/
theorem take_snd (U : Valuation τ sig (Elt Ideal))
    (h : Cert.Hand.Take.InRange (U (Proc.devRef .tc main_arg2))) :
    StableHlo.after hostOps0_1 U (Proc.devRef .tc main_v12)
      = Cert.Hand.Pipe.rows (U (Proc.devRef .tc main_arg0)) (U (Proc.devRef .tc main_arg2)) := by
  refine Eq.trans ?_ (Cert.Hand.Take.take_eq (U (Proc.devRef .tc main_arg0)) (U (Proc.devRef .tc main_arg2)) h)
  unfold Cert.Hand.Take.wrapCol
  simp only [hostOps0_1]
  after_results_simp
  simp only [cast_cast_self, of_arg2, of_arg0, to_v12]

set_option maxHeartbeats 4000000 in
/-- The receiver gather, the same operations over the receiver words. -/
theorem take_rcv (U : Valuation τ sig (Elt Ideal))
    (h : Cert.Hand.Take.InRange (U (Proc.devRef .tc main_arg3))) :
    StableHlo.after hostOps0_2 U (Proc.devRef .tc main_v13)
      = Cert.Hand.Pipe.rows (U (Proc.devRef .tc main_arg0)) (U (Proc.devRef .tc main_arg3)) := by
  refine Eq.trans ?_ (Cert.Hand.Take.take_eq (U (Proc.devRef .tc main_arg0)) (U (Proc.devRef .tc main_arg3)) h)
  unfold Cert.Hand.Take.wrapCol
  simp only [hostOps0_2]
  after_results_simp
  simp only [cast_cast_self, of_arg3, of_arg0, to_v13]

/-- Layer 0's first edge weight block: rows 0 .. 63 of matrix 0, cut and flattened. -/
theorem cut_v15 (U : Valuation τ sig (Elt Ideal)) :
    StableHlo.after hostOps0_3 U (Proc.devRef .tc main_v15)
      = Cert.Spec.wBlock (U (Proc.devRef .tc main_arg4) : FVec Ideal S3x192x64 .f32) 0 0 (by decide) := by
  simp only [hostOps0_3]
  after_results
  exact Cert.Hand.HostLayout.wBlock_eq _ 0 (by decide) 0 (by decide) _ _

/-- Its second: rows 64 .. 127. -/
theorem cut_v17 (U : Valuation τ sig (Elt Ideal)) :
    StableHlo.after hostOps0_3 U (Proc.devRef .tc main_v17)
      = Cert.Spec.wBlock (U (Proc.devRef .tc main_arg4) : FVec Ideal S3x192x64 .f32) 0 64 (by decide) := by
  simp only [hostOps0_3]
  after_results
  exact Cert.Hand.HostLayout.wBlock_eq _ 0 (by decide) 64 (by decide) _ _

/-- Its third: rows 128 .. 191. -/
theorem cut_v19 (U : Valuation τ sig (Elt Ideal)) :
    StableHlo.after hostOps0_3 U (Proc.devRef .tc main_v19)
      = Cert.Spec.wBlock (U (Proc.devRef .tc main_arg4) : FVec Ideal S3x192x64 .f32) 0 128 (by decide) := by
  simp only [hostOps0_3]
  after_results
  exact Cert.Hand.HostLayout.wBlock_eq _ 0 (by decide) 128 (by decide) _ _

/-- Layer 0's edge bias row. -/
theorem cut_v22 (U : Valuation τ sig (Elt Ideal)) :
    StableHlo.after hostOps0_3 U (Proc.devRef .tc main_v22)
      = Cert.Spec.bRow (U (Proc.devRef .tc main_arg5) : FVec Ideal S3x64 .f32) 0 := by
  simp only [hostOps0_3]
  after_results
  exact Cert.Hand.HostLayout.bRow_eq _ 0 (by decide) _ _ _

/-- The averaging stretch: the scatter-add of the edge table at the receiver column into zeros, divided by the
    broadcast count column. -/
theorem agg_v28 (U : Valuation τ sig (Elt Ideal)) :
    StableHlo.after hostOps1 U (Proc.devRef .tc main_v28)
      = (Host.divf
          (Host.scatterAdd scatter_S50000x64_S800000x1_S800000x64_1_0_0_1
            (broadcastInDim S50000x64 ![] Gen.bcast_S_S50000x64 (constant (F := Ideal) S_ .f32 0x00000000#32))
            (broadcastInDim S800000x1 ![0] Gen.bcast_S800000_S800000x1_0 (U (Proc.devRef .tc main_arg3)))
            (U (Proc.devRef .tc main_v23)))
          (broadcastInDim S50000x64 ![0, 1] Gen.bcast_S50000x1_S50000x64_0_1 (U (Proc.devRef .tc main_v6)))
        : FVec Ideal S50000x64 .f32) := by
  simp only [hostOps1]
  after_results
  try rfl

/-- Layer 0's first node weight block. -/
theorem cut_v30 (U : Valuation τ sig (Elt Ideal)) :
    StableHlo.after hostOps1 U (Proc.devRef .tc main_v30)
      = Cert.Spec.wBlock (U (Proc.devRef .tc main_arg6) : FVec Ideal S3x128x64 .f32) 0 0 (by decide) := by
  simp only [hostOps1]
  after_results
  exact Cert.Hand.HostLayout.wBlock_eq _ 0 (by decide) 0 (by decide) _ _

/-- Its second. -/
theorem cut_v32 (U : Valuation τ sig (Elt Ideal)) :
    StableHlo.after hostOps1 U (Proc.devRef .tc main_v32)
      = Cert.Spec.wBlock (U (Proc.devRef .tc main_arg6) : FVec Ideal S3x128x64 .f32) 0 64 (by decide) := by
  simp only [hostOps1]
  after_results
  exact Cert.Hand.HostLayout.wBlock_eq _ 0 (by decide) 64 (by decide) _ _

/-- Layer 0's node bias row. -/
theorem cut_v35 (U : Valuation τ sig (Elt Ideal)) :
    StableHlo.after hostOps1 U (Proc.devRef .tc main_v35)
      = Cert.Spec.bRow (U (Proc.devRef .tc main_arg7) : FVec Ideal S3x64 .f32) 0 := by
  simp only [hostOps1]
  after_results
  exact Cert.Hand.HostLayout.bRow_eq _ 0 (by decide) _ _ _

/-! ## What the first edge call enters with -/

theorem V4_arg1 : W4 m ρ c (Proc.devRef .tc main_arg1) = m ((c : Thread nD τ).loc main_arg1) :=
  (k4_main_arg1 m ρ c).trans (W1_main_arg1 m ρ c)

/-- The sender rows: the later stretches before the call do not write them. -/
theorem V4_v12 (hS : Cert.Hand.Take.InRange (m ((c : Thread nD τ).loc main_arg2))) :
    W4 m ρ c (Proc.devRef .tc main_v12)
      = Cert.Hand.Pipe.rows (m ((c : Thread nD τ).loc main_arg0)) (m ((c : Thread nD τ).loc main_arg2)) := by
  have s4 : W4 m ρ c (Proc.devRef .tc main_v12) = W3 m ρ c (Proc.devRef .tc main_v12) := by host_keep hostOps0_3
  have s3 : W3 m ρ c (Proc.devRef .tc main_v12) = W2 m ρ c (Proc.devRef .tc main_v12) := by host_keep hostOps0_2
  have h : Cert.Hand.Take.InRange (W1 m ρ c (Proc.devRef .tc main_arg2)) := by rw [W1_main_arg2 m ρ c]; exact hS
  refine s4.trans (s3.trans ((take_snd (W1 m ρ c) h).trans ?_))
  rw [W1_main_arg0 m ρ c, W1_main_arg2 m ρ c]

/-- The receiver rows. -/
theorem V4_v13 (hR : Cert.Hand.Take.InRange (m ((c : Thread nD τ).loc main_arg3))) :
    W4 m ρ c (Proc.devRef .tc main_v13)
      = Cert.Hand.Pipe.rows (m ((c : Thread nD τ).loc main_arg0)) (m ((c : Thread nD τ).loc main_arg3)) := by
  have s4 : W4 m ρ c (Proc.devRef .tc main_v13) = W3 m ρ c (Proc.devRef .tc main_v13) := by host_keep hostOps0_3
  have h : Cert.Hand.Take.InRange (W2 m ρ c (Proc.devRef .tc main_arg3)) := by
    rw [(k2_main_arg3 m ρ c).trans (W1_main_arg3 m ρ c)]; exact hR
  refine s4.trans ((take_rcv (W2 m ρ c) h).trans ?_)
  rw [(k2_main_arg0 m ρ c).trans (W1_main_arg0 m ρ c), (k2_main_arg3 m ρ c).trans (W1_main_arg3 m ρ c)]

theorem V4_v15 : W4 m ρ c (Proc.devRef .tc main_v15)
    = Cert.Spec.wBlock (m ((c : Thread nD τ).loc main_arg4) : FVec Ideal S3x192x64 .f32) 0 0 (by decide) := by
  refine (cut_v15 (W3 m ρ c)).trans ?_
  rw [(k3_main_arg4 m ρ c).trans (W1_main_arg4 m ρ c)]

theorem V4_v17 : W4 m ρ c (Proc.devRef .tc main_v17)
    = Cert.Spec.wBlock (m ((c : Thread nD τ).loc main_arg4) : FVec Ideal S3x192x64 .f32) 0 64 (by decide) := by
  refine (cut_v17 (W3 m ρ c)).trans ?_
  rw [(k3_main_arg4 m ρ c).trans (W1_main_arg4 m ρ c)]

theorem V4_v19 : W4 m ρ c (Proc.devRef .tc main_v19)
    = Cert.Spec.wBlock (m ((c : Thread nD τ).loc main_arg4) : FVec Ideal S3x192x64 .f32) 0 128 (by decide) := by
  refine (cut_v19 (W3 m ρ c)).trans ?_
  rw [(k3_main_arg4 m ρ c).trans (W1_main_arg4 m ρ c)]

theorem V4_v22 : W4 m ρ c (Proc.devRef .tc main_v22)
    = Cert.Spec.bRow (m ((c : Thread nD τ).loc main_arg5) : FVec Ideal S3x64 .f32) 0 := by
  refine (cut_v22 (W3 m ρ c)).trans ?_
  rw [(k3_main_arg5 m ρ c).trans (W1_main_arg5 m ρ c)]

/-- The first edge call's output is the first edge table. -/
theorem E1_val (hS : Cert.Hand.Take.InRange (m ((c : Thread nD τ).loc main_arg2)))
    (hR : Cert.Hand.Take.InRange (m ((c : Thread nD τ).loc main_arg3))) :
    W5 m ρ c (Proc.devRef .tc main_v23) = Cert.Hand.Pipe.E1 (inputsOf m c) := by
  refine (W5_arr m ρ c 7 : W5 m ρ c (Proc.devRef .tc main_v23) = _).trans ?_
  refine (Cert.Hand.Edge0.arr (V4 m ρ) c).trans ?_
  show Cert.Spec.edgeTab (n := 800000) (W4 m ρ c (Proc.devRef .tc main_arg1)) (W4 m ρ c (Proc.devRef .tc main_v12))
    (W4 m ρ c (Proc.devRef .tc main_v13)) (W4 m ρ c (Proc.devRef .tc main_v15)) (W4 m ρ c (Proc.devRef .tc main_v17))
    (W4 m ρ c (Proc.devRef .tc main_v19)) (W4 m ρ c (Proc.devRef .tc main_v22)) = _
  rw [V4_arg1 m ρ c, V4_v12 m ρ c hS, V4_v13 m ρ c hR, V4_v15 m ρ c, V4_v17 m ρ c, V4_v19 m ρ c, V4_v22 m ρ c]
  rfl

/-! ## What the first node call enters with -/

theorem V6_arg0 : W6 m ρ c (Proc.devRef .tc main_arg0) = m ((c : Thread nD τ).loc main_arg0) :=
  (k6_main_arg0 m ρ c).trans (W1_main_arg0 m ρ c)

theorem V6_v28 (hS : Cert.Hand.Take.InRange (m ((c : Thread nD τ).loc main_arg2)))
    (hR : Cert.Hand.Take.InRange (m ((c : Thread nD τ).loc main_arg3))) :
    W6 m ρ c (Proc.devRef .tc main_v28)
      = Cert.Hand.Pipe.agg (m ((c : Thread nD τ).loc main_arg3)) (Cert.Hand.Pipe.E1 (inputsOf m c)) := by
  refine (agg_v28 (W5 m ρ c)).trans ?_
  rw [(k5_main_arg3 m ρ c).trans (W1_main_arg3 m ρ c), E1_val m ρ c hS hR,
    (k5_main_v6 m ρ c).trans (W1_main_v6 m ρ c)]
  rfl

theorem V6_v30 : W6 m ρ c (Proc.devRef .tc main_v30)
    = Cert.Spec.wBlock (m ((c : Thread nD τ).loc main_arg6) : FVec Ideal S3x128x64 .f32) 0 0 (by decide) := by
  refine (cut_v30 (W5 m ρ c)).trans ?_
  rw [(k5_main_arg6 m ρ c).trans (W1_main_arg6 m ρ c)]

theorem V6_v32 : W6 m ρ c (Proc.devRef .tc main_v32)
    = Cert.Spec.wBlock (m ((c : Thread nD τ).loc main_arg6) : FVec Ideal S3x128x64 .f32) 0 64 (by decide) := by
  refine (cut_v32 (W5 m ρ c)).trans ?_
  rw [(k5_main_arg6 m ρ c).trans (W1_main_arg6 m ρ c)]

theorem V6_v35 : W6 m ρ c (Proc.devRef .tc main_v35)
    = Cert.Spec.bRow (m ((c : Thread nD τ).loc main_arg7) : FVec Ideal S3x64 .f32) 0 := by
  refine (cut_v35 (W5 m ρ c)).trans ?_
  rw [(k5_main_arg7 m ρ c).trans (W1_main_arg7 m ρ c)]

/-- The first node call's output is the first node table. -/
theorem N1_val (hS : Cert.Hand.Take.InRange (m ((c : Thread nD τ).loc main_arg2)))
    (hR : Cert.Hand.Take.InRange (m ((c : Thread nD τ).loc main_arg3))) :
    W7 m ρ c (Proc.devRef .tc main_v36) = Cert.Hand.Pipe.N1 (inputsOf m c) := by
  refine (W7_arr m ρ c 5 : W7 m ρ c (Proc.devRef .tc main_v36) = _).trans ?_
  refine (Cert.Hand.Node1.arr (V6 m ρ) c).trans ?_
  show Cert.Spec.nodeTab (n := 50000) (W6 m ρ c (Proc.devRef .tc main_arg0)) (W6 m ρ c (Proc.devRef .tc main_v28))
    (W6 m ρ c (Proc.devRef .tc main_v30)) (W6 m ρ c (Proc.devRef .tc main_v32)) (W6 m ρ c (Proc.devRef .tc main_v35)) = _
  rw [V6_arg0 m ρ c, V6_v28 m ρ c hS hR, V6_v30 m ρ c, V6_v32 m ρ c, V6_v35 m ρ c]
  rfl

/-- The first edge table is not written by the averaging stretch nor by the node call. -/
theorem E1_kept_val (hS : Cert.Hand.Take.InRange (m ((c : Thread nD τ).loc main_arg2)))
    (hR : Cert.Hand.Take.InRange (m ((c : Thread nD τ).loc main_arg3))) :
    W7 m ρ c (Proc.devRef .tc main_v23) = Cert.Hand.Pipe.E1 (inputsOf m c) := by
  have s7 : W7 m ρ c (Proc.devRef .tc main_v23) = W6 m ρ c (Proc.devRef .tc main_v23) :=
    W7_of_ne m ρ c main_v23 (by decide)
  have s6 : W6 m ρ c (Proc.devRef .tc main_v23) = W5 m ρ c (Proc.devRef .tc main_v23) := by host_keep hostOps1
  exact s7.trans (s6.trans (E1_val m ρ c hS hR))

variable (hS : Cert.Hand.Take.InRange (m ((c : Thread nD τ).loc main_arg2)))
variable (hR : Cert.Hand.Take.InRange (m ((c : Thread nD τ).loc main_arg3)))

include hS hR

/-- After the first edge call its output is the pipeline's first edge table. -/
theorem E1 : W5 m ρ c (Proc.devRef .tc main_v23) = Cert.Hand.Pipe.E1 (inputsOf m c) := by
  exact E1_val m ρ c hS hR

/-- After the first node call its output is the pipeline's first node table. -/
theorem N1 : W7 m ρ c (Proc.devRef .tc main_v36) = Cert.Hand.Pipe.N1 (inputsOf m c) := by
  exact N1_val m ρ c hS hR

/-- The first edge table is still there after the first node call. -/
theorem E1_kept : W7 m ρ c (Proc.devRef .tc main_v23) = Cert.Hand.Pipe.E1 (inputsOf m c) := by
  exact E1_kept_val m ρ c hS hR

end Cert.Hand.Stage0

end
-- ==== Proof.KernelStage1.lean ====
/-
  The kernel program's second layer, from the first layer's node and edge tables: the gathers of the updated node
  rows, layer 1's weight blocks and bias rows, the edge call, the averaging, the node call.
-/
import proofs.«426185_j11338713661556_1_alg».proof.Proof.Gen.KernelIdeal.Frame
import proofs.«426185_j11338713661556_1_alg».proof.Proof.KernelBase
import proofs.«426185_j11338713661556_1_alg».proof.Proof.KernelKeep
import proofs.«426185_j11338713661556_1_alg».proof.Proof.Pipe
import proofs.«426185_j11338713661556_1_alg».proof.Proof.Take
import proofs.«426185_j11338713661556_1_alg».proof.Proof.HostLayout
import proofs.«426185_j11338713661556_1_alg».proof.Proof.EdgeRegion0
import proofs.«426185_j11338713661556_1_alg».proof.Proof.EdgeRegion2
import proofs.«426185_j11338713661556_1_alg».proof.Proof.EdgeRegion4
import proofs.«426185_j11338713661556_1_alg».proof.Proof.NodeRegion1
import proofs.«426185_j11338713661556_1_alg».proof.Proof.NodeRegion3
import proofs.«426185_j11338713661556_1_alg».proof.Proof.NodeRegion5
import proofs.«426185_j11338713661556_1_alg».proof.Proof.FinalRegion6
import Idealize.ShloMosaic.Lib.StableHlo.Run
import Idealize.ShloMosaic.PureOps.Ideal

set_option maxRecDepth 16384

noncomputable section

namespace Cert.Hand.Stage1

open Cert.KernelIdeal Cert.KernelIdeal.Gen Idealize.ShloMosaic Idealize.ShloMosaic.TcCoe Idealize.SL.Sem Idealize.ShloMosaic.StableHlo
open Cert.KernelIdeal.Facts₀ Cert.KernelIdeal.Facts
open Cert.Hand.Keep Cert.Hand.Chain

/-! ## The host stretches of the second layer, at any buffer contents `X` they are entered with -/

/-- Running one line of operations after another is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => exact ih (op.result V)

/-- The range mask of a column of index words: at least 0 and at most 49999, read signed, both tests joined and
    reduced by `and` along the unit axis. -/
def rangeMask (w : IVec S800000x1 32) : IVec S800000 1 :=
  Host.reduce IntOp.andi
    (andi (cmpi .sge w (broadcastInDim S800000x1 ![] Gen.bcast_S_S800000x1 (constantI S_ 32 0#32)))
      (cmpi .sle w (broadcastInDim S800000x1 ![0, 1] Gen.bcast_S1x1_S800000x1_0_1
        (broadcastInDim S1x1 ![1] Gen.bcast_S1_S1x1_1 (constantI S1 32 49999#32)))))
    (constantI S_ 1 1#1) Gen.reducesTo_S800000x1_S800000_d1 Gen.h_S_

/-- The rows of `x` at the column `w`, kept where the mask holds, a NaN word elsewhere. -/
def maskedRows (k : IVec S800000 1) (x : FVec Ideal S50000x64 .f32) (w : IVec S800000x1 32) : FVec Ideal S800000x64 .f32 :=
  select (broadcastInDim S800000x64 ![0] Gen.bcast_S800000_S800000x64_0 k)
    (Host.gather gather_S50000x64_S800000x1_S800000x64_1_0_n_n_0_1_164 x w)
    (broadcastInDim S800000x64 ![] Gen.bcast_S_S800000x64 (constant (F := Ideal) S_ .f32 0x7FC00000#32))

section Stretches

variable (X : Valuation τ sig (Elt Ideal))

/-! ### The sender gather -/

/-- The first run of the gather's operations leaves the wrapped index words as a column. -/
theorem take_snd_wrap : StableHlo.after (List.take 8 hostOps2) X (Proc.devRef .tc main_call2_v5) = Cert.Hand.Take.wrapCol (X (Proc.devRef .tc main_arg2)) := by
  simp only [hostOps2, List.take_succ_cons, List.take_zero, List.drop_succ_cons, List.drop_zero]
  after_results_simp
  simp only [cast_cast, cast_eq]
  rfl
theorem take_snd_wrap_keep : StableHlo.after (List.take 8 hostOps2) X (Proc.devRef .tc main_v36) = X (Proc.devRef .tc main_v36) := by
  simp only [hostOps2, List.take_succ_cons, List.take_zero, List.drop_succ_cons, List.drop_zero]
  after_results_simp

/-- The second run leaves the range mask of that column, and the column and the table as they were. -/
theorem take_snd_mask : StableHlo.after (List.take 10 (List.drop 8 hostOps2)) X (Proc.devRef .tc main_call2_v12) = rangeMask (X (Proc.devRef .tc main_call2_v5)) := by
  simp only [hostOps2, List.take_succ_cons, List.take_zero, List.drop_succ_cons, List.drop_zero]
  after_results_simp
  simp only [cast_cast, cast_eq]
  rfl
theorem take_snd_mask_keep5 : StableHlo.after (List.take 10 (List.drop 8 hostOps2)) X (Proc.devRef .tc main_call2_v5) = X (Proc.devRef .tc main_call2_v5) := by
  simp only [hostOps2, List.take_succ_cons, List.take_zero, List.drop_succ_cons, List.drop_zero]
  after_results_simp
theorem take_snd_mask_keep36 : StableHlo.after (List.take 10 (List.drop 8 hostOps2)) X (Proc.devRef .tc main_v36) = X (Proc.devRef .tc main_v36) := by
  simp only [hostOps2, List.take_succ_cons, List.take_zero, List.drop_succ_cons, List.drop_zero]
  after_results_simp

/-- The last run gathers the rows at the column and keeps them where the mask holds. -/
theorem take_snd_sel : StableHlo.after (List.drop 18 hostOps2) X (Proc.devRef .tc main_v37)
    = maskedRows (X (Proc.devRef .tc main_call2_v12)) (X (Proc.devRef .tc main_v36)) (X (Proc.devRef .tc main_call2_v5)) := by
  simp only [hostOps2, List.take_succ_cons, List.take_zero, List.drop_succ_cons, List.drop_zero]
  after_results_simp
  simp only [cast_cast, cast_eq]
  rfl

/-- The whole gather: under the index range, the rows of the node table the index words name. -/
theorem take_snd (h : Cert.Hand.Take.InRange (X (Proc.devRef .tc main_arg2))) :
    StableHlo.after hostOps2 X (Proc.devRef .tc main_v37) = Cert.Hand.Pipe.rows (X (Proc.devRef .tc main_v36)) (X (Proc.devRef .tc main_arg2)) := by
  have hs : (hostOps2 : List (HloOp τ sig (Elt Ideal))) = (List.take 8 hostOps2) ++ ((List.take 10 (List.drop 8 hostOps2)) ++ (List.drop 18 hostOps2)) := rfl
  rw [hs, after_append, after_append, take_snd_sel, take_snd_mask, take_snd_mask_keep5, take_snd_mask_keep36, take_snd_wrap, take_snd_wrap_keep]
  exact Cert.Hand.Take.take_eq (X (Proc.devRef .tc main_v36)) (X (Proc.devRef .tc main_arg2)) h

/-! ### The receiver gather -/

/-- The first run of the gather's operations leaves the wrapped index words as a column. -/
theorem take_rcv_wrap : StableHlo.after (List.take 8 hostOps2_1) X (Proc.devRef .tc main_call3_v5) = Cert.Hand.Take.wrapCol (X (Proc.devRef .tc main_arg3)) := by
  simp only [hostOps2_1, List.take_succ_cons, List.take_zero, List.drop_succ_cons, List.drop_zero]
  after_results_simp
  simp only [cast_cast, cast_eq]
  rfl
theorem take_rcv_wrap_keep : StableHlo.after (List.take 8 hostOps2_1) X (Proc.devRef .tc main_v36) = X (Proc.devRef .tc main_v36) := by
  simp only [hostOps2_1, List.take_succ_cons, List.take_zero, List.drop_succ_cons, List.drop_zero]
  after_results_simp

/-- The second run leaves the range mask of that column, and the column and the table as they were. -/
theorem take_rcv_mask : StableHlo.after (List.take 10 (List.drop 8 hostOps2_1)) X (Proc.devRef .tc main_call3_v12) = rangeMask (X (Proc.devRef .tc main_call3_v5)) := by
  simp only [hostOps2_1, List.take_succ_cons, List.take_zero, List.drop_succ_cons, List.drop_zero]
  after_results_simp
  simp only [cast_cast, cast_eq]
  rfl
theorem take_rcv_mask_keep5 : StableHlo.after (List.take 10 (List.drop 8 hostOps2_1)) X (Proc.devRef .tc main_call3_v5) = X (Proc.devRef .tc main_call3_v5) := by
  simp only [hostOps2_1, List.take_succ_cons, List.take_zero, List.drop_succ_cons, List.drop_zero]
  after_results_simp
theorem take_rcv_mask_keep36 : StableHlo.after (List.take 10 (List.drop 8 hostOps2_1)) X (Proc.devRef .tc main_v36) = X (Proc.devRef .tc main_v36) := by
  simp only [hostOps2_1, List.take_succ_cons, List.take_zero, List.drop_succ_cons, List.drop_zero]
  after_results_simp

/-- The last run gathers the rows at the column and keeps them where the mask holds. -/
theorem take_rcv_sel : StableHlo.after (List.drop 18 hostOps2_1) X (Proc.devRef .tc main_v38)
    = maskedRows (X (Proc.devRef .tc main_call3_v12)) (X (Proc.devRef .tc main_v36)) (X (Proc.devRef .tc main_call3_v5)) := by
  simp only [hostOps2_1, List.take_succ_cons, List.take_zero, List.drop_succ_cons, List.drop_zero]
  after_results_simp
  simp only [cast_cast, cast_eq]
  rfl

/-- The whole gather: under the index range, the rows of the node table the index words name. -/
theorem take_rcv (h : Cert.Hand.Take.InRange (X (Proc.devRef .tc main_arg3))) :
    StableHlo.after hostOps2_1 X (Proc.devRef .tc main_v38) = Cert.Hand.Pipe.rows (X (Proc.devRef .tc main_v36)) (X (Proc.devRef .tc main_arg3)) := by
  have hs : (hostOps2_1 : List (HloOp τ sig (Elt Ideal))) = (List.take 8 hostOps2_1) ++ ((List.take 10 (List.drop 8 hostOps2_1)) ++ (List.drop 18 hostOps2_1)) := rfl
  rw [hs, after_append, after_append, take_rcv_sel, take_rcv_mask, take_rcv_mask_keep5, take_rcv_mask_keep36, take_rcv_wrap, take_rcv_wrap_keep]
  exact Cert.Hand.Take.take_eq (X (Proc.devRef .tc main_v36)) (X (Proc.devRef .tc main_arg3)) h

/-! ### Weights, biases, and the average -/

/-- Layer 1's three edge weight blocks, rows 0, 64 and 128 of its matrix in the stacked edge weights. -/
theorem we_0 : StableHlo.after hostOps2_2 X (Proc.devRef .tc main_v40)
    = Cert.Spec.wBlock (X (Proc.devRef .tc main_arg4)) 1 0 (by decide) := by
  simp only [hostOps2_2]
  after_results
  exact Cert.Hand.HostLayout.wBlock_eq (X (Proc.devRef .tc main_arg4)) 1 (by decide) 0 (by decide) _ _
theorem we_64 : StableHlo.after hostOps2_2 X (Proc.devRef .tc main_v42)
    = Cert.Spec.wBlock (X (Proc.devRef .tc main_arg4)) 1 64 (by decide) := by
  simp only [hostOps2_2]
  after_results
  exact Cert.Hand.HostLayout.wBlock_eq (X (Proc.devRef .tc main_arg4)) 1 (by decide) 64 (by decide) _ _
theorem we_128 : StableHlo.after hostOps2_2 X (Proc.devRef .tc main_v44)
    = Cert.Spec.wBlock (X (Proc.devRef .tc main_arg4)) 1 128 (by decide) := by
  simp only [hostOps2_2]
  after_results
  exact Cert.Hand.HostLayout.wBlock_eq (X (Proc.devRef .tc main_arg4)) 1 (by decide) 128 (by decide) _ _
/-- Layer 1's edge bias row. -/
theorem be_row : StableHlo.after hostOps2_2 X (Proc.devRef .tc main_v47)
    = Cert.Spec.bRow (X (Proc.devRef .tc main_arg5)) 1 := by
  simp only [hostOps2_2]
  after_results
  exact Cert.Hand.HostLayout.bRow_eq (X (Proc.devRef .tc main_arg5)) 1 (by decide) _ _ _

/-- The mean of the edge rows each node receives, once the count column is the pipeline's. -/
theorem agg_of (h6 : X (Proc.devRef .tc main_v6) = Cert.Hand.Pipe.cnt (X (Proc.devRef .tc main_arg3))) :
    StableHlo.after hostOps3 X (Proc.devRef .tc main_v53)
      = Cert.Hand.Pipe.agg (X (Proc.devRef .tc main_arg3)) (X (Proc.devRef .tc main_v48)) := by
  simp only [hostOps3]
  after_results
  rw [h6]
  rfl

/-- Layer 1's two node weight blocks, rows 0 and 64 of its matrix in the stacked node weights. -/
theorem wn_0 : StableHlo.after hostOps3 X (Proc.devRef .tc main_v55)
    = Cert.Spec.wBlock (X (Proc.devRef .tc main_arg6)) 1 0 (by decide) := by
  simp only [hostOps3]
  after_results
  exact Cert.Hand.HostLayout.wBlock_eq (X (Proc.devRef .tc main_arg6)) 1 (by decide) 0 (by decide) _ _
theorem wn_64 : StableHlo.after hostOps3 X (Proc.devRef .tc main_v57)
    = Cert.Spec.wBlock (X (Proc.devRef .tc main_arg6)) 1 64 (by decide) := by
  simp only [hostOps3]
  after_results
  exact Cert.Hand.HostLayout.wBlock_eq (X (Proc.devRef .tc main_arg6)) 1 (by decide) 64 (by decide) _ _
/-- Layer 1's node bias row. -/
theorem bn_row : StableHlo.after hostOps3 X (Proc.devRef .tc main_v60)
    = Cert.Spec.bRow (X (Proc.devRef .tc main_arg7)) 1 := by
  simp only [hostOps3]
  after_results
  exact Cert.Hand.HostLayout.bRow_eq (X (Proc.devRef .tc main_arg7)) 1 (by decide) _ _ _

end Stretches

variable (m : (ℓ : Loc nD τ sig) → Buf (Elt Ideal) ℓ) (ρ : Dev nD → PrngReg) (c : Dev nD)
variable (hS : Cert.Hand.Take.InRange (m ((c : Thread nD τ).loc main_arg2)))
variable (hR : Cert.Hand.Take.InRange (m ((c : Thread nD τ).loc main_arg3)))

variable (hN : W7 m ρ c (Proc.devRef .tc main_v36) = Cert.Hand.Pipe.N1 (inputsOf m c))
variable (hE : W7 m ρ c (Proc.devRef .tc main_v23) = Cert.Hand.Pipe.E1 (inputsOf m c))
include hS hR hN hE

/-! ## What the second edge call is entered with -/

/-- The first layer's edge table is still there. -/
theorem in2_e : W10 m ρ c (Proc.devRef .tc main_v23) = Cert.Hand.Pipe.E1 (inputsOf m c) :=
  (by host_keep hostOps2_2 : W10 m ρ c (Proc.devRef .tc main_v23) = W9 m ρ c (Proc.devRef .tc main_v23)).trans
    ((by host_keep hostOps2_1 : W9 m ρ c (Proc.devRef .tc main_v23) = W8 m ρ c (Proc.devRef .tc main_v23)).trans
      ((by host_keep hostOps2 : W8 m ρ c (Proc.devRef .tc main_v23) = W7 m ρ c (Proc.devRef .tc main_v23)).trans hE))

/-- The senders' rows of the first layer's node table. -/
theorem in2_s : W10 m ρ c (Proc.devRef .tc main_v37)
    = Cert.Hand.Pipe.rows (Cert.Hand.Pipe.N1 (inputsOf m c)) (inputsOf m c).snd := by
  have h10 : W10 m ρ c (Proc.devRef .tc main_v37) = W9 m ρ c (Proc.devRef .tc main_v37) := by host_keep hostOps2_2
  have h9 : W9 m ρ c (Proc.devRef .tc main_v37) = W8 m ρ c (Proc.devRef .tc main_v37) := by host_keep hostOps2_1
  have ha : W7 m ρ c (Proc.devRef .tc main_arg2) = (inputsOf m c).snd := (k7_main_arg2 m ρ c).trans (W1_main_arg2 m ρ c)
  have hr : Cert.Hand.Take.InRange (W7 m ρ c (Proc.devRef .tc main_arg2)) := by rw [ha]; exact hS
  have h8 : W8 m ρ c (Proc.devRef .tc main_v37)
      = Cert.Hand.Pipe.rows (W7 m ρ c (Proc.devRef .tc main_v36)) (W7 m ρ c (Proc.devRef .tc main_arg2)) :=
    take_snd (W7 m ρ c) hr
  rw [h10, h9, h8, hN, ha]

/-- The receivers' rows of the first layer's node table. -/
theorem in2_r : W10 m ρ c (Proc.devRef .tc main_v38)
    = Cert.Hand.Pipe.rows (Cert.Hand.Pipe.N1 (inputsOf m c)) (inputsOf m c).rcv := by
  have h10 : W10 m ρ c (Proc.devRef .tc main_v38) = W9 m ρ c (Proc.devRef .tc main_v38) := by host_keep hostOps2_2
  have ha : W8 m ρ c (Proc.devRef .tc main_arg3) = (inputsOf m c).rcv := (k8_main_arg3 m ρ c).trans (W1_main_arg3 m ρ c)
  have hn : W8 m ρ c (Proc.devRef .tc main_v36) = Cert.Hand.Pipe.N1 (inputsOf m c) :=
    (by host_keep hostOps2 : W8 m ρ c (Proc.devRef .tc main_v36) = W7 m ρ c (Proc.devRef .tc main_v36)).trans hN
  have hr : Cert.Hand.Take.InRange (W8 m ρ c (Proc.devRef .tc main_arg3)) := by rw [ha]; exact hR
  have h9 : W9 m ρ c (Proc.devRef .tc main_v38)
      = Cert.Hand.Pipe.rows (W8 m ρ c (Proc.devRef .tc main_v36)) (W8 m ρ c (Proc.devRef .tc main_arg3)) :=
    take_rcv (W8 m ρ c) hr
  rw [h10, h9, hn, ha]

/-- Layer 1's edge weight blocks and bias row. -/
theorem in2_w0 : W10 m ρ c (Proc.devRef .tc main_v40) = Cert.Spec.wBlock (inputsOf m c).We 1 0 (by decide) := by
  have ha : W9 m ρ c (Proc.devRef .tc main_arg4) = (inputsOf m c).We := (k9_main_arg4 m ρ c).trans (W1_main_arg4 m ρ c)
  have h : W10 m ρ c (Proc.devRef .tc main_v40) = Cert.Spec.wBlock (W9 m ρ c (Proc.devRef .tc main_arg4)) 1 0 (by decide) :=
    we_0 (W9 m ρ c)
  rw [h, ha]
theorem in2_w64 : W10 m ρ c (Proc.devRef .tc main_v42) = Cert.Spec.wBlock (inputsOf m c).We 1 64 (by decide) := by
  have ha : W9 m ρ c (Proc.devRef .tc main_arg4) = (inputsOf m c).We := (k9_main_arg4 m ρ c).trans (W1_main_arg4 m ρ c)
  have h : W10 m ρ c (Proc.devRef .tc main_v42) = Cert.Spec.wBlock (W9 m ρ c (Proc.devRef .tc main_arg4)) 1 64 (by decide) :=
    we_64 (W9 m ρ c)
  rw [h, ha]
theorem in2_w128 : W10 m ρ c (Proc.devRef .tc main_v44) = Cert.Spec.wBlock (inputsOf m c).We 1 128 (by decide) := by
  have ha : W9 m ρ c (Proc.devRef .tc main_arg4) = (inputsOf m c).We := (k9_main_arg4 m ρ c).trans (W1_main_arg4 m ρ c)
  have h : W10 m ρ c (Proc.devRef .tc main_v44) = Cert.Spec.wBlock (W9 m ρ c (Proc.devRef .tc main_arg4)) 1 128 (by decide) :=
    we_128 (W9 m ρ c)
  rw [h, ha]
theorem in2_b : W10 m ρ c (Proc.devRef .tc main_v47) = Cert.Spec.bRow (inputsOf m c).be 1 := by
  have ha : W9 m ρ c (Proc.devRef .tc main_arg5) = (inputsOf m c).be := (k9_main_arg5 m ρ c).trans (W1_main_arg5 m ρ c)
  have h : W10 m ρ c (Proc.devRef .tc main_v47) = Cert.Spec.bRow (W9 m ρ c (Proc.devRef .tc main_arg5)) 1 := be_row (W9 m ρ c)
  rw [h, ha]

/-- After the second edge call its output is the pipeline's second edge table. -/
theorem E2 : W11 m ρ c (Proc.devRef .tc main_v48) = Cert.Hand.Pipe.E2 (inputsOf m c) := by
  refine (W11_arr m ρ c 7 : W11 m ρ c (Proc.devRef .tc main_v48) = _).trans ((Cert.Hand.Edge2.arr (V10 m ρ) c).trans ?_)
  show Cert.Spec.edgeTab (n := 800000) (W10 m ρ c (Proc.devRef .tc main_v23)) (W10 m ρ c (Proc.devRef .tc main_v37))
      (W10 m ρ c (Proc.devRef .tc main_v38)) (W10 m ρ c (Proc.devRef .tc main_v40)) (W10 m ρ c (Proc.devRef .tc main_v42))
      (W10 m ρ c (Proc.devRef .tc main_v44)) (W10 m ρ c (Proc.devRef .tc main_v47)) = _
  rw [in2_e m ρ c hS hR hN hE, in2_s m ρ c hS hR hN hE, in2_r m ρ c hS hR hN hE, in2_w0 m ρ c hS hR hN hE,
    in2_w64 m ρ c hS hR hN hE, in2_w128 m ρ c hS hR hN hE, in2_b m ρ c hS hR hN hE]
  rfl

/-! ## What the second node call is entered with -/

/-- The first layer's node table is still there. -/
theorem in3_n : W12 m ρ c (Proc.devRef .tc main_v36) = Cert.Hand.Pipe.N1 (inputsOf m c) :=
  (by host_keep hostOps3 : W12 m ρ c (Proc.devRef .tc main_v36) = W11 m ρ c (Proc.devRef .tc main_v36)).trans
    ((W11_of_ne m ρ c main_v36 (by decide)).trans
      ((by host_keep hostOps2_2 : W10 m ρ c (Proc.devRef .tc main_v36) = W9 m ρ c (Proc.devRef .tc main_v36)).trans
        ((by host_keep hostOps2_1 : W9 m ρ c (Proc.devRef .tc main_v36) = W8 m ρ c (Proc.devRef .tc main_v36)).trans
          ((by host_keep hostOps2 : W8 m ρ c (Proc.devRef .tc main_v36) = W7 m ρ c (Proc.devRef .tc main_v36)).trans hN))))

/-- The mean, per node, of the second edge table's rows it receives. -/
theorem in3_a : W12 m ρ c (Proc.devRef .tc main_v53)
    = Cert.Hand.Pipe.agg (inputsOf m c).rcv (Cert.Hand.Pipe.E2 (inputsOf m c)) := by
  have ha : W11 m ρ c (Proc.devRef .tc main_arg3) = (inputsOf m c).rcv := (k11_main_arg3 m ρ c).trans (W1_main_arg3 m ρ c)
  have h6 : W11 m ρ c (Proc.devRef .tc main_v6) = Cert.Hand.Pipe.cnt (W11 m ρ c (Proc.devRef .tc main_arg3)) := by
    rw [ha]; exact (k11_main_v6 m ρ c).trans (W1_main_v6 m ρ c)
  have h : W12 m ρ c (Proc.devRef .tc main_v53)
      = Cert.Hand.Pipe.agg (W11 m ρ c (Proc.devRef .tc main_arg3)) (W11 m ρ c (Proc.devRef .tc main_v48)) :=
    agg_of (W11 m ρ c) h6
  rw [h, ha, E2 m ρ c hS hR hN hE]

/-- Layer 1's node weight blocks and bias row. -/
theorem in3_w0 : W12 m ρ c (Proc.devRef .tc main_v55) = Cert.Spec.wBlock (inputsOf m c).Wn 1 0 (by decide) := by
  have ha : W11 m ρ c (Proc.devRef .tc main_arg6) = (inputsOf m c).Wn := (k11_main_arg6 m ρ c).trans (W1_main_arg6 m ρ c)
  have h : W12 m ρ c (Proc.devRef .tc main_v55) = Cert.Spec.wBlock (W11 m ρ c (Proc.devRef .tc main_arg6)) 1 0 (by decide) :=
    wn_0 (W11 m ρ c)
  rw [h, ha]
theorem in3_w64 : W12 m ρ c (Proc.devRef .tc main_v57) = Cert.Spec.wBlock (inputsOf m c).Wn 1 64 (by decide) := by
  have ha : W11 m ρ c (Proc.devRef .tc main_arg6) = (inputsOf m c).Wn := (k11_main_arg6 m ρ c).trans (W1_main_arg6 m ρ c)
  have h : W12 m ρ c (Proc.devRef .tc main_v57) = Cert.Spec.wBlock (W11 m ρ c (Proc.devRef .tc main_arg6)) 1 64 (by decide) :=
    wn_64 (W11 m ρ c)
  rw [h, ha]
theorem in3_b : W12 m ρ c (Proc.devRef .tc main_v60) = Cert.Spec.bRow (inputsOf m c).bn 1 := by
  have ha : W11 m ρ c (Proc.devRef .tc main_arg7) = (inputsOf m c).bn := (k11_main_arg7 m ρ c).trans (W1_main_arg7 m ρ c)
  have h : W12 m ρ c (Proc.devRef .tc main_v60) = Cert.Spec.bRow (W11 m ρ c (Proc.devRef .tc main_arg7)) 1 := bn_row (W11 m ρ c)
  rw [h, ha]

/-- After the second node call its output is the pipeline's second node table. -/
theorem N2 : W13 m ρ c (Proc.devRef .tc main_v61) = Cert.Hand.Pipe.N2 (inputsOf m c) := by
  refine (W13_arr m ρ c 5 : W13 m ρ c (Proc.devRef .tc main_v61) = _).trans ((Cert.Hand.Node3.arr (V12 m ρ) c).trans ?_)
  show Cert.Spec.nodeTab (n := 50000) (W12 m ρ c (Proc.devRef .tc main_v36)) (W12 m ρ c (Proc.devRef .tc main_v53))
      (W12 m ρ c (Proc.devRef .tc main_v55)) (W12 m ρ c (Proc.devRef .tc main_v57)) (W12 m ρ c (Proc.devRef .tc main_v60)) = _
  rw [in3_n m ρ c hS hR hN hE, in3_a m ρ c hS hR hN hE, in3_w0 m ρ c hS hR hN hE, in3_w64 m ρ c hS hR hN hE,
    in3_b m ρ c hS hR hN hE]
  rfl

/-- The second edge table is still there after the second node call. -/
theorem E2_kept : W13 m ρ c (Proc.devRef .tc main_v48) = Cert.Hand.Pipe.E2 (inputsOf m c) :=
  (W13_of_ne m ρ c main_v48 (by decide)).trans
    ((by host_keep hostOps3 : W12 m ρ c (Proc.devRef .tc main_v48) = W11 m ρ c (Proc.devRef .tc main_v48)).trans
      (E2 m ρ c hS hR hN hE))

end Cert.Hand.Stage1

end
-- ==== Proof.KernelStage2.lean ====
/-
  The kernel program's third layer and its last call, from the second layer's node and edge tables: the gathers,
  layer 2's weight blocks and bias rows, the edge call, the averaging, the node call; then normalisation, perceptron
  and projection of the last node table against the relaid small vectors.
-/
import proofs.«426185_j11338713661556_1_alg».proof.Proof.Gen.KernelIdeal.Frame
import proofs.«426185_j11338713661556_1_alg».proof.Proof.KernelBase
import proofs.«426185_j11338713661556_1_alg».proof.Proof.KernelKeep
import proofs.«426185_j11338713661556_1_alg».proof.Proof.Pipe
import proofs.«426185_j11338713661556_1_alg».proof.Proof.Take
import proofs.«426185_j11338713661556_1_alg».proof.Proof.HostLayout
import proofs.«426185_j11338713661556_1_alg».proof.Proof.EdgeRegion0
import proofs.«426185_j11338713661556_1_alg».proof.Proof.EdgeRegion2
import proofs.«426185_j11338713661556_1_alg».proof.Proof.EdgeRegion4
import proofs.«426185_j11338713661556_1_alg».proof.Proof.NodeRegion1
import proofs.«426185_j11338713661556_1_alg».proof.Proof.NodeRegion3
import proofs.«426185_j11338713661556_1_alg».proof.Proof.NodeRegion5
import proofs.«426185_j11338713661556_1_alg».proof.Proof.FinalRegion6
import Idealize.ShloMosaic.Lib.StableHlo.Run
import Idealize.ShloMosaic.PureOps.Ideal

set_option maxRecDepth 16384

noncomputable section

namespace Cert.Hand.Stage2

open Cert.KernelIdeal Cert.KernelIdeal.Gen Idealize.ShloMosaic Idealize.ShloMosaic.TcCoe Idealize.SL.Sem Idealize.ShloMosaic.StableHlo
open Cert.KernelIdeal.Facts₀ Cert.KernelIdeal.Facts
open Cert.Hand.Keep Cert.Hand.Chain

/-- A transport there and back is the identity. -/
theorem cast_cast_self {α β : Sort _} (h1 : α = β) (h2 : β = α) (v : α) : cast h2 (cast h1 v) = v := by
  subst h1; rfl

/-! ## The host stretches of the third layer, over any contents they start from -/

section Host

variable (V : Valuation τ sig (Elt Ideal))

/-- The typed reading of a buffer whose type is the value's is the buffer's contents. -/
theorem of_arg2 : (TRef.of main_arg2 : TRef sig ⟨S800000, .i32⟩).ofBuf (V (Proc.devRef .tc main_arg2)) = V (Proc.devRef .tc main_arg2) := rfl
theorem of_arg3 : (TRef.of main_arg3 : TRef sig ⟨S800000, .i32⟩).ofBuf (V (Proc.devRef .tc main_arg3)) = V (Proc.devRef .tc main_arg3) := rfl
theorem of_v61 : (TRef.of main_v61 : TRef sig ⟨S50000x64, .f32⟩).ofBuf (V (Proc.devRef .tc main_v61)) = V (Proc.devRef .tc main_v61) := rfl
theorem to_v62 (x : (⟨S800000x64, .f32⟩ : BufTy).Contents (Elt Ideal)) : (TRef.of main_v62 : TRef sig ⟨S800000x64, .f32⟩).toBuf x = x := rfl
theorem to_v63 (x : (⟨S800000x64, .f32⟩ : BufTy).Contents (Elt Ideal)) : (TRef.of main_v63 : TRef sig ⟨S800000x64, .f32⟩).toBuf x = x := rfl

set_option maxHeartbeats 4000000 in
/-- The gather of node rows at the sender words: under the range, the rows the wrapped words name. -/
theorem take4 (h : Cert.Hand.Take.InRange (V (Proc.devRef .tc main_arg2))) :
    StableHlo.after hostOps4 V (Proc.devRef .tc main_v62)
      = Cert.Hand.Pipe.rows (V (Proc.devRef .tc main_v61)) (V (Proc.devRef .tc main_arg2)) := by
  refine Eq.trans ?_ (Cert.Hand.Take.take_eq (V (Proc.devRef .tc main_v61)) (V (Proc.devRef .tc main_arg2)) h)
  unfold Cert.Hand.Take.wrapCol
  simp only [hostOps4]
  after_results_simp
  simp only [cast_cast_self, of_arg2, of_v61, to_v62]

set_option maxHeartbeats 4000000 in
/-- The gather of node rows at the receiver words: under the range, the rows the wrapped words name. -/
theorem take4_1 (h : Cert.Hand.Take.InRange (V (Proc.devRef .tc main_arg3))) :
    StableHlo.after hostOps4_1 V (Proc.devRef .tc main_v63)
      = Cert.Hand.Pipe.rows (V (Proc.devRef .tc main_v61)) (V (Proc.devRef .tc main_arg3)) := by
  refine Eq.trans ?_ (Cert.Hand.Take.take_eq (V (Proc.devRef .tc main_v61)) (V (Proc.devRef .tc main_arg3)) h)
  unfold Cert.Hand.Take.wrapCol
  simp only [hostOps4_1]
  after_results_simp
  simp only [cast_cast_self, of_arg3, of_v61, to_v63]

/-- Layer 2's three edge weight blocks and its edge bias row, cut from the stacks. -/
theorem blk4_v65 : StableHlo.after hostOps4_2 V (Proc.devRef .tc main_v65)
    = Cert.Spec.wBlock (V (Proc.devRef .tc main_arg4)) 2 0 (by decide) := by
  simp only [hostOps4_2]
  after_results
  exact Cert.Hand.HostLayout.wBlock_eq _ 2 (by decide) 0 (by decide) _ _
theorem blk4_v67 : StableHlo.after hostOps4_2 V (Proc.devRef .tc main_v67)
    = Cert.Spec.wBlock (V (Proc.devRef .tc main_arg4)) 2 64 (by decide) := by
  simp only [hostOps4_2]
  after_results
  exact Cert.Hand.HostLayout.wBlock_eq _ 2 (by decide) 64 (by decide) _ _
theorem blk4_v69 : StableHlo.after hostOps4_2 V (Proc.devRef .tc main_v69)
    = Cert.Spec.wBlock (V (Proc.devRef .tc main_arg4)) 2 128 (by decide) := by
  simp only [hostOps4_2]
  after_results
  exact Cert.Hand.HostLayout.wBlock_eq _ 2 (by decide) 128 (by decide) _ _
theorem blk4_v72 : StableHlo.after hostOps4_2 V (Proc.devRef .tc main_v72)
    = Cert.Spec.bRow (V (Proc.devRef .tc main_arg5)) 2 := by
  simp only [hostOps4_2]
  after_results
  exact Cert.Hand.HostLayout.bRow_eq _ 2 (by decide) _ _ _

/-- The averaging of an edge table over the edges each node receives, given the count column. -/
theorem agg5 : StableHlo.after hostOps5 V (Proc.devRef .tc main_v78)
    = Host.divf
        (Host.scatterAdd scatter_S50000x64_S800000x1_S800000x64_1_0_0_1
          (broadcastInDim S50000x64 ![] Gen.bcast_S_S50000x64 (constant (F := Ideal) S_ .f32 0x00000000#32))
          (broadcastInDim S800000x1 ![0] Gen.bcast_S800000_S800000x1_0 (V (Proc.devRef .tc main_arg3)))
          (V (Proc.devRef .tc main_v73)))
        (broadcastInDim S50000x64 ![0, 1] Gen.bcast_S50000x1_S50000x64_0_1 (V (Proc.devRef .tc main_v6))) := by
  simp only [hostOps5]
  after_results

/-- Layer 2's two node weight blocks and its node bias row, cut from the stacks. -/
theorem blk5_v80 : StableHlo.after hostOps5 V (Proc.devRef .tc main_v80)
    = Cert.Spec.wBlock (V (Proc.devRef .tc main_arg6)) 2 0 (by decide) := by
  simp only [hostOps5]
  after_results
  exact Cert.Hand.HostLayout.wBlock_eq _ 2 (by decide) 0 (by decide) _ _
theorem blk5_v82 : StableHlo.after hostOps5 V (Proc.devRef .tc main_v82)
    = Cert.Spec.wBlock (V (Proc.devRef .tc main_arg6)) 2 64 (by decide) := by
  simp only [hostOps5]
  after_results
  exact Cert.Hand.HostLayout.wBlock_eq _ 2 (by decide) 64 (by decide) _ _
theorem blk5_v85 : StableHlo.after hostOps5 V (Proc.devRef .tc main_v85)
    = Cert.Spec.bRow (V (Proc.devRef .tc main_arg7)) 2 := by
  simp only [hostOps5]
  after_results
  exact Cert.Hand.HostLayout.bRow_eq _ 2 (by decide) _ _ _

end Host

/-! ## The run from the second layer's tables -/

section Run

variable (m : (ℓ : Loc nD τ sig) → Buf (Elt Ideal) ℓ) (ρ : Dev nD → PrngReg) (c : Dev nD)

/-- The argument arrays and the count column at the boundaries the third layer reads them at. -/
theorem a13_arg2 : W13 m ρ c (Proc.devRef .tc main_arg2) = (inputsOf m c).snd :=
  (k13_main_arg2 m ρ c).trans (W1_main_arg2 m ρ c)
theorem a14_arg3 : W14 m ρ c (Proc.devRef .tc main_arg3) = (inputsOf m c).rcv :=
  (k14_main_arg3 m ρ c).trans (W1_main_arg3 m ρ c)
theorem a15_arg4 : W15 m ρ c (Proc.devRef .tc main_arg4) = (inputsOf m c).We :=
  (k15_main_arg4 m ρ c).trans (W1_main_arg4 m ρ c)
theorem a15_arg5 : W15 m ρ c (Proc.devRef .tc main_arg5) = (inputsOf m c).be :=
  (k15_main_arg5 m ρ c).trans (W1_main_arg5 m ρ c)
theorem a17_arg3 : W17 m ρ c (Proc.devRef .tc main_arg3) = (inputsOf m c).rcv :=
  (k17_main_arg3 m ρ c).trans (W1_main_arg3 m ρ c)
theorem a17_arg6 : W17 m ρ c (Proc.devRef .tc main_arg6) = (inputsOf m c).Wn :=
  (k17_main_arg6 m ρ c).trans (W1_main_arg6 m ρ c)
theorem a17_arg7 : W17 m ρ c (Proc.devRef .tc main_arg7) = (inputsOf m c).bn :=
  (k17_main_arg7 m ρ c).trans (W1_main_arg7 m ρ c)
theorem a17_v6 : W17 m ρ c (Proc.devRef .tc main_v6) = Cert.Hand.Pipe.cnt (inputsOf m c).rcv :=
  (k17_main_v6 m ρ c).trans (W1_main_v6 m ρ c)

/-! ### The third edge call's seven tables as it enters -/

theorem V16_v48 (hE : W13 m ρ c (Proc.devRef .tc main_v48) = Cert.Hand.Pipe.E2 (inputsOf m c)) :
    W16 m ρ c (Proc.devRef .tc main_v48) = Cert.Hand.Pipe.E2 (inputsOf m c) := by
  have h1 : W16 m ρ c (Proc.devRef .tc main_v48) = W15 m ρ c (Proc.devRef .tc main_v48) := by host_keep hostOps4_2
  have h2 : W15 m ρ c (Proc.devRef .tc main_v48) = W14 m ρ c (Proc.devRef .tc main_v48) := by host_keep hostOps4_1
  have h3 : W14 m ρ c (Proc.devRef .tc main_v48) = W13 m ρ c (Proc.devRef .tc main_v48) := by host_keep hostOps4
  exact h1.trans (h2.trans (h3.trans hE))

theorem V16_v62 (hS : Cert.Hand.Take.InRange (m ((c : Thread nD τ).loc main_arg2)))
    (hN : W13 m ρ c (Proc.devRef .tc main_v61) = Cert.Hand.Pipe.N2 (inputsOf m c)) :
    W16 m ρ c (Proc.devRef .tc main_v62)
      = Cert.Hand.Pipe.rows (Cert.Hand.Pipe.N2 (inputsOf m c)) (inputsOf m c).snd := by
  have h1 : W16 m ρ c (Proc.devRef .tc main_v62) = W15 m ρ c (Proc.devRef .tc main_v62) := by host_keep hostOps4_2
  have h2 : W15 m ρ c (Proc.devRef .tc main_v62) = W14 m ρ c (Proc.devRef .tc main_v62) := by host_keep hostOps4_1
  have h3 : W14 m ρ c (Proc.devRef .tc main_v62)
      = Cert.Hand.Pipe.rows (W13 m ρ c (Proc.devRef .tc main_v61)) (W13 m ρ c (Proc.devRef .tc main_arg2)) :=
    take4 (W13 m ρ c) (by rw [a13_arg2]; exact hS)
  rw [h1, h2, h3, hN, a13_arg2]

theorem V16_v63 (hR : Cert.Hand.Take.InRange (m ((c : Thread nD τ).loc main_arg3)))
    (hN : W13 m ρ c (Proc.devRef .tc main_v61) = Cert.Hand.Pipe.N2 (inputsOf m c)) :
    W16 m ρ c (Proc.devRef .tc main_v63)
      = Cert.Hand.Pipe.rows (Cert.Hand.Pipe.N2 (inputsOf m c)) (inputsOf m c).rcv := by
  have h1 : W16 m ρ c (Proc.devRef .tc main_v63) = W15 m ρ c (Proc.devRef .tc main_v63) := by host_keep hostOps4_2
  have h2 : W15 m ρ c (Proc.devRef .tc main_v63)
      = Cert.Hand.Pipe.rows (W14 m ρ c (Proc.devRef .tc main_v61)) (W14 m ρ c (Proc.devRef .tc main_arg3)) :=
    take4_1 (W14 m ρ c) (by rw [a14_arg3]; exact hR)
  have h3 : W14 m ρ c (Proc.devRef .tc main_v61) = W13 m ρ c (Proc.devRef .tc main_v61) := by host_keep hostOps4
  rw [h1, h2, h3, hN, a14_arg3]

theorem V16_v65 : W16 m ρ c (Proc.devRef .tc main_v65) = Cert.Spec.wBlock (inputsOf m c).We 2 0 (by decide) := by
  have h := blk4_v65 (W15 m ρ c)
  rw [a15_arg4] at h
  exact h
theorem V16_v67 : W16 m ρ c (Proc.devRef .tc main_v67) = Cert.Spec.wBlock (inputsOf m c).We 2 64 (by decide) := by
  have h := blk4_v67 (W15 m ρ c)
  rw [a15_arg4] at h
  exact h
theorem V16_v69 : W16 m ρ c (Proc.devRef .tc main_v69) = Cert.Spec.wBlock (inputsOf m c).We 2 128 (by decide) := by
  have h := blk4_v69 (W15 m ρ c)
  rw [a15_arg4] at h
  exact h
theorem V16_v72 : W16 m ρ c (Proc.devRef .tc main_v72) = Cert.Spec.bRow (inputsOf m c).be 2 := by
  have h := blk4_v72 (W15 m ρ c)
  rw [a15_arg5] at h
  exact h

/-- After the third edge call its output is the edge update of the tables it entered with: the third edge table. -/
theorem E3' (hS : Cert.Hand.Take.InRange (m ((c : Thread nD τ).loc main_arg2)))
    (hR : Cert.Hand.Take.InRange (m ((c : Thread nD τ).loc main_arg3)))
    (hN : W13 m ρ c (Proc.devRef .tc main_v61) = Cert.Hand.Pipe.N2 (inputsOf m c))
    (hE : W13 m ρ c (Proc.devRef .tc main_v48) = Cert.Hand.Pipe.E2 (inputsOf m c)) :
    W17 m ρ c (Proc.devRef .tc main_v73) = Cert.Hand.Pipe.E3 (inputsOf m c) := by
  refine (W17_arr m ρ c 7 : W17 m ρ c (Proc.devRef .tc main_v73) = _).trans
    ((Cert.Hand.Edge4.arr (V16 m ρ) c).trans ?_)
  show Cert.Spec.edgeTab (n := 800000) (W16 m ρ c (Proc.devRef .tc main_v48)) (W16 m ρ c (Proc.devRef .tc main_v62))
      (W16 m ρ c (Proc.devRef .tc main_v63)) (W16 m ρ c (Proc.devRef .tc main_v65))
      (W16 m ρ c (Proc.devRef .tc main_v67)) (W16 m ρ c (Proc.devRef .tc main_v69))
      (W16 m ρ c (Proc.devRef .tc main_v72)) = _
  rw [V16_v48 m ρ c hE, V16_v62 m ρ c hS hN, V16_v63 m ρ c hR hN, V16_v65 m ρ c, V16_v67 m ρ c, V16_v69 m ρ c,
    V16_v72 m ρ c]
  rfl

/-! ### The third node call's five tables as it enters -/

theorem V18_v61 (hN : W13 m ρ c (Proc.devRef .tc main_v61) = Cert.Hand.Pipe.N2 (inputsOf m c)) :
    W18 m ρ c (Proc.devRef .tc main_v61) = Cert.Hand.Pipe.N2 (inputsOf m c) := by
  have h1 : W18 m ρ c (Proc.devRef .tc main_v61) = W17 m ρ c (Proc.devRef .tc main_v61) := by host_keep hostOps5
  have h2 : W17 m ρ c (Proc.devRef .tc main_v61) = W16 m ρ c (Proc.devRef .tc main_v61) :=
    W17_of_ne m ρ c main_v61 (by decide)
  have h3 : W16 m ρ c (Proc.devRef .tc main_v61) = W15 m ρ c (Proc.devRef .tc main_v61) := by host_keep hostOps4_2
  have h4 : W15 m ρ c (Proc.devRef .tc main_v61) = W14 m ρ c (Proc.devRef .tc main_v61) := by host_keep hostOps4_1
  have h5 : W14 m ρ c (Proc.devRef .tc main_v61) = W13 m ρ c (Proc.devRef .tc main_v61) := by host_keep hostOps4
  exact h1.trans (h2.trans (h3.trans (h4.trans (h5.trans hN))))

theorem V18_v78 (h73 : W17 m ρ c (Proc.devRef .tc main_v73) = Cert.Hand.Pipe.E3 (inputsOf m c)) :
    W18 m ρ c (Proc.devRef .tc main_v78)
      = Cert.Hand.Pipe.agg (inputsOf m c).rcv (Cert.Hand.Pipe.E3 (inputsOf m c)) := by
  have h := agg5 (W17 m ρ c)
  rw [a17_arg3, h73, a17_v6] at h
  exact h

theorem V18_v80 : W18 m ρ c (Proc.devRef .tc main_v80) = Cert.Spec.wBlock (inputsOf m c).Wn 2 0 (by decide) := by
  have h := blk5_v80 (W17 m ρ c)
  rw [a17_arg6] at h
  exact h
theorem V18_v82 : W18 m ρ c (Proc.devRef .tc main_v82) = Cert.Spec.wBlock (inputsOf m c).Wn 2 64 (by decide) := by
  have h := blk5_v82 (W17 m ρ c)
  rw [a17_arg6] at h
  exact h
theorem V18_v85 : W18 m ρ c (Proc.devRef .tc main_v85) = Cert.Spec.bRow (inputsOf m c).bn 2 := by
  have h := blk5_v85 (W17 m ρ c)
  rw [a17_arg7] at h
  exact h

/-- After the third node call its output is the node update of the tables it entered with: the last node table. -/
theorem N3' (hN : W13 m ρ c (Proc.devRef .tc main_v61) = Cert.Hand.Pipe.N2 (inputsOf m c))
    (h73 : W17 m ρ c (Proc.devRef .tc main_v73) = Cert.Hand.Pipe.E3 (inputsOf m c)) :
    W19 m ρ c (Proc.devRef .tc main_v86) = Cert.Hand.Pipe.N3 (inputsOf m c) := by
  refine (W19_arr m ρ c 5 : W19 m ρ c (Proc.devRef .tc main_v86) = _).trans
    ((Cert.Hand.Node5.arr (V18 m ρ) c).trans ?_)
  show Cert.Spec.nodeTab (n := 50000) (W18 m ρ c (Proc.devRef .tc main_v61)) (W18 m ρ c (Proc.devRef .tc main_v78))
      (W18 m ρ c (Proc.devRef .tc main_v80)) (W18 m ρ c (Proc.devRef .tc main_v82))
      (W18 m ρ c (Proc.devRef .tc main_v85)) = _
  rw [V18_v61 m ρ c hN, V18_v78 m ρ c h73, V18_v80 m ρ c, V18_v82 m ρ c, V18_v85 m ρ c]
  rfl

/-- After the last call the result buffer is the final function of the last node table and the relaid small vectors. -/
theorem result' (h86 : W19 m ρ c (Proc.devRef .tc main_v86) = Cert.Hand.Pipe.N3 (inputsOf m c)) :
    W20 m ρ c (Proc.devRef .tc main_v87) = Cert.Hand.Pipe.result (inputsOf m c) := by
  refine (W20_arr m ρ c 9 : W20 m ρ c (Proc.devRef .tc main_v87) = _).trans
    ((Cert.Hand.Final6.arr (V19 m ρ) c).trans ?_)
  show Cert.Spec.finalTab (n := 50000) (W19 m ρ c (Proc.devRef .tc main_v86)) (W19 m ρ c (Proc.devRef .tc main_v7))
      (W19 m ρ c (Proc.devRef .tc main_v8)) (W19 m ρ c (Proc.devRef .tc main_arg10))
      (W19 m ρ c (Proc.devRef .tc main_v9)) (W19 m ρ c (Proc.devRef .tc main_arg12))
      (W19 m ρ c (Proc.devRef .tc main_v10)) (W19 m ρ c (Proc.devRef .tc main_arg14))
      (W19 m ρ c (Proc.devRef .tc main_v11)) = _
  rw [h86, (k19_main_v7 m ρ c).trans (W1_main_v7 m ρ c), (k19_main_v8 m ρ c).trans (W1_main_v8 m ρ c),
    (k19_main_arg10 m ρ c).trans (W1_main_arg10 m ρ c), (k19_main_v9 m ρ c).trans (W1_main_v9 m ρ c),
    (k19_main_arg12 m ρ c).trans (W1_main_arg12 m ρ c), (k19_main_v10 m ρ c).trans (W1_main_v10 m ρ c),
    (k19_main_arg14 m ρ c).trans (W1_main_arg14 m ρ c), (k19_main_v11 m ρ c).trans (W1_main_v11 m ρ c)]
  rfl

end Run

/-! ## The three boundaries -/

variable (m : (ℓ : Loc nD τ sig) → Buf (Elt Ideal) ℓ) (ρ : Dev nD → PrngReg) (c : Dev nD)
variable (hS : Cert.Hand.Take.InRange (m ((c : Thread nD τ).loc main_arg2)))
variable (hR : Cert.Hand.Take.InRange (m ((c : Thread nD τ).loc main_arg3)))

variable (hN : W13 m ρ c (Proc.devRef .tc main_v61) = Cert.Hand.Pipe.N2 (inputsOf m c))
variable (hE : W13 m ρ c (Proc.devRef .tc main_v48) = Cert.Hand.Pipe.E2 (inputsOf m c))
include hS hR hN hE

/-- After the third edge call its output is the pipeline's third edge table. -/
theorem E3 : W17 m ρ c (Proc.devRef .tc main_v73) = Cert.Hand.Pipe.E3 (inputsOf m c) := by
  exact E3' m ρ c hS hR hN hE

/-- After the third node call its output is the pipeline's last node table. -/
theorem N3 : W19 m ρ c (Proc.devRef .tc main_v86) = Cert.Hand.Pipe.N3 (inputsOf m c) := by
  exact N3' m ρ c hN (E3' m ρ c hS hR hN hE)

/-- After the last call the result buffer holds the pipeline's result column. -/
theorem result : W20 m ρ c (Proc.devRef .tc main_v87) = Cert.Hand.Pipe.result (inputsOf m c) := by
  exact result' m ρ c (N3' m ρ c hN (E3' m ρ c hS hR hN hE))

end Cert.Hand.Stage2

end
-- ==== Proof.RefEdge.lean ====
/-
  The reference's edge update is the specification's.  The reference lays the edge row, the sender's node row and
  the receiver's node row side by side (192 entries), multiplies by layer l's 192×64 matrix, adds the bias row and
  takes the maximum with zero.  A sum over 192 = 64 + 64 + 64 positions splits into the three sums over 64 of the
  edge-row function, position 64 a + k of the joined row being entry k of its a-th part and row 64 a + k of the
  matrix being row k of its a-th 64×64 block.
-/
import proofs.«426185_j11338713661556_1_alg».proof.Proof.RefReadP
import proofs.«426185_j11338713661556_1_alg».proof.Proof.Spec
import proofs.«426185_j11338713661556_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.Hand.RefEdge

open Cert.ReferenceIdeal Cert.ReferenceIdeal.ReadP Idealize.ShloMosaic Idealize.ShloMosaic.ValueIdx

/-- A sum over 192 = 64 + 64 + 64 positions is the sum of the three sums over its thirds. -/
theorem sum192 (f : Fin 192 → EReal) :
    ∑ k : Fin 192, f k
      = ∑ k : Fin 64, f ⟨k.val, by have := k.isLt; omega⟩ + ∑ k : Fin 64, f ⟨64 + k.val, by have := k.isLt; omega⟩
        + ∑ k : Fin 64, f ⟨128 + k.val, by have := k.isLt; omega⟩ := by
  have h1 : ∑ k : Fin 192, f k = ∑ i : Fin 128, f (Fin.castAdd 64 i) + ∑ i : Fin 64, f (Fin.natAdd 128 i) :=
    Fin.sum_univ_add (a := 128) (b := 64) f
  have h2 : ∑ i : Fin 128, f (Fin.castAdd 64 i)
      = ∑ i : Fin 64, f (Fin.castAdd 64 (Fin.castAdd 64 i)) + ∑ i : Fin 64, f (Fin.castAdd 64 (Fin.natAdd 64 i)) :=
    Fin.sum_univ_add (a := 64) (b := 64) (fun i => f (Fin.castAdd 64 i))
  rw [h1, h2]
  rfl

section Join
variable (E S R : S800000x64.Idx → EReal)
  (hc : Shape.Concatenates [S800000x64, S800000x64, S800000x64] S800000x192 1)

/-- Three 800000×64 tables laid side by side, read at (p, c) with c < 64: the first table at (p, c). -/
theorem join0 (j : S800000x192.Idx) (p : Fin 800000) (k : Fin 64) (h0 : (j 0).val = p.val) (h1 : (j 1).val = k.val) :
    concatenate S800000x192 1 [⟨S800000x64, E⟩, ⟨S800000x64, S⟩, ⟨S800000x64, R⟩] hc j = E (ix2 p k) :=
  concatenate_apply_piece 1 [⟨S800000x64, E⟩, ⟨S800000x64, S⟩, ⟨S800000x64, R⟩] hc j 0 (by show 0 < 3; omega) S800000x64 E rfl rfl 0 rfl (ix2 p k)
    (fun b hb => by
      match b with
      | ⟨0, _⟩ => exact h0.symm
      | ⟨1, _⟩ => exact absurd rfl hb)
    (by show 0 + k.val = (j 1).val; omega)

/-- … at (p, 64 + c): the second table at (p, c). -/
theorem join1 (j : S800000x192.Idx) (p : Fin 800000) (k : Fin 64) (h0 : (j 0).val = p.val) (h1 : (j 1).val = 64 + k.val) :
    concatenate S800000x192 1 [⟨S800000x64, E⟩, ⟨S800000x64, S⟩, ⟨S800000x64, R⟩] hc j = S (ix2 p k) :=
  concatenate_apply_piece 1 [⟨S800000x64, E⟩, ⟨S800000x64, S⟩, ⟨S800000x64, R⟩] hc j 1 (by show 1 < 3; omega) S800000x64 S rfl rfl 64 rfl (ix2 p k)
    (fun b hb => by
      match b with
      | ⟨0, _⟩ => exact h0.symm
      | ⟨1, _⟩ => exact absurd rfl hb)
    (by show 64 + k.val = (j 1).val; omega)

/-- … at (p, 128 + c): the third table at (p, c). -/
theorem join2 (j : S800000x192.Idx) (p : Fin 800000) (k : Fin 64) (h0 : (j 0).val = p.val) (h1 : (j 1).val = 128 + k.val) :
    concatenate S800000x192 1 [⟨S800000x64, E⟩, ⟨S800000x64, S⟩, ⟨S800000x64, R⟩] hc j = R (ix2 p k) :=
  concatenate_apply_piece 1 [⟨S800000x64, E⟩, ⟨S800000x64, S⟩, ⟨S800000x64, R⟩] hc j 2 (by show 2 < 3; omega) S800000x64 R rfl rfl 128 rfl (ix2 p k)
    (fun b hb => by
      match b with
      | ⟨0, _⟩ => exact h0.symm
      | ⟨1, _⟩ => exact absurd rfl hb)
    (by show 128 + k.val = (j 1).val; omega)

/-- The joined row against a 192-entry weight column, plus the bias, under the maximum with zero, is the edge-row
    function of the three rows against the three thirds of the column. -/
theorem edge_general (p : Fin 800000) (jl : Fin 192 → S800000x192.Idx)
    (hl0 : ∀ k, (jl k 0).val = p.val) (hl1 : ∀ k, (jl k 1).val = k.val) (w : Fin 192 → EReal) (b z : EReal) (hz : z = 0) :
    max ((∑ k : Fin 192, concatenate S800000x192 1 [⟨S800000x64, E⟩, ⟨S800000x64, S⟩, ⟨S800000x64, R⟩] hc (jl k) * w k) + b) z
      = Cert.Spec.edgeRow (fun k => E (ix2 p k)) (fun k => S (ix2 p k)) (fun k => R (ix2 p k))
          (fun k => w ⟨k.val, by have := k.isLt; omega⟩) (fun k => w ⟨64 + k.val, by have := k.isLt; omega⟩)
          (fun k => w ⟨128 + k.val, by have := k.isLt; omega⟩) b := by
  subst hz
  unfold Cert.Spec.edgeRow
  rw [sum192]
  refine congrArg (fun t => max (t + b) 0) ?_
  refine congrArg₂ (· + ·) (congrArg₂ (· + ·) ?_ ?_) ?_
  · exact Finset.sum_congr rfl fun k _ => congrArg (· * _) (join0 E S R hc _ p k (hl0 _) (hl1 _))
  · exact Finset.sum_congr rfl fun k _ => congrArg (· * _) (join1 E S R hc _ p k (hl0 _) (hl1 _))
  · exact Finset.sum_congr rfl fun k _ => congrArg (· * _) (join2 E S R hc _ p k (hl0 _) (hl1 _))

end Join

/-- Layer 0's 192×64 weight matrix, cut from the stack and flattened, at (c, q) is the stack at (0, c, q). -/
theorem wgt1 (x4 : (⟨S3x192x64, .f32⟩ : BufTy).Contents (Elt Ideal)) (q : Fin 64) (c : Fin 192) (j : S192x64.Idx)
    (h0 : (j 0).val = c.val) (h1 : (j 1).val = q.val) : val_main_v23 (F := Ideal) x4 j = x4 (ix3 0 c q) := by
  rw [val_main_v23_apply, val_main_v22_apply]
  refine congrArg x4 (funext fun a => Fin.ext ?_)
  have hc := c.isLt
  have hq := q.isLt
  match a with
  | ⟨0, _⟩ => rfl
  | ⟨1, _⟩ => show ((j 0).val * 64 + (j 1).val) / 64 % 192 = c.val; omega
  | ⟨2, _⟩ => show ((j 0).val * 64 + (j 1).val) % 64 = q.val; omega

/-- Layer 0's bias row, cut from the stack and broadcast down the rows, at (p, q) is the stack at (0, q). -/
theorem bias1 (x5 : (⟨S3x64, .f32⟩ : BufTy).Contents (Elt Ideal)) (p : Fin 800000) (q : Fin 64) :
    val_main_v28 (F := Ideal) x5 (ix2 p q) = x5 (ix2 0 q) := by
  rw [val_main_v28_apply, val_main_v27_apply, val_main_v26_apply, val_main_v25_apply]
  refine congrArg x5 (funext fun a => Fin.ext ?_)
  have hq := q.isLt
  match a with
  | ⟨0, _⟩ => rfl
  | ⟨1, _⟩ => show q.val % 64 = q.val; omega

/-- Layer 0: the reference's updated edge table is the edge update of the edge table and the two gathered tables. -/
theorem edge1 (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S3x192x64, .f32⟩ : BufTy).Contents (Elt Ideal))
    (x5 : (⟨S3x64, .f32⟩ : BufTy).Contents (Elt Ideal)) :
    val_main_v30 (F := Ideal) x0 x1 x2 x3 x4 x5
      = Cert.Spec.edgeTab (n := 800000) x1 (val_main_v13 (F := Ideal) x0 x2) (val_main_v20 (F := Ideal) x0 x3)
          (Cert.Spec.wBlock x4 0 0 (by decide)) (Cert.Spec.wBlock x4 0 64 (by decide)) (Cert.Spec.wBlock x4 0 128 (by decide))
          (Cert.Spec.bRow x5 0) := by
  funext i
  obtain ⟨p, q, rfl⟩ : ∃ (p : Fin 800000) (q : Fin 64), i = ix2 p q := ⟨i 0, i 1, eq_ix2 i⟩
  rw [val_main_v30_apply, val_main_v29_apply, val_main_v24_apply]
  unfold val_main_v21
  refine (edge_general x1 (val_main_v13 (F := Ideal) x0 x2) (val_main_v20 (F := Ideal) x0 x3) _ p
    (lidx_main_v24 (ix2 p q)) (fun k => rfl) (fun k => rfl) (fun k => val_main_v23 (F := Ideal) x4 (ridx_main_v24 (ix2 p q) k))
    (val_main_v28 (F := Ideal) x5 (ix2 p q)) _
    (by rw [val_main_call0_v0_apply, val_main_call0_cst_apply]; exact Ideal.ofBits_zero_f32)).trans ?_
  unfold Cert.Spec.edgeTab
  simp only [fun c => wgt1 x4 q c (ridx_main_v24 (ix2 p q) c) rfl rfl, bias1 x5 p q]
  rfl

/-- Layer 1's 192×64 weight matrix, cut from the stack and flattened, at (c, q) is the stack at (1, c, q). -/
theorem wgt2 (x4 : (⟨S3x192x64, .f32⟩ : BufTy).Contents (Elt Ideal)) (q : Fin 64) (c : Fin 192) (j : S192x64.Idx)
    (h0 : (j 0).val = c.val) (h1 : (j 1).val = q.val) : val_main_v62 (F := Ideal) x4 j = x4 (ix3 1 c q) := by
  rw [val_main_v62_apply, val_main_v61_apply]
  refine congrArg x4 (funext fun a => Fin.ext ?_)
  have hc := c.isLt
  have hq := q.isLt
  match a with
  | ⟨0, _⟩ => rfl
  | ⟨1, _⟩ => show ((j 0).val * 64 + (j 1).val) / 64 % 192 = c.val; omega
  | ⟨2, _⟩ => show ((j 0).val * 64 + (j 1).val) % 64 = q.val; omega

/-- Layer 1's bias row, cut from the stack and broadcast down the rows, at (p, q) is the stack at (1, q). -/
theorem bias2 (x5 : (⟨S3x64, .f32⟩ : BufTy).Contents (Elt Ideal)) (p : Fin 800000) (q : Fin 64) :
    val_main_v67 (F := Ideal) x5 (ix2 p q) = x5 (ix2 1 q) := by
  rw [val_main_v67_apply, val_main_v66_apply, val_main_v65_apply, val_main_v64_apply]
  refine congrArg x5 (funext fun a => Fin.ext ?_)
  have hq := q.isLt
  match a with
  | ⟨0, _⟩ => rfl
  | ⟨1, _⟩ => show q.val % 64 = q.val; omega

/-- Layer 1: the reference's updated edge table is the edge update of the previous edge table and the two gathered tables. -/
theorem edge2 (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S3x192x64, .f32⟩ : BufTy).Contents (Elt Ideal))
    (x5 : (⟨S3x64, .f32⟩ : BufTy).Contents (Elt Ideal)) (x6 : (⟨S3x128x64, .f32⟩ : BufTy).Contents (Elt Ideal))
    (x7 : (⟨S3x64, .f32⟩ : BufTy).Contents (Elt Ideal)) :
    val_main_v69 (F := Ideal) x0 x1 x2 x3 x4 x5 x6 x7
      = Cert.Spec.edgeTab (n := 800000) (val_main_v30 (F := Ideal) x0 x1 x2 x3 x4 x5) (val_main_v52 (F := Ideal) x0 x1 x2 x3 x4 x5 x6 x7) (val_main_v59 (F := Ideal) x0 x1 x2 x3 x4 x5 x6 x7)
          (Cert.Spec.wBlock x4 1 0 (by decide)) (Cert.Spec.wBlock x4 1 64 (by decide)) (Cert.Spec.wBlock x4 1 128 (by decide))
          (Cert.Spec.bRow x5 1) := by
  funext i
  obtain ⟨p, q, rfl⟩ : ∃ (p : Fin 800000) (q : Fin 64), i = ix2 p q := ⟨i 0, i 1, eq_ix2 i⟩
  rw [val_main_v69_apply, val_main_v68_apply, val_main_v63_apply]
  unfold val_main_v60
  refine (edge_general (val_main_v30 (F := Ideal) x0 x1 x2 x3 x4 x5) (val_main_v52 (F := Ideal) x0 x1 x2 x3 x4 x5 x6 x7) (val_main_v59 (F := Ideal) x0 x1 x2 x3 x4 x5 x6 x7) _ p
    (lidx_main_v63 (ix2 p q)) (fun k => rfl) (fun k => rfl) (fun k => val_main_v62 (F := Ideal) x4 (ridx_main_v63 (ix2 p q) k))
    (val_main_v67 (F := Ideal) x5 (ix2 p q)) _
    (by rw [val_main_call2_v0_apply, val_main_call2_cst_apply]; exact Ideal.ofBits_zero_f32)).trans ?_
  unfold Cert.Spec.edgeTab
  simp only [fun c => wgt2 x4 q c (ridx_main_v63 (ix2 p q) c) rfl rfl, bias2 x5 p q]
  rfl

/-- Layer 2's 192×64 weight matrix, cut from the stack and flattened, at (c, q) is the stack at (2, c, q). -/
theorem wgt3 (x4 : (⟨S3x192x64, .f32⟩ : BufTy).Contents (Elt Ideal)) (q : Fin 64) (c : Fin 192) (j : S192x64.Idx)
    (h0 : (j 0).val = c.val) (h1 : (j 1).val = q.val) : val_main_v101 (F := Ideal) x4 j = x4 (ix3 2 c q) := by
  rw [val_main_v101_apply, val_main_v100_apply]
  refine congrArg x4 (funext fun a => Fin.ext ?_)
  have hc := c.isLt
  have hq := q.isLt
  match a with
  | ⟨0, _⟩ => rfl
  | ⟨1, _⟩ => show ((j 0).val * 64 + (j 1).val) / 64 % 192 = c.val; omega
  | ⟨2, _⟩ => show ((j 0).val * 64 + (j 1).val) % 64 = q.val; omega

/-- Layer 2's bias row, cut from the stack and broadcast down the rows, at (p, q) is the stack at (2, q). -/
theorem bias3 (x5 : (⟨S3x64, .f32⟩ : BufTy).Contents (Elt Ideal)) (p : Fin 800000) (q : Fin 64) :
    val_main_v106 (F := Ideal) x5 (ix2 p q) = x5 (ix2 2 q) := by
  rw [val_main_v106_apply, val_main_v105_apply, val_main_v104_apply, val_main_v103_apply]
  refine congrArg x5 (funext fun a => Fin.ext ?_)
  have hq := q.isLt
  match a with
  | ⟨0, _⟩ => rfl
  | ⟨1, _⟩ => show q.val % 64 = q.val; omega

/-- Layer 2: the reference's updated edge table is the edge update of the previous edge table and the two gathered tables. -/
theorem edge3 (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S3x192x64, .f32⟩ : BufTy).Contents (Elt Ideal))
    (x5 : (⟨S3x64, .f32⟩ : BufTy).Contents (Elt Ideal)) (x6 : (⟨S3x128x64, .f32⟩ : BufTy).Contents (Elt Ideal))
    (x7 : (⟨S3x64, .f32⟩ : BufTy).Contents (Elt Ideal)) :
    val_main_v108 (F := Ideal) x0 x1 x2 x3 x4 x5 x6 x7
      = Cert.Spec.edgeTab (n := 800000) (val_main_v69 (F := Ideal) x0 x1 x2 x3 x4 x5 x6 x7) (val_main_v91 (F := Ideal) x0 x1 x2 x3 x4 x5 x6 x7) (val_main_v98 (F := Ideal) x0 x1 x2 x3 x4 x5 x6 x7)
          (Cert.Spec.wBlock x4 2 0 (by decide)) (Cert.Spec.wBlock x4 2 64 (by decide)) (Cert.Spec.wBlock x4 2 128 (by decide))
          (Cert.Spec.bRow x5 2) := by
  funext i
  obtain ⟨p, q, rfl⟩ : ∃ (p : Fin 800000) (q : Fin 64), i = ix2 p q := ⟨i 0, i 1, eq_ix2 i⟩
  rw [val_main_v108_apply, val_main_v107_apply, val_main_v102_apply]
  unfold val_main_v99
  refine (edge_general (val_main_v69 (F := Ideal) x0 x1 x2 x3 x4 x5 x6 x7) (val_main_v91 (F := Ideal) x0 x1 x2 x3 x4 x5 x6 x7) (val_main_v98 (F := Ideal) x0 x1 x2 x3 x4 x5 x6 x7) _ p
    (lidx_main_v102 (ix2 p q)) (fun k => rfl) (fun k => rfl) (fun k => val_main_v101 (F := Ideal) x4 (ridx_main_v102 (ix2 p q) k))
    (val_main_v106 (F := Ideal) x5 (ix2 p q)) _
    (by rw [val_main_call4_v0_apply, val_main_call4_cst_apply]; exact Ideal.ofBits_zero_f32)).trans ?_
  unfold Cert.Spec.edgeTab
  simp only [fun c => wgt3 x4 q c (ridx_main_v102 (ix2 p q) c) rfl rfl, bias3 x5 p q]
  rfl

end Cert.Hand.RefEdge

end
-- ==== Proof.RefNode.lean ====
/-
  The reference's node update is the specification's.  The reference lays the node row and the mean of its received
  edge rows side by side (128 entries), multiplies by layer l's 128×64 matrix, adds the bias row and takes the
  maximum with zero.  A sum over 128 = 64 + 64 positions splits into the two sums over 64 of the node-row function.
-/
import proofs.«426185_j11338713661556_1_alg».proof.Proof.RefReadP
import proofs.«426185_j11338713661556_1_alg».proof.Proof.Spec
import proofs.«426185_j11338713661556_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin

noncomputable section

namespace Cert.Hand.RefNode

open Cert.ReferenceIdeal Cert.ReferenceIdeal.ReadP Idealize.ShloMosaic Idealize.ShloMosaic.ValueIdx

/-! ## Two tables side by side, and the node update read off a 128-row product -/

/-- Two tables of 64 columns laid side by side, read in the left half, give the first table. -/
theorem concat_left {n : Nat} (X A : Cert.Spec.T2 n 64)
    (hc : Shape.Concatenates [(⟨2, ![n, 64]⟩ : Shape), ⟨2, ![n, 64]⟩] ⟨2, ![n, 128]⟩ 1) (p : Fin n) (k : Fin 64) :
    concatenate (⟨2, ![n, 128]⟩ : Shape) 1 [⟨⟨2, ![n, 64]⟩, X⟩, ⟨⟨2, ![n, 64]⟩, A⟩] hc (ix2 p (Fin.castAdd 64 k)) = X (ix2 p k) :=
  concatenate_pair_apply_left 1 X A hc _ rfl (ix2 p k) (fun b => match b with | ⟨0, _⟩ => rfl | ⟨1, _⟩ => rfl)

/-- Read in the right half, they give the second table. -/
theorem concat_right {n : Nat} (X A : Cert.Spec.T2 n 64)
    (hc : Shape.Concatenates [(⟨2, ![n, 64]⟩ : Shape), ⟨2, ![n, 64]⟩] ⟨2, ![n, 128]⟩ 1) (p : Fin n) (k : Fin 64) :
    concatenate (⟨2, ![n, 128]⟩ : Shape) 1 [⟨⟨2, ![n, 64]⟩, X⟩, ⟨⟨2, ![n, 64]⟩, A⟩] hc (ix2 p (Fin.natAdd 64 k)) = A (ix2 p k) :=
  concatenate_pair_apply_right 1 X A hc _ rfl rfl (ix2 p k)
    (fun b hb => match b, hb with | ⟨0, _⟩, _ => rfl | ⟨1, _⟩, hb => absurd rfl hb)
    (by show k.val + 64 = 64 + k.val; omega)

/-- A table whose entry (p, q) is the maximum with zero of the side-by-side rows against a 128-row matrix plus a bias
    entry, the matrix being layer l's and the bias layer l's, is the node update of the two tables. -/
theorem nodeTab_of_reads {n : Nat} (X A : Cert.Spec.T2 n 64)
    (hc : Shape.Concatenates [(⟨2, ![n, 64]⟩ : Shape), ⟨2, ![n, 64]⟩] ⟨2, ![n, 128]⟩ 1)
    (W6 : Cert.Spec.T3 3 128 64) (B7 : Cert.Spec.T2 3 64) (l : Fin 3)
    (Wl : Cert.Spec.T2 128 64) (hW : ∀ (k : Fin 128) (q : Fin 64), Wl (ix2 k q) = W6 (ix3 l k q))
    (Bl : Cert.Spec.T2 n 64) (hB : ∀ (p : Fin n) (q : Fin 64), Bl (ix2 p q) = B7 (ix2 l q))
    (V : Cert.Spec.T2 n 64)
    (hV : ∀ (p : Fin n) (q : Fin 64), V (ix2 p q) =
        max ((∑ k : Fin 128, concatenate (⟨2, ![n, 128]⟩ : Shape) 1 [⟨⟨2, ![n, 64]⟩, X⟩, ⟨⟨2, ![n, 64]⟩, A⟩] hc (ix2 p k) * Wl (ix2 k q))
          + Bl (ix2 p q)) 0) :
    V = Cert.Spec.nodeTab X A (Cert.Spec.wBlock W6 l 0 (by decide)) (Cert.Spec.wBlock W6 l 64 (by decide)) (Cert.Spec.bRow B7 l) := by
  funext i
  obtain ⟨p, q, rfl⟩ : ∃ (p : Fin n) (q : Fin 64), i = ix2 p q := ⟨i 0, i 1, eq_ix2 i⟩
  rw [hV p q]
  unfold Cert.Spec.nodeTab Cert.Spec.nodeRow Cert.Spec.wBlock Cert.Spec.bRow
  have hs : ∀ f : Fin 128 → EReal, ∑ k : Fin 128, f k
      = ∑ k : Fin 64, f (Fin.castAdd 64 k) + ∑ k : Fin 64, f (Fin.natAdd 64 k) :=
    fun f => Fin.sum_univ_add (a := 64) (b := 64) f
  rw [hs, hB]
  refine congrArg₂ max (congrArg₂ (· + ·) (congrArg₂ (· + ·)
    (Finset.sum_congr rfl fun k _ => ?_) (Finset.sum_congr rfl fun k _ => ?_)) rfl) rfl
  · rw [concat_left, hW]
    refine congrArg (fun t => X (ix2 p k) * W6 (ix3 l t q)) (Fin.ext ?_)
    show k.val = 0 + k.val
    omega
  · rw [concat_right, hW]
    rfl

/-! ## The three layers of the reference -/

/-- Layer 0: the reference's updated node table is the node update of the input node table and the first aggregated table. -/
theorem node1 (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S3x192x64, .f32⟩ : BufTy).Contents (Elt Ideal))
    (x5 : (⟨S3x64, .f32⟩ : BufTy).Contents (Elt Ideal)) (x6 : (⟨S3x128x64, .f32⟩ : BufTy).Contents (Elt Ideal))
    (x7 : (⟨S3x64, .f32⟩ : BufTy).Contents (Elt Ideal)) :
    val_main_v45 (F := Ideal) x0 x1 x2 x3 x4 x5 x6 x7
      = Cert.Spec.nodeTab (n := 50000) x0 (val_main_v35 (F := Ideal) x0 x1 x2 x3 x4 x5)
          (Cert.Spec.wBlock x6 0 0 (by decide)) (Cert.Spec.wBlock x6 0 64 (by decide)) (Cert.Spec.bRow x7 0) := by
  refine nodeTab_of_reads x0 (val_main_v35 (F := Ideal) x0 x1 x2 x3 x4 x5) Cert.ReferenceIdeal.Gen.concatenates_S50000x64_S50000x64_S50000x128_d1 x6 x7 0
    (val_main_v38 (F := Ideal) x6) (fun k q => ?_) (val_main_v43 (F := Ideal) x7) (fun p q => ?_) _ (fun p q => ?_)
  · -- the layer's matrix: the reshaped slice at (k, q) is the stacked weights at (l, k, q)
    have hk : k.val < 128 := k.isLt
    have hq : q.val < 64 := q.isLt
    rw [val_main_v38_apply, val_main_v37_apply]
    refine congrArg x6 (funext fun a => Fin.ext ?_)
    match a with
    | ⟨0, _⟩ => rfl
    | ⟨1, _⟩ => show (k.val * 64 + q.val) / 64 % 128 = k.val; omega
    | ⟨2, _⟩ => show (k.val * 64 + q.val) % 64 = q.val; omega
  · -- the layer's bias row, broadcast down the rows, at (p, q) is the stacked biases at (l, q)
    have hq : q.val < 64 := q.isLt
    rw [val_main_v43_apply, val_main_v42_apply, val_main_v41_apply, val_main_v40_apply]
    refine congrArg x7 (funext fun a => Fin.ext ?_)
    match a with
    | ⟨0, _⟩ => rfl
    | ⟨1, _⟩ => show q.val % 64 = q.val; omega
  · -- the maximum with zero of the product's entry plus the bias entry
    rw [val_main_v45_apply, val_main_v44_apply, val_main_v39_apply, val_main_call1_v0_apply, val_main_call1_cst_apply]
    show (max (_ + _) _ : EReal) = max (_ + _) 0
    refine congrArg₂ max (congrArg₂ (· + ·) (Finset.sum_congr rfl fun k _ => ?_) rfl) Ideal.ofBits_zero_f32
    have hl : lidx_main_v39 (ix2 p q) k = ix2 p k :=
      funext fun a => Fin.ext (by match a with | ⟨0, _⟩ => rfl | ⟨1, _⟩ => rfl)
    have hr : ridx_main_v39 (ix2 p q) k = ix2 k q :=
      funext fun a => Fin.ext (by match a with | ⟨0, _⟩ => rfl | ⟨1, _⟩ => rfl)
    rw [hl, hr]
    rfl

/-- Layer 1: the same of layer 0's node table and the second aggregated table. -/
theorem node2 (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S3x192x64, .f32⟩ : BufTy).Contents (Elt Ideal))
    (x5 : (⟨S3x64, .f32⟩ : BufTy).Contents (Elt Ideal)) (x6 : (⟨S3x128x64, .f32⟩ : BufTy).Contents (Elt Ideal))
    (x7 : (⟨S3x64, .f32⟩ : BufTy).Contents (Elt Ideal)) :
    val_main_v84 (F := Ideal) x0 x1 x2 x3 x4 x5 x6 x7
      = Cert.Spec.nodeTab (n := 50000) (val_main_v45 (F := Ideal) x0 x1 x2 x3 x4 x5 x6 x7) (val_main_v74 (F := Ideal) x0 x1 x2 x3 x4 x5 x6 x7)
          (Cert.Spec.wBlock x6 1 0 (by decide)) (Cert.Spec.wBlock x6 1 64 (by decide)) (Cert.Spec.bRow x7 1) := by
  refine nodeTab_of_reads (val_main_v45 (F := Ideal) x0 x1 x2 x3 x4 x5 x6 x7) (val_main_v74 (F := Ideal) x0 x1 x2 x3 x4 x5 x6 x7) Cert.ReferenceIdeal.Gen.concatenates_S50000x64_S50000x64_S50000x128_d1 x6 x7 1
    (val_main_v77 (F := Ideal) x6) (fun k q => ?_) (val_main_v82 (F := Ideal) x7) (fun p q => ?_) _ (fun p q => ?_)
  · -- the layer's matrix: the reshaped slice at (k, q) is the stacked weights at (l, k, q)
    have hk : k.val < 128 := k.isLt
    have hq : q.val < 64 := q.isLt
    rw [val_main_v77_apply, val_main_v76_apply]
    refine congrArg x6 (funext fun a => Fin.ext ?_)
    match a with
    | ⟨0, _⟩ => rfl
    | ⟨1, _⟩ => show (k.val * 64 + q.val) / 64 % 128 = k.val; omega
    | ⟨2, _⟩ => show (k.val * 64 + q.val) % 64 = q.val; omega
  · -- the layer's bias row, broadcast down the rows, at (p, q) is the stacked biases at (l, q)
    have hq : q.val < 64 := q.isLt
    rw [val_main_v82_apply, val_main_v81_apply, val_main_v80_apply, val_main_v79_apply]
    refine congrArg x7 (funext fun a => Fin.ext ?_)
    match a with
    | ⟨0, _⟩ => rfl
    | ⟨1, _⟩ => show q.val % 64 = q.val; omega
  · -- the maximum with zero of the product's entry plus the bias entry
    rw [val_main_v84_apply, val_main_v83_apply, val_main_v78_apply, val_main_call3_v0_apply, val_main_call3_cst_apply]
    show (max (_ + _) _ : EReal) = max (_ + _) 0
    refine congrArg₂ max (congrArg₂ (· + ·) (Finset.sum_congr rfl fun k _ => ?_) rfl) Ideal.ofBits_zero_f32
    have hl : lidx_main_v78 (ix2 p q) k = ix2 p k :=
      funext fun a => Fin.ext (by match a with | ⟨0, _⟩ => rfl | ⟨1, _⟩ => rfl)
    have hr : ridx_main_v78 (ix2 p q) k = ix2 k q :=
      funext fun a => Fin.ext (by match a with | ⟨0, _⟩ => rfl | ⟨1, _⟩ => rfl)
    rw [hl, hr]
    rfl

/-- Layer 2: the same of layer 1's node table and the third aggregated table. -/
theorem node3 (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S3x192x64, .f32⟩ : BufTy).Contents (Elt Ideal))
    (x5 : (⟨S3x64, .f32⟩ : BufTy).Contents (Elt Ideal)) (x6 : (⟨S3x128x64, .f32⟩ : BufTy).Contents (Elt Ideal))
    (x7 : (⟨S3x64, .f32⟩ : BufTy).Contents (Elt Ideal)) :
    val_main_v123 (F := Ideal) x0 x1 x2 x3 x4 x5 x6 x7
      = Cert.Spec.nodeTab (n := 50000) (val_main_v84 (F := Ideal) x0 x1 x2 x3 x4 x5 x6 x7) (val_main_v113 (F := Ideal) x0 x1 x2 x3 x4 x5 x6 x7)
          (Cert.Spec.wBlock x6 2 0 (by decide)) (Cert.Spec.wBlock x6 2 64 (by decide)) (Cert.Spec.bRow x7 2) := by
  refine nodeTab_of_reads (val_main_v84 (F := Ideal) x0 x1 x2 x3 x4 x5 x6 x7) (val_main_v113 (F := Ideal) x0 x1 x2 x3 x4 x5 x6 x7) Cert.ReferenceIdeal.Gen.concatenates_S50000x64_S50000x64_S50000x128_d1 x6 x7 2
    (val_main_v116 (F := Ideal) x6) (fun k q => ?_) (val_main_v121 (F := Ideal) x7) (fun p q => ?_) _ (fun p q => ?_)
  · -- the layer's matrix: the reshaped slice at (k, q) is the stacked weights at (l, k, q)
    have hk : k.val < 128 := k.isLt
    have hq : q.val < 64 := q.isLt
    rw [val_main_v116_apply, val_main_v115_apply]
    refine congrArg x6 (funext fun a => Fin.ext ?_)
    match a with
    | ⟨0, _⟩ => rfl
    | ⟨1, _⟩ => show (k.val * 64 + q.val) / 64 % 128 = k.val; omega
    | ⟨2, _⟩ => show (k.val * 64 + q.val) % 64 = q.val; omega
  · -- the layer's bias row, broadcast down the rows, at (p, q) is the stacked biases at (l, q)
    have hq : q.val < 64 := q.isLt
    rw [val_main_v121_apply, val_main_v120_apply, val_main_v119_apply, val_main_v118_apply]
    refine congrArg x7 (funext fun a => Fin.ext ?_)
    match a with
    | ⟨0, _⟩ => rfl
    | ⟨1, _⟩ => show q.val % 64 = q.val; omega
  · -- the maximum with zero of the product's entry plus the bias entry
    rw [val_main_v123_apply, val_main_v122_apply, val_main_v117_apply, val_main_call5_v0_apply, val_main_call5_cst_apply]
    show (max (_ + _) _ : EReal) = max (_ + _) 0
    refine congrArg₂ max (congrArg₂ (· + ·) (Finset.sum_congr rfl fun k _ => ?_) rfl) Ideal.ofBits_zero_f32
    have hl : lidx_main_v117 (ix2 p q) k = ix2 p k :=
      funext fun a => Fin.ext (by match a with | ⟨0, _⟩ => rfl | ⟨1, _⟩ => rfl)
    have hr : ridx_main_v117 (ix2 p q) k = ix2 k q :=
      funext fun a => Fin.ext (by match a with | ⟨0, _⟩ => rfl | ⟨1, _⟩ => rfl)
    rw [hl, hr]
    rfl

end Cert.Hand.RefNode

end
-- ==== Proof.RefFinal.lean ====
/-
  The reference's normalisation, perceptron and projection are the specification's: row by row the mean (the sum
  over the row's 64 entries, over 64), the centred row, its variance, the inverse root of variance plus epsilon,
  gamma and beta, then the three products with their biases and the relu after the first.

  Each stage is read at an index over a variable node table N (the last node table of the reference, never opened):
  the mean column, the centred table, the variance column, the normalised table, the hidden table, the output table of
  the perceptron and the result column.  The reference's two row sums start from the zero word, which adds nothing; its
  broadcasts of a column along a row, and of a row down the rows, read the column at the row and the row at the column.
-/
import proofs.«426185_j11338713661556_1_alg».proof.Proof.RefReadP
import proofs.«426185_j11338713661556_1_alg».proof.Proof.Spec
import proofs.«426185_j11338713661556_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.Hand.RefFinal

open Cert.ReferenceIdeal Cert.ReferenceIdeal.ReadP Idealize.ShloMosaic Idealize.ShloMosaic.ValueIdx

/-! ## Indices named by their coordinates -/

/-- An index of a rank-2 shape is the pair of its coordinates. -/
theorem idx2_eq {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- An index of a rank-1 shape is its one coordinate. -/
theorem idx1_eq {n : Nat} (j : (⟨1, ![n]⟩ : Shape).Idx) (a : Fin n) (h0 : (j 0).val = a.val) : j = ix1 a := by
  funext d
  match d with
  | ⟨0, _⟩ => exact Fin.ext h0

section Final

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal)) (x4 : (⟨S3x192x64, .f32⟩ : BufTy).Contents (Elt Ideal))
  (x5 : (⟨S3x64, .f32⟩ : BufTy).Contents (Elt Ideal)) (x6 : (⟨S3x128x64, .f32⟩ : BufTy).Contents (Elt Ideal))
  (x7 : (⟨S3x64, .f32⟩ : BufTy).Contents (Elt Ideal)) (x8 x9 : (⟨S64, .f32⟩ : BufTy).Contents (Elt Ideal))
  (x10 : (⟨S64x128, .f32⟩ : BufTy).Contents (Elt Ideal)) (x11 : (⟨S128, .f32⟩ : BufTy).Contents (Elt Ideal))
  (x12 : (⟨S128x64, .f32⟩ : BufTy).Contents (Elt Ideal)) (x13 : (⟨S64, .f32⟩ : BufTy).Contents (Elt Ideal))
  (x14 : (⟨S64x1, .f32⟩ : BufTy).Contents (Elt Ideal)) (x15 : (⟨S1, .f32⟩ : BufTy).Contents (Elt Ideal))
  {N : (⟨S50000x64, .f32⟩ : BufTy).Contents (Elt Ideal)}

/-- The mean column: at row p the sum of the node row's 64 entries, over 64. -/
theorem mean_col (hN : val_main_v123 (F := Ideal) x0 x1 x2 x3 x4 x5 x6 x7 = N) (i : S50000x1.Idx) :
    val_main_v127 (F := Ideal) x0 x1 x2 x3 x4 x5 x6 x7 i = Cert.Spec.rowMean (fun k => N (ix2 (i 0) k)) := by
  rw [val_main_v127_apply, val_main_v125_apply, val_main_v126_apply, val_main_cst_17_apply, val_main_v124_apply,
    val_main_cst_16_apply, hN, Ideal.hostDivf_def, Ideal.ofBits_def, Ideal.ofBits_def, Ideal.ofBits_zero_f32, zero_add]
  refine congrArg (fun s => Ideal.div s _) (Finset.sum_congr rfl fun k _ => congrArg N ?_)
  exact idx2_eq _ _ _ rfl rfl

/-- The centred table: each entry less its row's mean. -/
theorem centred (hN : val_main_v123 (F := Ideal) x0 x1 x2 x3 x4 x5 x6 x7 = N) (i : S50000x64.Idx) :
    val_main_v129 (F := Ideal) x0 x1 x2 x3 x4 x5 x6 x7 i = N i - Cert.Spec.rowMean (fun k => N (ix2 (i 0) k)) := by
  rw [val_main_v129_apply, val_main_v128_apply, mean_col x0 x1 x2 x3 x4 x5 x6 x7 hN, hN, Ideal.subf_def]
  rfl

/-- The variance column: at row p the sum of the squared centred entries, over 64. -/
theorem var_col (hN : val_main_v123 (F := Ideal) x0 x1 x2 x3 x4 x5 x6 x7 = N) (i : S50000x1.Idx) :
    val_main_v134 (F := Ideal) x0 x1 x2 x3 x4 x5 x6 x7 i
      = Ideal.div (∑ k : Fin 64, (N (ix2 (i 0) k) - Cert.Spec.rowMean (fun k => N (ix2 (i 0) k)))
          * (N (ix2 (i 0) k) - Cert.Spec.rowMean (fun k => N (ix2 (i 0) k)))) (Ideal.ofBits .f32 0x42800000#32) := by
  rw [val_main_v134_apply, val_main_v132_apply, val_main_v133_apply, val_main_cst_19_apply, val_main_v131_apply,
    val_main_cst_18_apply, Ideal.hostDivf_def, Ideal.ofBits_def, Ideal.ofBits_def, Ideal.ofBits_zero_f32, zero_add]
  refine congrArg (fun s => Ideal.div s _) (Finset.sum_congr rfl fun k _ => ?_)
  rw [val_main_v130_apply, centred x0 x1 x2 x3 x4 x5 x6 x7 hN, Ideal.mulf_def,
    show idx_main_v131 (idx_main_v132 i) k = ix2 (i 0) k from idx2_eq _ _ _ rfl rfl]
  rfl

/-- The normalised table: the centred entry times the inverse root of variance plus epsilon, times gamma, plus beta. -/
theorem norm_tab (hN : val_main_v123 (F := Ideal) x0 x1 x2 x3 x4 x5 x6 x7 = N) (i : S50000x64.Idx) :
    val_main_v147 (F := Ideal) x0 x1 x2 x3 x4 x5 x6 x7 x8 x9 i
      = Cert.Spec.normRow (fun k => N (ix2 (i 0) k)) (fun k => Cert.Spec.asRow (n := 64) x8 (ix2 0 k))
          (fun k => Cert.Spec.asRow (n := 64) x9 (ix2 0 k)) (i 1) := by
  rw [val_main_v147_apply, val_main_v144_apply, val_main_v141_apply, val_main_v136_apply, val_main_v135_apply,
    mean_col x0 x1 x2 x3 x4 x5 x6 x7 hN, val_main_v140_apply, val_main_v139_apply, val_main_v138_apply,
    var_col x0 x1 x2 x3 x4 x5 x6 x7 hN, val_main_v137_apply, val_main_cst_20_apply, val_main_v143_apply,
    val_main_v142_apply, val_main_v146_apply, val_main_v145_apply, hN, Ideal.addf_def, Ideal.mulf_def, Ideal.mulf_def,
    Ideal.subf_def, Ideal.addf_def, Ideal.hostUnary_rsqrt_def, Ideal.ofBits_def,
    show idx_main_v142 (idx_main_v143 i) = ix1 (i 1) from idx1_eq _ _ rfl,
    show idx_main_v145 (idx_main_v146 i) = ix1 (i 1) from idx1_eq _ _ rfl]
  conv_lhs => rw [eq_ix2 i]
  rfl

/-- The hidden table: the normalised row against a column of the first weight matrix, plus bias, relu. -/
theorem hid_tab (hN : val_main_v123 (F := Ideal) x0 x1 x2 x3 x4 x5 x6 x7 = N) (i : S50000x128.Idx) :
    val_main_v152 (F := Ideal) x0 x1 x2 x3 x4 x5 x6 x7 x8 x9 x10 x11 i
      = Cert.Spec.hidRow (fun k => N (ix2 (i 0) k)) (fun k => Cert.Spec.asRow (n := 64) x8 (ix2 0 k))
          (fun k => Cert.Spec.asRow (n := 64) x9 (ix2 0 k)) (fun j u => x10 (ix2 j u))
          (fun u => Cert.Spec.asRow (n := 128) x11 (ix2 0 u)) (i 1) := by
  rw [val_main_v152_apply, val_main_v151_apply, val_main_v148_apply, val_main_call6_v0_apply, val_main_call6_cst_apply,
    val_main_v150_apply, val_main_v149_apply, Ideal.maximumf_def, Ideal.addf_def, Ideal.ofBits_def, Ideal.ofBits_zero_f32,
    show idx_main_v149 (idx_main_v150 i) = ix1 (i 1) from idx1_eq _ _ rfl]
  unfold Cert.Spec.hidRow
  refine congrArg (fun s => max s (0 : EReal)) (congrArg₂ (· + ·) (Finset.sum_congr rfl fun k _ => ?_) rfl)
  rw [norm_tab x0 x1 x2 x3 x4 x5 x6 x7 x8 x9 hN, show ridx_main_v148 i k = ix2 k (i 1) from idx2_eq _ _ _ rfl rfl]
  rfl

/-- The output table of the perceptron: the hidden row against a column of the second weight matrix, plus bias. -/
theorem out_tab (hN : val_main_v123 (F := Ideal) x0 x1 x2 x3 x4 x5 x6 x7 = N) (i : S50000x64.Idx) :
    val_main_v156 (F := Ideal) x0 x1 x2 x3 x4 x5 x6 x7 x8 x9 x10 x11 x12 x13 i
      = Cert.Spec.mlpRow (fun k => N (ix2 (i 0) k)) (fun k => Cert.Spec.asRow (n := 64) x8 (ix2 0 k))
          (fun k => Cert.Spec.asRow (n := 64) x9 (ix2 0 k)) (fun j u => x10 (ix2 j u))
          (fun u => Cert.Spec.asRow (n := 128) x11 (ix2 0 u)) (fun u v => x12 (ix2 u v))
          (fun v => Cert.Spec.asRow (n := 64) x13 (ix2 0 v)) (i 1) := by
  rw [val_main_v156_apply, val_main_v153_apply, val_main_v155_apply, val_main_v154_apply, Ideal.addf_def,
    show idx_main_v154 (idx_main_v155 i) = ix1 (i 1) from idx1_eq _ _ rfl]
  unfold Cert.Spec.mlpRow
  refine congrArg₂ (· + ·) (Finset.sum_congr rfl fun k _ => ?_) rfl
  rw [hid_tab x0 x1 x2 x3 x4 x5 x6 x7 x8 x9 x10 x11 hN, show ridx_main_v153 i k = ix2 k (i 1) from idx2_eq _ _ _ rfl rfl]
  rfl

/-- The result column: the output row against the projection column, plus its bias. -/
theorem res_col (hN : val_main_v123 (F := Ideal) x0 x1 x2 x3 x4 x5 x6 x7 = N) (i : S50000x1.Idx) :
    val_main_v160 (F := Ideal) x0 x1 x2 x3 x4 x5 x6 x7 x8 x9 x10 x11 x12 x13 x14 x15 i
      = Cert.Spec.finalRow (fun k => N (ix2 (i 0) k)) (fun k => Cert.Spec.asRow (n := 64) x8 (ix2 0 k))
          (fun k => Cert.Spec.asRow (n := 64) x9 (ix2 0 k)) (fun j u => x10 (ix2 j u))
          (fun u => Cert.Spec.asRow (n := 128) x11 (ix2 0 u)) (fun u v => x12 (ix2 u v))
          (fun v => Cert.Spec.asRow (n := 64) x13 (ix2 0 v)) (fun v => x14 (ix2 v 0))
          (Cert.Spec.asRow (n := 1) x15 (ix2 0 0)) := by
  rw [val_main_v160_apply, val_main_v157_apply, val_main_v159_apply, val_main_v158_apply, Ideal.addf_def,
    show idx_main_v158 (idx_main_v159 i) = ix1 0 from idx1_eq _ _ rfl]
  unfold Cert.Spec.finalRow
  refine congrArg₂ (· + ·) (Finset.sum_congr rfl fun k _ => ?_) rfl
  have h1 : (i 1).val < 1 := (i 1).isLt
  rw [out_tab x0 x1 x2 x3 x4 x5 x6 x7 x8 x9 x10 x11 x12 x13 hN,
    show ridx_main_v157 i k = ix2 k 0 from idx2_eq _ _ _ rfl (by show (i 1).val = 0; omega)]
  rfl

/-- The reference's last stage is the specification's normalisation, perceptron and projection of the last node table. -/
theorem final :
    val_main_v160 (F := Ideal) x0 x1 x2 x3 x4 x5 x6 x7 x8 x9 x10 x11 x12 x13 x14 x15
      = Cert.Spec.finalTab (n := 50000) (val_main_v123 (F := Ideal) x0 x1 x2 x3 x4 x5 x6 x7) (Cert.Spec.asRow x8)
          (Cert.Spec.asRow x9) x10 (Cert.Spec.asRow x11) x12 (Cert.Spec.asRow x13) x14 (Cert.Spec.asRow x15) := by
  funext i
  rw [res_col x0 x1 x2 x3 x4 x5 x6 x7 x8 x9 x10 x11 x12 x13 x14 x15 rfl i]
  rfl

end Final

end Cert.Hand.RefFinal

end
-- ==== Proof.RefChain.lean ====
/-
  The reference's result is the pipeline's.  Stage by stage the reference's tables are the pipeline's: its gathers,
  its received-edge counts and its averaging are the pipeline's own host operations, and its three dense stages are
  the specification's row functions (the three modules on the reference's stages).
-/
import proofs.«426185_j11338713661556_1_alg».proof.Proof.RefReadP
import proofs.«426185_j11338713661556_1_alg».proof.Proof.RefEdge
import proofs.«426185_j11338713661556_1_alg».proof.Proof.RefNode
import proofs.«426185_j11338713661556_1_alg».proof.Proof.RefFinal
import proofs.«426185_j11338713661556_1_alg».proof.Proof.Pipe
import proofs.«426185_j11338713661556_1_alg».proof.Proof.Gen.KernelIdeal

noncomputable section

namespace Cert.Hand.RefChain

open Cert.ReferenceIdeal Cert.ReferenceIdeal.ReadP Idealize.ShloMosaic

abbrev TN : Type := (⟨S50000x64, .f32⟩ : BufTy).Contents (Elt Ideal)
abbrev TE : Type := (⟨S800000x64, .f32⟩ : BufTy).Contents (Elt Ideal)
abbrev TI : Type := (⟨S800000, .i32⟩ : BufTy).Contents (Elt Ideal)
abbrev TC : Type := (⟨S800000x1, .i32⟩ : BufTy).Contents (Elt Ideal)
abbrev TWe : Type := (⟨S3x192x64, .f32⟩ : BufTy).Contents (Elt Ideal)
abbrev TWn : Type := (⟨S3x128x64, .f32⟩ : BufTy).Contents (Elt Ideal)
abbrev TB : Type := (⟨S3x64, .f32⟩ : BufTy).Contents (Elt Ideal)

/-! ## The host operations both programs share

Each of the reference's index columns, gathers, counts and averages is the pipeline's operation of the same name: the
same operations on the same operands, the two programs' dimension records having the same fields. -/

/-- The reference's columns of start indices are the pipeline's: a negative index moved up by the number of nodes. -/
theorem wrap12 (a : TI) : val_main_v12 (F := Ideal) a = Pipe.wrapCol a := rfl
theorem wrap19 (a : TI) : val_main_v19 (F := Ideal) a = Pipe.wrapCol a := rfl
theorem wrap51 (a : TI) : val_main_v51 (F := Ideal) a = Pipe.wrapCol a := rfl
theorem wrap58 (a : TI) : val_main_v58 (F := Ideal) a = Pipe.wrapCol a := rfl
theorem wrap90 (a : TI) : val_main_v90 (F := Ideal) a = Pipe.wrapCol a := rfl
theorem wrap97 (a : TI) : val_main_v97 (F := Ideal) a = Pipe.wrapCol a := rfl

/-- A gather of node rows at a wrapped index column is the pipeline's gather. -/
theorem rows_of (N : TN) (a : TI) (col : TC) (h : col = Pipe.wrapCol a) :
    Host.gather gather_S50000x64_S800000x1_S800000x64_1_0_n_n_0_1_164 N col = Pipe.rows N a := by
  subst h; rfl

/-- The sender's and the receiver's node rows before the first layer. -/
theorem v13_eq (x0 : TN) (x2 : TI) : val_main_v13 (F := Ideal) x0 x2 = Pipe.rows x0 x2 :=
  rows_of x0 x2 _ (wrap12 x2)
theorem v20_eq (x0 : TN) (x3 : TI) : val_main_v20 (F := Ideal) x0 x3 = Pipe.rows x0 x3 :=
  rows_of x0 x3 _ (wrap19 x3)

/-- Before the second layer, of the node table after the first. -/
theorem v52_eq (x0 : TN) (x1 : TE) (x2 x3 : TI) (x4 : TWe) (x5 : TB) (x6 : TWn) (x7 : TB) :
    val_main_v52 (F := Ideal) x0 x1 x2 x3 x4 x5 x6 x7 = Pipe.rows (val_main_v45 (F := Ideal) x0 x1 x2 x3 x4 x5 x6 x7) x2 :=
  rows_of _ x2 _ (wrap51 x2)
theorem v59_eq (x0 : TN) (x1 : TE) (x2 x3 : TI) (x4 : TWe) (x5 : TB) (x6 : TWn) (x7 : TB) :
    val_main_v59 (F := Ideal) x0 x1 x2 x3 x4 x5 x6 x7 = Pipe.rows (val_main_v45 (F := Ideal) x0 x1 x2 x3 x4 x5 x6 x7) x3 :=
  rows_of _ x3 _ (wrap58 x3)

/-- Before the third layer, of the node table after the second. -/
theorem v91_eq (x0 : TN) (x1 : TE) (x2 x3 : TI) (x4 : TWe) (x5 : TB) (x6 : TWn) (x7 : TB) :
    val_main_v91 (F := Ideal) x0 x1 x2 x3 x4 x5 x6 x7 = Pipe.rows (val_main_v84 (F := Ideal) x0 x1 x2 x3 x4 x5 x6 x7) x2 :=
  rows_of _ x2 _ (wrap90 x2)
theorem v98_eq (x0 : TN) (x1 : TE) (x2 x3 : TI) (x4 : TWe) (x5 : TB) (x6 : TWn) (x7 : TB) :
    val_main_v98 (F := Ideal) x0 x1 x2 x3 x4 x5 x6 x7 = Pipe.rows (val_main_v84 (F := Ideal) x0 x1 x2 x3 x4 x5 x6 x7) x3 :=
  rows_of _ x3 _ (wrap97 x3)

/-- The number of edges each node receives, at least one. -/
theorem v6_eq (x3 : TI) : val_main_v6 (F := Ideal) x3 = Pipe.cnt x3 := rfl

/-- A scatter-add of edge rows into zeros at the receiver column, over the broadcast count column, is the pipeline's
    mean of received edge rows. -/
theorem agg_of (x3 : TI) (E : TE) (z : TN) (col : TC) (d : TN)
    (hz : z = val_main_v31 (F := Ideal)) (hcol : col = val_main_v32 (F := Ideal) x3) (hd : d = val_main_v34 (F := Ideal) x3) :
    Host.divf (Host.scatterAdd scatter_S50000x64_S800000x1_S800000x64_1_0_0_1 z col E) d = Pipe.agg x3 E := by
  subst hz hcol hd; rfl

theorem v35_eq (x0 : TN) (x1 : TE) (x2 x3 : TI) (x4 : TWe) (x5 : TB) :
    val_main_v35 (F := Ideal) x0 x1 x2 x3 x4 x5 = Pipe.agg x3 (val_main_v30 (F := Ideal) x0 x1 x2 x3 x4 x5) :=
  agg_of x3 _ _ _ _ rfl rfl rfl
theorem v74_eq (x0 : TN) (x1 : TE) (x2 x3 : TI) (x4 : TWe) (x5 : TB) (x6 : TWn) (x7 : TB) :
    val_main_v74 (F := Ideal) x0 x1 x2 x3 x4 x5 x6 x7 = Pipe.agg x3 (val_main_v69 (F := Ideal) x0 x1 x2 x3 x4 x5 x6 x7) :=
  agg_of x3 _ _ _ _ rfl rfl rfl
theorem v113_eq (x0 : TN) (x1 : TE) (x2 x3 : TI) (x4 : TWe) (x5 : TB) (x6 : TWn) (x7 : TB) :
    val_main_v113 (F := Ideal) x0 x1 x2 x3 x4 x5 x6 x7 = Pipe.agg x3 (val_main_v108 (F := Ideal) x0 x1 x2 x3 x4 x5 x6 x7) :=
  agg_of x3 _ _ _ _ rfl rfl rfl

/-! ## The six tables, layer by layer -/

variable (I : Cert.Hand.Pipe.Inputs)

/-- The edge table after the first layer. -/
theorem rE1 : val_main_v30 (F := Ideal) I.nodes I.edges I.snd I.rcv I.We I.be = Pipe.E1 I := by
  rw [Cert.Hand.RefEdge.edge1, v13_eq, v20_eq]
  rfl

/-- The node table after the first layer. -/
theorem rN1 : val_main_v45 (F := Ideal) I.nodes I.edges I.snd I.rcv I.We I.be I.Wn I.bn = Pipe.N1 I := by
  rw [Cert.Hand.RefNode.node1, v35_eq, rE1 I]
  rfl

/-- The edge table after the second layer. -/
theorem rE2 : val_main_v69 (F := Ideal) I.nodes I.edges I.snd I.rcv I.We I.be I.Wn I.bn = Pipe.E2 I := by
  rw [Cert.Hand.RefEdge.edge2, v52_eq, v59_eq, rN1 I, rE1 I]
  rfl

/-- The node table after the second layer. -/
theorem rN2 : val_main_v84 (F := Ideal) I.nodes I.edges I.snd I.rcv I.We I.be I.Wn I.bn = Pipe.N2 I := by
  rw [Cert.Hand.RefNode.node2, v74_eq, rE2 I, rN1 I]
  rfl

/-- The edge table after the third layer. -/
theorem rE3 : val_main_v108 (F := Ideal) I.nodes I.edges I.snd I.rcv I.We I.be I.Wn I.bn = Pipe.E3 I := by
  rw [Cert.Hand.RefEdge.edge3, v91_eq, v98_eq, rN2 I, rE2 I]
  rfl

/-- The node table after the third layer. -/
theorem rN3 : val_main_v123 (F := Ideal) I.nodes I.edges I.snd I.rcv I.We I.be I.Wn I.bn = Pipe.N3 I := by
  rw [Cert.Hand.RefNode.node3, v113_eq, rE3 I, rN2 I]
  rfl

/-- The reference's result column, as a function of the sixteen arrays, is the pipeline's result. -/
theorem result_eq :
    val_main_v160 (F := Ideal) I.nodes I.edges I.snd I.rcv I.We I.be I.Wn I.bn I.gamma I.beta I.W1 I.b1 I.W2 I.b2 I.Wp I.bp
      = Cert.Hand.Pipe.result I := by
  rw [Cert.Hand.RefFinal.final, rN3 I]
  rfl

end Cert.Hand.RefChain

end
-- ==== Proof.lean ====
/-
  A three-layer graph network on 50000 nodes and 800000 edges of feature width 64, followed by a normalisation, a
  two-layer perceptron and a projection to one number per node: the kernel program (seven tiled calls with host
  gathers and scatter-means between them) against the plain reference.

  Both programs compute one function of the sixteen input arrays (the pipeline).  The dense stages are row
  functions: an updated edge row is relu (e·A + s·B + r·C + b) for the edge row e, its sender's node row s and its
  receiver's r, which the kernel computes as three 64-column products per block of 4000 rows and the reference as
  one 192-column product of the three rows laid side by side — the same sum, split in three; likewise the node
  update (two products against one 128-column product) and the last stage, computed row by row alike.  A row's
  value reads no other row, so a table computed block of rows by block of rows is the table computed at once.
  The gathers of node rows, the per-node count of received edges and the averaging of received edge rows are the
  same host operations in both programs.  The kernel's gather fills a row with a NaN word where the index word is
  out of range, the reference's clamps: under the precondition every index word is in range and the two agree.
  No law of arithmetic beyond commutativity and associativity of sums is used, so finiteness of the inputs is not.
-/
import proofs.«426185_j11338713661556_1_alg».proof.Defs
import proofs.«426185_j11338713661556_1_alg».proof.Proof.Gen.Kernel
import proofs.«426185_j11338713661556_1_alg».proof.Proof.Gen.Kernel.Frame
import proofs.«426185_j11338713661556_1_alg».proof.Proof.Gen.KernelIdeal
import proofs.«426185_j11338713661556_1_alg».proof.Proof.Gen.KernelIdeal.Frame
import proofs.«426185_j11338713661556_1_alg».proof.Proof.Gen.ReferenceIdeal
import proofs.«426185_j11338713661556_1_alg».proof.Proof.RefRunP
import proofs.«426185_j11338713661556_1_alg».proof.Proof.RefReadP
import proofs.«426185_j11338713661556_1_alg».proof.Proof.Gen.Pre_finite_inputs
import proofs.«426185_j11338713661556_1_alg».proof.Proof.KernelRun
import proofs.«426185_j11338713661556_1_alg».proof.Proof.KernelBase
import proofs.«426185_j11338713661556_1_alg».proof.Proof.KernelStage0
import proofs.«426185_j11338713661556_1_alg».proof.Proof.KernelStage1
import proofs.«426185_j11338713661556_1_alg».proof.Proof.KernelStage2
import proofs.«426185_j11338713661556_1_alg».proof.Proof.Take
import proofs.«426185_j11338713661556_1_alg».proof.Proof.Pipe
import proofs.«426185_j11338713661556_1_alg».proof.Proof.RefChain
import Idealize.ShloMosaic.Adequacy
import Idealize.ShloMosaic.Init

noncomputable section

namespace Cert.Proof

open Idealize.ShloMosaic Idealize.ShloMosaic.TcCoe Idealize.SL.Sem

/-! ## The three frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-! ## The kernel program's result is the pipeline's -/

/-- Under the precondition the kernel program's result buffer ends at the pipeline's result of the launch arrays:
    the index ranges out of the precondition, then the three layers and the last call in turn. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) = fun _ => 1#1) :
    Cert.KernelIdeal.Gen.W20 m ρ c (Proc.devRef .tc Cert.KernelIdeal.main_v87)
      = Cert.Hand.Pipe.result (Cert.Hand.Chain.inputsOf m c) := by
  obtain ⟨hS, hR⟩ := Cert.Hand.Take.inRange_of_pre _ _ _ _ _ _ _ _ _ _ _ _ _ _ _ _ hpre
  have hE1 := Cert.Hand.Stage0.E1_kept m ρ c hS hR
  have hN1 := Cert.Hand.Stage0.N1 m ρ c hS hR
  have hE2 := Cert.Hand.Stage1.E2_kept m ρ c hS hR hN1 hE1
  have hN2 := Cert.Hand.Stage1.N2 m ρ c hS hR hN1 hE1
  exact Cert.Hand.Stage2.result m ρ c hS hR hN2 hE2

/-! ## The two idealized programs end with equal results -/

theorem algebraic : Cert.algebraic_KernelIdeal_ReferenceIdeal := by
  intro m ρ m' ρ' hpre hagree
  refine ⟨fun c => Cert.Hand.Pipe.result (Cert.Hand.Chain.inputsOf m c), ?_, ?_⟩
  · exact (θ_run Cert.KernelIdeal.defs _ _).mono
      (fun r h c => ⟨(h c).1.trans (kernel_value m ρ c (hpre c)), (h c).2⟩)
      (Cert.KernelIdeal.Named.run m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15⟩ := hagree c
    rw [Cert.ReferenceIdeal.ReadP.val_main_v160_eq, h0, h1, h2, h3, h4, h5, h6, h7, h8, h9, h10, h11, h12, h13, h14, h15]
    exact Cert.Hand.RefChain.result_eq (Cert.Hand.Chain.inputsOf m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
